-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S512x2048 : Shape := ⟨2, ![512, 2048]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S512x512 .f32) (main_arg1 : FVec F S512x2048 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Pre_finite_inputs_ReferenceIdeal.lean ====
abbrev S1024x512 : Shape := ⟨2, ![1024, 512]⟩
abbrev S1024x2048 : Shape := ⟨2, ![1024, 2048]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S1024x512 .f32) (main_arg1 : FVec F S1024x2048 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S512x512 : Shape := ⟨2, ![512, 512]⟩
abbrev S512x2048 : Shape := ⟨2, ![512, 2048]⟩
abbrev S256x2048 : Shape := ⟨2, ![256, 2048]⟩
abbrev S8x128x256 : Shape := ⟨3, ![8, 128, 256]⟩
abbrev S8 : Shape := ⟨1, ![8]⟩
abbrev S_ : Shape := ⟨0, ![]⟩
abbrev S512x128 : Shape := ⟨2, ![512, 128]⟩
abbrev S512x256 : Shape := ⟨2, ![512, 256]⟩
abbrev S128x256 : Shape := ⟨2, ![128, 256]⟩
abbrev S1x128x256 : Shape := ⟨3, ![1, 128, 256]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .bf16⟩
  | .local _ .vmem, ⟨0, _⟩ => ⟨S512x512, .f32⟩
  | .local _ .vmem, ⟨1, _⟩ => ⟨S512x2048, .f32⟩
  | .local _ .vmem, ⟨2, _⟩ => ⟨S256x2048, .bf16⟩
  | .local _ .vmem, ⟨3, _⟩ => ⟨S512x2048, .bf16⟩
  | .local _ .vmem, ⟨4, _⟩ => ⟨S256x2048, .f32⟩
  | .local _ .vmem, ⟨5, _⟩ => ⟨S8x128x256, .bf16⟩
  | .local _ .vmem, ⟨6, _⟩ => ⟨S8x128x256, .bf16⟩
  | .local _ .vmem, ⟨7, _⟩ => ⟨S8x128x256, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let c0 : Index := 0#32
  let c1_i32_11 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v17 : BitVec 32 := Scalar.subi c1_i32_11 v2
  let c256_i32 : BitVec 32 := 256#32
  let v18 : BitVec 32 := Scalar.muli v17 c256_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32 : BitVec 32 := 128#32
  let v19 : BitVec 32 := Scalar.muli v5 c128_i32
  let v20 : BitVec 32 := Scalar.addi v18 v19
  let v21 : Index := Scalar.indexCast v20
  ![0, v21.toNat]
def k0_dev3 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v37 : BitVec 32 := Scalar.muli v6 c2_i32_26
  let v38 : BitVec 32 := Scalar.addi c0_i32_27 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v39 : BitVec 32 := Scalar.muli v5 c1_i32_28
  let v40 : BitVec 32 := Scalar.addi v38 v39
  v40.toNat
def k0_dev4 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v61 : BitVec 32 := Scalar.muli v6 c2_i32_45
  let v62 : BitVec 32 := Scalar.addi c0_i32_46 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v63 : BitVec 32 := Scalar.muli v5 c1_i32_47
  let v64 : BitVec 32 := Scalar.addi v62 v63
  v64.toNat
def k0_dev5 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v85 : BitVec 32 := Scalar.muli v6 c2_i32_64
  let v86 : BitVec 32 := Scalar.addi c0_i32_65 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v87 : BitVec 32 := Scalar.muli v5 c1_i32_66
  let v88 : BitVec 32 := Scalar.addi v86 v87
  v88.toNat
def k0_dev6 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v109 : BitVec 32 := Scalar.muli v6 c2_i32_82
  let v110 : BitVec 32 := Scalar.addi c0_i32_83 v109
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v111 : BitVec 32 := Scalar.muli v5 c1_i32_84
  let v112 : BitVec 32 := Scalar.addi v110 v111
  v112.toNat
def k0_dev7 (d0 : Dev nD) : Nat :=
  let c0_i32_101 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_100 : BitVec 32 := 2#32
  let v133 : BitVec 32 := Scalar.muli v6 c2_i32_100
  let v134 : BitVec 32 := Scalar.addi c0_i32_101 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v135 : BitVec 32 := Scalar.muli v5 c1_i32_102
  let v136 : BitVec 32 := Scalar.addi v134 v135
  v136.toNat
def k0_dev8 (d0 : Dev nD) : Nat :=
  let c0_i32_119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_118 : BitVec 32 := 2#32
  let v157 : BitVec 32 := Scalar.muli v6 c2_i32_118
  let v158 : BitVec 32 := Scalar.addi c0_i32_119 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v159 : BitVec 32 := Scalar.muli v5 c1_i32_120
  let v160 : BitVec 32 := Scalar.addi v158 v159
  v160.toNat
def k0_dev9 (d0 : Dev nD) : Nat :=
  let c0_i32_137 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_136 : BitVec 32 := 2#32
  let v181 : BitVec 32 := Scalar.muli v6 c2_i32_136
  let v182 : BitVec 32 := Scalar.addi c0_i32_137 v181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_138 : BitVec 32 := 1#32
  let v183 : BitVec 32 := Scalar.muli v5 c1_i32_138
  let v184 : BitVec 32 := Scalar.addi v182 v183
  v184.toNat
def k0_dev10 (d0 : Dev nD) : Nat :=
  let c0_i32_155 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_154 : BitVec 32 := 2#32
  let v205 : BitVec 32 := Scalar.muli v6 c2_i32_154
  let v206 : BitVec 32 := Scalar.addi c0_i32_155 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_156 : BitVec 32 := 1#32
  let v207 : BitVec 32 := Scalar.muli v5 c1_i32_156
  let v208 : BitVec 32 := Scalar.addi v206 v207
  v208.toNat
def k0_off2 (d0 : Dev nD) : Fin 2 → Nat :=
  let c0_162 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_161 : BitVec 32 := 256#32
  let v217 : BitVec 32 := Scalar.muli v2 c256_i32_161
  let v218 : Index := Scalar.indexCast v217
  ![0, v218.toNat]
def k0_dev11 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v240 : BitVec 32 := Scalar.muli v2 c2_i32_186
  let v241 : BitVec 32 := Scalar.addi c0_i32_187 v240
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_188 : BitVec 32 := 1#32
  let v242 : BitVec 32 := Scalar.muli v7 c1_i32_188
  let v243 : BitVec 32 := Scalar.addi v241 v242
  v243.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_168 : BitVec 32 := 128#32
  let v227 : BitVec 32 := Scalar.muli v5 c128_i32_168
  let v252 : Index := Scalar.indexCast v227
  let c0_193 : Index := 0#32
  ![v252.toNat, 0]
def k0_dev12 (d0 : Dev nD) : Nat :=
  let c0_i32_214 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_213 : BitVec 32 := 2#32
  let v271 : BitVec 32 := Scalar.muli v2 c2_i32_213
  let v272 : BitVec 32 := Scalar.addi c0_i32_214 v271
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_215 : BitVec 32 := 1#32
  let v273 : BitVec 32 := Scalar.muli v7 c1_i32_215
  let v274 : BitVec 32 := Scalar.addi v272 v273
  v274.toNat
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_168 : BitVec 32 := 128#32
  let v227 : BitVec 32 := Scalar.muli v5 c128_i32_168
  let v283 : Index := Scalar.indexCast v227
  let c256_220 : Index := 256#32
  ![v283.toNat, 256]
def k0_dev13 (d0 : Dev nD) : Nat :=
  let c0_i32_241 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_240 : BitVec 32 := 2#32
  let v302 : BitVec 32 := Scalar.muli v2 c2_i32_240
  let v303 : BitVec 32 := Scalar.addi c0_i32_241 v302
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_242 : BitVec 32 := 1#32
  let v304 : BitVec 32 := Scalar.muli v7 c1_i32_242
  let v305 : BitVec 32 := Scalar.addi v303 v304
  v305.toNat
def k0_off5 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_168 : BitVec 32 := 128#32
  let v227 : BitVec 32 := Scalar.muli v5 c128_i32_168
  let v314 : Index := Scalar.indexCast v227
  let c512_247 : Index := 512#32
  ![v314.toNat, 512]
def k0_dev14 (d0 : Dev nD) : Nat :=
  let c0_i32_268 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_267 : BitVec 32 := 2#32
  let v333 : BitVec 32 := Scalar.muli v2 c2_i32_267
  let v334 : BitVec 32 := Scalar.addi c0_i32_268 v333
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_269 : BitVec 32 := 1#32
  let v335 : BitVec 32 := Scalar.muli v7 c1_i32_269
  let v336 : BitVec 32 := Scalar.addi v334 v335
  v336.toNat
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_168 : BitVec 32 := 128#32
  let v227 : BitVec 32 := Scalar.muli v5 c128_i32_168
  let v345 : Index := Scalar.indexCast v227
  let c768_274 : Index := 768#32
  ![v345.toNat, 768]
def k0_dev15 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v364 : BitVec 32 := Scalar.muli v2 c2_i32_294
  let v365 : BitVec 32 := Scalar.addi c0_i32_295 v364
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_296 : BitVec 32 := 1#32
  let v366 : BitVec 32 := Scalar.muli v7 c1_i32_296
  let v367 : BitVec 32 := Scalar.addi v365 v366
  v367.toNat
def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_168 : BitVec 32 := 128#32
  let v227 : BitVec 32 := Scalar.muli v5 c128_i32_168
  let v376 : Index := Scalar.indexCast v227
  let c1024_301 : Index := 1024#32
  ![v376.toNat, 1024]
def k0_dev16 (d0 : Dev nD) : Nat :=
  let c0_i32_322 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_321 : BitVec 32 := 2#32
  let v395 : BitVec 32 := Scalar.muli v2 c2_i32_321
  let v396 : BitVec 32 := Scalar.addi c0_i32_322 v395
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_323 : BitVec 32 := 1#32
  let v397 : BitVec 32 := Scalar.muli v7 c1_i32_323
  let v398 : BitVec 32 := Scalar.addi v396 v397
  v398.toNat
def k0_off8 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_168 : BitVec 32 := 128#32
  let v227 : BitVec 32 := Scalar.muli v5 c128_i32_168
  let v407 : Index := Scalar.indexCast v227
  let c1280_328 : Index := 1280#32
  ![v407.toNat, 1280]
def k0_dev17 (d0 : Dev nD) : Nat :=
  let c0_i32_349 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_348 : BitVec 32 := 2#32
  let v426 : BitVec 32 := Scalar.muli v2 c2_i32_348
  let v427 : BitVec 32 := Scalar.addi c0_i32_349 v426
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_350 : BitVec 32 := 1#32
  let v428 : BitVec 32 := Scalar.muli v7 c1_i32_350
  let v429 : BitVec 32 := Scalar.addi v427 v428
  v429.toNat
def k0_off9 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_168 : BitVec 32 := 128#32
  let v227 : BitVec 32 := Scalar.muli v5 c128_i32_168
  let v438 : Index := Scalar.indexCast v227
  let c1536_355 : Index := 1536#32
  ![v438.toNat, 1536]
def k0_dev18 (d0 : Dev nD) : Nat :=
  let c0_i32_376 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_375 : BitVec 32 := 2#32
  let v457 : BitVec 32 := Scalar.muli v2 c2_i32_375
  let v458 : BitVec 32 := Scalar.addi c0_i32_376 v457
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_377 : BitVec 32 := 1#32
  let v459 : BitVec 32 := Scalar.muli v7 c1_i32_377
  let v460 : BitVec 32 := Scalar.addi v458 v459
  v460.toNat
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c128_i32_168 : BitVec 32 := 128#32
  let v227 : BitVec 32 := Scalar.muli v5 c128_i32_168
  let v469 : Index := Scalar.indexCast v227
  let c1792_382 : Index := 1792#32
  ![v469.toNat, 1792]
def k0_off11 (d0 : Dev nD) : Fin 2 → Nat :=
  let c1_i32_169 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v228 : BitVec 32 := Scalar.subi c1_i32_169 v5
  let c128_i32_170 : BitVec 32 := 128#32
  let v229 : BitVec 32 := Scalar.muli v228 c128_i32_170
  let v488 : Index := Scalar.indexCast v229
  let c0_398 : Index := 0#32
  ![v488.toNat, 0]
def k0_off12 (d0 : Dev nD) : Fin 2 → Nat :=
  let c1_i32_169 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v228 : BitVec 32 := Scalar.subi c1_i32_169 v5
  let c128_i32_170 : BitVec 32 := 128#32
  let v229 : BitVec 32 := Scalar.muli v228 c128_i32_170
  let v507 : Index := Scalar.indexCast v229
  let c256_414 : Index := 256#32
  ![v507.toNat, 256]
def k0_off13 (d0 : Dev nD) : Fin 2 → Nat :=
  let c1_i32_169 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v228 : BitVec 32 := Scalar.subi c1_i32_169 v5
  let c128_i32_170 : BitVec 32 := 128#32
  let v229 : BitVec 32 := Scalar.muli v228 c128_i32_170
  let v526 : Index := Scalar.indexCast v229
  let c512_430 : Index := 512#32
  ![v526.toNat, 512]
def k0_off14 (d0 : Dev nD) : Fin 2 → Nat :=
  let c1_i32_169 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v228 : BitVec 32 := Scalar.subi c1_i32_169 v5
  let c128_i32_170 : BitVec 32 := 128#32
  let v229 : BitVec 32 := Scalar.muli v228 c128_i32_170
  let v545 : Index := Scalar.indexCast v229
  let c768_446 : Index := 768#32
  ![v545.toNat, 768]
def k0_off15 (d0 : Dev nD) : Fin 2 → Nat :=
  let c1_i32_169 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v228 : BitVec 32 := Scalar.subi c1_i32_169 v5
  let c128_i32_170 : BitVec 32 := 128#32
  let v229 : BitVec 32 := Scalar.muli v228 c128_i32_170
  let v564 : Index := Scalar.indexCast v229
  let c1024_462 : Index := 1024#32
  ![v564.toNat, 1024]
def k0_off16 (d0 : Dev nD) : Fin 2 → Nat :=
  let c1_i32_169 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v228 : BitVec 32 := Scalar.subi c1_i32_169 v5
  let c128_i32_170 : BitVec 32 := 128#32
  let v229 : BitVec 32 := Scalar.muli v228 c128_i32_170
  let v583 : Index := Scalar.indexCast v229
  let c1280_478 : Index := 1280#32
  ![v583.toNat, 1280]
def k0_off17 (d0 : Dev nD) : Fin 2 → Nat :=
  let c1_i32_169 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v228 : BitVec 32 := Scalar.subi c1_i32_169 v5
  let c128_i32_170 : BitVec 32 := 128#32
  let v229 : BitVec 32 := Scalar.muli v228 c128_i32_170
  let v602 : Index := Scalar.indexCast v229
  let c1536_494 : Index := 1536#32
  ![v602.toNat, 1536]
def k0_off18 (d0 : Dev nD) : Fin 2 → Nat :=
  let c1_i32_169 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v228 : BitVec 32 := Scalar.subi c1_i32_169 v5
  let c128_i32_170 : BitVec 32 := 128#32
  let v229 : BitVec 32 := Scalar.muli v228 c128_i32_170
  let v621 : Index := Scalar.indexCast v229
  let c1792_510 : Index := 1792#32
  ![v621.toNat, 1792]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  h_S512x128 : 0 < S512x128.numel
  shapeCasts_S512x128_S512x128 : S512x128.ShapeCasts S512x128
  bitsLt_bf16_f32 : FTy.bits .bf16 < FTy.bits .f32
  inb_S512x2048_S512x256_0_0 : ∀ a, (![0, 0] : Fin 2 → Nat) a + S512x256.size a ≤ S512x2048.size a
  h_S512x256 : 0 < S512x256.numel
  shapeCasts_S512x256_S512x256 : S512x256.ShapeCasts S512x256
  packedbf16_S512x2048_S512x256_0_0 : (Rect.unit (s := S512x2048) ![0, 0] S512x256.size inb_S512x2048_S512x256_0_0).PackedRows (EltTy.packing .bf16)
  inb_S8x128x256_S1x128x256_0_0_0 : ∀ a, (![0, 0, 0] : Fin 3 → Nat) a + S1x128x256.size a ≤ S8x128x256.size a
  h_S1x128x256 : 0 < S1x128x256.numel
  shapeCasts_S1x128x256_S128x256 : S1x128x256.ShapeCasts S128x256
  shapeCasts_S128x256_S1x128x256 : S128x256.ShapeCasts S1x128x256
  packedbf16_S8x128x256_S1x128x256_0_0_0 : (Rect.unit (s := S8x128x256) ![0, 0, 0] S1x128x256.size inb_S8x128x256_S1x128x256_0_0_0).PackedRows (EltTy.packing .bf16)
  hamt_2 : (2#32 : BitVec 32).msb = false
  inb_S8_S1_0 : ∀ a, (![0] : Fin 1 → Nat) a + S1.size a ≤ S8.size a
  squeezes_S1_S_ : S1.Squeezes S_
  squeezes_S1x128x256_S128x256 : S1x128x256.Squeezes S128x256
  wordsbf16_S8x128x256_S1x128x256_0_0_0 : (Rect.unit (s := S8x128x256) ![0, 0, 0] S1x128x256.size inb_S8x128x256_S1x128x256_0_0_0).WholeWords (EltTy.packing .bf16)
  inb_S512x2048_S512x256_0_256 : ∀ a, (![0, 256] : Fin 2 → Nat) a + S512x256.size a ≤ S512x2048.size a
  packedbf16_S512x2048_S512x256_0_256 : (Rect.unit (s := S512x2048) ![0, 256] S512x256.size inb_S512x2048_S512x256_0_256).PackedRows (EltTy.packing .bf16)
  inb_S8x128x256_S1x128x256_1_0_0 : ∀ a, (![1, 0, 0] : Fin 3 → Nat) a + S1x128x256.size a ≤ S8x128x256.size a
  packedbf16_S8x128x256_S1x128x256_1_0_0 : (Rect.unit (s := S8x128x256) ![1, 0, 0] S1x128x256.size inb_S8x128x256_S1x128x256_1_0_0).PackedRows (EltTy.packing .bf16)
  inb_S8_S1_1 : ∀ a, (![1] : Fin 1 → Nat) a + S1.size a ≤ S8.size a
  wordsbf16_S8x128x256_S1x128x256_1_0_0 : (Rect.unit (s := S8x128x256) ![1, 0, 0] S1x128x256.size inb_S8x128x256_S1x128x256_1_0_0).WholeWords (EltTy.packing .bf16)
  inb_S512x2048_S512x256_0_512 : ∀ a, (![0, 512] : Fin 2 → Nat) a + S512x256.size a ≤ S512x2048.size a
  packedbf16_S512x2048_S512x256_0_512 : (Rect.unit (s := S512x2048) ![0, 512] S512x256.size inb_S512x2048_S512x256_0_512).PackedRows (EltTy.packing .bf16)
  inb_S8x128x256_S1x128x256_2_0_0 : ∀ a, (![2, 0, 0] : Fin 3 → Nat) a + S1x128x256.size a ≤ S8x128x256.size a
  packedbf16_S8x128x256_S1x128x256_2_0_0 : (Rect.unit (s := S8x128x256) ![2, 0, 0] S1x128x256.size inb_S8x128x256_S1x128x256_2_0_0).PackedRows (EltTy.packing .bf16)
  inb_S8_S1_2 : ∀ a, (![2] : Fin 1 → Nat) a + S1.size a ≤ S8.size a
  wordsbf16_S8x128x256_S1x128x256_2_0_0 : (Rect.unit (s := S8x128x256) ![2, 0, 0] S1x128x256.size inb_S8x128x256_S1x128x256_2_0_0).WholeWords (EltTy.packing .bf16)
  inb_S512x2048_S512x256_0_768 : ∀ a, (![0, 768] : Fin 2 → Nat) a + S512x256.size a ≤ S512x2048.size a
  packedbf16_S512x2048_S512x256_0_768 : (Rect.unit (s := S512x2048) ![0, 768] S512x256.size inb_S512x2048_S512x256_0_768).PackedRows (EltTy.packing .bf16)
  inb_S8x128x256_S1x128x256_3_0_0 : ∀ a, (![3, 0, 0] : Fin 3 → Nat) a + S1x128x256.size a ≤ S8x128x256.size a
  packedbf16_S8x128x256_S1x128x256_3_0_0 : (Rect.unit (s := S8x128x256) ![3, 0, 0] S1x128x256.size inb_S8x128x256_S1x128x256_3_0_0).PackedRows (EltTy.packing .bf16)
  inb_S8_S1_3 : ∀ a, (![3] : Fin 1 → Nat) a + S1.size a ≤ S8.size a
  wordsbf16_S8x128x256_S1x128x256_3_0_0 : (Rect.unit (s := S8x128x256) ![3, 0, 0] S1x128x256.size inb_S8x128x256_S1x128x256_3_0_0).WholeWords (EltTy.packing .bf16)
  inb_S512x2048_S512x256_0_1024 : ∀ a, (![0, 1024] : Fin 2 → Nat) a + S512x256.size a ≤ S512x2048.size a
  packedbf16_S512x2048_S512x256_0_1024 : (Rect.unit (s := S512x2048) ![0, 1024] S512x256.size inb_S512x2048_S512x256_0_1024).PackedRows (EltTy.packing .bf16)
  inb_S8x128x256_S1x128x256_4_0_0 : ∀ a, (![4, 0, 0] : Fin 3 → Nat) a + S1x128x256.size a ≤ S8x128x256.size a
  packedbf16_S8x128x256_S1x128x256_4_0_0 : (Rect.unit (s := S8x128x256) ![4, 0, 0] S1x128x256.size inb_S8x128x256_S1x128x256_4_0_0).PackedRows (EltTy.packing .bf16)
  inb_S8_S1_4 : ∀ a, (![4] : Fin 1 → Nat) a + S1.size a ≤ S8.size a
  wordsbf16_S8x128x256_S1x128x256_4_0_0 : (Rect.unit (s := S8x128x256) ![4, 0, 0] S1x128x256.size inb_S8x128x256_S1x128x256_4_0_0).WholeWords (EltTy.packing .bf16)
  inb_S512x2048_S512x256_0_1280 : ∀ a, (![0, 1280] : Fin 2 → Nat) a + S512x256.size a ≤ S512x2048.size a
  packedbf16_S512x2048_S512x256_0_1280 : (Rect.unit (s := S512x2048) ![0, 1280] S512x256.size inb_S512x2048_S512x256_0_1280).PackedRows (EltTy.packing .bf16)
  inb_S8x128x256_S1x128x256_5_0_0 : ∀ a, (![5, 0, 0] : Fin 3 → Nat) a + S1x128x256.size a ≤ S8x128x256.size a
  packedbf16_S8x128x256_S1x128x256_5_0_0 : (Rect.unit (s := S8x128x256) ![5, 0, 0] S1x128x256.size inb_S8x128x256_S1x128x256_5_0_0).PackedRows (EltTy.packing .bf16)
  inb_S8_S1_5 : ∀ a, (![5] : Fin 1 → Nat) a + S1.size a ≤ S8.size a
  wordsbf16_S8x128x256_S1x128x256_5_0_0 : (Rect.unit (s := S8x128x256) ![5, 0, 0] S1x128x256.size inb_S8x128x256_S1x128x256_5_0_0).WholeWords (EltTy.packing .bf16)
  inb_S512x2048_S512x256_0_1536 : ∀ a, (![0, 1536] : Fin 2 → Nat) a + S512x256.size a ≤ S512x2048.size a
  packedbf16_S512x2048_S512x256_0_1536 : (Rect.unit (s := S512x2048) ![0, 1536] S512x256.size inb_S512x2048_S512x256_0_1536).PackedRows (EltTy.packing .bf16)
  inb_S8x128x256_S1x128x256_6_0_0 : ∀ a, (![6, 0, 0] : Fin 3 → Nat) a + S1x128x256.size a ≤ S8x128x256.size a
  packedbf16_S8x128x256_S1x128x256_6_0_0 : (Rect.unit (s := S8x128x256) ![6, 0, 0] S1x128x256.size inb_S8x128x256_S1x128x256_6_0_0).PackedRows (EltTy.packing .bf16)
  inb_S8_S1_6 : ∀ a, (![6] : Fin 1 → Nat) a + S1.size a ≤ S8.size a
  wordsbf16_S8x128x256_S1x128x256_6_0_0 : (Rect.unit (s := S8x128x256) ![6, 0, 0] S1x128x256.size inb_S8x128x256_S1x128x256_6_0_0).WholeWords (EltTy.packing .bf16)
  inb_S512x2048_S512x256_0_1792 : ∀ a, (![0, 1792] : Fin 2 → Nat) a + S512x256.size a ≤ S512x2048.size a
  packedbf16_S512x2048_S512x256_0_1792 : (Rect.unit (s := S512x2048) ![0, 1792] S512x256.size inb_S512x2048_S512x256_0_1792).PackedRows (EltTy.packing .bf16)
  inb_S8x128x256_S1x128x256_7_0_0 : ∀ a, (![7, 0, 0] : Fin 3 → Nat) a + S1x128x256.size a ≤ S8x128x256.size a
  packedbf16_S8x128x256_S1x128x256_7_0_0 : (Rect.unit (s := S8x128x256) ![7, 0, 0] S1x128x256.size inb_S8x128x256_S1x128x256_7_0_0).PackedRows (EltTy.packing .bf16)
  inb_S8_S1_7 : ∀ a, (![7] : Fin 1 → Nat) a + S1.size a ≤ S8.size a
  wordsbf16_S8x128x256_S1x128x256_7_0_0 : (Rect.unit (s := S8x128x256) ![7, 0, 0] S1x128x256.size inb_S8x128x256_S1x128x256_7_0_0).WholeWords (EltTy.packing .bf16)
  inb_S512x2048_S512x2048_0_0 : ∀ a, (![0, 0] : Fin 2 → Nat) a + S512x2048.size a ≤ S512x2048.size a
  h_S512x2048 : 0 < S512x2048.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S128x256 : 0 < S128x256.numel
  dot_S512x128_S512x256_S128x256_0_0_1_1_n_n_wf : DotDims.WF S512x128 S512x256 S128x256 [0] [0] [1] [1] [] []
  dot_S512x256_S512x2048_S256x2048_0_0_1_1_n_n_wf : DotDims.WF S512x256 S512x2048 S256x2048 [0] [0] [1] [1] [] []
  hcc0_scratch5 : 3 + S8.numel ≤ 35
  hcc0_scratch6 : 11 + S8.numel ≤ 35
  hcc0_scratch7 : 19 + S8.numel ≤ 35
  hcc0_scratch8 : 27 + S8.numel ≤ 35
  k0_dev1_lt : ∀ d0 : Dev nD, (k0_dev1 d0) < nD
  k0_dev2_lt : ∀ d0 : Dev nD, (k0_dev2 d0) < nD
  k0_off1_inb : ∀ d0 : Dev nD, ∀ a, (k0_off1 d0) a + S512x128.size a ≤ S512x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off2_inb : ∀ d0 : Dev nD, ∀ a, (k0_off2 d0) a + S512x256.size a ≤ S512x512.size a
  k0_dev11_lt : ∀ d0 : Dev nD, (k0_dev11 d0) < nD
  k0_off3_inb : ∀ d0 : Dev nD, ∀ a, (k0_off3 d0) a + S128x256.size a ≤ S256x2048.size a
  k0_off3_packedbf16 : ∀ d0 : Dev nD, (Rect.unit (s := S256x2048) (k0_off3 d0) S128x256.size (k0_off3_inb d0)).PackedRows (EltTy.packing .bf16)
  k0_dev12_lt : ∀ d0 : Dev nD, (k0_dev12 d0) < nD
  k0_off4_inb : ∀ d0 : Dev nD, ∀ a, (k0_off4 d0) a + S128x256.size a ≤ S256x2048.size a
  k0_off4_packedbf16 : ∀ d0 : Dev nD, (Rect.unit (s := S256x2048) (k0_off4 d0) S128x256.size (k0_off4_inb d0)).PackedRows (EltTy.packing .bf16)
  k0_dev13_lt : ∀ d0 : Dev nD, (k0_dev13 d0) < nD
  k0_off5_inb : ∀ d0 : Dev nD, ∀ a, (k0_off5 d0) a + S128x256.size a ≤ S256x2048.size a
  k0_off5_packedbf16 : ∀ d0 : Dev nD, (Rect.unit (s := S256x2048) (k0_off5 d0) S128x256.size (k0_off5_inb d0)).PackedRows (EltTy.packing .bf16)
  k0_dev14_lt : ∀ d0 : Dev nD, (k0_dev14 d0) < nD
  k0_off6_inb : ∀ d0 : Dev nD, ∀ a, (k0_off6 d0) a + S128x256.size a ≤ S256x2048.size a
  k0_off6_packedbf16 : ∀ d0 : Dev nD, (Rect.unit (s := S256x2048) (k0_off6 d0) S128x256.size (k0_off6_inb d0)).PackedRows (EltTy.packing .bf16)
  k0_dev15_lt : ∀ d0 : Dev nD, (k0_dev15 d0) < nD
  k0_off7_inb : ∀ d0 : Dev nD, ∀ a, (k0_off7 d0) a + S128x256.size a ≤ S256x2048.size a
  k0_off7_packedbf16 : ∀ d0 : Dev nD, (Rect.unit (s := S256x2048) (k0_off7 d0) S128x256.size (k0_off7_inb d0)).PackedRows (EltTy.packing .bf16)
  k0_dev16_lt : ∀ d0 : Dev nD, (k0_dev16 d0) < nD
  k0_off8_inb : ∀ d0 : Dev nD, ∀ a, (k0_off8 d0) a + S128x256.size a ≤ S256x2048.size a
  k0_off8_packedbf16 : ∀ d0 : Dev nD, (Rect.unit (s := S256x2048) (k0_off8 d0) S128x256.size (k0_off8_inb d0)).PackedRows (EltTy.packing .bf16)
  k0_dev17_lt : ∀ d0 : Dev nD, (k0_dev17 d0) < nD
  k0_off9_inb : ∀ d0 : Dev nD, ∀ a, (k0_off9 d0) a + S128x256.size a ≤ S256x2048.size a
  k0_off9_packedbf16 : ∀ d0 : Dev nD, (Rect.unit (s := S256x2048) (k0_off9 d0) S128x256.size (k0_off9_inb d0)).PackedRows (EltTy.packing .bf16)
  k0_dev18_lt : ∀ d0 : Dev nD, (k0_dev18 d0) < nD
  k0_off10_inb : ∀ d0 : Dev nD, ∀ a, (k0_off10 d0) a + S128x256.size a ≤ S256x2048.size a
  k0_off10_packedbf16 : ∀ d0 : Dev nD, (Rect.unit (s := S256x2048) (k0_off10 d0) S128x256.size (k0_off10_inb d0)).PackedRows (EltTy.packing .bf16)
  k0_off11_inb : ∀ d0 : Dev nD, ∀ a, (k0_off11 d0) a + S128x256.size a ≤ S256x2048.size a
  k0_off11_packedbf16 : ∀ d0 : Dev nD, (Rect.unit (s := S256x2048) (k0_off11 d0) S128x256.size (k0_off11_inb d0)).PackedRows (EltTy.packing .bf16)
  k0_off12_inb : ∀ d0 : Dev nD, ∀ a, (k0_off12 d0) a + S128x256.size a ≤ S256x2048.size a
  k0_off12_packedbf16 : ∀ d0 : Dev nD, (Rect.unit (s := S256x2048) (k0_off12 d0) S128x256.size (k0_off12_inb d0)).PackedRows (EltTy.packing .bf16)
  k0_off13_inb : ∀ d0 : Dev nD, ∀ a, (k0_off13 d0) a + S128x256.size a ≤ S256x2048.size a
  k0_off13_packedbf16 : ∀ d0 : Dev nD, (Rect.unit (s := S256x2048) (k0_off13 d0) S128x256.size (k0_off13_inb d0)).PackedRows (EltTy.packing .bf16)
  k0_off14_inb : ∀ d0 : Dev nD, ∀ a, (k0_off14 d0) a + S128x256.size a ≤ S256x2048.size a
  k0_off14_packedbf16 : ∀ d0 : Dev nD, (Rect.unit (s := S256x2048) (k0_off14 d0) S128x256.size (k0_off14_inb d0)).PackedRows (EltTy.packing .bf16)
  k0_off15_inb : ∀ d0 : Dev nD, ∀ a, (k0_off15 d0) a + S128x256.size a ≤ S256x2048.size a
  k0_off15_packedbf16 : ∀ d0 : Dev nD, (Rect.unit (s := S256x2048) (k0_off15 d0) S128x256.size (k0_off15_inb d0)).PackedRows (EltTy.packing .bf16)
  k0_off16_inb : ∀ d0 : Dev nD, ∀ a, (k0_off16 d0) a + S128x256.size a ≤ S256x2048.size a
  k0_off16_packedbf16 : ∀ d0 : Dev nD, (Rect.unit (s := S256x2048) (k0_off16 d0) S128x256.size (k0_off16_inb d0)).PackedRows (EltTy.packing .bf16)
  k0_off17_inb : ∀ d0 : Dev nD, ∀ a, (k0_off17 d0) a + S128x256.size a ≤ S256x2048.size a
  k0_off17_packedbf16 : ∀ d0 : Dev nD, (Rect.unit (s := S256x2048) (k0_off17 d0) S128x256.size (k0_off17_inb d0)).PackedRows (EltTy.packing .bf16)
  k0_off18_inb : ∀ d0 : Dev nD, ∀ a, (k0_off18 d0) a + S128x256.size a ≤ S256x2048.size a
  k0_off18_packedbf16 : ∀ d0 : Dev nD, (Rect.unit (s := S256x2048) (k0_off18 d0) S128x256.size (k0_off18_inb d0)).PackedRows (EltTy.packing .bf16)
  hstage0_0 : ∀ j, (stage0_0 j).IsWhole
  hstage0_1 : ∀ j, (stage0_1 j).IsWhole
  hstage0_2 : ∀ j, (stage0_2 j).IsWhole

variable [Facts₀]

abbrev cc0_scratch5 : DmaSems sig S8 := SemArray.consecutive 3 S8 hcc0_scratch5
abbrev cc0_scratch6 : DmaSems sig S8 := SemArray.consecutive 11 S8 hcc0_scratch6
abbrev cc0_scratch7 : DmaSems sig S8 := SemArray.consecutive 19 S8 hcc0_scratch7
abbrev cc0_scratch8 : DmaSems sig S8 := SemArray.consecutive 27 S8 hcc0_scratch8
def dot_S512x128_S512x256_S128x256_0_0_1_1_n_n : DotDims S512x128 S512x256 S128x256 where
  lhsContracting := [0]
  rhsContracting := [0]
  lhsNonContracting := [1]
  rhsNonContracting := [1]
  lhsBatch := []
  rhsBatch := []
  wf := dot_S512x128_S512x256_S128x256_0_0_1_1_n_n_wf
def dot_S512x256_S512x2048_S256x2048_0_0_1_1_n_n : DotDims S512x256 S512x2048 S256x2048 where
  lhsContracting := [0]
  rhsContracting := [0]
  lhsNonContracting := [1]
  rhsNonContracting := [1]
  lhsBatch := []
  rhsBatch := []
  wf := dot_S512x256_S512x2048_S256x2048_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | .hbm, ⟨4, _⟩ => ⟨S512x2048, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  transposes_S1024x512_S512x1024_1_0 : S1024x512.Transposes [1, 0] S512x1024
  bitsLt_bf16_f32 : FTy.bits .bf16 < FTy.bits .f32
  dot_S512x1024_S1024x2048_S512x2048_1_0_0_1_n_n_wf : DotDims.WF S512x1024 S1024x2048 S512x2048 [1] [0] [0] [1] [] []

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

class Facts : Prop extends Facts₀ where

variable [Facts]
-- ==== Proof.Cells.lean ====
/-
  The mesh, the cells and the slots of the chunked reduce-scatter.

  Four devices on a 2×2 mesh, device `c` at row `c / 2` (the axis the operands are cut along) and column `c % 2`.
  Each device multiplies its 512 rows of `x` (transposed) with its 512 rows of `dy`; the 512×2048 product over all
  1024 rows is the sum of the two row-halves' products. Device `c` keeps the 256 result rows of its own mesh row: the
  half of them in its own column block it completes with the partial product its row-neighbour `xn c` sends (stage 1),
  the other half with the partial product its column-neighbour `yn c` forwards from ITS row-neighbour (stage 2).
  Every transfer is cut in eight column chunks of 256, one pair of DMA semaphores a chunk and stage.
-/
import proofs.«900592_g7700000000000593_dist_rsdw_v7x_xy2x2_x_m512_d512_f2048_bf16_1_alg».proof.Defs
import proofs.«900592_g7700000000000593_dist_rsdw_v7x_xy2x2_x_m512_d512_f2048_bf16_1_alg».proof.Proof.Gen.KernelIdeal
import proofs.«900592_g7700000000000593_dist_rsdw_v7x_xy2x2_x_m512_d512_f2048_bf16_1_alg».proof.Proof.Gen.KernelIdeal.Skeleton
import proofs.«900592_g7700000000000593_dist_rsdw_v7x_xy2x2_x_m512_d512_f2048_bf16_1_alg».proof.Proof.Gen.KernelIdeal.Launch
import proofs.«900592_g7700000000000593_dist_rsdw_v7x_xy2x2_x_m512_d512_f2048_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Bool`) -/

abbrev UB : Type := URounds (GSem nD τ sig) Bool
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## The mesh: the row-neighbour and the column-neighbour -/

/-- The device in the other mesh row, same column. -/
def xn (c : Dev nD) : Dev nD := ![2, 3, 0, 1] c
/-- The device in the other mesh column, same row. -/
def yn (c : Dev nD) : Dev nD := ![1, 0, 3, 2] c

theorem xn_xn (c : Dev nD) : xn (xn c) = c := by revert c; decide
theorem yn_yn (c : Dev nD) : yn (yn c) = c := by revert c; decide
theorem xn_ne (c : Dev nD) : xn c ≠ c := by revert c; decide
theorem yn_ne (c : Dev nD) : yn c ≠ c := by revert c; decide
theorem xn_ne_yn (c : Dev nD) : xn c ≠ yn c := by revert c; decide
theorem xn_yn (c : Dev nD) : xn (yn c) = yn (xn c) := by revert c; decide

def xnE : Dev nD ≃ Dev nD := ⟨xn, xn, xn_xn, xn_xn⟩
def ynE : Dev nD ≃ Dev nD := ⟨yn, yn, yn_yn, yn_yn⟩

/-- The kernel's device chains: the first barrier signal and the eight stage-1 transfers name `xn c`, the second
    signal and the eight stage-2 transfers `yn c`. -/
theorem dev1_eq (c : Dev nD) : (⟨k0_dev1 c, k0_dev1_lt c⟩ : Dev nD) = xn c := by revert c; decide +kernel
theorem dev2_eq (c : Dev nD) : (⟨k0_dev2 c, k0_dev2_lt c⟩ : Dev nD) = yn c := by revert c; decide +kernel
theorem dev3_eq (c : Dev nD) : (⟨k0_dev3 c, k0_dev3_lt c⟩ : Dev nD) = xn c := by revert c; decide +kernel
theorem dev4_eq (c : Dev nD) : (⟨k0_dev4 c, k0_dev4_lt c⟩ : Dev nD) = xn c := by revert c; decide +kernel
theorem dev5_eq (c : Dev nD) : (⟨k0_dev5 c, k0_dev5_lt c⟩ : Dev nD) = xn c := by revert c; decide +kernel
theorem dev6_eq (c : Dev nD) : (⟨k0_dev6 c, k0_dev6_lt c⟩ : Dev nD) = xn c := by revert c; decide +kernel
theorem dev7_eq (c : Dev nD) : (⟨k0_dev7 c, k0_dev7_lt c⟩ : Dev nD) = xn c := by revert c; decide +kernel
theorem dev8_eq (c : Dev nD) : (⟨k0_dev8 c, k0_dev8_lt c⟩ : Dev nD) = xn c := by revert c; decide +kernel
theorem dev9_eq (c : Dev nD) : (⟨k0_dev9 c, k0_dev9_lt c⟩ : Dev nD) = xn c := by revert c; decide +kernel
theorem dev10_eq (c : Dev nD) : (⟨k0_dev10 c, k0_dev10_lt c⟩ : Dev nD) = xn c := by revert c; decide +kernel
theorem dev11_eq (c : Dev nD) : (⟨k0_dev11 c, k0_dev11_lt c⟩ : Dev nD) = yn c := by revert c; decide +kernel
theorem dev12_eq (c : Dev nD) : (⟨k0_dev12 c, k0_dev12_lt c⟩ : Dev nD) = yn c := by revert c; decide +kernel
theorem dev13_eq (c : Dev nD) : (⟨k0_dev13 c, k0_dev13_lt c⟩ : Dev nD) = yn c := by revert c; decide +kernel
theorem dev14_eq (c : Dev nD) : (⟨k0_dev14 c, k0_dev14_lt c⟩ : Dev nD) = yn c := by revert c; decide +kernel
theorem dev15_eq (c : Dev nD) : (⟨k0_dev15 c, k0_dev15_lt c⟩ : Dev nD) = yn c := by revert c; decide +kernel
theorem dev16_eq (c : Dev nD) : (⟨k0_dev16 c, k0_dev16_lt c⟩ : Dev nD) = yn c := by revert c; decide +kernel
theorem dev17_eq (c : Dev nD) : (⟨k0_dev17 c, k0_dev17_lt c⟩ : Dev nD) = yn c := by revert c; decide +kernel
theorem dev18_eq (c : Dev nD) : (⟨k0_dev18 c, k0_dev18_lt c⟩ : Dev nD) = yn c := by revert c; decide +kernel

/-! ## The buffers and the chunk slots -/

abbrev xM : Memref sig .tc .vmem S512x512 .f32 := Memref.whole cc0_stg0_0
abbrev dyM : Memref sig .tc .vmem S512x2048 .f32 := Memref.whole cc0_stg1_0
abbrev oM : Memref sig .tc .vmem S256x2048 .bf16 := Memref.whole cc0_stg2_0
abbrev dybM : Memref sig .tc .vmem S512x2048 .bf16 := Memref.whole cc0_scratch0
abbrev accM : Memref sig .tc .vmem S256x2048 .f32 := Memref.whole cc0_scratch1
abbrev sndM : Memref sig .tc .vmem S8x128x256 .bf16 := Memref.whole cc0_scratch2
abbrev r1M : Memref sig .tc .vmem S8x128x256 .bf16 := Memref.whole cc0_scratch3
abbrev r2M : Memref sig .tc .vmem S8x128x256 .bf16 := Memref.whole cc0_scratch4

theorem slot_inb (k : Fin 8) : ∀ a, (![k.val, 0, 0] : Fin 3 → Nat) a + S1x128x256.size a ≤ S8x128x256.size a := by
  revert k; decide

/-- Chunk `k`'s rectangle in a buffer of eight chunks. -/
abbrev slotRect (k : Fin 8) : Rect S8x128x256 := Rect.unit (s := S8x128x256) ![k.val, 0, 0] S1x128x256.size (slot_inb k)

/-- Chunk `k` of a buffer of eight chunks, as the kernel names it for a transfer: the slice, its unit axis dropped. -/
abbrev slot (M : Memref sig .tc .vmem S8x128x256 .bf16) (k : Fin 8) : Memref sig .tc .vmem S128x256 .bf16 :=
  (M.slice (slotRect k) (fun _ => rfl)).squeeze S128x256 squeezes_S1x128x256_S128x256

/-! ## The semaphores and the cells -/

/-- The runtime's barrier semaphore of collective id 0 (not scoped to the launch). -/
abbrev barS : Sem sig := (SemArray.scalar (sig.barrier 0 rfl) : Sems sig S_).sem

/-- The DMA semaphore of array `j` (0: stage-1 send, 1: stage-1 receive, 2: stage-2 send, 3: stage-2 receive), chunk `k`:
    the kernel's four scratch arrays of eight follow the three staging semaphores. -/
abbrev xsem (j : Fin 4) (k : Fin 8) : DmaSem sig := ⟨3 + 8 * j.val + k.val, by have := j.isLt; have := k.isLt; show _ < 35; omega⟩

abbrev barCell (c : Dev nD) : GSem nD τ sig := ((c : Thread nD τ), .reg barS)
abbrev xCell (c : Dev nD) (j : Fin 4) (k : Fin 8) : GSem nD τ sig := ((c : Thread nD τ), .dma (xsem j k))

/-- The credit of one chunk's transfer. -/
abbrev N : ℕ := (slot r1M 0).view.dmaCredit
theorem N_pos : 0 < N := View.dmaCredit_pos _ (by decide)

example : ((cc0_scratch5.slice (Rect.unit (s := S8) ![3] S1.size inb_S8_S1_3)).squeeze S_ squeezes_S1_S_).sem = xsem 0 3 := by decide
example : ((cc0_scratch8.slice (Rect.unit (s := S8) ![7] S1.size inb_S8_S1_7)).squeeze S_ squeezes_S1_S_).sem = xsem 3 7 := by decide
example : (slot r1M 5).view.dmaCredit = N := by decide

end Cert.KernelIdealProof

end
-- ==== Proof.Proto.lean ====
/-
  The protocol of the chunked reduce-scatter, as a schedule of rounds, and what each device's body starts from and ends
  with.

  Semaphores of device `c` (every one used once, round 0 only):
  * its barrier semaphore: two units, one from each neighbour. The unit from `xn c` (duty `true`) brings `xn c`'s eight
    stage-1 landing chunks and the word that their eight receive cells stand at round 0 — what `c`'s stage-1 transfers
    into them need; the unit from `yn c` (duty `false`) brings the same of `yn c`'s stage-2 landing chunks.
  * array 0, chunk `k` (stage-1 send): paid when `c`'s transfer of its send chunk `k` has read its source; gives the send
    chunk back.
  * array 1, chunk `k` (stage-1 receive): paid by `xn c`'s transfer; brings `c`'s landing chunk `k` holding `xn c`'s send
    chunk `k`: the partial product of `xn c`'s row-half for the 128 result rows `c` completes first.
  * array 2, chunk `k` (stage-2 send): `c` forwards the chunk it has just received to `yn c`, and goes on READING it while
    the transfer is pending: the transfer borrows one half share of the chunk, which this cell gives back.
  * array 3, chunk `k` (stage-2 receive): paid by `yn c`'s forward; brings `c`'s second landing chunk `k` holding what
    `yn c` received, the send chunk `k` of `xn (yn c)`: the partial product for `c`'s other 128 rows.
-/
import proofs.«900592_g7700000000000593_dist_rsdw_v7x_xy2x2_x_m512_d512_f2048_bf16_1_alg».proof.Proof.Cells

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What the buffers hold -/

/-- Device `c`'s block of `x` (512 × 512) and of `dy` (512 × 2048), as staged for the body. -/
def xstg (c : Dev nD) : (cc0_stg0_0 : Ref sig .tc).ty.Contents (Elt F) :=
  (win0_0.blk (0 : Fin 1)).view.read (Elt F) ((s₀ m ρ).mem ((c : Thread nD τ).loc main_arg0))
def dystg (c : Dev nD) : (cc0_stg1_0 : Ref sig .tc).ty.Contents (Elt F) :=
  (win0_1.blk (0 : Fin 1)).view.read (Elt F) ((s₀ m ρ).mem ((c : Thread nD τ).loc main_arg1))

/-- The 128 columns of `x` (rows of the result) that device `c` works on for its row-neighbour: those of the
    neighbour's mesh row and `c`'s own column. -/
def xsV (c : Dev nD) : FVec F S512x128 .bf16 :=
  k0_pay1 (xM.view.readAt (Elt F) (Rect.unit (s := S512x512) (k0_off1 c) S512x128.size (k0_off1_inb c)).toLoadRect (xstg m ρ c))

/-- Column chunk `k` of `dy`, rounded to the compute type. -/
def dyChunk (c : Dev nD) : Fin 8 → FVec F S512x256 .bf16
  | 0 => k0_pay2 (dyM.view.readAt (Elt F) (Rect.unit (s := S512x2048) ![0, 0] S512x256.size inb_S512x2048_S512x256_0_0).toLoadRect (dystg m ρ c))
  | 1 => k0_pay4 (dyM.view.readAt (Elt F) (Rect.unit (s := S512x2048) ![0, 256] S512x256.size inb_S512x2048_S512x256_0_256).toLoadRect (dystg m ρ c))
  | 2 => k0_pay6 (dyM.view.readAt (Elt F) (Rect.unit (s := S512x2048) ![0, 512] S512x256.size inb_S512x2048_S512x256_0_512).toLoadRect (dystg m ρ c))
  | 3 => k0_pay8 (dyM.view.readAt (Elt F) (Rect.unit (s := S512x2048) ![0, 768] S512x256.size inb_S512x2048_S512x256_0_768).toLoadRect (dystg m ρ c))
  | 4 => k0_pay10 (dyM.view.readAt (Elt F) (Rect.unit (s := S512x2048) ![0, 1024] S512x256.size inb_S512x2048_S512x256_0_1024).toLoadRect (dystg m ρ c))
  | 5 => k0_pay12 (dyM.view.readAt (Elt F) (Rect.unit (s := S512x2048) ![0, 1280] S512x256.size inb_S512x2048_S512x256_0_1280).toLoadRect (dystg m ρ c))
  | 6 => k0_pay14 (dyM.view.readAt (Elt F) (Rect.unit (s := S512x2048) ![0, 1536] S512x256.size inb_S512x2048_S512x256_0_1536).toLoadRect (dystg m ρ c))
  | 7 => k0_pay16 (dyM.view.readAt (Elt F) (Rect.unit (s := S512x2048) ![0, 1792] S512x256.size inb_S512x2048_S512x256_0_1792).toLoadRect (dystg m ρ c))

/-- Send chunk `k` of device `c`: the product of those 128 columns of its `x` block, transposed, with column chunk `k`
    of its `dy` block — a partial product over `c`'s 512 rows. -/
def sendW (c : Dev nD) : Fin 8 → FVec F S1x128x256 .bf16
  | 0 => k0_pay3 (xsV m ρ c) (dyChunk m ρ c 0)
  | 1 => k0_pay5 (xsV m ρ c) (dyChunk m ρ c 1)
  | 2 => k0_pay7 (xsV m ρ c) (dyChunk m ρ c 2)
  | 3 => k0_pay9 (xsV m ρ c) (dyChunk m ρ c 3)
  | 4 => k0_pay11 (xsV m ρ c) (dyChunk m ρ c 4)
  | 5 => k0_pay13 (xsV m ρ c) (dyChunk m ρ c 5)
  | 6 => k0_pay15 (xsV m ρ c) (dyChunk m ρ c 6)
  | 7 => k0_pay17 (xsV m ρ c) (dyChunk m ρ c 7)

/-! ## A chunk of a buffer at known contents -/

/-- Chunk `k` of the eight-chunk buffer `M` on device `c`, held at share `q`, where a load through `M` at the chunk's box
    reads `w`. -/
def slotAt (M : Memref sig .tc .vmem S8x128x256 .bf16) (k : Fin 8) (c : Dev nD) (q : PosShare TreeShare) (w : Vec F S1x128x256 .bf16) : sProp 𝕄 :=
  iprop(∃ f : Buf (Elt F) ((slot M k).view.loc (c : Thread nD τ)),
    ⌜M.view.readAt (Elt F) (slotRect k).toLoadRect f = w⌝ ∗ ((slot M k).view.loc (c : Thread nD τ) ↦[(slot M k).view.set]{q} f))

/-- The same at contents nobody knows. -/
def slotAny (M : Memref sig .tc .vmem S8x128x256 .bf16) (k : Fin 8) (c : Dev nD) : sProp 𝕄 :=
  iprop(∃ f : Buf (Elt F) ((slot M k).view.loc (c : Thread nD τ)), ((slot M k).view.loc (c : Thread nD τ) ↦[(slot M k).view.set]{fullShare} f))

omit [FloatOps F] in
instance slotAt_storable (M) (k : Fin 8) (c : Dev nD) (q) (w) : BI.Storable (upEmb : UEmb _ 𝕄) (slotAt (F := F) M k c q w) := by unfold slotAt; infer_instance
omit [FloatOps F] in
instance slotAny_storable (M) (k : Fin 8) (c : Dev nD) : BI.Storable (upEmb : UEmb _ 𝕄) (slotAny (F := F) M k c) := by unfold slotAny; infer_instance

/-! ## The schedule -/

/-- Which of the four arrays, and which chunk, a DMA semaphore of the kernel's own is. -/
def arrOf (q : DmaSem sig) : ℕ := (q.val - 3) / 8
def chunkOf (q : DmaSem sig) : Fin 8 := ⟨(q.val - 3) % 8, Nat.mod_lt _ (by decide)⟩

theorem arrOf_xsem (j : Fin 4) (k : Fin 8) : arrOf (xsem j k) = j.val := by revert j k; decide
theorem chunkOf_xsem (j : Fin 4) (k : Fin 8) : chunkOf (xsem j k) = k := by revert j k; decide

/-- What the barrier unit from the row-neighbour brings: its stage-1 landing chunks, their cells at round 0. -/
def barPayX (c : Dev nD) : sProp 𝕄 :=
  iprop((bigSep Finset.univ fun k : Fin 8 => slotAny r1M k (xn c)) ∗ (bigSep Finset.univ fun k : Fin 8 => reached ER (xCell (xn c) 1 k) 0))
/-- What the barrier unit from the column-neighbour brings: its stage-2 landing chunks, their cells at round 0. -/
def barPayY (c : Dev nD) : sProp 𝕄 :=
  iprop((bigSep Finset.univ fun k : Fin 8 => slotAny r2M k (yn c)) ∗ (bigSep Finset.univ fun k : Fin 8 => reached ER (xCell (yn c) 3 k) 0))

/-- What a paid DMA cell of device `c` brings, by array. -/
def xferPay (c : Dev nD) (q : DmaSem sig) : sProp 𝕄 :=
  if arrOf q = 0 then slotAt sndM (chunkOf q) c fullShare (sendW m ρ c (chunkOf q))
  else if arrOf q = 1 then slotAt r1M (chunkOf q) c fullShare (sendW m ρ (xn c) (chunkOf q))
  else if arrOf q = 2 then slotAt r1M (chunkOf q) c fullShare.left (sendW m ρ (xn c) (chunkOf q))
  else slotAt r2M (chunkOf q) c fullShare (sendW m ρ (xn (yn c)) (chunkOf q))

abbrev IsBar (g : GSem nD τ sig) : Prop := g.1.2 = .tc ∧ g.2 = .reg barS
/-- One of the kernel's own thirty-two DMA semaphores (the three before them are the pipeline's). -/
def IsXsem : SemLoc sig → Prop
  | .dma q => 3 ≤ q.val
  | _ => False
instance : DecidablePred (IsXsem : SemLoc sig → Prop) := fun sm => by cases sm <;> unfold IsXsem <;> infer_instance
abbrev IsXfer (g : GSem nD τ sig) : Prop := g.1.2 = .tc ∧ IsXsem g.2

/-- One round: a barrier cell has the two duties of one unit each, a DMA cell of the kernel's own the one duty `false` of a
    chunk's credit. -/
def rd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    match g.2 with
    | .reg _ => if d then barPayX g.1.1 else barPayY g.1.1
    | .dma q => xferPay m ρ g.1.1 q
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m ρ).payload g r d) := by
  obtain ⟨t, sm⟩ := g
  cases sm with
  | reg s =>
    show BI.Storable upEmb (if d then barPayX t.1 else barPayY t.1)
    unfold barPayX barPayY; split <;> infer_instance
  | dma q =>
    show BI.Storable upEmb (xferPay m ρ t.1 q)
    unfold xferPay; (repeat' split) <;> infer_instance

/-! ## What each device owes at launch; the levels -/

/-- Eight summands, the one of chunk 0 outermost (it is paid first). -/
abbrev sum8 (f : Fin 8 → CellTallies nD τ sig Unit) : CellTallies nD τ sig Unit := f 7 + f 6 + f 5 + f 4 + f 3 + f 2 + f 1 + f 0

/-- Device `c` owes: a unit to each neighbour's barrier cell (the row-neighbour's first), a chunk's credit to each of the
    row-neighbour's stage-1 receive cells, then to each of the column-neighbour's stage-2 receive cells. -/
def O₂ (c : Dev nD) : CellTallies nD τ sig Unit := sum8 fun k => tallyAt (xCell (yn c) 3 k) () N
def O₁ (c : Dev nD) : CellTallies nD τ sig Unit := O₂ c + sum8 fun k => tallyAt (xCell (xn c) 1 k) () N
def O₀ (c : Dev nD) : CellTallies nD τ sig Unit := O₁ c + tallyAt (barCell (yn c)) () 1 + tallyAt (barCell (xn c)) () 1

def L (g : GSem nD τ sig) : Finset Unit := if g.1.2 = .tc then {()} else ∅
/-- Barrier cells at 1, stage-1 receive cells at 2, stage-2 receive cells at 3, every other cell at 0: a device waits on
    its barrier owing receive credits, on a stage-1 receive cell owing stage-2 credits only, elsewhere owing nothing. -/
def lv (g : GSem nD τ sig) (_ : Unit) : ℕ :=
  match g.2 with
  | .reg _ => 1
  | .dma q => if 3 ≤ q.val ∧ arrOf q = 1 then 2 else if 3 ≤ q.val ∧ arrOf q = 3 then 3 else 0

/-! ## The cells by index, and the ghost state a device's body starts from -/

/-- A device's thirty-three cells: the barrier (`none`), and array `j` chunk `k`. -/
abbrev CI : Type := Option (Fin 4 × Fin 8)
abbrev csem : CI → SemLoc sig
  | none => .reg barS
  | some (j, k) => .dma (xsem j k)
abbrev kcell (ck : Dev nD × CI) : GSem nD τ sig := ((ck.1 : Thread nD τ), csem ck.2)

/-- The invariants device `c`'s body opens, at the names the launch allocated them under: its own cells', both
    neighbours' barrier cells', the row-neighbour's stage-1 and the column-neighbour's stage-2 receive cells'. -/
def invs (K : Dev nD × CI → ℕ) (c : Dev nD) : sProp 𝕄 :=
  iprop((bigSep Finset.univ fun i : CI => cellInv ER (rd m ρ) (K (c, i)) (kcell (c, i)))
    ∗ cellInv ER (rd m ρ) (K (xn c, none)) (barCell (xn c)) ∗ cellInv ER (rd m ρ) (K (yn c, none)) (barCell (yn c))
    ∗ (bigSep Finset.univ fun k : Fin 8 => cellInv ER (rd m ρ) (K (xn c, some (1, k))) (xCell (xn c) 1 k))
    ∗ (bigSep Finset.univ fun k : Fin 8 => cellInv ER (rd m ρ) (K (yn c, some (3, k))) (xCell (yn c) 3 k)))

instance invs_persistent (K : Dev nD × CI → ℕ) (c : Dev nD) : BI.Persistent (invs m ρ K c) := by unfold invs; infer_instance

/-- Round 0 reached, of the cells device `c` must say so of: the two barrier cells it signals, its own send cells (it
    pays them itself) and its own receive cells (it passes the word to the neighbour that pays them). -/
def reach (c : Dev nD) : sProp 𝕄 :=
  iprop(reached ER (barCell (xn c)) 0 ∗ reached ER (barCell (yn c)) 0
    ∗ (bigSep Finset.univ fun jk : Fin 4 × Fin 8 => reached ER (xCell c jk.1 jk.2) 0))

instance reach_persistent (c : Dev nD) : BI.Persistent (reach (F := F) c) := by unfold reach; infer_instance

/-- The tokens of the duties device `c` pays: the row-neighbour's barrier duty `true`, the column-neighbour's barrier duty
    `false`, and per chunk the row-neighbour's stage-1 receive duty, its own stage-1 send duty, the column-neighbour's
    stage-2 receive duty, its own stage-2 send duty. -/
def payToks (c : Dev nD) : sProp 𝕄 :=
  iprop(dutyTok ER (barCell (xn c)) 0 true ∗ dutyTok ER (barCell (yn c)) 0 false
    ∗ (bigSep Finset.univ fun k : Fin 8 => dutyTok ER (xCell (xn c) 1 k) 0 false)
    ∗ (bigSep Finset.univ fun k : Fin 8 => dutyTok ER (xCell c 0 k) 0 false)
    ∗ (bigSep Finset.univ fun k : Fin 8 => dutyTok ER (xCell (yn c) 3 k) 0 false)
    ∗ (bigSep Finset.univ fun k : Fin 8 => dutyTok ER (xCell c 2 k) 0 false))

/-- Device `c`'s positions: at round 0 of each of its cells, nothing taken. -/
def poss (c : Dev nD) : sProp 𝕄 := bigSep Finset.univ fun i : CI => atPos ER (kcell (c, i)) 0 ∅ 0

def ghost (K : Dev nD × CI → ℕ) (c : Dev nD) : sProp 𝕄 :=
  iprop(invs m ρ K c ∗ reach c ∗ poss c ∗ payToks c)

/-- The credit tokens of the waits others pay: the barrier's two units, each receive cell's chunk credit. -/
def creds (c : Dev nD) : sProp 𝕄 :=
  iprop(cred (tallyAt (barCell c) () 2) ∗ (bigSep Finset.univ fun k : Fin 8 => cred (tallyAt (xCell c 1 k) () N))
    ∗ (bigSep Finset.univ fun k : Fin 8 => cred (tallyAt (xCell c 3 k) () N)))

def start (c : Dev nD) : sProp 𝕄 :=
  iprop((∃ K, ghost m ρ K c) ∗ creds c ∗ levAts L lv)

/-- The kernel's five scratch buffers, whole, at contents nobody knows. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m ρ c ∗ scratch c)
/-- After the point: the scratch buffers again, and the kernel's thirty-two own semaphores back at zero, closed. -/
def Φ₁ (c : Dev nD) : sProp 𝕄 := iprop(scratch c ∗ bigSep Finset.univ fun jk : Fin 4 × Fin 8 => semVal (xCell c jk.1 jk.2) 0)

end Cert.KernelIdealProof

end
-- ==== Proof.Data.lean ====
/-
  The pipeline's proof data of the one launch, and what the body is handed and hands back.

  The accumulator: the 256 result rows of device `c`'s own mesh row, as the partial product over `c`'s own 512 rows.
  The result block: per column chunk, the accumulator's half in `c`'s own column block plus the chunk received in stage 1,
  and its other half plus the chunk received in stage 2: sixteen boxes of 128 × 256 that tile the 256 × 2048 block.
-/
import proofs.«900592_g7700000000000593_dist_rsdw_v7x_xy2x2_x_m512_d512_f2048_bf16_1_alg».proof.Proof.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rounded `dy` buffer's eight stores, the last first: column chunk `k` at columns `[256 k, 256 k + 256)`. -/
def dyPieces (c : Dev nD) : List (View.Piece (Elt F) S512x2048 .bf16) :=
  [⟨Rect.unit (s := S512x2048) ![0, 1792] S512x256.size inb_S512x2048_S512x256_0_1792, dyChunk m ρ c 7⟩,
   ⟨Rect.unit (s := S512x2048) ![0, 1536] S512x256.size inb_S512x2048_S512x256_0_1536, dyChunk m ρ c 6⟩,
   ⟨Rect.unit (s := S512x2048) ![0, 1280] S512x256.size inb_S512x2048_S512x256_0_1280, dyChunk m ρ c 5⟩,
   ⟨Rect.unit (s := S512x2048) ![0, 1024] S512x256.size inb_S512x2048_S512x256_0_1024, dyChunk m ρ c 4⟩,
   ⟨Rect.unit (s := S512x2048) ![0, 768] S512x256.size inb_S512x2048_S512x256_0_768, dyChunk m ρ c 3⟩,
   ⟨Rect.unit (s := S512x2048) ![0, 512] S512x256.size inb_S512x2048_S512x256_0_512, dyChunk m ρ c 2⟩,
   ⟨Rect.unit (s := S512x2048) ![0, 256] S512x256.size inb_S512x2048_S512x256_0_256, dyChunk m ρ c 1⟩,
   ⟨Rect.unit (s := S512x2048) ![0, 0] S512x256.size inb_S512x2048_S512x256_0_0, dyChunk m ρ c 0⟩]

/-- The whole of `dy`'s block rounded to the compute type, as a load of the whole buffer reads it after the eight
    chunk stores: the eight chunks side by side. -/
def dyAll (c : Dev nD) : Vec F S512x2048 .bf16 :=
  dybM.view.readCov (dyPieces m ρ c) (Rect.unit (s := S512x2048) ![0, 0] S512x2048.size inb_S512x2048_S512x2048_0_0).toLoadRect

/-- The accumulator on device `c`: the 256 result rows of its own mesh row, as the partial product over its own 512
    rows of `x` and `dy`. -/
def accV (c : Dev nD) : FVec F S256x2048 .f32 :=
  k0_pay18 (xM.view.readAt (Elt F) (Rect.unit (s := S512x512) (k0_off2 c) S512x256.size (k0_off2_inb c)).toLoadRect (xstg m ρ c)) (dyAll m ρ c)

/-- What a load of the box `R` reads from the accumulator buffer once the accumulator is stored whole. -/
def accRows (c : Dev nD) (R : Rect S256x2048) : R.shape.Idx → Elt F .f32 :=
  accM.view.readCov [⟨Rect.unit (s := S256x2048) ![0, 0] S256x2048.size inb_S256x2048_S256x2048_0_0, accV m ρ c⟩] R.toLoadRect

/-- The sixteen boxes of the result block that the body stores, in program order: per column chunk `k` the 128 rows
    of the device's own column block (boxes 0 to 7), then the other 128 rows (boxes 8 to 15). -/
def outRect (c : Dev nD) : Fin 16 → Rect S256x2048
  | 0 => Rect.unit (s := S256x2048) (k0_off3 c) S128x256.size (k0_off3_inb c)
  | 1 => Rect.unit (s := S256x2048) (k0_off4 c) S128x256.size (k0_off4_inb c)
  | 2 => Rect.unit (s := S256x2048) (k0_off5 c) S128x256.size (k0_off5_inb c)
  | 3 => Rect.unit (s := S256x2048) (k0_off6 c) S128x256.size (k0_off6_inb c)
  | 4 => Rect.unit (s := S256x2048) (k0_off7 c) S128x256.size (k0_off7_inb c)
  | 5 => Rect.unit (s := S256x2048) (k0_off8 c) S128x256.size (k0_off8_inb c)
  | 6 => Rect.unit (s := S256x2048) (k0_off9 c) S128x256.size (k0_off9_inb c)
  | 7 => Rect.unit (s := S256x2048) (k0_off10 c) S128x256.size (k0_off10_inb c)
  | 8 => Rect.unit (s := S256x2048) (k0_off11 c) S128x256.size (k0_off11_inb c)
  | 9 => Rect.unit (s := S256x2048) (k0_off12 c) S128x256.size (k0_off12_inb c)
  | 10 => Rect.unit (s := S256x2048) (k0_off13 c) S128x256.size (k0_off13_inb c)
  | 11 => Rect.unit (s := S256x2048) (k0_off14 c) S128x256.size (k0_off14_inb c)
  | 12 => Rect.unit (s := S256x2048) (k0_off15 c) S128x256.size (k0_off15_inb c)
  | 13 => Rect.unit (s := S256x2048) (k0_off16 c) S128x256.size (k0_off16_inb c)
  | 14 => Rect.unit (s := S256x2048) (k0_off17 c) S128x256.size (k0_off17_inb c)
  | 15 => Rect.unit (s := S256x2048) (k0_off18 c) S128x256.size (k0_off18_inb c)
  | ⟨_ + 16, h⟩ => absurd h (Nat.not_lt.2 (Nat.le_add_left _ _))

/-- Stage 1's piece of column chunk `k`: the accumulator's rows of the device's own column block plus the chunk received
    from the row-neighbour. -/
def out1 (c : Dev nD) : Fin 8 → FVec F S128x256 .bf16
  | 0 => k0_pay19 (accRows m ρ c (Rect.unit (s := S256x2048) (k0_off3 c) S128x256.size (k0_off3_inb c))) (sendW m ρ (xn c) 0)
  | 1 => k0_pay20 (accRows m ρ c (Rect.unit (s := S256x2048) (k0_off4 c) S128x256.size (k0_off4_inb c))) (sendW m ρ (xn c) 1)
  | 2 => k0_pay21 (accRows m ρ c (Rect.unit (s := S256x2048) (k0_off5 c) S128x256.size (k0_off5_inb c))) (sendW m ρ (xn c) 2)
  | 3 => k0_pay22 (accRows m ρ c (Rect.unit (s := S256x2048) (k0_off6 c) S128x256.size (k0_off6_inb c))) (sendW m ρ (xn c) 3)
  | 4 => k0_pay23 (accRows m ρ c (Rect.unit (s := S256x2048) (k0_off7 c) S128x256.size (k0_off7_inb c))) (sendW m ρ (xn c) 4)
  | 5 => k0_pay24 (accRows m ρ c (Rect.unit (s := S256x2048) (k0_off8 c) S128x256.size (k0_off8_inb c))) (sendW m ρ (xn c) 5)
  | 6 => k0_pay25 (accRows m ρ c (Rect.unit (s := S256x2048) (k0_off9 c) S128x256.size (k0_off9_inb c))) (sendW m ρ (xn c) 6)
  | 7 => k0_pay26 (accRows m ρ c (Rect.unit (s := S256x2048) (k0_off10 c) S128x256.size (k0_off10_inb c))) (sendW m ρ (xn c) 7)

/-- Stage 2's piece of column chunk `k`: the accumulator's other rows plus the chunk the column-neighbour forwarded. -/
def out2 (c : Dev nD) : Fin 8 → FVec F S128x256 .bf16
  | 0 => k0_pay27 (accRows m ρ c (Rect.unit (s := S256x2048) (k0_off11 c) S128x256.size (k0_off11_inb c))) (sendW m ρ (xn (yn c)) 0)
  | 1 => k0_pay28 (accRows m ρ c (Rect.unit (s := S256x2048) (k0_off12 c) S128x256.size (k0_off12_inb c))) (sendW m ρ (xn (yn c)) 1)
  | 2 => k0_pay29 (accRows m ρ c (Rect.unit (s := S256x2048) (k0_off13 c) S128x256.size (k0_off13_inb c))) (sendW m ρ (xn (yn c)) 2)
  | 3 => k0_pay30 (accRows m ρ c (Rect.unit (s := S256x2048) (k0_off14 c) S128x256.size (k0_off14_inb c))) (sendW m ρ (xn (yn c)) 3)
  | 4 => k0_pay31 (accRows m ρ c (Rect.unit (s := S256x2048) (k0_off15 c) S128x256.size (k0_off15_inb c))) (sendW m ρ (xn (yn c)) 4)
  | 5 => k0_pay32 (accRows m ρ c (Rect.unit (s := S256x2048) (k0_off16 c) S128x256.size (k0_off16_inb c))) (sendW m ρ (xn (yn c)) 5)
  | 6 => k0_pay33 (accRows m ρ c (Rect.unit (s := S256x2048) (k0_off17 c) S128x256.size (k0_off17_inb c))) (sendW m ρ (xn (yn c)) 6)
  | 7 => k0_pay34 (accRows m ρ c (Rect.unit (s := S256x2048) (k0_off18 c) S128x256.size (k0_off18_inb c))) (sendW m ρ (xn (yn c)) 7)

/-- The sixteen stores of the result block, the last first. -/
def outPieces (c : Dev nD) : List (View.Piece (Elt F) S256x2048 .bf16) :=
  [⟨outRect c 15, out2 m ρ c 7⟩,
   ⟨outRect c 14, out2 m ρ c 6⟩,
   ⟨outRect c 13, out2 m ρ c 5⟩,
   ⟨outRect c 12, out2 m ρ c 4⟩,
   ⟨outRect c 11, out2 m ρ c 3⟩,
   ⟨outRect c 10, out2 m ρ c 2⟩,
   ⟨outRect c 9, out2 m ρ c 1⟩,
   ⟨outRect c 8, out2 m ρ c 0⟩,
   ⟨outRect c 7, out1 m ρ c 7⟩,
   ⟨outRect c 6, out1 m ρ c 6⟩,
   ⟨outRect c 5, out1 m ρ c 5⟩,
   ⟨outRect c 4, out1 m ρ c 4⟩,
   ⟨outRect c 3, out1 m ρ c 3⟩,
   ⟨outRect c 2, out1 m ρ c 2⟩,
   ⟨outRect c 1, out1 m ρ c 1⟩,
   ⟨outRect c 0, out1 m ρ c 0⟩]

/-- The result block's contents on device `c`: the sixteen pieces, which tile it, written over nothing. -/
def outAt (c : Dev nD) : (cc0_stg2_0 : Ref sig .tc).ty.Contents (Elt F) :=
  oM.view.writes (Elt F) oM.view.junk (outPieces m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dystg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` starts from: the invariant before the point, what it owes, and the three staging buffers. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it ends with: the invariant after the point, nothing owed, the operands' staging buffers as they were and the
    result's at the result block. -/
def bodyPost (c : Dev nD) : sProp 𝕄 :=
  iprop(Φ₁ c ∗ (dats m ρ 0 c).owesAt () t₀.succ ∗ stg c cc0_stg0_0 (xstg m ρ c) ∗ stg c cc0_stg1_0 (dystg m ρ c) ∗ stg c cc0_stg2_0 (outAt m ρ c))

end Cert.KernelIdealProof

end
-- ==== Proof.Tables.lean ====
/-
  The schedule of the chunked reduce-scatter read cell by cell: each cell's duties, amounts, expected total and payloads
  at round 0, and that no cell has a later round; the levels, and that each wait of a device sits below everything the
  device owes at that moment; what every device is owed at launch.
-/
import proofs.«900592_g7700000000000593_dist_rsdw_v7x_xy2x2_x_m512_d512_f2048_bf16_1_alg».proof.Proof.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables, cell by cell -/

section Tables
variable (c : Dev nD) (j : Fin 4) (k : Fin 8) (d : Bool)

omit [FloatOps F] in
theorem xsem_ne_bar : (SemLoc.dma (xsem j k) : SemLoc sig) ≠ .reg barS := fun h => by cases h
omit [FloatOps F] in
theorem not_bar_x : ¬ IsBar (xCell c j k) := fun h => xsem_ne_bar j k h.2
omit [FloatOps F] in
theorem isXsem_x : IsXsem (SemLoc.dma (xsem j k) : SemLoc sig) := by
  show 3 ≤ 3 + 8 * j.val + k.val; omega

theorem duties_bar : (rd (F := F) m ρ).duties (barCell c) 0 = Finset.univ := by dsimp only [rd]; exact if_pos ⟨rfl, rfl, rfl⟩
theorem duties_x : (rd (F := F) m ρ).duties (xCell c j k) 0 = {false} := by
  dsimp only [rd]; rw [if_neg (fun h => not_bar_x c j k h.2)]; exact if_pos ⟨rfl, rfl, isXsem_x j k⟩
theorem duties_later (g : GSem nD τ sig) : ∀ r, 1 ≤ r → (rd (F := F) m ρ).duties g r = ∅ :=
  fun r hr => by dsimp only [rd]; rw [if_neg fun h => by omega, if_neg fun h => by omega]

theorem amount_bar : (rd (F := F) m ρ).amount (barCell c) 0 d = 1 := by dsimp only [rd]; exact if_pos rfl
theorem amount_x : (rd (F := F) m ρ).amount (xCell c j k) 0 d = N := by dsimp only [rd]; exact if_neg (xsem_ne_bar j k)

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_x : (rd (F := F) m ρ).expect (xCell c j k) 0 = N := by
  unfold Schedule.expect Schedule.amountOf; rw [duties_x, Finset.sum_singleton, amount_x]

theorem payload_bar_true : (rd (F := F) m ρ).payload (barCell c) 0 true = barPayX c := by
  show (if (true : Bool) = true then barPayX c else barPayY c) = barPayX c
  exact if_pos rfl
theorem payload_bar_false : (rd (F := F) m ρ).payload (barCell c) 0 false = barPayY c := by
  show (if (false : Bool) = true then barPayX c else barPayY c) = barPayY c
  exact if_neg Bool.false_ne_true

theorem payload_x0 : (rd (F := F) m ρ).payload (xCell c 0 k) 0 d = slotAt sndM k c fullShare (sendW m ρ c k) := by
  show xferPay m ρ c (xsem 0 k) = _
  unfold xferPay; rw [arrOf_xsem, chunkOf_xsem]; exact if_pos rfl
theorem payload_x1 : (rd (F := F) m ρ).payload (xCell c 1 k) 0 d = slotAt r1M k c fullShare (sendW m ρ (xn c) k) := by
  show xferPay m ρ c (xsem 1 k) = _
  unfold xferPay; rw [arrOf_xsem, chunkOf_xsem, if_neg (by decide)]; exact if_pos rfl
theorem payload_x2 : (rd (F := F) m ρ).payload (xCell c 2 k) 0 d = slotAt r1M k c fullShare.left (sendW m ρ (xn c) k) := by
  show xferPay m ρ c (xsem 2 k) = _
  unfold xferPay; rw [arrOf_xsem, chunkOf_xsem, if_neg (by decide), if_neg (by decide)]; exact if_pos rfl
theorem payload_x3 : (rd (F := F) m ρ).payload (xCell c 3 k) 0 d = slotAt r2M k c fullShare (sendW m ρ (xn (yn c)) k) := by
  show xferPay m ρ c (xsem 3 k) = _
  unfold xferPay; rw [arrOf_xsem, chunkOf_xsem, if_neg (by decide), if_neg (by decide), if_neg (by decide)]

/-- The rest of the barrier cell's round, no duty taken: the column-neighbour's payload and the row-neighbour's. -/
theorem rest_bar : bigSep ((rd (F := F) m ρ).duties (barCell c) 0 \ ∅) (fun d => (rd (F := F) m ρ).payload (barCell c) 0 d)
    = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_x0 : bigSep ((rd (F := F) m ρ).duties (xCell c 0 k) 0 \ ∅) (fun d => (rd (F := F) m ρ).payload (xCell c 0 k) 0 d)
    = slotAt sndM k c fullShare (sendW m ρ c k) := by
  rw [Finset.sdiff_empty, duties_x, bigSep_singleton, payload_x0]
theorem rest_x1 : bigSep ((rd (F := F) m ρ).duties (xCell c 1 k) 0 \ ∅) (fun d => (rd (F := F) m ρ).payload (xCell c 1 k) 0 d)
    = slotAt r1M k c fullShare (sendW m ρ (xn c) k) := by
  rw [Finset.sdiff_empty, duties_x, bigSep_singleton, payload_x1]
theorem rest_x2 : bigSep ((rd (F := F) m ρ).duties (xCell c 2 k) 0 \ ∅) (fun d => (rd (F := F) m ρ).payload (xCell c 2 k) 0 d)
    = slotAt r1M k c fullShare.left (sendW m ρ (xn c) k) := by
  rw [Finset.sdiff_empty, duties_x, bigSep_singleton, payload_x2]
theorem rest_x3 : bigSep ((rd (F := F) m ρ).duties (xCell c 3 k) 0 \ ∅) (fun d => (rd (F := F) m ρ).payload (xCell c 3 k) 0 d)
    = slotAt r2M k c fullShare (sendW m ρ (xn (yn c)) k) := by
  rw [Finset.sdiff_empty, duties_x, bigSep_singleton, payload_x3]

end Tables

/-! ## The levels: what a device owes is above what it waits on -/

theorem L_of_ne (g : GSem nD τ sig) (h : g.1.2 ≠ .tc) : L g = ∅ := if_neg h
theorem L_tc (c : Dev nD) (sm : SemLoc sig) : L ((c : Thread nD τ), sm) = {()} := if_pos rfl

/-- A sum of eight tallies is positive where one of them is. -/
theorem sum8_pos {f : Fin 8 → CellTallies nD τ sig Unit} {g : GSem nD τ sig} {u : Unit} (h : 0 < sum8 f g u) : ∃ k, 0 < f k g u := by
  rcases Pipeline.add_pos_cases h with h | h; swap; · exact ⟨0, h⟩
  rcases Pipeline.add_pos_cases h with h | h; swap; · exact ⟨1, h⟩
  rcases Pipeline.add_pos_cases h with h | h; swap; · exact ⟨2, h⟩
  rcases Pipeline.add_pos_cases h with h | h; swap; · exact ⟨3, h⟩
  rcases Pipeline.add_pos_cases h with h | h; swap; · exact ⟨4, h⟩
  rcases Pipeline.add_pos_cases h with h | h; swap; · exact ⟨5, h⟩
  rcases Pipeline.add_pos_cases h with h | h; swap; · exact ⟨6, h⟩
  exact ⟨7, h⟩

theorem O₂_pos {c : Dev nD} {g : GSem nD τ sig} {u : Unit} (h : 0 < O₂ c g u) : ∃ k, g = xCell (yn c) 3 k := by
  unfold O₂ at h
  obtain ⟨k, hk⟩ := sum8_pos h
  exact ⟨k, (Pipeline.tallyAt_pos hk).1⟩

theorem O₁_pos {c : Dev nD} {g : GSem nD τ sig} {u : Unit} (h : 0 < O₁ c g u) :
    (∃ k, g = xCell (xn c) 1 k) ∨ (∃ k, g = xCell (yn c) 3 k) := by
  unfold O₁ at h
  rcases Pipeline.add_pos_cases h with h | h
  · exact .inr (O₂_pos h)
  · obtain ⟨k, hk⟩ := sum8_pos h
    exact .inl ⟨k, (Pipeline.tallyAt_pos hk).1⟩

theorem O₀_pos {c : Dev nD} {g : GSem nD τ sig} {u : Unit} (h : 0 < O₀ c g u) :
    g = barCell (xn c) ∨ g = barCell (yn c) ∨ (∃ k, g = xCell (xn c) 1 k) ∨ (∃ k, g = xCell (yn c) 3 k) := by
  unfold O₀ at h
  rcases Pipeline.add_pos_cases h with h | h
  · rcases Pipeline.add_pos_cases h with h | h
    · exact .inr (.inr (O₁_pos h))
    · exact .inr (.inl (Pipeline.tallyAt_pos h).1)
  · exact .inl (Pipeline.tallyAt_pos h).1

/-- The levels, cell by cell. -/
theorem lv_bar (c : Dev nD) (u : Unit) : lv (barCell c) u = 1 := rfl
theorem lv_x1 (c : Dev nD) (k : Fin 8) (u : Unit) : lv (xCell c 1 k) u = 2 := by
  show (if 3 ≤ (xsem 1 k).val ∧ arrOf (xsem 1 k) = 1 then 2 else if 3 ≤ (xsem 1 k).val ∧ arrOf (xsem 1 k) = 3 then 3 else 0) = 2
  exact if_pos ⟨isXsem_x 1 k, arrOf_xsem 1 k⟩
theorem lv_x3 (c : Dev nD) (k : Fin 8) (u : Unit) : lv (xCell c 3 k) u = 3 := by
  show (if 3 ≤ (xsem 3 k).val ∧ arrOf (xsem 3 k) = 1 then 2 else if 3 ≤ (xsem 3 k).val ∧ arrOf (xsem 3 k) = 3 then 3 else 0) = 3
  rw [arrOf_xsem, if_neg (fun h => absurd h.2 (by decide))]
  exact if_pos ⟨isXsem_x 3 k, rfl⟩
theorem lv_stage (c : Dev nD) (q : DmaSem sig) (hq : q.val < 3) (u : Unit) : lv ((c : Thread nD τ), .dma q) u = 0 := by
  show (if 3 ≤ q.val ∧ arrOf q = 1 then 2 else if 3 ≤ q.val ∧ arrOf q = 3 then 3 else 0) = 0
  rw [if_neg (fun h => by omega), if_neg (fun h => by omega)]

omit [FloatOps F] in
/-- The pipeline's three staging semaphores sit at level 0, below everything a device owes at launch. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_stage c q hq]
    rcases O₀_pos hg with rfl | rfl | ⟨k, rfl⟩ | ⟨k, rfl⟩
    · exact ⟨by rw [L_tc]; exact Finset.mem_singleton_self _, by rw [lv_bar]; decide⟩
    · exact ⟨by rw [L_tc]; exact Finset.mem_singleton_self _, by rw [lv_bar]; decide⟩
    · exact ⟨by rw [L_tc]; exact Finset.mem_singleton_self _, by rw [lv_x1]; decide⟩
    · exact ⟨by rw [L_tc]; exact Finset.mem_singleton_self _, by rw [lv_x3]; decide⟩
  · rw [MayWait_zero]; iintro -; iempintro

omit [FloatOps F] in
/-- At its barrier wait a device owes the sixteen receive credits: levels 2 and 3, above the barrier's 1. -/
theorem mayWait_bar (c : Dev nD) : (levAts L lv : sProp 𝕄) ⊢ MayWait (c : Thread nD τ) (.reg barS) () (O₁ c) := by
  refine Pipeline.mayWait_of_levAts (by rw [L_tc]; exact Finset.mem_singleton_self _) fun g u hg => ?_
  rw [show lv ((c : Thread nD τ), SemLoc.reg barS) () = 1 from rfl]
  rcases O₁_pos hg with ⟨k, rfl⟩ | ⟨k, rfl⟩
  · exact ⟨by rw [L_tc]; exact Finset.mem_singleton_self _, by rw [lv_x1]; decide⟩
  · exact ⟨by rw [L_tc]; exact Finset.mem_singleton_self _, by rw [lv_x3]; decide⟩

omit [FloatOps F] in
/-- At a stage-1 receive wait a device owes stage-2 receive credits only: level 3, above 2. -/
theorem mayWait_r1 (c : Dev nD) (k : Fin 8) (O : CellTallies nD τ sig Unit) (hO : ∀ g u, 0 < O g u → ∃ k', g = xCell (yn c) 3 k') :
    (levAts L lv : sProp 𝕄) ⊢ MayWait (c : Thread nD τ) (.dma (xsem 1 k)) () O := by
  refine Pipeline.mayWait_of_levAts (by rw [L_tc]; exact Finset.mem_singleton_self _) fun g u hg => ?_
  rw [show lv ((c : Thread nD τ), SemLoc.dma (xsem 1 k)) () = 2 from lv_x1 c k ()]
  obtain ⟨k', rfl⟩ := hO g u hg
  exact ⟨by rw [L_tc]; exact Finset.mem_singleton_self _, by rw [lv_x3]; decide⟩

/-! ### The debts a device passes through -/

/-- The sum of the summands `n, …, 7` of eight, nested as in `sum8`: summand `n` outermost. -/
def sumFrom (f : Fin 8 → CellTallies nD τ sig Unit) : ℕ → CellTallies nD τ sig Unit
  | 0 => f 7 + f 6 + f 5 + f 4 + f 3 + f 2 + f 1 + f 0
  | 1 => f 7 + f 6 + f 5 + f 4 + f 3 + f 2 + f 1
  | 2 => f 7 + f 6 + f 5 + f 4 + f 3 + f 2
  | 3 => f 7 + f 6 + f 5 + f 4 + f 3
  | 4 => f 7 + f 6 + f 5 + f 4
  | 5 => f 7 + f 6 + f 5
  | 6 => f 7 + f 6
  | 7 => f 7
  | _ => 0

theorem sumFrom_zero (f : Fin 8 → CellTallies nD τ sig Unit) : sumFrom f 0 = sum8 f := rfl
theorem sumFrom_eight (f : Fin 8 → CellTallies nD τ sig Unit) : sumFrom f 8 = 0 := rfl
theorem sumFrom_step (f : Fin 8 → CellTallies nD τ sig Unit) (n : ℕ) (hn : n < 8) : sumFrom f n = sumFrom f (n + 1) + f ⟨n, hn⟩ := by
  rcases n with _ | _ | _ | _ | _ | _ | _ | _ | n
  · rfl
  · rfl
  · rfl
  · rfl
  · rfl
  · rfl
  · rfl
  · exact (zero_add _).symm
  · omega

theorem sumFrom_pos {f : Fin 8 → CellTallies nD τ sig Unit} {n : ℕ} {g : GSem nD τ sig} {u : Unit} (h : 0 < sumFrom f n g u) : ∃ k, 0 < f k g u := by
  by_cases hn : n < 8
  · rw [sumFrom_step f n hn] at h
    rcases Pipeline.add_pos_cases h with h | h
    · exact sumFrom_pos h
    · exact ⟨_, h⟩
  · have : sumFrom f n = 0 := by
      rcases n with _ | _ | _ | _ | _ | _ | _ | _ | n
      all_goals first | omega | rfl
    rw [this] at h; exact absurd h (Nat.lt_irrefl 0)
termination_by 8 - n

/-- What device `c` still owes once it has forwarded the chunks before `n`: the credits of the column-neighbour's stage-2
    receive cells `n, …, 7`. -/
def O₂_from (c : Dev nD) (n : ℕ) : CellTallies nD τ sig Unit := sumFrom (fun k => tallyAt (xCell (yn c) 3 k) () N) n
/-- What it still owes once it has started the stage-1 transfers before `n`. -/
def O₁_from (c : Dev nD) (n : ℕ) : CellTallies nD τ sig Unit := O₂ c + sumFrom (fun k => tallyAt (xCell (xn c) 1 k) () N) n

theorem O₂_from_zero (c : Dev nD) : O₂_from c 0 = O₂ c := rfl
theorem O₂_from_eight (c : Dev nD) : O₂_from c 8 = 0 := rfl
theorem O₂_from_step (c : Dev nD) (n : ℕ) (hn : n < 8) : O₂_from c n = O₂_from c (n + 1) + tallyAt (xCell (yn c) 3 ⟨n, hn⟩) () N :=
  sumFrom_step _ n hn
theorem O₂_from_pos {c : Dev nD} {n : ℕ} {g : GSem nD τ sig} {u : Unit} (h : 0 < O₂_from c n g u) : ∃ k', g = xCell (yn c) 3 k' := by
  obtain ⟨k, hk⟩ := sumFrom_pos h
  exact ⟨k, (Pipeline.tallyAt_pos hk).1⟩

theorem O₁_from_zero (c : Dev nD) : O₁_from c 0 = O₁ c := rfl
theorem O₁_from_eight (c : Dev nD) : O₁_from c 8 = O₂ c := add_zero _
theorem O₁_from_step (c : Dev nD) (n : ℕ) (hn : n < 8) : O₁_from c n = O₁_from c (n + 1) + tallyAt (xCell (xn c) 1 ⟨n, hn⟩) () N := by
  unfold O₁_from; rw [sumFrom_step _ n hn, add_assoc]

example (c : Dev nD) : O₂_from c 3 = O₂_from c 4 + tallyAt (xCell (yn c) 3 3) () N := rfl
example (c : Dev nD) : O₂_from c 7 = tallyAt (xCell (yn c) 3 7) () N := rfl

/-! ## What every device is owed at launch -/

theorem xsem_dma_inj {j j' : Fin 4} {k k' : Fin 8} (h : (SemLoc.dma (xsem j k) : SemLoc sig) = .dma (xsem j' k')) : j = j' ∧ k = k' := by
  have h3 : 3 + 8 * j.val + k.val = 3 + 8 * j'.val + k'.val := by
    injection h with h; exact congrArg Fin.val h
  have := j.isLt; have := j'.isLt; have := k.isLt; have := k'.isLt
  exact ⟨Fin.ext (by omega), Fin.ext (by omega)⟩

theorem bar_eq_iff {a b : Dev nD} : barCell a = barCell b ↔ a = b :=
  ⟨fun h => congrArg (fun g : GSem nD τ sig => g.1.1) h, fun h => h ▸ rfl⟩

theorem xCell_eq_iff {a b : Dev nD} {j j' : Fin 4} {k k' : Fin 8} : xCell a j k = xCell b j' k' ↔ a = b ∧ j = j' ∧ k = k' := by
  constructor
  · intro h
    exact ⟨congrArg (fun g : GSem nD τ sig => g.1.1) h, xsem_dma_inj (congrArg Prod.snd h)⟩
  · rintro ⟨rfl, rfl, rfl⟩; rfl

theorem xCell_ne_bar (a b : Dev nD) (j : Fin 4) (k : Fin 8) : xCell a j k ≠ barCell b :=
  fun h => xsem_ne_bar j k (congrArg Prod.snd h)

/-- The eight summands, read at a cell. -/
theorem sum8_apply (f : Fin 8 → CellTallies nD τ sig Unit) (g : GSem nD τ sig) (u : Unit) : sum8 f g u = ∑ k : Fin 8, f k g u := by
  rw [Fin.sum_univ_eight]
  show (f 7 + f 6 + f 5 + f 4 + f 3 + f 2 + f 1 + f 0) g u = _
  simp only [Pi.add_apply, Finsupp.add_apply]
  omega

/-- One credit to each chunk's cell of array `j` on device `a`, read at chunk `k`'s cell of array `j'` on device `b`. -/
theorem sum8_x (a b : Dev nD) (j j' : Fin 4) (k : Fin 8) (n : ℕ) :
    sum8 (fun k' => tallyAt (xCell a j k') () n) (xCell b j' k) () = if a = b ∧ j = j' then n else 0 := by
  rw [sum8_apply]
  by_cases h : a = b ∧ j = j'
  · obtain ⟨rfl, rfl⟩ := h
    have e : ∀ k' : Fin 8, tallyAt (xCell a j k') () n (xCell a j k) () = if k = k' then n else 0 := fun k' => by
      rw [tallyAt_apply]
      by_cases hk : k = k'
      · subst hk; rw [if_pos ⟨rfl, rfl⟩, if_pos rfl]
      · rw [if_neg (fun h => hk (xCell_eq_iff.mp h.1).2.2), if_neg hk]
    rw [if_pos ⟨rfl, rfl⟩, Finset.sum_congr rfl fun k' _ => e k', Finset.sum_ite_eq, if_pos (Finset.mem_univ _)]
  · rw [if_neg h]
    refine Finset.sum_eq_zero fun k' _ => ?_
    rw [tallyAt_apply, if_neg (fun h' => h ⟨(xCell_eq_iff.mp h'.1).1.symm, (xCell_eq_iff.mp h'.1).2.1.symm⟩)]

theorem sum8_x_bar (a b : Dev nD) (j : Fin 4) (n : ℕ) : sum8 (fun k' => tallyAt (xCell a j k') () n) (barCell b) () = 0 := by
  rw [sum8_apply]
  refine Finset.sum_eq_zero fun k' _ => ?_
  rw [tallyAt_apply, if_neg (fun h' => xCell_ne_bar a b j k' h'.1.symm)]

theorem tally_bar_x (a b : Dev nD) (j : Fin 4) (k : Fin 8) (n : ℕ) : tallyAt (barCell a) () n (xCell b j k) () = 0 := by
  rw [tallyAt_apply, if_neg (fun h' => xCell_ne_bar b a j k h'.1)]

/-- What device `d` owes device `c`'s barrier cell: a unit if it is `c`'s row-neighbour, a unit if it is its column-neighbour. -/
theorem owed_bar (d c : Dev nD) : O₀ d (barCell c) () = (if d = xn c then 1 else 0) + (if d = yn c then 1 else 0) := by
  have h1 : (tallyAt (barCell (xn d)) () 1 : CellTallies nD τ sig Unit) (barCell c) () = if d = xn c then 1 else 0 := by
    rw [tallyAt_apply]
    by_cases h : d = xn c
    · subst h; rw [xn_xn, if_pos ⟨rfl, rfl⟩, if_pos rfl]
    · rw [if_neg (fun h' => h (by rw [bar_eq_iff.mp h'.1, xn_xn])), if_neg h]
  have h2 : (tallyAt (barCell (yn d)) () 1 : CellTallies nD τ sig Unit) (barCell c) () = if d = yn c then 1 else 0 := by
    rw [tallyAt_apply]
    by_cases h : d = yn c
    · subst h; rw [yn_yn, if_pos ⟨rfl, rfl⟩, if_pos rfl]
    · rw [if_neg (fun h' => h (by rw [bar_eq_iff.mp h'.1, yn_yn])), if_neg h]
  unfold O₀ O₁ O₂
  rw [Pi.add_apply, Finsupp.add_apply, Pi.add_apply, Finsupp.add_apply, Pi.add_apply, Finsupp.add_apply, sum8_x_bar, sum8_x_bar, h1, h2]
  omega

/-- A stage-1 receive cell of `c` is owed its chunk's credit by `c`'s row-neighbour only; -/
theorem owed_r1 (d c : Dev nD) (k : Fin 8) : O₀ d (xCell c 1 k) () = if d = xn c then N else 0 := by
  unfold O₀ O₁ O₂
  rw [Pi.add_apply, Finsupp.add_apply, Pi.add_apply, Finsupp.add_apply, Pi.add_apply, Finsupp.add_apply, sum8_x, sum8_x, tally_bar_x, tally_bar_x,
    if_neg (fun h => absurd h.2 (by decide))]
  simp only [Nat.add_zero, Nat.zero_add]
  by_cases h : d = xn c
  · subst h; rw [xn_xn, if_pos ⟨rfl, trivial⟩, if_pos rfl]
  · rw [if_neg (fun h' => h (by rw [← h'.1, xn_xn])), if_neg h]

/-- a stage-2 receive cell by its column-neighbour only. -/
theorem owed_r3 (d c : Dev nD) (k : Fin 8) : O₀ d (xCell c 3 k) () = if d = yn c then N else 0 := by
  unfold O₀ O₁ O₂
  rw [Pi.add_apply, Finsupp.add_apply, Pi.add_apply, Finsupp.add_apply, Pi.add_apply, Finsupp.add_apply, sum8_x, sum8_x, tally_bar_x, tally_bar_x,
    if_neg (fun h : xn d = c ∧ (1 : Fin 4) = 3 => absurd h.2 (by decide))]
  simp only [Nat.add_zero]
  by_cases h : d = yn c
  · subst h; rw [yn_yn, if_pos ⟨rfl, trivial⟩, if_pos rfl]
  · rw [if_neg (fun h' => h (by rw [← h'.1, yn_yn])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]

theorem launch_r1 (c : Dev nD) (k : Fin 8) :
    tallyOn (xCell c 1 k) (launchCredit (Pipeline.owing O₀) 0 (xCell c 1 k)) = (tallyAt (xCell c 1 k) () N : CellTallies nD τ sig Unit) := by
  unfold tallyAt; refine congrArg _ (Finsupp.ext fun u => ?_); cases u
  rw [Pipeline.launchCredit_owing, Finsupp.single_eq_same, Finset.sum_congr rfl fun d _ => owed_r1 d c k, Finset.sum_ite_eq' Finset.univ (xn c) fun _ => N,
    if_pos (Finset.mem_univ _)]

theorem launch_r3 (c : Dev nD) (k : Fin 8) :
    tallyOn (xCell c 3 k) (launchCredit (Pipeline.owing O₀) 0 (xCell c 3 k)) = (tallyAt (xCell c 3 k) () N : CellTallies nD τ sig Unit) := by
  unfold tallyAt; refine congrArg _ (Finsupp.ext fun u => ?_); cases u
  rw [Pipeline.launchCredit_owing, Finsupp.single_eq_same, Finset.sum_congr rfl fun d _ => owed_r3 d c k, Finset.sum_ite_eq' Finset.univ (yn c) fun _ => N,
    if_pos (Finset.mem_univ _)]

/-- The eight semaphores of array `j`, by chunk. -/
def xEmb (j : Fin 4) : Fin 8 ↪ SemLoc sig := ⟨fun k => .dma (xsem j k), fun k k' h => (xsem_dma_inj h).2⟩

omit [FloatOps F] in
/-- The launch's credit on device `c`: its barrier's two units and the sixteen receive cells' chunk credits. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map (xEmb 1) ∪ Finset.univ.map (xEmb 3)) (fun sm h => Finset.mem_erase.mpr ⟨?_, Finset.mem_univ _⟩)).trans ?_
  · rcases Finset.mem_union.mp h with h | h
    · obtain ⟨k, _, rfl⟩ := Finset.mem_map.mp h; exact xsem_ne_bar 1 k
    · obtain ⟨k, _, rfl⟩ := Finset.mem_map.mp h; exact xsem_ne_bar 3 k
  · rw [bigSep_union (Finset.disjoint_left.mpr fun sm h1 h3 => by
        obtain ⟨k, _, rfl⟩ := Finset.mem_map.mp h1
        obtain ⟨k', _, e⟩ := Finset.mem_map.mp h3
        exact absurd (xsem_dma_inj e).1 (by decide)), bigSep_map, bigSep_map]
    exact (sep_mono_left (Entails.of_eq (bigSep_congr fun k _ => congrArg cred (launch_r1 c k)))).trans
      (sep_mono_right (Entails.of_eq (bigSep_congr fun k _ => congrArg cred (launch_r3 c k))))

/-- info: 'Cert.KernelIdealProof.rest_bar' depends on axioms: [propext, Classical.choice, Quot.sound] -/
#guard_msgs in #print axioms rest_bar
/-- info: 'Cert.KernelIdealProof.mayWait_r1' depends on axioms: [propext, Classical.choice, Quot.sound] -/
#guard_msgs in #print axioms mayWait_r1
/-- info: 'Cert.KernelIdealProof.creds_intro' depends on axioms: [propext, Classical.choice, Quot.sound] -/
#guard_msgs in #print axioms creds_intro

end Cert.KernelIdealProof

end
-- ==== Proof.Launch.lean ====
/-
  The launch of the chunked reduce-scatter: from each device's body obligation to the run of the whole program.

  Every device has thirty-three cells under the rounds discipline: its barrier cell (the runtime's semaphore, not scoped to
  the launch, so its counter at zero comes with the unscoped semaphores) and the thirty-two DMA cells of its own four arrays
  of eight. The launch element funds, for every device at once, each cell's round state, round 0 reached, the owner's
  position, and the duty tokens of the device's own cells. The cells' invariants are allocated from the counters at zero, all
  devices' under one update, since a cell's invariant is opened by its owner and by its payers alike. The tokens are then
  dealt to the payers: a barrier cell's duty `true` and the stage-1 receive duties to the row-neighbour, its duty `false`
  and the stage-2 receive duties to the column-neighbour, the send duties to the device itself; the row- and
  column-neighbour maps are involutions of the mesh, so each family is a re-indexing of itself.

  The launch credit of a device is the credit tokens of the waits others pay; the five scratch buffers are the launch's
  scoped rest; the three staging semaphores sit at level 0, below everything a device owes. The run then ends with every
  device's every array at what the proof data name: the two operand arrays as launched (never written back), the result
  array at the result block the body leaves, its one block being the whole array.
-/
import proofs.«900592_g7700000000000593_dist_rsdw_v7x_xy2x2_x_m512_d512_f2048_bf16_1_alg».proof.Proof.Data
import proofs.«900592_g7700000000000593_dist_rsdw_v7x_xy2x2_x_m512_d512_f2048_bf16_1_alg».proof.Proof.Tables
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells and the duty tokens -/

/-- The thirty-two DMA semaphores the kernel allocates: array `j`, chunk `k`. -/
abbrev osem : Fin 4 × Fin 8 → SemLoc sig := fun jk => .dma (xsem jk.1 jk.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CI → SemLoc sig) := by decide

theorem kcell_injective : Function.Injective (kcell : Dev nD × CI → GSem nD τ sig) := by
  rintro ⟨c, i⟩ ⟨c', i'⟩ h
  have h1 : c = c' := by have := congrArg (fun g : GSem nD τ sig => g.1.1) h; exact this
  subst h1
  have h2 : i = i' := csem_injective (congrArg Prod.snd h)
  subst h2; rfl

/-- Every device's thirty-three cells. -/
def kCells : Finset (GSem nD τ sig) := Finset.univ.map ⟨kcell, kcell_injective⟩

/-- The duties of a device's own cells: its barrier cell's two, one of each of its DMA cells. -/
abbrev TI : Type := Bool ⊕ (Fin 4 × Fin 8)

abbrev tokOf (ct : Dev nD × TI) : GSem nD τ sig × ℕ × Bool := match ct.2 with
  | .inl d => (barCell ct.1, 0, d)
  | .inr jk => (xCell ct.1 jk.1 jk.2, 0, false)

theorem tokOf_injective : Function.Injective (tokOf : Dev nD × TI → GSem nD τ sig × ℕ × Bool) := by
  rintro ⟨c, i⟩ ⟨c', i'⟩ h
  have h1 : c = c' := by
    have := congrArg (fun x : GSem nD τ sig × ℕ × Bool => x.1.1.1) h
    cases i <;> cases i' <;> exact this
  subst h1
  have h2 : i = i' := by
    cases i with
    | inl d =>
      cases i' with
      | inl d' => exact congrArg Sum.inl (congrArg (fun x : GSem nD τ sig × ℕ × Bool => x.2.2) h)
      | inr jk' => exact absurd (congrArg (fun x : GSem nD τ sig × ℕ × Bool => x.1.2) h) (fun h' => by cases h')
    | inr jk =>
      cases i' with
      | inl d' => exact absurd (congrArg (fun x : GSem nD τ sig × ℕ × Bool => x.1.2) h) (fun h' => by cases h')
      | inr jk' =>
        have h3 : csem (some jk) = csem (some jk') := congrArg (fun x : GSem nD τ sig × ℕ × Bool => x.1.2) h
        exact congrArg Sum.inr (Option.some.inj (csem_injective h3))
  subst h2; rfl

def kToks : Finset (GSem nD τ sig × ℕ × Bool) := Finset.univ.map ⟨tokOf, tokOf_injective⟩

/-- The launch element: the pipeline's copy and the protocol's. -/
def u₀ : UU :=
  (initOf (Pipeline.cells cfgs cellOf_inj) (Pipeline.launchToks cfgs cellOf_inj), initOf kCells kToks)

/-- The duty tokens of device `c`'s own cells. -/
def toks (c : Dev nD) : sProp 𝕄 :=
  iprop((dutyTok ER (barCell c) 0 false ∗ dutyTok ER (barCell c) 0 true)
    ∗ bigSep Finset.univ fun jk : Fin 4 × Fin 8 => dutyTok ER (xCell c jk.1 jk.2) 0 false)

/-- What the launch element deals device `c`. -/
def G (c : Dev nD) : sProp 𝕄 :=
  iprop((bigSep Finset.univ fun i : CI => roundState ER (rd m ρ) (kcell (c, i)) 0)
    ∗ (bigSep Finset.univ fun i : CI => iprop(atPos ER (kcell (c, i)) 0 ∅ 0 ∗ reached ER (kcell (c, i)) 0)) ∗ toks c)

/-- What the global step makes of it. -/
def G' (c : Dev nD) : sProp 𝕄 := iprop(∃ K, ghost m ρ K c)

omit [FloatOps F] in
theorem bigSep_bool' (Φ : Bool → sProp 𝕄) : bigSep Finset.univ Φ = iprop(Φ false ∗ Φ true) :=
  bigSep_univ_eq_bigSepL [false, true] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A family over `Option α`: the summand at `none` and the family over `α`. -/
theorem bigSep_option {α : Type} [Fintype α] [DecidableEq α] (Φ : Option α → sProp 𝕄) :
    bigSep Finset.univ Φ = iprop(Φ none ∗ bigSep Finset.univ fun a => Φ (some a)) := by
  have h : (Finset.univ.erase none : Finset (Option α)) = Finset.univ.map Function.Embedding.some := by
    ext x; cases x <;> simp
  rw [bigSep_univ_at Φ none, h, BI.bigSep_map]; rfl

theorem fund : BI.own (ER (initOf kCells kToks)) ⊢ (|==> bigSep Finset.univ (G m ρ) : sProp 𝕄) := by
  have hX (Φ : GSem nD τ sig → sProp 𝕄) : bigSep kCells Φ = bigSep Finset.univ fun c : Dev nD => bigSep Finset.univ fun i : CI => Φ (kcell (c, i)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [BI.bigSep_univ_sum, bigSep_bool']; rfl
  iintro HX
  imod (Rounds.fund ER (rd m ρ) kCells kToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants allocated -/

omit [FloatOps F] in
/-- The kernel's own semaphores are the thirty-two DMA cells' counters; -/
theorem ownSems0_eq (c : Dev nD) : (Pipeline.ownSems0 (Ix := Unit) (Name := ℕ) (U := UU) (Lvl := ℕ) (Val := Elt F) (τ := τ) osem c : sProp 𝕄)
    = bigSep Finset.univ fun jk : Fin 4 × Fin 8 => semVal (xCell c jk.1 jk.2) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (rd m ρ) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (rd m ρ) (kcell (c, i)) 0)
      ⊢ (|={Set.univ}=> bigSep Finset.univ fun i : CI => iprop(∃ κ : ℕ, cellInv ER (rd m ρ) κ (kcell (c, i))) : sProp 𝕄) from by
        rw [← bigSep_sep']
        exact (bigSep_mono fun i _ => (Rounds.body_intro ER (rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Each device's ghost state out of all devices' -/

/-- Every cell's invariant at the names `K`, and round 0 of every cell reached. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) :
    (bigSep Finset.univ fun ck : Dev nD × CI => (cellInv ER (rd m ρ) (K ck) (kcell ck) : sProp 𝕄)) ⊢ cellInv ER (rd m ρ) (K ck) (kcell ck) :=
  bigSep_elim (Finset.mem_univ ck)
omit [FloatOps F] in
theorem reached_at (ck : Dev nD × CI) :
    (bigSep Finset.univ fun ck : Dev nD × CI => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss c ∗ payToks c)

theorem ghost_intro (K : Dev nD × CI → ℕ) (c : Dev nD) : iprop(records m ρ K ∗ linear c) ⊢ G' m ρ c := by
  unfold records linear G' ghost
  iintro ⟨⟨#HI, #HR⟩, Hpos, Htok⟩
  iexists K
  isplitr
  · unfold invs
    isplitr; · iapply (BI.bigSep_intro_persistent fun i _ => inv_at m ρ K (c, i)); iexact HI
    isplitr; · iapply (inv_at m ρ K (xn c, none)); iexact HI
    isplitr; · iapply (inv_at m ρ K (yn c, none)); iexact HI
    isplitr; · iapply (BI.bigSep_intro_persistent fun k _ => inv_at m ρ K (xn c, some (1, k))); iexact HI
    iapply (BI.bigSep_intro_persistent fun k _ => inv_at m ρ K (yn c, some (3, k))); iexact HI
  isplitr
  · unfold reach
    isplitr; · iapply (reached_at (F := F) (xn c, none)); iexact HR
    isplitr; · iapply (reached_at (F := F) (yn c, none)); iexact HR
    iapply (BI.bigSep_intro_persistent fun jk _ => reached_at (F := F) (c, some jk)); iexact HR
  isplitl [Hpos]; · iexact Hpos
  iexact Htok

omit [FloatOps F] in
/-- A family over the devices, read at each device's row-neighbour, or at its column-neighbour. -/
theorem along_x (Φ : Dev nD → sProp 𝕄) : bigSep Finset.univ Φ ⊢ bigSep Finset.univ fun c => Φ (xn c) :=
  Entails.of_eq (bigSep_univ_equiv xnE Φ)
omit [FloatOps F] in
theorem along_y (Φ : Dev nD → sProp 𝕄) : bigSep Finset.univ Φ ⊢ bigSep Finset.univ fun c => Φ (yn c) :=
  Entails.of_eq (bigSep_univ_equiv ynE Φ)

omit [FloatOps F] in
theorem toks_eq (c : Dev nD) : (toks c : sProp 𝕄) = iprop((dutyTok ER (barCell c) 0 false ∗ dutyTok ER (barCell c) 0 true)
    ∗ (bigSep Finset.univ fun k : Fin 8 => dutyTok ER (xCell c 0 k) 0 false) ∗ (bigSep Finset.univ fun k : Fin 8 => dutyTok ER (xCell c 1 k) 0 false)
    ∗ (bigSep Finset.univ fun k : Fin 8 => dutyTok ER (xCell c 2 k) 0 false) ∗ (bigSep Finset.univ fun k : Fin 8 => dutyTok ER (xCell c 3 k) 0 false)) := by
  unfold toks; rw [bigSep_univ_prod, bigSep_fin4]

omit [FloatOps F] in
/-- The tokens dealt to their payers: a barrier cell's `true` token and the stage-1 receive tokens to the row-neighbour, its
    `false` token and the stage-2 receive tokens to the column-neighbour; the send tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  iintro ⟨⟨HbF, HbT⟩, H0, H1, H2, H3⟩
  ihave HbT' := (along_x (F := F) fun c => dutyTok ER (barCell c) 0 true) $$ HbT
  ihave HbF' := (along_y (F := F) fun c => dutyTok ER (barCell c) 0 false) $$ HbF
  ihave H1' := (along_x (F := F) fun c => bigSep Finset.univ fun k : Fin 8 => dutyTok ER (xCell c 1 k) 0 false) $$ H1
  ihave H3' := (along_y (F := F) fun c => bigSep Finset.univ fun k : Fin 8 => dutyTok ER (xCell c 3 k) 0 false) $$ H3
  isplitl [HbT']; · iexact HbT'
  isplitl [HbF']; · iexact HbF'
  isplitl [H1']; · iexact H1'
  isplitl [H0]; · iexact H0
  isplitl [H3']; · iexact H3'
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (rd m ρ) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (poss c : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Device `c`'s array of window `w` after the launch's one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, if each device's body
    meets its obligation: every weakly fair execution of the program terminates, and every final state has each device's
    three arrays at the contents the proof data name. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The array of `x` after the run holds what it held; -/
theorem finalA_x (c : Dev nD) : finalA m ρ c (0 : Fin 3) = (s₀ m ρ).mem (win0_0.arr.view.loc (c : Thread nD τ)) :=
  (dats (F := F) m ρ 0 c).arrAt_in (0 : Fin 3) rfl _
/-- so does the array of `dy`; -/
theorem finalA_dy (c : Dev nD) : finalA m ρ c (1 : Fin 3) = (s₀ m ρ).mem (win0_1.arr.view.loc (c : Thread nD τ)) :=
  (dats (F := F) m ρ 0 c).arrAt_in (1 : Fin 3) rfl _

section Out

-- the result block is only ever named here, never looked into
attribute [local irreducible] outAt

/-- What the write-back after the one point writes is the result block the body leaves: the window is not cut, so every
    index of the block is moved. -/
theorem flushed_out (c : Dev nD) : (dats (F := F) m ρ 0 c).flushed (2 : Fin 3) t₀ = outAt m ρ c :=
  funext fun j => congrArg (outAt m ρ c) (funext fun a => Fin.ext rfl)

/-- the result array holds what the body left in its staging buffer: the window's one block is the whole array, written
    back after the one point. -/
theorem finalA_out (c : Dev nD) : finalA m ρ c (2 : Fin 3) = outAt m ρ c := by
  have h := (dats (F := F) m ρ 0 c).arrAt_succ (2 : Fin 3) t₀
  rw [flush0_2 t₀, if_pos rfl] at h
  refine (show finalA m ρ c (2 : Fin 3) = (dats m ρ 0 c).arrAt (2 : Fin 3) (t₀.val + 1) from
    congrArg ((dats m ρ 0 c).arrAt (2 : Fin 3)) cfg0_N).trans (h.trans ?_)
  rw [← flushed_out m ρ c]
  generalize (dats (F := F) m ρ 0 c).flushed (2 : Fin 3) t₀ = Y
  exact Memref.write_access_unit_zero_univ (Elt F) main_v1 (funext fun a => Nat.zero_mul _) _ _ Y

end Out

/-- info: 'Cert.KernelIdealProof.run_main' depends on axioms: [propext, Classical.choice, Quot.sound] -/
#guard_msgs in #print axioms run_main

/-- info: 'Cert.KernelIdealProof.finalA_out' depends on axioms: [propext, Classical.choice, Quot.sound] -/
#guard_msgs in #print axioms finalA_out

end Cert.KernelIdealProof

end
-- ==== Proof.Runs.lean ====
/-
  The run of the whole program with every device's final arrays named: the result array at the result block, the two operand
  arrays as launched. The frame is that run with the value dropped.
-/
import proofs.«900592_g7700000000000593_dist_rsdw_v7x_xy2x2_x_m512_d512_f2048_bf16_1_alg».proof.Proof.Launch

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- If each device's body meets its obligation, then from any memory with zero counters every weakly fair execution of the
    program terminates, and in every final state each device's result array holds its result block and its two operand
    arrays hold what they held. -/
theorem run_named (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c (2 : Fin 3)).trans (finalA_out m ρ c), (h c (0 : Fin 3)).trans (finalA_x m ρ c),
    (h c (1 : Fin 3)).trans (finalA_dy m ρ c)⟩) (run_main m ρ hbody)

/-- The same run with the value dropped: both operand arrays end unchanged on every device. -/
theorem frame_of_body (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ hbody)

/-- info: 'Cert.KernelIdealProof.run_named' depends on axioms: [propext, Classical.choice, Quot.sound] -/
#guard_msgs in #print axioms run_named

end Cert.KernelIdealProof

end
-- ==== Proof.Slots.lean ====
/-
  The eight chunks of a buffer of eight chunks.

  A buffer of shape 8×128×256 is cut along its leading axis into eight chunks of 128×256; an index lies in chunk `k`
  exactly when its leading coordinate is `k`. So the chunks' element sets are pairwise disjoint and cover the buffer,
  a points-to of the whole buffer is the separating conjunction of the eight chunks' points-tos at the same contents
  (cut), and eight chunk points-tos, each at contents of its own, are a points-to of the whole buffer at contents that
  agree with the `k`-th on chunk `k` (glue). A chunk's points-to splits along the two halves of the full share. A load
  at a chunk's box reads what was last stored or landed there.
-/
import proofs.«900592_g7700000000000593_dist_rsdw_v7x_xy2x2_x_m512_d512_f2048_bf16_1_alg».proof.Proof.Cells
import Idealize.ShloMosaic.Rules.PointsTo
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The chunks' rectangles partition the shape -/

/-- An index lies in chunk `k`'s rectangle exactly when its leading coordinate is `k`. -/
theorem mem_slotRect {k : Fin 8} {i : S8x128x256.Idx} : i ∈ (slotRect k).set ↔ (i 0).val = k.val := by
  rw [Rect.mem_set_unit]
  constructor
  · intro h
    have h0 : k.val ≤ (i 0).val ∧ (i 0).val < k.val + 1 := h 0
    omega
  · intro h a
    match a with
    | ⟨0, _⟩ =>
      show k.val ≤ (i 0).val ∧ (i 0).val < k.val + 1
      omega
    | ⟨1, _⟩ =>
      have h1 : (i 1).val < 128 := (i 1).isLt
      show 0 ≤ (i 1).val ∧ (i 1).val < 0 + 128
      omega
    | ⟨2, _⟩ =>
      have h2 : (i 2).val < 256 := (i 2).isLt
      show 0 ≤ (i 2).val ∧ (i 2).val < 0 + 256
      omega

/-- Two different chunks' rectangles share no index. -/
theorem slotRect_disjoint {k k' : Fin 8} (h : k ≠ k') : Disjoint (slotRect k).set (slotRect k').set := by
  rw [Finset.disjoint_left]
  intro i hi hi'
  exact h (Fin.ext ((mem_slotRect.mp hi).symm.trans (mem_slotRect.mp hi')))

/-- The chunk an index lies in: its leading coordinate. -/
def chunkIx (i : S8x128x256.Idx) : Fin 8 := ⟨(i 0).val, (i 0).isLt⟩

theorem mem_slotRect_chunkIx (i : S8x128x256.Idx) : i ∈ (slotRect (chunkIx i)).set := mem_slotRect.mpr rfl

/-! ## The chunks' element sets partition the buffer's -/

section Sets
variable (M : Memref sig .tc .vmem S8x128x256 .bf16)

/-- A chunk is in its buffer. -/
theorem slot_loc (k : Fin 8) (c : Dev nD) : (slot M k).view.loc (c : Thread nD τ) = M.view.loc (c : Thread nD τ) := rfl

/-- A chunk's elements are the buffer's elements under the chunk's rectangle. -/
theorem slot_set (k : Fin 8) : (slot M k).view.set = (slotRect k).set.map M.view.emb := by
  show ((M.view.slice (slotRect k)).reshape S128x256 _).set = _
  rw [View.set_reshape, View.set_slice]

/-- Different chunks share no element. -/
theorem slot_set_disjoint {k k' : Fin 8} (h : k ≠ k') : Disjoint (slot M k).view.set (slot M k').view.set := by
  rw [slot_set, slot_set]
  exact (Finset.disjoint_map _).mpr (slotRect_disjoint h)

/-- The eight chunks cover the buffer's elements. -/
theorem slot_set_biUnion : Finset.univ.biUnion (fun k : Fin 8 => (slot M k).view.set) = M.view.set := by
  ext i
  constructor
  · intro hi
    obtain ⟨k, -, hk⟩ := Finset.mem_biUnion.mp hi
    rw [slot_set] at hk
    obtain ⟨x, -, rfl⟩ := Finset.mem_map.mp hk
    exact M.view.emb_mem_set x
  · intro hi
    have hi' : i ∈ Finset.univ.map M.view.emb := hi
    obtain ⟨x, -, rfl⟩ := Finset.mem_map.mp hi'
    refine Finset.mem_biUnion.mpr ⟨chunkIx x, Finset.mem_univ _, ?_⟩
    rw [slot_set]
    exact Finset.mem_map_of_mem _ (mem_slotRect_chunkIx x)

end Sets

/-! ## Cut and glue -/

section CutGlue
variable (M : Memref sig .tc .vmem S8x128x256 .bf16) (c : Dev nD) (q : PosShare TreeShare)

/-- Chunk `k`'s elements, among the elements of the buffer at its location on device `c`. -/
abbrev slotSet (k : Fin 8) : Finset (Idx (M.view.loc (c : Thread nD τ))) := (slot M k).view.set

omit [FloatOps F] in
/-- CUT (and its converse): a points-to of the buffer's elements is the eight chunks' points-tos, at the same contents. -/
theorem cut_eq (f : Buf (Elt F) (M.view.loc (c : Thread nD τ))) :
    (M.view.loc (c : Thread nD τ) ↦[M.view.set]{q} f : sProp 𝕄)
      = bigSep Finset.univ fun k : Fin 8 => ((slot M k).view.loc (c : Thread nD τ) ↦[(slot M k).view.set]{q} f) := by
  have h : (M.view.loc (c : Thread nD τ) ↦[Finset.univ.biUnion (slotSet M c)]{q} f : sProp 𝕄)
      = bigSep Finset.univ fun k : Fin 8 => (M.view.loc (c : Thread nD τ) ↦[slotSet M c k]{q} f) :=
    pointsTo_biUnion (ℓ := M.view.loc (c : Thread nD τ)) (q := q) (f := f) Finset.univ (slotSet M c)
      fun k _ k' _ h => slot_set_disjoint M h
  have hu : Finset.univ.biUnion (slotSet M c) = M.view.set := slot_set_biUnion M
  rw [hu] at h
  exact h

omit [FloatOps F] in
/-- GLUE, the contents named: eight chunk points-tos, chunk `k` at `fs k`, are a points-to of the buffer's elements at
    contents that agree with `fs k` on chunk `k`. -/
theorem glue (fs : Fin 8 → Buf (Elt F) (M.view.loc (c : Thread nD τ))) :
    (bigSep Finset.univ fun k : Fin 8 => ((slot M k).view.loc (c : Thread nD τ) ↦[(slot M k).view.set]{q} fs k) : sProp 𝕄)
      ⊢ iprop(∃ g, ⌜∀ k : Fin 8, ∀ i ∈ (slot M k).view.set, g i = fs k i⌝ ∗ M.view.loc (c : Thread nD τ) ↦[M.view.set]{q} g) := by
  have h : (bigSep Finset.univ fun k : Fin 8 => (M.view.loc (c : Thread nD τ) ↦[slotSet M c k]{q} fs k) : sProp 𝕄)
      ⊢ iprop(∃ g, ⌜∀ k ∈ (Finset.univ : Finset (Fin 8)), ∀ i ∈ slotSet M c k, g i = fs k i⌝
          ∗ M.view.loc (c : Thread nD τ) ↦[Finset.univ.biUnion (slotSet M c)]{q} g) :=
    pointsTo_biUnion_join (ℓ := M.view.loc (c : Thread nD τ)) (q := q) Finset.univ (slotSet M c) fs (fs 0)
      fun k _ k' _ h => slot_set_disjoint M h
  have hu : Finset.univ.biUnion (slotSet M c) = M.view.set := slot_set_biUnion M
  rw [hu] at h
  refine h.trans ?_
  iintro ⟨%g, %hg, H⟩
  iexists g
  isplitr
  · ipureintro; exact fun k => hg k (Finset.mem_univ k)
  · iexact H

end CutGlue

/-! ## Choosing witnesses under a finite separating conjunction -/

omit [FloatOps F] in
/-- A finite separating conjunction of existentials has a choice of witnesses. -/
theorem bigSep_exists_choose {I : Type} [DecidableEq I] {α : Type} (s : Finset I) (Φ : I → α → sProp 𝕄) (d : α) :
    (bigSep s fun i => iprop(∃ x, Φ i x) : sProp 𝕄) ⊢ iprop(∃ G : I → α, bigSep s fun i => Φ i (G i)) := by
  induction s using Finset.induction_on with
  | empty =>
    iintro -
    iexists (fun _ => d)
    rw [bigSep_empty]
    iempintro
  | insert i s hi ih =>
    have key : ∀ (x : α) (G : I → α),
        bigSep (insert i s) (fun j => Φ j (Function.update G i x j)) = iprop(Φ i x ∗ bigSep s (fun j => Φ j (G j))) := by
      intro x G
      have hc : bigSep s (fun j => Φ j (Function.update G i x j)) = bigSep s (fun j => Φ j (G j)) :=
        bigSep_congr fun j hj => by rw [Function.update_of_ne (fun e : j = i => hi (e ▸ hj))]
      rw [bigSep_insert hi, Function.update_self, hc]
      rfl
    rw [bigSep_insert hi]
    refine (show iprop((∃ x, Φ i x) ∗ bigSep s (fun i => iprop(∃ x, Φ i x))) ⊢ _ from ?_)
    iintro ⟨⟨%x, Hx⟩, Hs⟩
    ihave H := ih $$ Hs
    icases H with ⟨%G, H⟩
    iexists (Function.update G i x)
    rw [key x G]
    isplitl [Hx]
    · iexact Hx
    · iexact H

/-! ## The same for a buffer held whole, and with the chunks' contents unnamed -/

section Whole
variable (M : Memref sig .tc .vmem S8x128x256 .bf16) (c : Dev nD)

omit [FloatOps F] in
/-- CUT a whole buffer into its eight chunks. -/
theorem cut (hM : M.view.set = Finset.univ) (f : Buf (Elt F) (M.view.loc (c : Thread nD τ))) :
    (M.view.loc (c : Thread nD τ) ↦{fullShare} f : sProp 𝕄)
      ⊢ bigSep Finset.univ fun k : Fin 8 => ((slot M k).view.loc (c : Thread nD τ) ↦[(slot M k).view.set]{fullShare} f) := by
  rw [← cut_eq M c fullShare f, hM]

omit [FloatOps F] in
/-- The converse: eight chunks at one contents are the whole buffer at it. -/
theorem uncut (hM : M.view.set = Finset.univ) (f : Buf (Elt F) (M.view.loc (c : Thread nD τ))) :
    (bigSep Finset.univ fun k : Fin 8 => ((slot M k).view.loc (c : Thread nD τ) ↦[(slot M k).view.set]{fullShare} f) : sProp 𝕄)
      ⊢ M.view.loc (c : Thread nD τ) ↦{fullShare} f := by
  rw [← cut_eq M c fullShare f, hM]

omit [FloatOps F] in
/-- GLUE eight chunks, chunk `k` at `fs k`, into the whole buffer, at contents that agree with `fs k` on chunk `k`. -/
theorem glue_whole (hM : M.view.set = Finset.univ) (fs : Fin 8 → Buf (Elt F) (M.view.loc (c : Thread nD τ))) :
    (bigSep Finset.univ fun k : Fin 8 => ((slot M k).view.loc (c : Thread nD τ) ↦[(slot M k).view.set]{fullShare} fs k) : sProp 𝕄)
      ⊢ iprop(∃ g, ⌜∀ k : Fin 8, ∀ i ∈ (slot M k).view.set, g i = fs k i⌝ ∗ M.view.loc (c : Thread nD τ) ↦{fullShare} g) := by
  have h := glue (F := F) M c fullShare fs
  rw [hM] at h
  exact h

/-- Chunk `k`'s points-to on device `c` at contents `f`, the contents typed at the buffer's location. -/
abbrev slotPts (k : Fin 8) (f : Buf (Elt F) (M.view.loc (c : Thread nD τ))) : sProp 𝕄 :=
  (slot M k).view.loc (c : Thread nD τ) ↦[(slot M k).view.set]{fullShare} f

omit [FloatOps F] in
/-- GLUE with the contents unnamed: eight chunks, each at some contents, are the whole buffer at some contents. -/
theorem glue_ex (hM : M.view.set = Finset.univ) :
    (bigSep Finset.univ fun k : Fin 8 => iprop(∃ f : Buf (Elt F) ((slot M k).view.loc (c : Thread nD τ)),
        (slot M k).view.loc (c : Thread nD τ) ↦[(slot M k).view.set]{fullShare} f) : sProp 𝕄)
      ⊢ iprop(∃ f, M.view.loc (c : Thread nD τ) ↦{fullShare} f) := by
  -- the contents of chunk 0 serve where a default is wanted
  have key : ∀ (f₀ : Buf (Elt F) (M.view.loc (c : Thread nD τ))) (G : Fin 8 → Buf (Elt F) (M.view.loc (c : Thread nD τ))),
      bigSep Finset.univ (fun k : Fin 8 => slotPts (F := F) M c k (Function.update G 0 f₀ k))
        = iprop(slotPts (F := F) M c 0 f₀ ∗ bigSep (Finset.univ.erase (0 : Fin 8)) (fun k : Fin 8 => slotPts (F := F) M c k (G k))) := by
    intro f₀ G
    have hc : bigSep (Finset.univ.erase (0 : Fin 8)) (fun k : Fin 8 => slotPts (F := F) M c k (Function.update G 0 f₀ k))
        = bigSep (Finset.univ.erase (0 : Fin 8)) (fun k : Fin 8 => slotPts (F := F) M c k (G k)) :=
      bigSep_congr fun k hk => by rw [Function.update_of_ne (Finset.ne_of_mem_erase hk)]
    rw [bigSep_univ_split (0 : Fin 8), Function.update_self, hc]
    rfl
  have hsplit : (bigSep Finset.univ fun k : Fin 8 => iprop(∃ f : Buf (Elt F) (M.view.loc (c : Thread nD τ)), slotPts (F := F) M c k f) : sProp 𝕄)
      = iprop((∃ f : Buf (Elt F) (M.view.loc (c : Thread nD τ)), slotPts (F := F) M c 0 f)
          ∗ bigSep (Finset.univ.erase (0 : Fin 8)) (fun k : Fin 8 => iprop(∃ f : Buf (Elt F) (M.view.loc (c : Thread nD τ)), slotPts (F := F) M c k f))) := by
    rw [bigSep_univ_split (0 : Fin 8)]
    rfl
  refine (show (bigSep Finset.univ fun k : Fin 8 => iprop(∃ f : Buf (Elt F) (M.view.loc (c : Thread nD τ)), slotPts (F := F) M c k f) : sProp 𝕄) ⊢ _ from ?_)
  rw [hsplit]
  iintro ⟨⟨%f₀, H₀⟩, Hr⟩
  ihave Hr' := (bigSep_exists_choose (F := F) (Finset.univ.erase (0 : Fin 8))
    (fun (k : Fin 8) (f : Buf (Elt F) (M.view.loc (c : Thread nD τ))) => slotPts (F := F) M c k f) f₀) $$ Hr
  icases Hr' with ⟨%G, Hr'⟩
  ihave Hall : (bigSep Finset.univ (fun k : Fin 8 => slotPts (F := F) M c k (Function.update G 0 f₀ k)) : sProp 𝕄) $$ [H₀ Hr']
  · rw [key f₀ G]
    isplitl [H₀]
    · iexact H₀
    · iexact Hr'
  ihave Hg := (glue_whole (F := F) M c hM (Function.update G 0 f₀)) $$ Hall
  icases Hg with ⟨%g, -, Hg⟩
  iexists g
  iexact Hg

end Whole

/-! ## What a chunk reads -/

section Reads
variable (M : Memref sig .tc .vmem S8x128x256 .bf16) (k : Fin 8)

omit [FloatOps F] in
/-- A load at a chunk's box depends only on the contents of the chunk's elements. -/
theorem readAt_slot_congr {Val : EltTy → Type} {f g : M.view.ty.Contents Val} (h : ∀ i ∈ (slot M k).view.set, f i = g i) :
    M.view.readAt Val (slotRect k).toLoadRect f = M.view.readAt Val (slotRect k).toLoadRect g := by
  have hs : (slot M k).view.set = (M.view.slice (slotRect k)).set := View.set_reshape _ _
  rw [hs] at h
  exact View.read_congr (v := M.view.slice (slotRect k)) h

omit [FloatOps F] in
/-- A load at a chunk's box right after an unmasked store of `w` there reads `w`. -/
theorem readAt_store {Val : EltTy → Type} (f : M.view.ty.Contents Val) (w : S1x128x256.Idx → Val .bf16) :
    M.view.readAt Val (slotRect k).toLoadRect ((M.access (slotRect k)).write Val f w Finset.univ) = w :=
  View.read_write_univ (v := M.view.slice (slotRect k)) f w

omit [FloatOps F] in
/-- A store at one chunk's box is not seen by a load at another's. -/
theorem readAt_store_ne {Val : EltTy → Type} {k' : Fin 8} (h : k ≠ k') (f : M.view.ty.Contents Val) (w : S1x128x256.Idx → Val .bf16) :
    M.view.readAt Val (slotRect k).toLoadRect ((M.access (slotRect k')).write Val f w Finset.univ)
      = M.view.readAt Val (slotRect k).toLoadRect f := by
  refine readAt_slot_congr M k fun i hi => View.write_of_not_mem _ _ _ fun hi' => ?_
  have h' : i ∈ (slot M k').view.set := by
    have hs : (slot M k').view.set = (M.view.slice (slotRect k')).set := View.set_reshape _ _
    rw [hs]; exact hi'
  have hd : Disjoint (slot M k).view.set (slot M k').view.set := slot_set_disjoint M h
  exact Finset.disjoint_left.mp hd hi h'

end Reads

section Landing
variable (src dst : Memref sig .tc .vmem S8x128x256 .bf16) (k : Fin 8)

omit [FloatOps F] in
/-- What chunk `k` of a buffer reads is the load at the chunk's box, re-indexed (the unit axis dropped). -/
theorem slot_read {Val : EltTy → Type} (f : src.view.ty.Contents Val) :
    (slot src k).view.read Val f
      = shapeCast S128x256 (src.view.readAt Val (slotRect k).toLoadRect f) shapeCasts_S1x128x256_S128x256 := rfl

omit [FloatOps F] in
/-- LANDING: after chunk `k` of `src` is transferred into chunk `k` of `dst`, a load at the chunk's box of `dst` reads
    what a load at the chunk's box of `src` read. -/
theorem readAt_landing {Val : EltTy → Type} (fs : src.view.ty.Contents Val) (fd : dst.view.ty.Contents Val) :
    dst.view.readAt Val (slotRect k).toLoadRect ((slot dst k).view.write Val fd ((slot src k).view.read Val fs) Finset.univ)
      = src.view.readAt Val (slotRect k).toLoadRect fs := by
  have h : (slot dst k).view.read Val ((slot dst k).view.write Val fd ((slot src k).view.read Val fs) Finset.univ)
      = (slot src k).view.read Val fs := View.read_write_univ _ _
  rw [slot_read, slot_read] at h
  have h' := congrArg (fun v => shapeCast S1x128x256 v shapeCasts_S128x256_S1x128x256) h
  simp only [shapeCast_shapeCast] at h'
  exact h'

omit [FloatOps F] in
/-- A transfer into chunk `k'` of `dst` is not seen by a load at another chunk's box. -/
theorem readAt_landing_ne {Val : EltTy → Type} {k' : Fin 8} (h : k ≠ k') (fd : dst.view.ty.Contents Val) (w : S128x256.Idx → Val .bf16) :
    dst.view.readAt Val (slotRect k).toLoadRect ((slot dst k').view.write Val fd w Finset.univ)
      = dst.view.readAt Val (slotRect k).toLoadRect fd := by
  refine readAt_slot_congr dst k fun i hi => View.write_of_not_mem _ _ _ fun hi' => ?_
  have hd : Disjoint (slot dst k).view.set (slot dst k').view.set := slot_set_disjoint dst h
  have h' : i ∈ (slot dst k').view.set := hi'
  exact Finset.disjoint_left.mp hd hi h'

end Landing

/-! ## A chunk's points-to in two half shares -/

omit [FloatOps F] in
/-- HALVES: a chunk's points-to at the full share is its two half-share points-tos, at the same contents. -/
theorem slot_halves (M : Memref sig .tc .vmem S8x128x256 .bf16) (k : Fin 8) (c : Dev nD)
    (f : Buf (Elt F) ((slot M k).view.loc (c : Thread nD τ))) :
    ((slot M k).view.loc (c : Thread nD τ) ↦[(slot M k).view.set]{fullShare} f : sProp 𝕄)
      ⊣⊢ iprop(((slot M k).view.loc (c : Thread nD τ) ↦[(slot M k).view.set]{fullShare.left} f)
          ∗ ((slot M k).view.loc (c : Thread nD τ) ↦[(slot M k).view.set]{fullShare.right} f)) :=
  pointsTo_share (PosShare.mem_left_op_right fullShare)

/-! ## The elements a load or a store at a chunk's box touches are the chunk's -/

section Boxes
variable (M : Memref sig .tc .vmem S8x128x256 .bf16) (k : Fin 8)

omit [FloatOps F] in
theorem slot_load_eq : M.view.setOn (slotRect k).toLoadRect.set = (slot M k).view.set := (slot_set M k).symm

omit [FloatOps F] in
theorem slot_access_eq : (M.access (slotRect k)).set = (slot M k).view.set :=
  (View.set_reshape (M.view.slice (slotRect k)) squeezes_S1x128x256_S128x256.numel_eq).symm

omit [FloatOps F] in
theorem slot_load_sub : M.view.setOn (slotRect k).toLoadRect.set ⊆ (slot M k).view.set := (slot_load_eq M k).le

omit [FloatOps F] in
theorem slot_access_sub : (M.access (slotRect k)).set ⊆ (slot M k).view.set := (slot_access_eq M k).le

omit [FloatOps F] in
theorem slot_store_sub : (M.access (slotRect k)).setOn Finset.univ ⊆ (slot M k).view.set := (slot_access_eq M k).le

end Boxes

example : sndM.view.setOn (Rect.unit (s := S8x128x256) ![3, 0, 0] S1x128x256.size inb_S8x128x256_S1x128x256_3_0_0).toLoadRect.set
    ⊆ (slot sndM 3).view.set := slot_load_sub sndM 3
example : (r1M.access (Rect.unit (s := S8x128x256) ![3, 0, 0] S1x128x256.size inb_S8x128x256_S1x128x256_3_0_0)).set
    ⊆ (slot r1M 3).view.set := slot_access_sub r1M 3
example : (r2M.access (Rect.unit (s := S8x128x256) ![7, 0, 0] S1x128x256.size inb_S8x128x256_S1x128x256_7_0_0)).setOn Finset.univ
    ⊆ (slot r2M 7).view.set := slot_store_sub r2M 7

/-! ## The three buffers of eight chunks -/

omit [FloatOps F] in
theorem snd_set : (sndM : Memref sig .tc .vmem S8x128x256 .bf16).view.set = Finset.univ := View.set_whole _
omit [FloatOps F] in
theorem r1_set : (r1M : Memref sig .tc .vmem S8x128x256 .bf16).view.set = Finset.univ := View.set_whole _
omit [FloatOps F] in
theorem r2_set : (r2M : Memref sig .tc .vmem S8x128x256 .bf16).view.set = Finset.univ := View.set_whole _

example (c : Dev nD) (k : Fin 8) : (slot sndM k).view.loc (c : Thread nD τ) = (c : Thread nD τ).loc cc0_scratch2 := rfl
example (c : Dev nD) (k : Fin 8) : (slot r1M k).view.loc (c : Thread nD τ) = (c : Thread nD τ).loc cc0_scratch3 := rfl
example (c : Dev nD) (k : Fin 8) : (slot r2M k).view.loc (c : Thread nD τ) = (c : Thread nD τ).loc cc0_scratch4 := rfl

example (c : Dev nD) (f : Buf (Elt F) ((c : Thread nD τ).loc cc0_scratch2)) :
    ((c : Thread nD τ).loc cc0_scratch2 ↦{fullShare} f : sProp 𝕄)
      ⊢ bigSep Finset.univ fun k : Fin 8 => ((slot sndM k).view.loc (c : Thread nD τ) ↦[(slot sndM k).view.set]{fullShare} f) :=
  cut sndM c snd_set f

example (c : Dev nD) :
    (bigSep Finset.univ fun k : Fin 8 => iprop(∃ f : Buf (Elt F) ((slot r1M k).view.loc (c : Thread nD τ)),
        (slot r1M k).view.loc (c : Thread nD τ) ↦[(slot r1M k).view.set]{fullShare} f) : sProp 𝕄)
      ⊢ iprop(∃ f, (c : Thread nD τ).loc cc0_scratch3 ↦{fullShare} f) :=
  glue_ex r1M c r1_set

/-- info: 'Cert.KernelIdealProof.glue_ex' depends on axioms: [propext, Classical.choice, Quot.sound] -/
#guard_msgs in #print axioms glue_ex
/-- info: 'Cert.KernelIdealProof.cut_eq' depends on axioms: [propext, Classical.choice, Quot.sound] -/
#guard_msgs in #print axioms cut_eq
/-- info: 'Cert.KernelIdealProof.readAt_landing' depends on axioms: [propext, Classical.choice, Quot.sound] -/
#guard_msgs in #print axioms readAt_landing
/-- info: 'Cert.KernelIdealProof.slot_halves' depends on axioms: [propext, Classical.choice, Quot.sound] -/
#guard_msgs in #print axioms slot_halves

end Cert.KernelIdealProof

end
-- ==== Proof.Steps.lean ====
/-
  The two addressed transfers of a chunk, as rules of their own.

  Stage 1: device `c` sends chunk `k` of its send buffer into chunk `k` of its row-neighbour's first landing buffer; the
  neighbour's landing chunk then reads what the send chunk read, which is what its receive cell's payload says.
  Stage 2: device `c` forwards chunk `k` of its first landing buffer, lending one half share of it, into chunk `k` of its
  column-neighbour's second landing buffer.
-/
import proofs.«900592_g7700000000000593_dist_rsdw_v7x_xy2x2_x_m512_d512_f2048_bf16_1_alg».proof.Proof.Data
import proofs.«900592_g7700000000000593_dist_rsdw_v7x_xy2x2_x_m512_d512_f2048_bf16_1_alg».proof.Proof.Tables
import proofs.«900592_g7700000000000593_dist_rsdw_v7x_xy2x2_x_m512_d512_f2048_bf16_1_alg».proof.Proof.Slots

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem slot_amount (M : Memref sig .tc .vmem S8x128x256 .bf16) (k : Fin 8) (q : DmaSem sig) : (slot M k).view.amount (.dma q) = N := rfl

/-- The stage-1 transfer of chunk `k`, addressed to `n = xn c`. -/
theorem wp_send1 (c n : Dev nD) (hn : n = xn c) (k : Fin 8)
    {hsc : (slot r1M k : Memref sig (Dev.tc n : Thread nD τ).2.kind .vmem S128x256 .bf16).view.ref.isScScratch = false}
    {hsrc : (slot sndM k).view.WordExact} {hdst : (slot r1M k).view.WordExact}
    {hsem : DmaTarget.Typed .vmem (.dma (xsem 1 k)) (.remote (Dev.tc n : Thread nD τ) (slot r1M k) (.dma (xsem 0 k)) hsc)}
    {α : Type} {Q : α → sProp 𝕄} {kk : PUnit → Prog (TpuEff nD τ sig (Elt F) Λ₀ .tc) α}
    (fs : Buf (Elt F) ((slot sndM k).view.loc (c : Thread nD τ))) (hfs : sndM.view.readAt (Elt F) (slotRect k).toLoadRect fs = sendW m ρ c k)
    (fd : Buf (Elt F) ((slot r1M k).view.loc (xn c : Thread nD τ))) (O : CellTallies nD τ sig Unit) (W : Waits sig Unit) :
    iprop(cellInv ER (rd m ρ) (K (c, some (0, k))) (xCell c 0 k) ∗ cellInv ER (rd m ρ) (K (xn c, some (1, k))) (xCell (xn c) 1 k)
        ∗ ((slot sndM k).view.loc (c : Thread nD τ) ↦[(slot sndM k).view.set]{fullShare} fs)
        ∗ ((slot r1M k).view.loc (xn c : Thread nD τ) ↦[(slot r1M k).view.set]{fullShare} fd)
        ∗ owes (c : Thread nD τ) (O + tallyAt (xCell (xn c) 1 k) () N) W
        ∗ dutyTok ER (xCell c 0 k) 0 false ∗ reached ER (xCell c 0 k) 0
        ∗ dutyTok ER (xCell (xn c) 1 k) 0 false ∗ reached ER (xCell (xn c) 1 k) 0)
      ⊢ iprop(((cred (tallyAt (xCell c 0 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slot sndM k) (.remote (Dev.tc n : Thread nD τ) (slot r1M k) (.dma (xsem 0 k)) hsc) (.dma (xsem 1 k)) hsrc hdst hsem) kk) Q) := by
  subst hn
  exact Rounds.wp_send_pointsTo 𝒱₀ ER (rd m ρ) (c : Thread nD τ) none (κ₁ := K (c, some (0, k))) (κ₂ := K (xn c, some (1, k)))
    (r₁ := 0) (r₂ := 0) (d₁ := false) (d₂ := false) (fd := fd)
    (by rw [duties_x]; exact Finset.mem_singleton_self _) (by rw [duties_x]; exact Finset.mem_singleton_self _)
    () () N (slot_amount r1M k _) (amount_x m ρ c 0 k false) (amount_x m ρ (xn c) 1 k false) O rfl (W := W)
    (by
      rw [payload_x0]; unfold slotAt
      iintro H; iexists fs
      isplitr; · ipureintro; exact hfs
      iexact H)
    (by
      rw [payload_x1, xn_xn]; unfold slotAt
      iintro H; iexists _
      isplitr; · ipureintro; exact (readAt_landing sndM r1M k fs fd).trans hfs
      iexact H)

/-- The stage-2 transfer of chunk `k`, addressed to `n = yn c`; it borrows the left half share of the source chunk. -/
theorem wp_send2 (c n : Dev nD) (hn : n = yn c) (k : Fin 8)
    {hsc : (slot r2M k : Memref sig (Dev.tc n : Thread nD τ).2.kind .vmem S128x256 .bf16).view.ref.isScScratch = false}
    {hsrc : (slot r1M k).view.WordExact} {hdst : (slot r2M k).view.WordExact}
    {hsem : DmaTarget.Typed .vmem (.dma (xsem 3 k)) (.remote (Dev.tc n : Thread nD τ) (slot r2M k) (.dma (xsem 2 k)) hsc)}
    {α : Type} {Q : α → sProp 𝕄} {kk : PUnit → Prog (TpuEff nD τ sig (Elt F) Λ₀ .tc) α}
    (fs : Buf (Elt F) ((slot r1M k).view.loc (c : Thread nD τ))) (hfs : r1M.view.readAt (Elt F) (slotRect k).toLoadRect fs = sendW m ρ (xn c) k)
    (fd : Buf (Elt F) ((slot r2M k).view.loc (yn c : Thread nD τ))) (O : CellTallies nD τ sig Unit) (W : Waits sig Unit) :
    iprop(cellInv ER (rd m ρ) (K (c, some (2, k))) (xCell c 2 k) ∗ cellInv ER (rd m ρ) (K (yn c, some (3, k))) (xCell (yn c) 3 k)
        ∗ ((slot r1M k).view.loc (c : Thread nD τ) ↦[(slot r1M k).view.set]{fullShare.left} fs)
        ∗ ((slot r2M k).view.loc (yn c : Thread nD τ) ↦[(slot r2M k).view.set]{fullShare} fd)
        ∗ owes (c : Thread nD τ) (O + tallyAt (xCell (yn c) 3 k) () N) W
        ∗ dutyTok ER (xCell c 2 k) 0 false ∗ reached ER (xCell c 2 k) 0
        ∗ dutyTok ER (xCell (yn c) 3 k) 0 false ∗ reached ER (xCell (yn c) 3 k) 0)
      ⊢ iprop(((cred (tallyAt (xCell c 2 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slot r1M k) (.remote (Dev.tc n : Thread nD τ) (slot r2M k) (.dma (xsem 2 k)) hsc) (.dma (xsem 3 k)) hsrc hdst hsem) kk) Q) := by
  subst hn
  exact Rounds.wp_send_pointsTo 𝒱₀ ER (rd m ρ) (c : Thread nD τ) none (κ₁ := K (c, some (2, k))) (κ₂ := K (yn c, some (3, k)))
    (r₁ := 0) (r₂ := 0) (d₁ := false) (d₂ := false) (fd := fd)
    (by rw [duties_x]; exact Finset.mem_singleton_self _) (by rw [duties_x]; exact Finset.mem_singleton_self _)
    () () N (slot_amount r2M k _) (amount_x m ρ c 2 k false) (amount_x m ρ (yn c) 3 k false) O rfl (W := W)
    (by
      rw [payload_x2]; unfold slotAt
      iintro H; iexists fs
      isplitr; · ipureintro; exact hfs
      iexact H)
    (by
      rw [payload_x3, yn_yn]; unfold slotAt
      iintro H; iexists _
      isplitr; · ipureintro; exact (readAt_landing r1M r2M k fs fd).trans hfs
      iexact H)

end Cert.KernelIdealProof

end
-- ==== Proof.Ends.lean ====
/-
  What the body of a device is handed right before its run and hands back right after: finite separating conjunctions
  written out, the barrier payloads given and received, a chunk's two half shares rejoined, and the five scratch buffers
  cut into chunks and put together again.
-/
import proofs.«900592_g7700000000000593_dist_rsdw_v7x_xy2x2_x_m512_d512_f2048_bf16_1_alg».proof.Proof.Data
import proofs.«900592_g7700000000000593_dist_rsdw_v7x_xy2x2_x_m512_d512_f2048_bf16_1_alg».proof.Proof.Tables
import proofs.«900592_g7700000000000593_dist_rsdw_v7x_xy2x2_x_m512_d512_f2048_bf16_1_alg».proof.Proof.Slots

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite separating conjunctions written out -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- Array by array, each array chunk by chunk. -/
theorem bigSep_jk (Φ : Fin 4 × Fin 8 → sProp 𝕄) :
    bigSep Finset.univ Φ = iprop((Φ (0, 0) ∗ Φ (0, 1) ∗ Φ (0, 2) ∗ Φ (0, 3) ∗ Φ (0, 4) ∗ Φ (0, 5) ∗ Φ (0, 6) ∗ Φ (0, 7))
      ∗ (Φ (1, 0) ∗ Φ (1, 1) ∗ Φ (1, 2) ∗ Φ (1, 3) ∗ Φ (1, 4) ∗ Φ (1, 5) ∗ Φ (1, 6) ∗ Φ (1, 7))
      ∗ (Φ (2, 0) ∗ Φ (2, 1) ∗ Φ (2, 2) ∗ Φ (2, 3) ∗ Φ (2, 4) ∗ Φ (2, 5) ∗ Φ (2, 6) ∗ Φ (2, 7))
      ∗ (Φ (3, 0) ∗ Φ (3, 1) ∗ Φ (3, 2) ∗ Φ (3, 3) ∗ Φ (3, 4) ∗ Φ (3, 5) ∗ Φ (3, 6) ∗ Φ (3, 7))) := by
  rw [bigSep_univ_prod, bigSep_fin4, bigSep_fin8, bigSep_fin8, bigSep_fin8, bigSep_fin8]

omit [FloatOps F] in
/-- A device's cells: the barrier's, then the thirty-two of the four arrays. -/
theorem bigSep_CI (Φ : CI → sProp 𝕄) : bigSep Finset.univ Φ = iprop(Φ none ∗ bigSep Finset.univ fun jk : Fin 4 × Fin 8 => Φ (some jk)) := by
  have h : (Finset.univ : Finset CI) = insert none (Finset.univ.map Function.Embedding.some) := by
    ext x; cases x <;> simp
  rw [h, bigSep_insert (by simp), bigSep_map]
  rfl

omit [FloatOps F] in
/-- One array's row of a family over all thirty-two cells. -/
theorem reach_row (c : Dev nD) (j : Fin 4) :
    (bigSep Finset.univ fun jk : Fin 4 × Fin 8 => (reached ER (xCell c jk.1 jk.2) 0 : sProp 𝕄))
      ⊢ bigSep Finset.univ fun k : Fin 8 => reached ER (xCell c j k) 0 := by
  rw [bigSep_univ_prod]
  exact bigSep_elim (Finset.mem_univ j)

/-! ## The barrier payloads, given and received -/

omit [FloatOps F] in
/-- What device `c` hands its row-neighbour with its barrier signal: its eight stage-1 landing chunks and the word that
    their receive cells stand at round 0. -/
theorem barPayX_intro (c : Dev nD) :
    iprop((bigSep Finset.univ fun k : Fin 8 => slotAny (F := F) r1M k c) ∗ (bigSep Finset.univ fun k : Fin 8 => reached ER (xCell c 1 k) 0))
      ⊢ barPayX (xn c) := by
  unfold barPayX; rw [xn_xn]

omit [FloatOps F] in
/-- What it hands its column-neighbour: the same of its stage-2 landing chunks. -/
theorem barPayY_intro (c : Dev nD) :
    iprop((bigSep Finset.univ fun k : Fin 8 => slotAny (F := F) r2M k c) ∗ (bigSep Finset.univ fun k : Fin 8 => reached ER (xCell c 3 k) 0))
      ⊢ barPayY (yn c) := by
  unfold barPayY; rw [yn_yn]

omit [FloatOps F] in
/-- A chunk at known contents is the chunk at contents nobody names. -/
theorem slotAny_intro (M : Memref sig .tc .vmem S8x128x256 .bf16) (k : Fin 8) (c : Dev nD) (f : Buf (Elt F) ((slot M k).view.loc (c : Thread nD τ))) :
    ((slot M k).view.loc (c : Thread nD τ) ↦[(slot M k).view.set]{fullShare} f : sProp 𝕄) ⊢ slotAny M k c := by
  unfold slotAny
  iintro H
  iexists f
  iexact H

omit [FloatOps F] in
/-- A whole buffer of eight chunks, cut: each chunk at contents nobody names. -/
theorem own_slots_any (M : Memref sig .tc .vmem S8x128x256 .bf16) (hM : M.view.set = Finset.univ) (c : Dev nD)
    (f : Buf (Elt F) (M.view.loc (c : Thread nD τ))) :
    (M.view.loc (c : Thread nD τ) ↦{fullShare} f : sProp 𝕄) ⊢ bigSep Finset.univ fun k : Fin 8 => slotAny M k c := by
  exact (cut M c hM f).trans (bigSep_mono fun k _ => slotAny_intro M k c f)

/-- The two payloads a barrier wait hands back. -/
theorem bar_pays (c : Dev nD) :
    bigSep Finset.univ (fun d : Bool => (rd (F := F) m ρ).payload (barCell c) 0 d) = iprop(barPayY c ∗ barPayX c) := by
  rw [bigSep_univ_eq_bigSepL [false, true] (by decide) (by decide), bigSepL_cons_cons, bigSepL_singleton, payload_bar_false, payload_bar_true]
  rfl

omit [FloatOps F] in
theorem barPayX_open (c : Dev nD) :
    barPayX (F := F) c ⊢ iprop((slotAny r1M 0 (xn c) ∗ slotAny r1M 1 (xn c) ∗ slotAny r1M 2 (xn c) ∗ slotAny r1M 3 (xn c)
        ∗ slotAny r1M 4 (xn c) ∗ slotAny r1M 5 (xn c) ∗ slotAny r1M 6 (xn c) ∗ slotAny r1M 7 (xn c))
      ∗ (reached ER (xCell (xn c) 1 0) 0 ∗ reached ER (xCell (xn c) 1 1) 0 ∗ reached ER (xCell (xn c) 1 2) 0 ∗ reached ER (xCell (xn c) 1 3) 0
        ∗ reached ER (xCell (xn c) 1 4) 0 ∗ reached ER (xCell (xn c) 1 5) 0 ∗ reached ER (xCell (xn c) 1 6) 0 ∗ reached ER (xCell (xn c) 1 7) 0)) := by
  unfold barPayX; rw [bigSep_fin8, bigSep_fin8]

omit [FloatOps F] in
theorem barPayY_open (c : Dev nD) :
    barPayY (F := F) c ⊢ iprop((slotAny r2M 0 (yn c) ∗ slotAny r2M 1 (yn c) ∗ slotAny r2M 2 (yn c) ∗ slotAny r2M 3 (yn c)
        ∗ slotAny r2M 4 (yn c) ∗ slotAny r2M 5 (yn c) ∗ slotAny r2M 6 (yn c) ∗ slotAny r2M 7 (yn c))
      ∗ (reached ER (xCell (yn c) 3 0) 0 ∗ reached ER (xCell (yn c) 3 1) 0 ∗ reached ER (xCell (yn c) 3 2) 0 ∗ reached ER (xCell (yn c) 3 3) 0
        ∗ reached ER (xCell (yn c) 3 4) 0 ∗ reached ER (xCell (yn c) 3 5) 0 ∗ reached ER (xCell (yn c) 3 6) 0 ∗ reached ER (xCell (yn c) 3 7) 0)) := by
  unfold barPayY; rw [bigSep_fin8, bigSep_fin8]

/-! ## A chunk's two half shares rejoined -/

omit [FloatOps F] in
/-- Two half-share points-tos of a chunk agree on its elements: together they are the chunk at the full share. -/
theorem halves_join_ex (M : Memref sig .tc .vmem S8x128x256 .bf16) (k : Fin 8) (c : Dev nD) :
    iprop((∃ f : Buf (Elt F) ((slot M k).view.loc (c : Thread nD τ)), (slot M k).view.loc (c : Thread nD τ) ↦[(slot M k).view.set]{fullShare.left} f)
      ∗ (∃ g : Buf (Elt F) ((slot M k).view.loc (c : Thread nD τ)), (slot M k).view.loc (c : Thread nD τ) ↦[(slot M k).view.set]{fullShare.right} g))
      ⊢ slotAny M k c := by
  unfold slotAny
  iintro ⟨⟨%f, H₁⟩, ⟨%g, H₂⟩⟩
  ihave Hag := (persistent_entails_right pointsTo_agree) $$ [H₁ H₂]
  · isplitl [H₁]; · iexact H₁
    iexact H₂
  icases Hag with ⟨%hag, H₁, H₂⟩
  ihave H₂' := (Entails.of_eq (pointsTo_congr (f := g) (g := f) fun i hi => (hag i (Finset.mem_inter.mpr ⟨hi, hi⟩)).1.symm)) $$ H₂
  iexists f
  iapply (slot_halves M k c f).2
  isplitl [H₁]; · iexact H₁
  iexact H₂'

/-! ## The scratch buffers, cut and put together again -/

omit [FloatOps F] in
theorem dyb_set : (dybM : Memref sig .tc .vmem S512x2048 .bf16).view.set = Finset.univ := View.set_whole _
omit [FloatOps F] in
theorem acc_set : (accM : Memref sig .tc .vmem S256x2048 .f32).view.set = Finset.univ := View.set_whole _

omit [FloatOps F] in
/-- At the end of the body: the two whole buffers and the three buffers' chunks are the five scratch buffers. -/
theorem scratch_outro (c : Dev nD) :
    iprop((∃ f : Buf (Elt F) (dybM.view.loc (c : Thread nD τ)), dybM.view.loc (c : Thread nD τ) ↦[dybM.view.set]{fullShare} f)
      ∗ (∃ f : Buf (Elt F) (accM.view.loc (c : Thread nD τ)), accM.view.loc (c : Thread nD τ) ↦[accM.view.set]{fullShare} f)
      ∗ (bigSep Finset.univ fun k : Fin 8 => slotAny sndM k c) ∗ (bigSep Finset.univ fun k : Fin 8 => slotAny r1M k c)
      ∗ (bigSep Finset.univ fun k : Fin 8 => slotAny r2M k c)) ⊢ scratch (F := F) c := by
  rw [dyb_set, acc_set]
  unfold scratch slotAny
  iintro ⟨H0, H1, Hs, Hr1, Hr2⟩
  isplitl [H0]; · iexact H0
  isplitl [H1]; · iexact H1
  isplitl [Hs]; · iapply (glue_ex sndM c snd_set); iexact Hs
  isplitl [Hr1]; · iapply (glue_ex r1M c r1_set); iexact Hr1
  iapply (glue_ex r2M c r2_set); iexact Hr2

omit [FloatOps F] in
/-- At its start: the send buffer cut into chunks at its one contents, the landing buffers into chunks at contents
    nobody names. -/
theorem scratch_intro (c : Dev nD) :
    scratch (F := F) c ⊢ iprop((∃ f : Buf (Elt F) (dybM.view.loc (c : Thread nD τ)), dybM.view.loc (c : Thread nD τ) ↦[dybM.view.set]{fullShare} f)
      ∗ (∃ f : Buf (Elt F) (accM.view.loc (c : Thread nD τ)), accM.view.loc (c : Thread nD τ) ↦[accM.view.set]{fullShare} f)
      ∗ (∃ f : Buf (Elt F) (sndM.view.loc (c : Thread nD τ)),
          bigSep Finset.univ fun k : Fin 8 => ((slot sndM k).view.loc (c : Thread nD τ) ↦[(slot sndM k).view.set]{fullShare} f))
      ∗ (bigSep Finset.univ fun k : Fin 8 => slotAny r1M k c) ∗ (bigSep Finset.univ fun k : Fin 8 => slotAny r2M k c)) := by
  rw [dyb_set, acc_set]
  unfold scratch
  iintro ⟨H0, H1, ⟨%fs, Hs⟩, ⟨%f1, Hr1⟩, ⟨%f2, Hr2⟩⟩
  isplitl [H0]; · iexact H0
  isplitl [H1]; · iexact H1
  isplitl [Hs]
  · iexists fs; iapply (cut sndM c snd_set fs); iexact Hs
  isplitl [Hr1]; · iapply (own_slots_any r1M r1_set c f1); iexact Hr1
  iapply (own_slots_any r2M r2_set c f2); iexact Hr2

/-- info: 'Cert.KernelIdealProof.bigSep_jk' depends on axioms: [propext, Classical.choice, Quot.sound] -/
#guard_msgs in #print axioms bigSep_jk
/-- info: 'Cert.KernelIdealProof.bar_pays' depends on axioms: [propext, Classical.choice, Quot.sound] -/
#guard_msgs in #print axioms bar_pays
/-- info: 'Cert.KernelIdealProof.halves_join_ex' depends on axioms: [propext, Classical.choice, Quot.sound] -/
#guard_msgs in #print axioms halves_join_ex
/-- info: 'Cert.KernelIdealProof.scratch_outro' depends on axioms: [propext, Classical.choice, Quot.sound] -/
#guard_msgs in #print axioms scratch_outro
/-- info: 'Cert.KernelIdealProof.scratch_intro' depends on axioms: [propext, Classical.choice, Quot.sound] -/
#guard_msgs in #print axioms scratch_intro

end Cert.KernelIdealProof

end
-- ==== Proof.OutCover.lean ====
/-
  The sixteen boxes of the result block tile it.

  Box `n < 8` is rows `[128 (c % 2), 128 (c % 2) + 128)`, columns `[256 n, 256 n + 256)`; box `8 + n` is the other 128
  rows, `[128 - 128 (c % 2), 256 - 128 (c % 2))`, at the same columns. An index of the 256 × 2048 block lies in exactly
  one box: the column chunk is its column divided by 256, the half is the one whose rows hold its row. So the sixteen
  stores cover the block, and what they leave does not depend on what the buffer held before.
-/
import proofs.«900592_g7700000000000593_dist_rsdw_v7x_xy2x2_x_m512_d512_f2048_bf16_1_alg».proof.Proof.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## Membership in a box -/

/-- The first row of box `n` on device `c`. -/
def outRow (c : Dev nD) (n : Fin 16) : ℕ := if n.val < 8 then 128 * (c.val % 2) else 128 - 128 * (c.val % 2)

/-- The first column of box `n`. -/
def outCol (n : Fin 16) : ℕ := 256 * (n.val % 8)

/-- Membership in a 128 × 256 unit-stride box of the block at offsets `(r, col)`. -/
theorem mem_unit_128x256 {off : Fin 2 → ℕ} {inb : ∀ a, off a + S128x256.size a ≤ S256x2048.size a} {r col : ℕ}
    (h : off = ![r, col]) (i : S256x2048.Idx) :
    i ∈ (Rect.unit (s := S256x2048) off S128x256.size inb).set
      ↔ (r ≤ (i 0).val ∧ (i 0).val < r + 128) ∧ (col ≤ (i 1).val ∧ (i 1).val < col + 256) := by
  subst h
  rw [Rect.mem_set_unit]
  constructor
  · intro h
    exact ⟨h 0, h 1⟩
  · intro h a
    match a with
    | ⟨0, _⟩ => exact h.1
    | ⟨1, _⟩ => exact h.2

/-- (C1) An index lies in box `n` exactly when its row is among the box's 128 rows and its column among its 256 columns. -/
theorem outRect_mem (c : Dev nD) (n : Fin 16) (i : S256x2048.Idx) :
    i ∈ (outRect c n).set
      ↔ (outRow c n ≤ (i 0).val ∧ (i 0).val < outRow c n + 128) ∧ (outCol n ≤ (i 1).val ∧ (i 1).val < outCol n + 256) :=
  match n with
  | 0 => mem_unit_128x256 (inb := k0_off3_inb c) (k0_off3_eq c) i
  | 1 => mem_unit_128x256 (inb := k0_off4_inb c) (k0_off4_eq c) i
  | 2 => mem_unit_128x256 (inb := k0_off5_inb c) (k0_off5_eq c) i
  | 3 => mem_unit_128x256 (inb := k0_off6_inb c) (k0_off6_eq c) i
  | 4 => mem_unit_128x256 (inb := k0_off7_inb c) (k0_off7_eq c) i
  | 5 => mem_unit_128x256 (inb := k0_off8_inb c) (k0_off8_eq c) i
  | 6 => mem_unit_128x256 (inb := k0_off9_inb c) (k0_off9_eq c) i
  | 7 => mem_unit_128x256 (inb := k0_off10_inb c) (k0_off10_eq c) i
  | 8 => mem_unit_128x256 (inb := k0_off11_inb c) (k0_off11_eq c) i
  | 9 => mem_unit_128x256 (inb := k0_off12_inb c) (k0_off12_eq c) i
  | 10 => mem_unit_128x256 (inb := k0_off13_inb c) (k0_off13_eq c) i
  | 11 => mem_unit_128x256 (inb := k0_off14_inb c) (k0_off14_eq c) i
  | 12 => mem_unit_128x256 (inb := k0_off15_inb c) (k0_off15_eq c) i
  | 13 => mem_unit_128x256 (inb := k0_off16_inb c) (k0_off16_eq c) i
  | 14 => mem_unit_128x256 (inb := k0_off17_inb c) (k0_off17_eq c) i
  | 15 => mem_unit_128x256 (inb := k0_off18_inb c) (k0_off18_eq c) i
  | ⟨_ + 16, h⟩ => absurd h (Nat.not_lt.2 (Nat.le_add_left _ _))

/-! ## The boxes are disjoint -/

/-- (C3) Two different boxes share no index. -/
theorem outRect_disjoint (c : Dev nD) {n n' : Fin 16} (h : n ≠ n') : Disjoint (outRect c n).set (outRect c n').set := by
  rw [Finset.disjoint_left]
  intro i h1 h2
  rw [outRect_mem] at h1 h2
  have hne : n.val ≠ n'.val := fun e => h (Fin.ext e)
  have hn := n.isLt
  have hn' := n'.isLt
  have ht : c.val % 2 < 2 := Nat.mod_lt _ (by decide)
  unfold outRow outCol at h1 h2
  split_ifs at h1 h2 <;> omega

/-! ## The boxes cover the block -/

/-- Every box is the rectangle of one of the sixteen stores. -/
theorem outPiece_mem (c : Dev nD) (n : Fin 16) : ∃ p ∈ outPieces (F := F) m ρ c, p.1 = outRect c n :=
  match n with
  | 0 => ⟨_, List.getElem_mem (l := outPieces (F := F) m ρ c) (n := 15) (Nat.lt_succ_self 15), rfl⟩
  | 1 => ⟨_, List.getElem_mem (l := outPieces (F := F) m ρ c) (n := 14) (by show 14 < 16; omega), rfl⟩
  | 2 => ⟨_, List.getElem_mem (l := outPieces (F := F) m ρ c) (n := 13) (by show 13 < 16; omega), rfl⟩
  | 3 => ⟨_, List.getElem_mem (l := outPieces (F := F) m ρ c) (n := 12) (by show 12 < 16; omega), rfl⟩
  | 4 => ⟨_, List.getElem_mem (l := outPieces (F := F) m ρ c) (n := 11) (by show 11 < 16; omega), rfl⟩
  | 5 => ⟨_, List.getElem_mem (l := outPieces (F := F) m ρ c) (n := 10) (by show 10 < 16; omega), rfl⟩
  | 6 => ⟨_, List.getElem_mem (l := outPieces (F := F) m ρ c) (n := 9) (by show 9 < 16; omega), rfl⟩
  | 7 => ⟨_, List.getElem_mem (l := outPieces (F := F) m ρ c) (n := 8) (by show 8 < 16; omega), rfl⟩
  | 8 => ⟨_, List.getElem_mem (l := outPieces (F := F) m ρ c) (n := 7) (by show 7 < 16; omega), rfl⟩
  | 9 => ⟨_, List.getElem_mem (l := outPieces (F := F) m ρ c) (n := 6) (by show 6 < 16; omega), rfl⟩
  | 10 => ⟨_, List.getElem_mem (l := outPieces (F := F) m ρ c) (n := 5) (by show 5 < 16; omega), rfl⟩
  | 11 => ⟨_, List.getElem_mem (l := outPieces (F := F) m ρ c) (n := 4) (by show 4 < 16; omega), rfl⟩
  | 12 => ⟨_, List.getElem_mem (l := outPieces (F := F) m ρ c) (n := 3) (by show 3 < 16; omega), rfl⟩
  | 13 => ⟨_, List.getElem_mem (l := outPieces (F := F) m ρ c) (n := 2) (by show 2 < 16; omega), rfl⟩
  | 14 => ⟨_, List.getElem_mem (l := outPieces (F := F) m ρ c) (n := 1) (by show 1 < 16; omega), rfl⟩
  | 15 => ⟨_, List.getElem_mem (l := outPieces (F := F) m ρ c) (n := 0) (by show 0 < 16; omega), rfl⟩
  | ⟨_ + 16, h⟩ => absurd h (Nat.not_lt.2 (Nat.le_add_left _ _))

/-- The box that holds an index: column chunk `(i 1) / 256`, in the half whose rows hold `i 0`. -/
def outBox (c : Dev nD) (i : S256x2048.Idx) : Fin 16 :=
  if 128 * (c.val % 2) ≤ (i 0).val ∧ (i 0).val < 128 * (c.val % 2) + 128
  then ⟨(i 1).val / 256, by have h : (i 1).val < 2048 := (i 1).isLt; omega⟩
  else ⟨8 + (i 1).val / 256, by have h : (i 1).val < 2048 := (i 1).isLt; omega⟩

theorem mem_outRect_outBox (c : Dev nD) (i : S256x2048.Idx) : i ∈ (outRect c (outBox c i)).set := by
  rw [outRect_mem]
  have h0 : (i 0).val < 256 := (i 0).isLt
  have h1 : (i 1).val < 2048 := (i 1).isLt
  have ht : c.val % 2 < 2 := Nat.mod_lt _ (by decide)
  unfold outBox outRow outCol
  split_ifs with hA hB hB <;> simp only [] at * <;> omega

/-- (C2) Every index of the block lies in the rectangle of one of the sixteen stores. -/
theorem out_cover (c : Dev nD) (i : S256x2048.Idx) : ∃ p ∈ outPieces (F := F) m ρ c, i ∈ p.1.set := by
  obtain ⟨p, hp, he⟩ := outPiece_mem m ρ c (outBox c i)
  exact ⟨p, hp, he ▸ mem_outRect_outBox c i⟩

/-! ## What the sixteen stores leave -/

omit [FloatOps F] in
/-- Stores through a whole buffer that cover it leave the same contents whatever it held before. -/
theorem writes_whole_of_cover {Val : EltTy → Type} (b : Ref sig .tc) (g g' : b.ty.Contents Val)
    (L : List (View.Piece Val b.ty.shape b.ty.elt)) (h : ∀ y, ∃ p ∈ L, y ∈ p.1.set) :
    (View.whole b).writes Val g L = (View.whole b).writes Val g' L :=
  View.read_writes_of_cover (v := View.whole b) (f := g) (View.whole b) g' L h

/-- (C4) The sixteen stores leave the same contents whatever the buffer held before. -/
theorem out_base (c : Dev nD) (g : (cc0_stg2_0 : Ref sig .tc).ty.Contents (Elt F)) :
    oM.view.writes (Elt F) g (outPieces m ρ c) = outAt m ρ c :=
  writes_whole_of_cover cc0_stg2_0 g _ (outPieces m ρ c) (out_cover m ρ c)

/-- info: 'Cert.KernelIdealProof.out_base' depends on axioms: [propext, Classical.choice, Quot.sound] -/
#guard_msgs in #print axioms out_base

end Cert.KernelIdealProof

end
-- ==== Proof.Body.lean ====
/-
  One device's body of the chunked reduce-scatter, from its invariant before the launch's one point to the one after.

  The order of events on device `c`, and what each hands over:
  * it tells both neighbours it has entered (a unit on each one's barrier cell), handing the row-neighbour its eight
    stage-1 landing chunks and the column-neighbour its eight stage-2 landing chunks; it computes send chunk 0
    meanwhile; then it waits for its own barrier cell's two units, which bring the neighbours' landing chunks;
  * per column chunk `k`: it rounds `dy`'s chunk, multiplies (the 128 columns of `x` it works on for the row-neighbour,
    transposed, with the chunk) into send chunk `k`, and transfers that chunk into the row-neighbour's landing chunk
    `k`: the neighbour's receive cell `k` then holds "landing chunk `k` reads this device's send chunk `k`";
  * the accumulator: the 256 columns of `x` of its own mesh row, transposed, with the whole rounded `dy` block;
  * per chunk `k`: the wait on its own stage-1 receive cell `k` (the row-neighbour's send chunk `k` has landed); the
    landed chunk is forwarded to the column-neighbour on one half share while the other half share serves the load
    that follows: result rows of its own column block, chunk `k` = accumulator rows + landed chunk;
  * per chunk `k`: the wait on its stage-2 receive cell `k` (the column-neighbour has forwarded what IT received: the
    send chunk `k` of the device diagonally opposite); the other result rows, chunk `k` = accumulator rows + that chunk;
  * the sixteen waits on its send cells, which give the send chunks and the lent half shares back.
  At every wait what the device still owes lies above the awaited cell: both barrier units are signalled before the
  barrier wait, at which it owes receive credits only; at a stage-1 receive wait it owes stage-2 credits only; after
  the last stage-2 transfer it owes nothing.
  Then every own DMA cell has had its one round and closes with its counter at zero; the eight chunks of each of the
  three chunked buffers are joined again; and the result buffer holds the sixteen pieces, which tile it.
-/
import proofs.«900592_g7700000000000593_dist_rsdw_v7x_xy2x2_x_m512_d512_f2048_bf16_1_alg».proof.Proof.Data
import proofs.«900592_g7700000000000593_dist_rsdw_v7x_xy2x2_x_m512_d512_f2048_bf16_1_alg».proof.Proof.Tables
import proofs.«900592_g7700000000000593_dist_rsdw_v7x_xy2x2_x_m512_d512_f2048_bf16_1_alg».proof.Proof.Steps
import proofs.«900592_g7700000000000593_dist_rsdw_v7x_xy2x2_x_m512_d512_f2048_bf16_1_alg».proof.Proof.Ends
import proofs.«900592_g7700000000000593_dist_rsdw_v7x_xy2x2_x_m512_d512_f2048_bf16_1_alg».proof.Proof.OutCover
import Idealize.ShloMosaic.Lib.Pipeline.FrameBody

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_x amount_bar amount_x expect_bar expect_x payload_bar_true payload_bar_false payload_x0 payload_x1 payload_x2 payload_x3
attribute [local sl_canon] dev1_eq dev2_eq dev3_eq dev4_eq dev5_eq dev6_eq dev7_eq dev8_eq dev9_eq dev10_eq dev11_eq dev12_eq dev13_eq dev14_eq dev15_eq dev16_eq dev17_eq dev18_eq

variable (K : Dev nD × CI → ℕ)

/-- An assertion kept aside: the same assertion under a name the symbolic run does not look into. -/
def aside (P : sProp 𝕄) : sProp 𝕄 := P
theorem aside_eq (P : sProp 𝕄) : aside P = P := rfl

/-- A chunk at known contents is a chunk. -/
theorem slotAt_any (M : Memref sig .tc .vmem S8x128x256 .bf16) (k : Fin 8) (c : Dev nD) (w : Vec F S1x128x256 .bf16) :
    slotAt M k c fullShare w ⊢ slotAny M k c := by
  unfold slotAt slotAny
  iintro ⟨%f, -, H⟩
  iexists f; iexact H

/-- The half share a stage-2 transfer gave back and the half share kept for the loads make the chunk whole again. -/
theorem chunk_rejoin (M : Memref sig .tc .vmem S8x128x256 .bf16) (k : Fin 8) (c : Dev nD) (w : Vec F S1x128x256 .bf16)
    (g : Buf (Elt F) ((slot M k).view.loc (c : Thread nD τ))) :
    iprop(slotAt M k c fullShare.left w ∗ ((slot M k).view.loc (c : Thread nD τ) ↦[(slot M k).view.set]{fullShare.right} g)) ⊢ slotAny M k c := by
  unfold slotAt
  iintro ⟨⟨%f, -, HL⟩, HR⟩
  iapply (halves_join_ex (F := F) M k c)
  isplitl [HL]
  · iexists f; iexact HL
  · iexists g; iexact HR

/-- The five scratch buffers from their parts: the two whole ones and the three cut in chunks. -/
theorem scratch_close (c : Dev nD) :
    iprop((∃ f : Buf (Elt F) (dybM.view.loc (c : Thread nD τ)), dybM.view.loc (c : Thread nD τ) ↦[dybM.view.set]{fullShare} f)
        ∗ (∃ f : Buf (Elt F) (accM.view.loc (c : Thread nD τ)), accM.view.loc (c : Thread nD τ) ↦[accM.view.set]{fullShare} f)
        ∗ (slotAny sndM 0 c ∗ slotAny sndM 1 c ∗ slotAny sndM 2 c ∗ slotAny sndM 3 c ∗ slotAny sndM 4 c ∗ slotAny sndM 5 c ∗ slotAny sndM 6 c ∗ slotAny sndM 7 c)
        ∗ (slotAny r1M 0 c ∗ slotAny r1M 1 c ∗ slotAny r1M 2 c ∗ slotAny r1M 3 c ∗ slotAny r1M 4 c ∗ slotAny r1M 5 c ∗ slotAny r1M 6 c ∗ slotAny r1M 7 c)
        ∗ (slotAny r2M 0 c ∗ slotAny r2M 1 c ∗ slotAny r2M 2 c ∗ slotAny r2M 3 c ∗ slotAny r2M 4 c ∗ slotAny r2M 5 c ∗ slotAny r2M 6 c ∗ slotAny r2M 7 c))
      ⊢ scratch (F := F) c := by
  rw [← bigSep_fin8 (fun k : Fin 8 => slotAny (F := F) sndM k c), ← bigSep_fin8 (fun k : Fin 8 => slotAny (F := F) r1M k c),
    ← bigSep_fin8 (fun k : Fin 8 => slotAny (F := F) r2M k c)]
  exact scratch_outro c

def bodyPre (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

theorem whole_eq (b : Ref sig .tc) (c : Dev nD) (f : Buf (Elt F) ((c : Thread nD τ).loc b)) :
    (((Memref.whole b).view.loc (c : Thread nD τ)) ↦[(Memref.whole b).view.set]{fullShare} f : sProp 𝕄) = (((c : Thread nD τ).loc b) ↦{fullShare} f) := by
  rw [View.set_whole]

set_option maxHeartbeats 16000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8) Kt := by
  unfold bodyPre ghost invs reach poss payToks creds
  simp only [bigSep_CI, bigSep_jk, bigSep_fin8, kcell, csem]
  iintro ⟨⟨⟨⟨⟨⟨#HIb, ⟨#HI00, #HI01, #HI02, #HI03, #HI04, #HI05, #HI06, #HI07⟩, ⟨#HI10, #HI11, #HI12, #HI13, #HI14, #HI15, #HI16, #HI17⟩, ⟨#HI20, #HI21, #HI22, #HI23, #HI24, #HI25, #HI26, #HI27⟩, ⟨#HI30, #HI31, #HI32, #HI33, #HI34, #HI35, #HI36, #HI37⟩⟩, #HIbx, #HIby, ⟨#HIx0, #HIx1, #HIx2, #HIx3, #HIx4, #HIx5, #HIx6, #HIx7⟩, ⟨#HIy0, #HIy1, #HIy2, #HIy3, #HIy4, #HIy5, #HIy6, #HIy7⟩⟩,
      ⟨#HrBX, #HrBY, ⟨#Hr00, #Hr01, #Hr02, #Hr03, #Hr04, #Hr05, #Hr06, #Hr07⟩, ⟨#Hr10, #Hr11, #Hr12, #Hr13, #Hr14, #Hr15, #Hr16, #Hr17⟩, ⟨#Hr20, #Hr21, #Hr22, #Hr23, #Hr24, #Hr25, #Hr26, #Hr27⟩, ⟨#Hr30, #Hr31, #Hr32, #Hr33, #Hr34, #Hr35, #Hr36, #Hr37⟩⟩,
      ⟨HpB, ⟨Hp00, Hp01, Hp02, Hp03, Hp04, Hp05, Hp06, Hp07⟩, ⟨Hp10, Hp11, Hp12, Hp13, Hp14, Hp15, Hp16, Hp17⟩, ⟨Hp20, Hp21, Hp22, Hp23, Hp24, Hp25, Hp26, Hp27⟩, ⟨Hp30, Hp31, Hp32, Hp33, Hp34, Hp35, Hp36, Hp37⟩⟩,
      ⟨HtBX, HtBY, ⟨Htx0, Htx1, Htx2, Htx3, Htx4, Htx5, Htx6, Htx7⟩, ⟨Ht00, Ht01, Ht02, Ht03, Ht04, Ht05, Ht06, Ht07⟩, ⟨Hty0, Hty1, Hty2, Hty3, Hty4, Hty5, Hty6, Hty7⟩, ⟨Ht20, Ht21, Ht22, Ht23, Ht24, Ht25, Ht26, Ht27⟩⟩⟩,
    ⟨HcB, ⟨Hc10, Hc11, Hc12, Hc13, Hc14, Hc15, Hc16, Hc17⟩, ⟨Hc30, Hc31, Hc32, Hc33, Hc34, Hc35, Hc36, Hc37⟩⟩, #Hlev, Hscr⟩,
    Ho, ⟨%d0, %g0, %hg0, Hx⟩, ⟨%d1, %g1, %hg1, Hdy⟩, ⟨%d2, %g2, %hg2, Hout⟩⟩, Hk⟩
  ihave Hc30 := (Entails.of_eq (aside_eq _).symm) $$ Hc30
  ihave Hc31 := (Entails.of_eq (aside_eq _).symm) $$ Hc31
  ihave Hc32 := (Entails.of_eq (aside_eq _).symm) $$ Hc32
  ihave Hc33 := (Entails.of_eq (aside_eq _).symm) $$ Hc33
  ihave Hc34 := (Entails.of_eq (aside_eq _).symm) $$ Hc34
  ihave Hc35 := (Entails.of_eq (aside_eq _).symm) $$ Hc35
  ihave Hc36 := (Entails.of_eq (aside_eq _).symm) $$ Hc36
  ihave Hc37 := (Entails.of_eq (aside_eq _).symm) $$ Hc37
  -- the operands' staging buffers hold the device's blocks
  have hx : g0 = xstg m ρ c := by rw [hg0]; unfold Dat.before; rw [if_pos (fetch0_0 t₀)]; rfl
  have hdy : g1 = dystg m ρ c := by rw [hg1]; unfold Dat.before; rw [if_pos (fetch0_1 t₀)]; rfl
  subst hx hdy
  ihave Hx := (Entails.of_eq (whole_eq cc0_stg0_0 c _).symm) $$ Hx
  ihave Hdy := (Entails.of_eq (whole_eq cc0_stg1_0 c _).symm) $$ Hdy
  ihave Hout := (Entails.of_eq (whole_eq cc0_stg2_0 c _).symm) $$ Hout
  -- the scratch buffers: two whole, the send buffer cut in its chunks, the landing buffers' chunks to hand over
  ihave Hs := (scratch_intro (F := F) c) $$ Hscr
  icases Hs with ⟨⟨%f0, Hdyb⟩, ⟨%f1, Hacc⟩, ⟨%f2, Hsnd⟩, Hr1, Hr2⟩
  ihave Hsnd := (Entails.of_eq (bigSep_fin8 _)) $$ Hsnd
  icases Hsnd with ⟨Hs0, Hs1, Hs2, Hs3, Hs4, Hs5, Hs6, Hs7⟩
  ihave HpX := (barPayX_intro (F := F) c) $$ [Hr1]
  · isplitl [Hr1]; · iexact Hr1
    rw [bigSep_fin8]
    isplitr; · iexact Hr10
    isplitr; · iexact Hr11
    isplitr; · iexact Hr12
    isplitr; · iexact Hr13
    isplitr; · iexact Hr14
    isplitr; · iexact Hr15
    isplitr; · iexact Hr16
    iexact Hr17
  ihave HpY := (barPayY_intro (F := F) c) $$ [Hr2]
  · isplitl [Hr2]; · iexact Hr2
    rw [bigSep_fin8]
    isplitr; · iexact Hr30
    isplitr; · iexact Hr31
    isplitr; · iexact Hr32
    isplitr; · iexact Hr33
    isplitr; · iexact Hr34
    isplitr; · iexact Hr35
    isplitr; · iexact Hr36
    iexact Hr37
  -- what the device owes, as a sum
  unfold Dat.owesAt Pipeline.owesWithin
  icases Ho with ⟨%W, %hW, HO⟩
  rw [show (dats m ρ 0 c).owed t₀.castSucc = O₀ c from rfl]
  unfold O₀
  have hmwB := mayWait_bar (F := F) c
  have hmw1_0 := mayWait_r1 (F := F) c 0 (O₂_from c 0) (fun g u h => O₂_from_pos h)
  have hmw1_1 := mayWait_r1 (F := F) c 1 (O₂_from c 1) (fun g u h => O₂_from_pos h)
  have hmw1_2 := mayWait_r1 (F := F) c 2 (O₂_from c 2) (fun g u h => O₂_from_pos h)
  have hmw1_3 := mayWait_r1 (F := F) c 3 (O₂_from c 3) (fun g u h => O₂_from_pos h)
  have hmw1_4 := mayWait_r1 (F := F) c 4 (O₂_from c 4) (fun g u h => O₂_from_pos h)
  have hmw1_5 := mayWait_r1 (F := F) c 5 (O₂_from c 5) (fun g u h => O₂_from_pos h)
  have hmw1_6 := mayWait_r1 (F := F) c 6 (O₂_from c 6) (fun g u h => O₂_from_pos h)
  have hmw1_7 := mayWait_r1 (F := F) c 7 (O₂_from c 7) (fun g u h => O₂_from_pos h)
  have hLs0 : sndM.view.setOn (Rect.unit (s := S8x128x256) ![0, 0, 0] S1x128x256.size inb_S8x128x256_S1x128x256_0_0_0).toLoadRect.set ⊆ (slot sndM 0).view.set := slot_load_sub sndM 0
  have hAs0 : (sndM.access (Rect.unit (s := S8x128x256) ![0, 0, 0] S1x128x256.size inb_S8x128x256_S1x128x256_0_0_0)).set ⊆ (slot sndM 0).view.set := slot_access_sub sndM 0
  have hSs0 : (sndM.access (Rect.unit (s := S8x128x256) ![0, 0, 0] S1x128x256.size inb_S8x128x256_S1x128x256_0_0_0)).setOn Finset.univ ⊆ (slot sndM 0).view.set := slot_store_sub sndM 0
  have hLs1 : sndM.view.setOn (Rect.unit (s := S8x128x256) ![1, 0, 0] S1x128x256.size inb_S8x128x256_S1x128x256_1_0_0).toLoadRect.set ⊆ (slot sndM 1).view.set := slot_load_sub sndM 1
  have hAs1 : (sndM.access (Rect.unit (s := S8x128x256) ![1, 0, 0] S1x128x256.size inb_S8x128x256_S1x128x256_1_0_0)).set ⊆ (slot sndM 1).view.set := slot_access_sub sndM 1
  have hSs1 : (sndM.access (Rect.unit (s := S8x128x256) ![1, 0, 0] S1x128x256.size inb_S8x128x256_S1x128x256_1_0_0)).setOn Finset.univ ⊆ (slot sndM 1).view.set := slot_store_sub sndM 1
  have hLs2 : sndM.view.setOn (Rect.unit (s := S8x128x256) ![2, 0, 0] S1x128x256.size inb_S8x128x256_S1x128x256_2_0_0).toLoadRect.set ⊆ (slot sndM 2).view.set := slot_load_sub sndM 2
  have hAs2 : (sndM.access (Rect.unit (s := S8x128x256) ![2, 0, 0] S1x128x256.size inb_S8x128x256_S1x128x256_2_0_0)).set ⊆ (slot sndM 2).view.set := slot_access_sub sndM 2
  have hSs2 : (sndM.access (Rect.unit (s := S8x128x256) ![2, 0, 0] S1x128x256.size inb_S8x128x256_S1x128x256_2_0_0)).setOn Finset.univ ⊆ (slot sndM 2).view.set := slot_store_sub sndM 2
  have hLs3 : sndM.view.setOn (Rect.unit (s := S8x128x256) ![3, 0, 0] S1x128x256.size inb_S8x128x256_S1x128x256_3_0_0).toLoadRect.set ⊆ (slot sndM 3).view.set := slot_load_sub sndM 3
  have hAs3 : (sndM.access (Rect.unit (s := S8x128x256) ![3, 0, 0] S1x128x256.size inb_S8x128x256_S1x128x256_3_0_0)).set ⊆ (slot sndM 3).view.set := slot_access_sub sndM 3
  have hSs3 : (sndM.access (Rect.unit (s := S8x128x256) ![3, 0, 0] S1x128x256.size inb_S8x128x256_S1x128x256_3_0_0)).setOn Finset.univ ⊆ (slot sndM 3).view.set := slot_store_sub sndM 3
  have hLs4 : sndM.view.setOn (Rect.unit (s := S8x128x256) ![4, 0, 0] S1x128x256.size inb_S8x128x256_S1x128x256_4_0_0).toLoadRect.set ⊆ (slot sndM 4).view.set := slot_load_sub sndM 4
  have hAs4 : (sndM.access (Rect.unit (s := S8x128x256) ![4, 0, 0] S1x128x256.size inb_S8x128x256_S1x128x256_4_0_0)).set ⊆ (slot sndM 4).view.set := slot_access_sub sndM 4
  have hSs4 : (sndM.access (Rect.unit (s := S8x128x256) ![4, 0, 0] S1x128x256.size inb_S8x128x256_S1x128x256_4_0_0)).setOn Finset.univ ⊆ (slot sndM 4).view.set := slot_store_sub sndM 4
  have hLs5 : sndM.view.setOn (Rect.unit (s := S8x128x256) ![5, 0, 0] S1x128x256.size inb_S8x128x256_S1x128x256_5_0_0).toLoadRect.set ⊆ (slot sndM 5).view.set := slot_load_sub sndM 5
  have hAs5 : (sndM.access (Rect.unit (s := S8x128x256) ![5, 0, 0] S1x128x256.size inb_S8x128x256_S1x128x256_5_0_0)).set ⊆ (slot sndM 5).view.set := slot_access_sub sndM 5
  have hSs5 : (sndM.access (Rect.unit (s := S8x128x256) ![5, 0, 0] S1x128x256.size inb_S8x128x256_S1x128x256_5_0_0)).setOn Finset.univ ⊆ (slot sndM 5).view.set := slot_store_sub sndM 5
  have hLs6 : sndM.view.setOn (Rect.unit (s := S8x128x256) ![6, 0, 0] S1x128x256.size inb_S8x128x256_S1x128x256_6_0_0).toLoadRect.set ⊆ (slot sndM 6).view.set := slot_load_sub sndM 6
  have hAs6 : (sndM.access (Rect.unit (s := S8x128x256) ![6, 0, 0] S1x128x256.size inb_S8x128x256_S1x128x256_6_0_0)).set ⊆ (slot sndM 6).view.set := slot_access_sub sndM 6
  have hSs6 : (sndM.access (Rect.unit (s := S8x128x256) ![6, 0, 0] S1x128x256.size inb_S8x128x256_S1x128x256_6_0_0)).setOn Finset.univ ⊆ (slot sndM 6).view.set := slot_store_sub sndM 6
  have hLs7 : sndM.view.setOn (Rect.unit (s := S8x128x256) ![7, 0, 0] S1x128x256.size inb_S8x128x256_S1x128x256_7_0_0).toLoadRect.set ⊆ (slot sndM 7).view.set := slot_load_sub sndM 7
  have hAs7 : (sndM.access (Rect.unit (s := S8x128x256) ![7, 0, 0] S1x128x256.size inb_S8x128x256_S1x128x256_7_0_0)).set ⊆ (slot sndM 7).view.set := slot_access_sub sndM 7
  have hSs7 : (sndM.access (Rect.unit (s := S8x128x256) ![7, 0, 0] S1x128x256.size inb_S8x128x256_S1x128x256_7_0_0)).setOn Finset.univ ⊆ (slot sndM 7).view.set := slot_store_sub sndM 7
  have hLa0 : r1M.view.setOn (Rect.unit (s := S8x128x256) ![0, 0, 0] S1x128x256.size inb_S8x128x256_S1x128x256_0_0_0).toLoadRect.set ⊆ (slot r1M 0).view.set := slot_load_sub r1M 0
  have hAa0 : (r1M.access (Rect.unit (s := S8x128x256) ![0, 0, 0] S1x128x256.size inb_S8x128x256_S1x128x256_0_0_0)).set ⊆ (slot r1M 0).view.set := slot_access_sub r1M 0
  have hSa0 : (r1M.access (Rect.unit (s := S8x128x256) ![0, 0, 0] S1x128x256.size inb_S8x128x256_S1x128x256_0_0_0)).setOn Finset.univ ⊆ (slot r1M 0).view.set := slot_store_sub r1M 0
  have hLa1 : r1M.view.setOn (Rect.unit (s := S8x128x256) ![1, 0, 0] S1x128x256.size inb_S8x128x256_S1x128x256_1_0_0).toLoadRect.set ⊆ (slot r1M 1).view.set := slot_load_sub r1M 1
  have hAa1 : (r1M.access (Rect.unit (s := S8x128x256) ![1, 0, 0] S1x128x256.size inb_S8x128x256_S1x128x256_1_0_0)).set ⊆ (slot r1M 1).view.set := slot_access_sub r1M 1
  have hSa1 : (r1M.access (Rect.unit (s := S8x128x256) ![1, 0, 0] S1x128x256.size inb_S8x128x256_S1x128x256_1_0_0)).setOn Finset.univ ⊆ (slot r1M 1).view.set := slot_store_sub r1M 1
  have hLa2 : r1M.view.setOn (Rect.unit (s := S8x128x256) ![2, 0, 0] S1x128x256.size inb_S8x128x256_S1x128x256_2_0_0).toLoadRect.set ⊆ (slot r1M 2).view.set := slot_load_sub r1M 2
  have hAa2 : (r1M.access (Rect.unit (s := S8x128x256) ![2, 0, 0] S1x128x256.size inb_S8x128x256_S1x128x256_2_0_0)).set ⊆ (slot r1M 2).view.set := slot_access_sub r1M 2
  have hSa2 : (r1M.access (Rect.unit (s := S8x128x256) ![2, 0, 0] S1x128x256.size inb_S8x128x256_S1x128x256_2_0_0)).setOn Finset.univ ⊆ (slot r1M 2).view.set := slot_store_sub r1M 2
  have hLa3 : r1M.view.setOn (Rect.unit (s := S8x128x256) ![3, 0, 0] S1x128x256.size inb_S8x128x256_S1x128x256_3_0_0).toLoadRect.set ⊆ (slot r1M 3).view.set := slot_load_sub r1M 3
  have hAa3 : (r1M.access (Rect.unit (s := S8x128x256) ![3, 0, 0] S1x128x256.size inb_S8x128x256_S1x128x256_3_0_0)).set ⊆ (slot r1M 3).view.set := slot_access_sub r1M 3
  have hSa3 : (r1M.access (Rect.unit (s := S8x128x256) ![3, 0, 0] S1x128x256.size inb_S8x128x256_S1x128x256_3_0_0)).setOn Finset.univ ⊆ (slot r1M 3).view.set := slot_store_sub r1M 3
  have hLa4 : r1M.view.setOn (Rect.unit (s := S8x128x256) ![4, 0, 0] S1x128x256.size inb_S8x128x256_S1x128x256_4_0_0).toLoadRect.set ⊆ (slot r1M 4).view.set := slot_load_sub r1M 4
  have hAa4 : (r1M.access (Rect.unit (s := S8x128x256) ![4, 0, 0] S1x128x256.size inb_S8x128x256_S1x128x256_4_0_0)).set ⊆ (slot r1M 4).view.set := slot_access_sub r1M 4
  have hSa4 : (r1M.access (Rect.unit (s := S8x128x256) ![4, 0, 0] S1x128x256.size inb_S8x128x256_S1x128x256_4_0_0)).setOn Finset.univ ⊆ (slot r1M 4).view.set := slot_store_sub r1M 4
  have hLa5 : r1M.view.setOn (Rect.unit (s := S8x128x256) ![5, 0, 0] S1x128x256.size inb_S8x128x256_S1x128x256_5_0_0).toLoadRect.set ⊆ (slot r1M 5).view.set := slot_load_sub r1M 5
  have hAa5 : (r1M.access (Rect.unit (s := S8x128x256) ![5, 0, 0] S1x128x256.size inb_S8x128x256_S1x128x256_5_0_0)).set ⊆ (slot r1M 5).view.set := slot_access_sub r1M 5
  have hSa5 : (r1M.access (Rect.unit (s := S8x128x256) ![5, 0, 0] S1x128x256.size inb_S8x128x256_S1x128x256_5_0_0)).setOn Finset.univ ⊆ (slot r1M 5).view.set := slot_store_sub r1M 5
  have hLa6 : r1M.view.setOn (Rect.unit (s := S8x128x256) ![6, 0, 0] S1x128x256.size inb_S8x128x256_S1x128x256_6_0_0).toLoadRect.set ⊆ (slot r1M 6).view.set := slot_load_sub r1M 6
  have hAa6 : (r1M.access (Rect.unit (s := S8x128x256) ![6, 0, 0] S1x128x256.size inb_S8x128x256_S1x128x256_6_0_0)).set ⊆ (slot r1M 6).view.set := slot_access_sub r1M 6
  have hSa6 : (r1M.access (Rect.unit (s := S8x128x256) ![6, 0, 0] S1x128x256.size inb_S8x128x256_S1x128x256_6_0_0)).setOn Finset.univ ⊆ (slot r1M 6).view.set := slot_store_sub r1M 6
  have hLa7 : r1M.view.setOn (Rect.unit (s := S8x128x256) ![7, 0, 0] S1x128x256.size inb_S8x128x256_S1x128x256_7_0_0).toLoadRect.set ⊆ (slot r1M 7).view.set := slot_load_sub r1M 7
  have hAa7 : (r1M.access (Rect.unit (s := S8x128x256) ![7, 0, 0] S1x128x256.size inb_S8x128x256_S1x128x256_7_0_0)).set ⊆ (slot r1M 7).view.set := slot_access_sub r1M 7
  have hSa7 : (r1M.access (Rect.unit (s := S8x128x256) ![7, 0, 0] S1x128x256.size inb_S8x128x256_S1x128x256_7_0_0)).setOn Finset.univ ⊆ (slot r1M 7).view.set := slot_store_sub r1M 7
  have hLb0 : r2M.view.setOn (Rect.unit (s := S8x128x256) ![0, 0, 0] S1x128x256.size inb_S8x128x256_S1x128x256_0_0_0).toLoadRect.set ⊆ (slot r2M 0).view.set := slot_load_sub r2M 0
  have hAb0 : (r2M.access (Rect.unit (s := S8x128x256) ![0, 0, 0] S1x128x256.size inb_S8x128x256_S1x128x256_0_0_0)).set ⊆ (slot r2M 0).view.set := slot_access_sub r2M 0
  have hSb0 : (r2M.access (Rect.unit (s := S8x128x256) ![0, 0, 0] S1x128x256.size inb_S8x128x256_S1x128x256_0_0_0)).setOn Finset.univ ⊆ (slot r2M 0).view.set := slot_store_sub r2M 0
  have hLb1 : r2M.view.setOn (Rect.unit (s := S8x128x256) ![1, 0, 0] S1x128x256.size inb_S8x128x256_S1x128x256_1_0_0).toLoadRect.set ⊆ (slot r2M 1).view.set := slot_load_sub r2M 1
  have hAb1 : (r2M.access (Rect.unit (s := S8x128x256) ![1, 0, 0] S1x128x256.size inb_S8x128x256_S1x128x256_1_0_0)).set ⊆ (slot r2M 1).view.set := slot_access_sub r2M 1
  have hSb1 : (r2M.access (Rect.unit (s := S8x128x256) ![1, 0, 0] S1x128x256.size inb_S8x128x256_S1x128x256_1_0_0)).setOn Finset.univ ⊆ (slot r2M 1).view.set := slot_store_sub r2M 1
  have hLb2 : r2M.view.setOn (Rect.unit (s := S8x128x256) ![2, 0, 0] S1x128x256.size inb_S8x128x256_S1x128x256_2_0_0).toLoadRect.set ⊆ (slot r2M 2).view.set := slot_load_sub r2M 2
  have hAb2 : (r2M.access (Rect.unit (s := S8x128x256) ![2, 0, 0] S1x128x256.size inb_S8x128x256_S1x128x256_2_0_0)).set ⊆ (slot r2M 2).view.set := slot_access_sub r2M 2
  have hSb2 : (r2M.access (Rect.unit (s := S8x128x256) ![2, 0, 0] S1x128x256.size inb_S8x128x256_S1x128x256_2_0_0)).setOn Finset.univ ⊆ (slot r2M 2).view.set := slot_store_sub r2M 2
  have hLb3 : r2M.view.setOn (Rect.unit (s := S8x128x256) ![3, 0, 0] S1x128x256.size inb_S8x128x256_S1x128x256_3_0_0).toLoadRect.set ⊆ (slot r2M 3).view.set := slot_load_sub r2M 3
  have hAb3 : (r2M.access (Rect.unit (s := S8x128x256) ![3, 0, 0] S1x128x256.size inb_S8x128x256_S1x128x256_3_0_0)).set ⊆ (slot r2M 3).view.set := slot_access_sub r2M 3
  have hSb3 : (r2M.access (Rect.unit (s := S8x128x256) ![3, 0, 0] S1x128x256.size inb_S8x128x256_S1x128x256_3_0_0)).setOn Finset.univ ⊆ (slot r2M 3).view.set := slot_store_sub r2M 3
  have hLb4 : r2M.view.setOn (Rect.unit (s := S8x128x256) ![4, 0, 0] S1x128x256.size inb_S8x128x256_S1x128x256_4_0_0).toLoadRect.set ⊆ (slot r2M 4).view.set := slot_load_sub r2M 4
  have hAb4 : (r2M.access (Rect.unit (s := S8x128x256) ![4, 0, 0] S1x128x256.size inb_S8x128x256_S1x128x256_4_0_0)).set ⊆ (slot r2M 4).view.set := slot_access_sub r2M 4
  have hSb4 : (r2M.access (Rect.unit (s := S8x128x256) ![4, 0, 0] S1x128x256.size inb_S8x128x256_S1x128x256_4_0_0)).setOn Finset.univ ⊆ (slot r2M 4).view.set := slot_store_sub r2M 4
  have hLb5 : r2M.view.setOn (Rect.unit (s := S8x128x256) ![5, 0, 0] S1x128x256.size inb_S8x128x256_S1x128x256_5_0_0).toLoadRect.set ⊆ (slot r2M 5).view.set := slot_load_sub r2M 5
  have hAb5 : (r2M.access (Rect.unit (s := S8x128x256) ![5, 0, 0] S1x128x256.size inb_S8x128x256_S1x128x256_5_0_0)).set ⊆ (slot r2M 5).view.set := slot_access_sub r2M 5
  have hSb5 : (r2M.access (Rect.unit (s := S8x128x256) ![5, 0, 0] S1x128x256.size inb_S8x128x256_S1x128x256_5_0_0)).setOn Finset.univ ⊆ (slot r2M 5).view.set := slot_store_sub r2M 5
  have hLb6 : r2M.view.setOn (Rect.unit (s := S8x128x256) ![6, 0, 0] S1x128x256.size inb_S8x128x256_S1x128x256_6_0_0).toLoadRect.set ⊆ (slot r2M 6).view.set := slot_load_sub r2M 6
  have hAb6 : (r2M.access (Rect.unit (s := S8x128x256) ![6, 0, 0] S1x128x256.size inb_S8x128x256_S1x128x256_6_0_0)).set ⊆ (slot r2M 6).view.set := slot_access_sub r2M 6
  have hSb6 : (r2M.access (Rect.unit (s := S8x128x256) ![6, 0, 0] S1x128x256.size inb_S8x128x256_S1x128x256_6_0_0)).setOn Finset.univ ⊆ (slot r2M 6).view.set := slot_store_sub r2M 6
  have hLb7 : r2M.view.setOn (Rect.unit (s := S8x128x256) ![7, 0, 0] S1x128x256.size inb_S8x128x256_S1x128x256_7_0_0).toLoadRect.set ⊆ (slot r2M 7).view.set := slot_load_sub r2M 7
  have hAb7 : (r2M.access (Rect.unit (s := S8x128x256) ![7, 0, 0] S1x128x256.size inb_S8x128x256_S1x128x256_7_0_0)).set ⊆ (slot r2M 7).view.set := slot_access_sub r2M 7
  have hSb7 : (r2M.access (Rect.unit (s := S8x128x256) ![7, 0, 0] S1x128x256.size inb_S8x128x256_S1x128x256_7_0_0)).setOn Finset.univ ⊆ (slot r2M 7).view.set := slot_store_sub r2M 7
  sl_unfold [cc0_body]
  sl_exec_parts
  -- the barrier's two payloads: the neighbours' landing chunks and their cells' round-0 marks
  ihave Hp := (Entails.of_eq (bar_pays m ρ c)) $$ HpB_pay1
  icases Hp with ⟨HpYc, HpXc⟩
  ihave HXo := (barPayX_open (F := F) c) $$ HpXc
  ihave HYo := (barPayY_open (F := F) c) $$ HpYc
  unfold slotAny
  icases HXo with ⟨⟨⟨%fx0, Hd0⟩, ⟨%fx1, Hd1⟩, ⟨%fx2, Hd2⟩, ⟨%fx3, Hd3⟩, ⟨%fx4, Hd4⟩, ⟨%fx5, Hd5⟩, ⟨%fx6, Hd6⟩, ⟨%fx7, Hd7⟩⟩, ⟨#Hrx0, #Hrx1, #Hrx2, #Hrx3, #Hrx4, #Hrx5, #Hrx6, #Hrx7⟩⟩
  icases HYo with ⟨⟨⟨%fy0, He0⟩, ⟨%fy1, He1⟩, ⟨%fy2, He2⟩, ⟨%fy3, He3⟩, ⟨%fy4, He4⟩, ⟨%fy5, He5⟩, ⟨%fy6, He6⟩, ⟨%fy7, He7⟩⟩, ⟨#Hry0, #Hry1, #Hry2, #Hry3, #Hry4, #Hry5, #Hry6, #Hry7⟩⟩
  rw [← O₁_from_zero c]
  -- chunk 0 of the send buffer reads the partial product of this device's rows: stage-1 transfer
  have hfs0 : sndM.view.readAt (Elt F) (slotRect 0).toLoadRect (sound_body.sl.Hs0_w1 m ρ c f2) = sendW m ρ c 0 := by
    sl_unfold_run_names
    refine (readAt_store sndM 0 f2 _).trans ?_
    rw [View.readCov_cons_toLoadRect]
    rfl
  rw [O₁_from_step c 0 (by decide)]
  iapply (wp_send1 m ρ K c _ (dev3_eq c) 0 (sound_body.sl.Hs0_w1 m ρ c f2) hfs0 fx0 (O₁_from c 1) _) $$ [Hs0 Hd0 HO Ht00 Htx0]
  · isplitr; · iexact HI00
    isplitr; · iexact HIx0
    isplitl [Hs0]; · iexact Hs0
    isplitl [Hd0]; · iexact Hd0
    isplitl [HO]; · iexact HO
    isplitl [Ht00]; · iexact Ht00
    isplitr; · iexact Hr00
    isplitl [Htx0]; · iexact Htx0
    iexact Hrx0
  iintro ⟨Hcs0, HO⟩
  sl_exec_parts
  -- chunk 1 of the send buffer reads the partial product of this device's rows: stage-1 transfer
  have hfs1 : sndM.view.readAt (Elt F) (slotRect 1).toLoadRect (sound_body.sl.Hs1_w1 m ρ c f2) = sendW m ρ c 1 := by
    sl_unfold_run_names
    refine (readAt_store sndM 1 f2 _).trans ?_
    rw [View.readCov_cons_toLoadRect]
    rfl
  rw [O₁_from_step c 1 (by decide)]
  iapply (wp_send1 m ρ K c _ (dev4_eq c) 1 (sound_body.sl.Hs1_w1 m ρ c f2) hfs1 fx1 (O₁_from c 2) _) $$ [Hs1 Hd1 HO Ht01 Htx1]
  · isplitr; · iexact HI01
    isplitr; · iexact HIx1
    isplitl [Hs1]; · iexact Hs1
    isplitl [Hd1]; · iexact Hd1
    isplitl [HO]; · iexact HO
    isplitl [Ht01]; · iexact Ht01
    isplitr; · iexact Hr01
    isplitl [Htx1]; · iexact Htx1
    iexact Hrx1
  iintro ⟨Hcs1, HO⟩
  sl_exec_parts
  -- chunk 2 of the send buffer reads the partial product of this device's rows: stage-1 transfer
  have hfs2 : sndM.view.readAt (Elt F) (slotRect 2).toLoadRect (sound_body.sl.Hs2_w1 m ρ c f2) = sendW m ρ c 2 := by
    sl_unfold_run_names
    refine (readAt_store sndM 2 f2 _).trans ?_
    rw [View.readCov_cons_toLoadRect]
    rfl
  rw [O₁_from_step c 2 (by decide)]
  iapply (wp_send1 m ρ K c _ (dev5_eq c) 2 (sound_body.sl.Hs2_w1 m ρ c f2) hfs2 fx2 (O₁_from c 3) _) $$ [Hs2 Hd2 HO Ht02 Htx2]
  · isplitr; · iexact HI02
    isplitr; · iexact HIx2
    isplitl [Hs2]; · iexact Hs2
    isplitl [Hd2]; · iexact Hd2
    isplitl [HO]; · iexact HO
    isplitl [Ht02]; · iexact Ht02
    isplitr; · iexact Hr02
    isplitl [Htx2]; · iexact Htx2
    iexact Hrx2
  iintro ⟨Hcs2, HO⟩
  sl_exec_parts
  -- chunk 3 of the send buffer reads the partial product of this device's rows: stage-1 transfer
  have hfs3 : sndM.view.readAt (Elt F) (slotRect 3).toLoadRect (sound_body.sl.Hs3_w1 m ρ c f2) = sendW m ρ c 3 := by
    sl_unfold_run_names
    refine (readAt_store sndM 3 f2 _).trans ?_
    rw [View.readCov_cons_toLoadRect]
    rfl
  rw [O₁_from_step c 3 (by decide)]
  iapply (wp_send1 m ρ K c _ (dev6_eq c) 3 (sound_body.sl.Hs3_w1 m ρ c f2) hfs3 fx3 (O₁_from c 4) _) $$ [Hs3 Hd3 HO Ht03 Htx3]
  · isplitr; · iexact HI03
    isplitr; · iexact HIx3
    isplitl [Hs3]; · iexact Hs3
    isplitl [Hd3]; · iexact Hd3
    isplitl [HO]; · iexact HO
    isplitl [Ht03]; · iexact Ht03
    isplitr; · iexact Hr03
    isplitl [Htx3]; · iexact Htx3
    iexact Hrx3
  iintro ⟨Hcs3, HO⟩
  sl_exec_parts
  -- chunk 4 of the send buffer reads the partial product of this device's rows: stage-1 transfer
  have hfs4 : sndM.view.readAt (Elt F) (slotRect 4).toLoadRect (sound_body.sl.Hs4_w1 m ρ c f2) = sendW m ρ c 4 := by
    sl_unfold_run_names
    refine (readAt_store sndM 4 f2 _).trans ?_
    rw [View.readCov_cons_toLoadRect]
    rfl
  rw [O₁_from_step c 4 (by decide)]
  iapply (wp_send1 m ρ K c _ (dev7_eq c) 4 (sound_body.sl.Hs4_w1 m ρ c f2) hfs4 fx4 (O₁_from c 5) _) $$ [Hs4 Hd4 HO Ht04 Htx4]
  · isplitr; · iexact HI04
    isplitr; · iexact HIx4
    isplitl [Hs4]; · iexact Hs4
    isplitl [Hd4]; · iexact Hd4
    isplitl [HO]; · iexact HO
    isplitl [Ht04]; · iexact Ht04
    isplitr; · iexact Hr04
    isplitl [Htx4]; · iexact Htx4
    iexact Hrx4
  iintro ⟨Hcs4, HO⟩
  sl_exec_parts
  -- chunk 5 of the send buffer reads the partial product of this device's rows: stage-1 transfer
  have hfs5 : sndM.view.readAt (Elt F) (slotRect 5).toLoadRect (sound_body.sl.Hs5_w1 m ρ c f2) = sendW m ρ c 5 := by
    sl_unfold_run_names
    refine (readAt_store sndM 5 f2 _).trans ?_
    rw [View.readCov_cons_toLoadRect]
    rfl
  rw [O₁_from_step c 5 (by decide)]
  iapply (wp_send1 m ρ K c _ (dev8_eq c) 5 (sound_body.sl.Hs5_w1 m ρ c f2) hfs5 fx5 (O₁_from c 6) _) $$ [Hs5 Hd5 HO Ht05 Htx5]
  · isplitr; · iexact HI05
    isplitr; · iexact HIx5
    isplitl [Hs5]; · iexact Hs5
    isplitl [Hd5]; · iexact Hd5
    isplitl [HO]; · iexact HO
    isplitl [Ht05]; · iexact Ht05
    isplitr; · iexact Hr05
    isplitl [Htx5]; · iexact Htx5
    iexact Hrx5
  iintro ⟨Hcs5, HO⟩
  sl_exec_parts
  -- chunk 6 of the send buffer reads the partial product of this device's rows: stage-1 transfer
  have hfs6 : sndM.view.readAt (Elt F) (slotRect 6).toLoadRect (sound_body.sl.Hs6_w1 m ρ c f2) = sendW m ρ c 6 := by
    sl_unfold_run_names
    refine (readAt_store sndM 6 f2 _).trans ?_
    rw [View.readCov_cons_toLoadRect]
    rfl
  rw [O₁_from_step c 6 (by decide)]
  iapply (wp_send1 m ρ K c _ (dev9_eq c) 6 (sound_body.sl.Hs6_w1 m ρ c f2) hfs6 fx6 (O₁_from c 7) _) $$ [Hs6 Hd6 HO Ht06 Htx6]
  · isplitr; · iexact HI06
    isplitr; · iexact HIx6
    isplitl [Hs6]; · iexact Hs6
    isplitl [Hd6]; · iexact Hd6
    isplitl [HO]; · iexact HO
    isplitl [Ht06]; · iexact Ht06
    isplitr; · iexact Hr06
    isplitl [Htx6]; · iexact Htx6
    iexact Hrx6
  iintro ⟨Hcs6, HO⟩
  sl_exec_parts
  -- chunk 7 of the send buffer reads the partial product of this device's rows: stage-1 transfer
  have hfs7 : sndM.view.readAt (Elt F) (slotRect 7).toLoadRect (sound_body.sl.Hs7_w1 m ρ c f2) = sendW m ρ c 7 := by
    sl_unfold_run_names
    refine (readAt_store sndM 7 f2 _).trans ?_
    rw [View.readCov_cons_toLoadRect]
    rfl
  rw [O₁_from_step c 7 (by decide)]
  iapply (wp_send1 m ρ K c _ (dev10_eq c) 7 (sound_body.sl.Hs7_w1 m ρ c f2) hfs7 fx7 (O₁_from c 8) _) $$ [Hs7 Hd7 HO Ht07 Htx7]
  · isplitr; · iexact HI07
    isplitr; · iexact HIx7
    isplitl [Hs7]; · iexact Hs7
    isplitl [Hd7]; · iexact Hd7
    isplitl [HO]; · iexact HO
    isplitl [Ht07]; · iexact Ht07
    isplitr; · iexact Hr07
    isplitl [Htx7]; · iexact Htx7
    iexact Hrx7
  iintro ⟨Hcs7, HO⟩
  rw [O₁_from_eight c, ← O₂_from_zero c]
  sl_exec_parts
  unfold slotAt
  -- chunk 0 has landed: keep one half share for the loads, lend the other to the stage-2 transfer
  icases Hp10_pay1 with ⟨%fr0, %hfr0, Hq0⟩
  ihave Hh := (slot_halves r1M 0 c fr0).1 $$ Hq0
  icases Hh with ⟨HqL0, HqR0⟩
  rw [O₂_from_step c 0 (by decide)]
  iapply (wp_send2 m ρ K c _ (dev11_eq c) 0 fr0 hfr0 fy0 (O₂_from c 1) _) $$ [HqL0 He0 HO Ht20 Hty0]
  · isplitr; · iexact HI20
    isplitr; · iexact HIy0
    isplitl [HqL0]; · iexact HqL0
    isplitl [He0]; · iexact He0
    isplitl [HO]; · iexact HO
    isplitl [Ht20]; · iexact Ht20
    isplitr; · iexact Hr20
    isplitl [Hty0]; · iexact Hty0
    iexact Hry0
  iintro ⟨Hcf0, HO⟩
  sl_exec_parts
  unfold slotAt
  -- chunk 1 has landed: keep one half share for the loads, lend the other to the stage-2 transfer
  icases Hp11_pay1 with ⟨%fr1, %hfr1, Hq1⟩
  ihave Hh := (slot_halves r1M 1 c fr1).1 $$ Hq1
  icases Hh with ⟨HqL1, HqR1⟩
  rw [O₂_from_step c 1 (by decide)]
  iapply (wp_send2 m ρ K c _ (dev12_eq c) 1 fr1 hfr1 fy1 (O₂_from c 2) _) $$ [HqL1 He1 HO Ht21 Hty1]
  · isplitr; · iexact HI21
    isplitr; · iexact HIy1
    isplitl [HqL1]; · iexact HqL1
    isplitl [He1]; · iexact He1
    isplitl [HO]; · iexact HO
    isplitl [Ht21]; · iexact Ht21
    isplitr; · iexact Hr21
    isplitl [Hty1]; · iexact Hty1
    iexact Hry1
  iintro ⟨Hcf1, HO⟩
  sl_exec_parts
  unfold slotAt
  -- chunk 2 has landed: keep one half share for the loads, lend the other to the stage-2 transfer
  icases Hp12_pay1 with ⟨%fr2, %hfr2, Hq2⟩
  ihave Hh := (slot_halves r1M 2 c fr2).1 $$ Hq2
  icases Hh with ⟨HqL2, HqR2⟩
  rw [O₂_from_step c 2 (by decide)]
  iapply (wp_send2 m ρ K c _ (dev13_eq c) 2 fr2 hfr2 fy2 (O₂_from c 3) _) $$ [HqL2 He2 HO Ht22 Hty2]
  · isplitr; · iexact HI22
    isplitr; · iexact HIy2
    isplitl [HqL2]; · iexact HqL2
    isplitl [He2]; · iexact He2
    isplitl [HO]; · iexact HO
    isplitl [Ht22]; · iexact Ht22
    isplitr; · iexact Hr22
    isplitl [Hty2]; · iexact Hty2
    iexact Hry2
  iintro ⟨Hcf2, HO⟩
  sl_exec_parts
  unfold slotAt
  -- chunk 3 has landed: keep one half share for the loads, lend the other to the stage-2 transfer
  icases Hp13_pay1 with ⟨%fr3, %hfr3, Hq3⟩
  ihave Hh := (slot_halves r1M 3 c fr3).1 $$ Hq3
  icases Hh with ⟨HqL3, HqR3⟩
  rw [O₂_from_step c 3 (by decide)]
  iapply (wp_send2 m ρ K c _ (dev14_eq c) 3 fr3 hfr3 fy3 (O₂_from c 4) _) $$ [HqL3 He3 HO Ht23 Hty3]
  · isplitr; · iexact HI23
    isplitr; · iexact HIy3
    isplitl [HqL3]; · iexact HqL3
    isplitl [He3]; · iexact He3
    isplitl [HO]; · iexact HO
    isplitl [Ht23]; · iexact Ht23
    isplitr; · iexact Hr23
    isplitl [Hty3]; · iexact Hty3
    iexact Hry3
  iintro ⟨Hcf3, HO⟩
  sl_exec_parts
  unfold slotAt
  -- chunk 4 has landed: keep one half share for the loads, lend the other to the stage-2 transfer
  icases Hp14_pay1 with ⟨%fr4, %hfr4, Hq4⟩
  ihave Hh := (slot_halves r1M 4 c fr4).1 $$ Hq4
  icases Hh with ⟨HqL4, HqR4⟩
  rw [O₂_from_step c 4 (by decide)]
  iapply (wp_send2 m ρ K c _ (dev15_eq c) 4 fr4 hfr4 fy4 (O₂_from c 5) _) $$ [HqL4 He4 HO Ht24 Hty4]
  · isplitr; · iexact HI24
    isplitr; · iexact HIy4
    isplitl [HqL4]; · iexact HqL4
    isplitl [He4]; · iexact He4
    isplitl [HO]; · iexact HO
    isplitl [Ht24]; · iexact Ht24
    isplitr; · iexact Hr24
    isplitl [Hty4]; · iexact Hty4
    iexact Hry4
  iintro ⟨Hcf4, HO⟩
  sl_exec_parts
  unfold slotAt
  -- chunk 5 has landed: keep one half share for the loads, lend the other to the stage-2 transfer
  icases Hp15_pay1 with ⟨%fr5, %hfr5, Hq5⟩
  ihave Hh := (slot_halves r1M 5 c fr5).1 $$ Hq5
  icases Hh with ⟨HqL5, HqR5⟩
  rw [O₂_from_step c 5 (by decide)]
  iapply (wp_send2 m ρ K c _ (dev16_eq c) 5 fr5 hfr5 fy5 (O₂_from c 6) _) $$ [HqL5 He5 HO Ht25 Hty5]
  · isplitr; · iexact HI25
    isplitr; · iexact HIy5
    isplitl [HqL5]; · iexact HqL5
    isplitl [He5]; · iexact He5
    isplitl [HO]; · iexact HO
    isplitl [Ht25]; · iexact Ht25
    isplitr; · iexact Hr25
    isplitl [Hty5]; · iexact Hty5
    iexact Hry5
  iintro ⟨Hcf5, HO⟩
  sl_exec_parts
  unfold slotAt
  -- chunk 6 has landed: keep one half share for the loads, lend the other to the stage-2 transfer
  icases Hp16_pay1 with ⟨%fr6, %hfr6, Hq6⟩
  ihave Hh := (slot_halves r1M 6 c fr6).1 $$ Hq6
  icases Hh with ⟨HqL6, HqR6⟩
  rw [O₂_from_step c 6 (by decide)]
  iapply (wp_send2 m ρ K c _ (dev17_eq c) 6 fr6 hfr6 fy6 (O₂_from c 7) _) $$ [HqL6 He6 HO Ht26 Hty6]
  · isplitr; · iexact HI26
    isplitr; · iexact HIy6
    isplitl [HqL6]; · iexact HqL6
    isplitl [He6]; · iexact He6
    isplitl [HO]; · iexact HO
    isplitl [Ht26]; · iexact Ht26
    isplitr; · iexact Hr26
    isplitl [Hty6]; · iexact Hty6
    iexact Hry6
  iintro ⟨Hcf6, HO⟩
  sl_exec_parts
  unfold slotAt
  -- chunk 7 has landed: keep one half share for the loads, lend the other to the stage-2 transfer
  icases Hp17_pay1 with ⟨%fr7, %hfr7, Hq7⟩
  ihave Hh := (slot_halves r1M 7 c fr7).1 $$ Hq7
  icases Hh with ⟨HqL7, HqR7⟩
  rw [O₂_from_step c 7 (by decide)]
  iapply (wp_send2 m ρ K c _ (dev18_eq c) 7 fr7 hfr7 fy7 (O₂_from c 8) _) $$ [HqL7 He7 HO Ht27 Hty7]
  · isplitr; · iexact HI27
    isplitr; · iexact HIy7
    isplitl [HqL7]; · iexact HqL7
    isplitl [He7]; · iexact He7
    isplitl [HO]; · iexact HO
    isplitl [Ht27]; · iexact Ht27
    isplitr; · iexact Hr27
    isplitl [Hty7]; · iexact Hty7
    iexact Hry7
  iintro ⟨Hcf7, HO⟩
  rw [O₂_from_eight c]
  sl_exec_parts
  -- the wait for the stage-2 landing of chunk 0, nothing owed; its chunk comes with it
  rw [show ((SemArray.slice cc0_scratch8 (Rect.unit (s := S8) ![0] S1.size inb_S8_S1_0)).squeeze S_ squeezes_S1_S_).sem = xsem 3 0 from by decide]
  ihave Hc30 := (Entails.of_eq (aside_eq _)) $$ Hc30
  iapply (Rounds.wp_wait_rest_token 𝒱₀ ER (rd m ρ) (c : Thread nD τ) none (κ := K (c, some (3, 0)))
      (wpE_waitDma2_eq 𝒱₀ (c : Thread nD τ) none Set.univ) (Set.mem_univ _) () (O := 0) (R := 0) (m := 0) (T := ∅)
      (by rw [Nat.zero_add]; exact (expect_x m ρ c 3 0).symm)) $$ [Hc30 HO Hp30]
  · isplitr; · iexact HI30
    isplitl [Hc30]; · iexact Hc30
    isplitl [HO]; · iexact HO
    isplitr; · rw [MayWait_zero]; iempintro
    iexact Hp30
  iintro ⟨HO, Hp30, -, Hpay⟩
  ihave Hz := (Entails.of_eq (rest_x3 m ρ c 0)) $$ Hpay
  unfold slotAt
  icases Hz with ⟨%fz0, %hfz0, Hz0⟩
  sl_exec_parts
  -- the wait for the stage-2 landing of chunk 1, nothing owed; its chunk comes with it
  rw [show ((SemArray.slice cc0_scratch8 (Rect.unit (s := S8) ![1] S1.size inb_S8_S1_1)).squeeze S_ squeezes_S1_S_).sem = xsem 3 1 from by decide]
  ihave Hc31 := (Entails.of_eq (aside_eq _)) $$ Hc31
  iapply (Rounds.wp_wait_rest_token 𝒱₀ ER (rd m ρ) (c : Thread nD τ) none (κ := K (c, some (3, 1)))
      (wpE_waitDma2_eq 𝒱₀ (c : Thread nD τ) none Set.univ) (Set.mem_univ _) () (O := 0) (R := 0) (m := 0) (T := ∅)
      (by rw [Nat.zero_add]; exact (expect_x m ρ c 3 1).symm)) $$ [Hc31 HO Hp31]
  · isplitr; · iexact HI31
    isplitl [Hc31]; · iexact Hc31
    isplitl [HO]; · iexact HO
    isplitr; · rw [MayWait_zero]; iempintro
    iexact Hp31
  iintro ⟨HO, Hp31, -, Hpay⟩
  ihave Hz := (Entails.of_eq (rest_x3 m ρ c 1)) $$ Hpay
  unfold slotAt
  icases Hz with ⟨%fz1, %hfz1, Hz1⟩
  sl_exec_parts
  -- the wait for the stage-2 landing of chunk 2, nothing owed; its chunk comes with it
  rw [show ((SemArray.slice cc0_scratch8 (Rect.unit (s := S8) ![2] S1.size inb_S8_S1_2)).squeeze S_ squeezes_S1_S_).sem = xsem 3 2 from by decide]
  ihave Hc32 := (Entails.of_eq (aside_eq _)) $$ Hc32
  iapply (Rounds.wp_wait_rest_token 𝒱₀ ER (rd m ρ) (c : Thread nD τ) none (κ := K (c, some (3, 2)))
      (wpE_waitDma2_eq 𝒱₀ (c : Thread nD τ) none Set.univ) (Set.mem_univ _) () (O := 0) (R := 0) (m := 0) (T := ∅)
      (by rw [Nat.zero_add]; exact (expect_x m ρ c 3 2).symm)) $$ [Hc32 HO Hp32]
  · isplitr; · iexact HI32
    isplitl [Hc32]; · iexact Hc32
    isplitl [HO]; · iexact HO
    isplitr; · rw [MayWait_zero]; iempintro
    iexact Hp32
  iintro ⟨HO, Hp32, -, Hpay⟩
  ihave Hz := (Entails.of_eq (rest_x3 m ρ c 2)) $$ Hpay
  unfold slotAt
  icases Hz with ⟨%fz2, %hfz2, Hz2⟩
  sl_exec_parts
  -- the wait for the stage-2 landing of chunk 3, nothing owed; its chunk comes with it
  rw [show ((SemArray.slice cc0_scratch8 (Rect.unit (s := S8) ![3] S1.size inb_S8_S1_3)).squeeze S_ squeezes_S1_S_).sem = xsem 3 3 from by decide]
  ihave Hc33 := (Entails.of_eq (aside_eq _)) $$ Hc33
  iapply (Rounds.wp_wait_rest_token 𝒱₀ ER (rd m ρ) (c : Thread nD τ) none (κ := K (c, some (3, 3)))
      (wpE_waitDma2_eq 𝒱₀ (c : Thread nD τ) none Set.univ) (Set.mem_univ _) () (O := 0) (R := 0) (m := 0) (T := ∅)
      (by rw [Nat.zero_add]; exact (expect_x m ρ c 3 3).symm)) $$ [Hc33 HO Hp33]
  · isplitr; · iexact HI33
    isplitl [Hc33]; · iexact Hc33
    isplitl [HO]; · iexact HO
    isplitr; · rw [MayWait_zero]; iempintro
    iexact Hp33
  iintro ⟨HO, Hp33, -, Hpay⟩
  ihave Hz := (Entails.of_eq (rest_x3 m ρ c 3)) $$ Hpay
  unfold slotAt
  icases Hz with ⟨%fz3, %hfz3, Hz3⟩
  sl_exec_parts
  -- the wait for the stage-2 landing of chunk 4, nothing owed; its chunk comes with it
  rw [show ((SemArray.slice cc0_scratch8 (Rect.unit (s := S8) ![4] S1.size inb_S8_S1_4)).squeeze S_ squeezes_S1_S_).sem = xsem 3 4 from by decide]
  ihave Hc34 := (Entails.of_eq (aside_eq _)) $$ Hc34
  iapply (Rounds.wp_wait_rest_token 𝒱₀ ER (rd m ρ) (c : Thread nD τ) none (κ := K (c, some (3, 4)))
      (wpE_waitDma2_eq 𝒱₀ (c : Thread nD τ) none Set.univ) (Set.mem_univ _) () (O := 0) (R := 0) (m := 0) (T := ∅)
      (by rw [Nat.zero_add]; exact (expect_x m ρ c 3 4).symm)) $$ [Hc34 HO Hp34]
  · isplitr; · iexact HI34
    isplitl [Hc34]; · iexact Hc34
    isplitl [HO]; · iexact HO
    isplitr; · rw [MayWait_zero]; iempintro
    iexact Hp34
  iintro ⟨HO, Hp34, -, Hpay⟩
  ihave Hz := (Entails.of_eq (rest_x3 m ρ c 4)) $$ Hpay
  unfold slotAt
  icases Hz with ⟨%fz4, %hfz4, Hz4⟩
  sl_exec_parts
  -- the wait for the stage-2 landing of chunk 5, nothing owed; its chunk comes with it
  rw [show ((SemArray.slice cc0_scratch8 (Rect.unit (s := S8) ![5] S1.size inb_S8_S1_5)).squeeze S_ squeezes_S1_S_).sem = xsem 3 5 from by decide]
  ihave Hc35 := (Entails.of_eq (aside_eq _)) $$ Hc35
  iapply (Rounds.wp_wait_rest_token 𝒱₀ ER (rd m ρ) (c : Thread nD τ) none (κ := K (c, some (3, 5)))
      (wpE_waitDma2_eq 𝒱₀ (c : Thread nD τ) none Set.univ) (Set.mem_univ _) () (O := 0) (R := 0) (m := 0) (T := ∅)
      (by rw [Nat.zero_add]; exact (expect_x m ρ c 3 5).symm)) $$ [Hc35 HO Hp35]
  · isplitr; · iexact HI35
    isplitl [Hc35]; · iexact Hc35
    isplitl [HO]; · iexact HO
    isplitr; · rw [MayWait_zero]; iempintro
    iexact Hp35
  iintro ⟨HO, Hp35, -, Hpay⟩
  ihave Hz := (Entails.of_eq (rest_x3 m ρ c 5)) $$ Hpay
  unfold slotAt
  icases Hz with ⟨%fz5, %hfz5, Hz5⟩
  sl_exec_parts
  -- the wait for the stage-2 landing of chunk 6, nothing owed; its chunk comes with it
  rw [show ((SemArray.slice cc0_scratch8 (Rect.unit (s := S8) ![6] S1.size inb_S8_S1_6)).squeeze S_ squeezes_S1_S_).sem = xsem 3 6 from by decide]
  ihave Hc36 := (Entails.of_eq (aside_eq _)) $$ Hc36
  iapply (Rounds.wp_wait_rest_token 𝒱₀ ER (rd m ρ) (c : Thread nD τ) none (κ := K (c, some (3, 6)))
      (wpE_waitDma2_eq 𝒱₀ (c : Thread nD τ) none Set.univ) (Set.mem_univ _) () (O := 0) (R := 0) (m := 0) (T := ∅)
      (by rw [Nat.zero_add]; exact (expect_x m ρ c 3 6).symm)) $$ [Hc36 HO Hp36]
  · isplitr; · iexact HI36
    isplitl [Hc36]; · iexact Hc36
    isplitl [HO]; · iexact HO
    isplitr; · rw [MayWait_zero]; iempintro
    iexact Hp36
  iintro ⟨HO, Hp36, -, Hpay⟩
  ihave Hz := (Entails.of_eq (rest_x3 m ρ c 6)) $$ Hpay
  unfold slotAt
  icases Hz with ⟨%fz6, %hfz6, Hz6⟩
  sl_exec_parts
  -- the wait for the stage-2 landing of chunk 7, nothing owed; its chunk comes with it
  rw [show ((SemArray.slice cc0_scratch8 (Rect.unit (s := S8) ![7] S1.size inb_S8_S1_7)).squeeze S_ squeezes_S1_S_).sem = xsem 3 7 from by decide]
  ihave Hc37 := (Entails.of_eq (aside_eq _)) $$ Hc37
  iapply (Rounds.wp_wait_rest_token 𝒱₀ ER (rd m ρ) (c : Thread nD τ) none (κ := K (c, some (3, 7)))
      (wpE_waitDma2_eq 𝒱₀ (c : Thread nD τ) none Set.univ) (Set.mem_univ _) () (O := 0) (R := 0) (m := 0) (T := ∅)
      (by rw [Nat.zero_add]; exact (expect_x m ρ c 3 7).symm)) $$ [Hc37 HO Hp37]
  · isplitr; · iexact HI37
    isplitl [Hc37]; · iexact Hc37
    isplitl [HO]; · iexact HO
    isplitr; · rw [MayWait_zero]; iempintro
    iexact Hp37
  iintro ⟨HO, Hp37, -, Hpay⟩
  ihave Hz := (Entails.of_eq (rest_x3 m ρ c 7)) $$ Hpay
  unfold slotAt
  icases Hz with ⟨%fz7, %hfz7, Hz7⟩
  sl_exec_parts
  -- every own DMA cell is through its one round: closed, its counter at zero again
  imod (Rounds.cell_close ER (rd m ρ) (Set.mem_univ (K (c, some (0, 0)))) (fun h => h) (R := 1) (duties_later m ρ (xCell c 0 0))) $$ [Hp00] with Hv00
  · isplitr; · iexact HI00
    iexact Hp00
  imod (Rounds.cell_close ER (rd m ρ) (Set.mem_univ (K (c, some (0, 1)))) (fun h => h) (R := 1) (duties_later m ρ (xCell c 0 1))) $$ [Hp01] with Hv01
  · isplitr; · iexact HI01
    iexact Hp01
  imod (Rounds.cell_close ER (rd m ρ) (Set.mem_univ (K (c, some (0, 2)))) (fun h => h) (R := 1) (duties_later m ρ (xCell c 0 2))) $$ [Hp02] with Hv02
  · isplitr; · iexact HI02
    iexact Hp02
  imod (Rounds.cell_close ER (rd m ρ) (Set.mem_univ (K (c, some (0, 3)))) (fun h => h) (R := 1) (duties_later m ρ (xCell c 0 3))) $$ [Hp03] with Hv03
  · isplitr; · iexact HI03
    iexact Hp03
  imod (Rounds.cell_close ER (rd m ρ) (Set.mem_univ (K (c, some (0, 4)))) (fun h => h) (R := 1) (duties_later m ρ (xCell c 0 4))) $$ [Hp04] with Hv04
  · isplitr; · iexact HI04
    iexact Hp04
  imod (Rounds.cell_close ER (rd m ρ) (Set.mem_univ (K (c, some (0, 5)))) (fun h => h) (R := 1) (duties_later m ρ (xCell c 0 5))) $$ [Hp05] with Hv05
  · isplitr; · iexact HI05
    iexact Hp05
  imod (Rounds.cell_close ER (rd m ρ) (Set.mem_univ (K (c, some (0, 6)))) (fun h => h) (R := 1) (duties_later m ρ (xCell c 0 6))) $$ [Hp06] with Hv06
  · isplitr; · iexact HI06
    iexact Hp06
  imod (Rounds.cell_close ER (rd m ρ) (Set.mem_univ (K (c, some (0, 7)))) (fun h => h) (R := 1) (duties_later m ρ (xCell c 0 7))) $$ [Hp07] with Hv07
  · isplitr; · iexact HI07
    iexact Hp07
  imod (Rounds.cell_close ER (rd m ρ) (Set.mem_univ (K (c, some (1, 0)))) (fun h => h) (R := 1) (duties_later m ρ (xCell c 1 0))) $$ [Hp10] with Hv10
  · isplitr; · iexact HI10
    iexact Hp10
  imod (Rounds.cell_close ER (rd m ρ) (Set.mem_univ (K (c, some (1, 1)))) (fun h => h) (R := 1) (duties_later m ρ (xCell c 1 1))) $$ [Hp11] with Hv11
  · isplitr; · iexact HI11
    iexact Hp11
  imod (Rounds.cell_close ER (rd m ρ) (Set.mem_univ (K (c, some (1, 2)))) (fun h => h) (R := 1) (duties_later m ρ (xCell c 1 2))) $$ [Hp12] with Hv12
  · isplitr; · iexact HI12
    iexact Hp12
  imod (Rounds.cell_close ER (rd m ρ) (Set.mem_univ (K (c, some (1, 3)))) (fun h => h) (R := 1) (duties_later m ρ (xCell c 1 3))) $$ [Hp13] with Hv13
  · isplitr; · iexact HI13
    iexact Hp13
  imod (Rounds.cell_close ER (rd m ρ) (Set.mem_univ (K (c, some (1, 4)))) (fun h => h) (R := 1) (duties_later m ρ (xCell c 1 4))) $$ [Hp14] with Hv14
  · isplitr; · iexact HI14
    iexact Hp14
  imod (Rounds.cell_close ER (rd m ρ) (Set.mem_univ (K (c, some (1, 5)))) (fun h => h) (R := 1) (duties_later m ρ (xCell c 1 5))) $$ [Hp15] with Hv15
  · isplitr; · iexact HI15
    iexact Hp15
  imod (Rounds.cell_close ER (rd m ρ) (Set.mem_univ (K (c, some (1, 6)))) (fun h => h) (R := 1) (duties_later m ρ (xCell c 1 6))) $$ [Hp16] with Hv16
  · isplitr; · iexact HI16
    iexact Hp16
  imod (Rounds.cell_close ER (rd m ρ) (Set.mem_univ (K (c, some (1, 7)))) (fun h => h) (R := 1) (duties_later m ρ (xCell c 1 7))) $$ [Hp17] with Hv17
  · isplitr; · iexact HI17
    iexact Hp17
  imod (Rounds.cell_close ER (rd m ρ) (Set.mem_univ (K (c, some (2, 0)))) (fun h => h) (R := 1) (duties_later m ρ (xCell c 2 0))) $$ [Hp20] with Hv20
  · isplitr; · iexact HI20
    iexact Hp20
  imod (Rounds.cell_close ER (rd m ρ) (Set.mem_univ (K (c, some (2, 1)))) (fun h => h) (R := 1) (duties_later m ρ (xCell c 2 1))) $$ [Hp21] with Hv21
  · isplitr; · iexact HI21
    iexact Hp21
  imod (Rounds.cell_close ER (rd m ρ) (Set.mem_univ (K (c, some (2, 2)))) (fun h => h) (R := 1) (duties_later m ρ (xCell c 2 2))) $$ [Hp22] with Hv22
  · isplitr; · iexact HI22
    iexact Hp22
  imod (Rounds.cell_close ER (rd m ρ) (Set.mem_univ (K (c, some (2, 3)))) (fun h => h) (R := 1) (duties_later m ρ (xCell c 2 3))) $$ [Hp23] with Hv23
  · isplitr; · iexact HI23
    iexact Hp23
  imod (Rounds.cell_close ER (rd m ρ) (Set.mem_univ (K (c, some (2, 4)))) (fun h => h) (R := 1) (duties_later m ρ (xCell c 2 4))) $$ [Hp24] with Hv24
  · isplitr; · iexact HI24
    iexact Hp24
  imod (Rounds.cell_close ER (rd m ρ) (Set.mem_univ (K (c, some (2, 5)))) (fun h => h) (R := 1) (duties_later m ρ (xCell c 2 5))) $$ [Hp25] with Hv25
  · isplitr; · iexact HI25
    iexact Hp25
  imod (Rounds.cell_close ER (rd m ρ) (Set.mem_univ (K (c, some (2, 6)))) (fun h => h) (R := 1) (duties_later m ρ (xCell c 2 6))) $$ [Hp26] with Hv26
  · isplitr; · iexact HI26
    iexact Hp26
  imod (Rounds.cell_close ER (rd m ρ) (Set.mem_univ (K (c, some (2, 7)))) (fun h => h) (R := 1) (duties_later m ρ (xCell c 2 7))) $$ [Hp27] with Hv27
  · isplitr; · iexact HI27
    iexact Hp27
  imod (Rounds.cell_close ER (rd m ρ) (Set.mem_univ (K (c, some (3, 0)))) (fun h => h) (R := 1) (duties_later m ρ (xCell c 3 0))) $$ [Hp30] with Hv30
  · isplitr; · iexact HI30
    iexact Hp30
  imod (Rounds.cell_close ER (rd m ρ) (Set.mem_univ (K (c, some (3, 1)))) (fun h => h) (R := 1) (duties_later m ρ (xCell c 3 1))) $$ [Hp31] with Hv31
  · isplitr; · iexact HI31
    iexact Hp31
  imod (Rounds.cell_close ER (rd m ρ) (Set.mem_univ (K (c, some (3, 2)))) (fun h => h) (R := 1) (duties_later m ρ (xCell c 3 2))) $$ [Hp32] with Hv32
  · isplitr; · iexact HI32
    iexact Hp32
  imod (Rounds.cell_close ER (rd m ρ) (Set.mem_univ (K (c, some (3, 3)))) (fun h => h) (R := 1) (duties_later m ρ (xCell c 3 3))) $$ [Hp33] with Hv33
  · isplitr; · iexact HI33
    iexact Hp33
  imod (Rounds.cell_close ER (rd m ρ) (Set.mem_univ (K (c, some (3, 4)))) (fun h => h) (R := 1) (duties_later m ρ (xCell c 3 4))) $$ [Hp34] with Hv34
  · isplitr; · iexact HI34
    iexact Hp34
  imod (Rounds.cell_close ER (rd m ρ) (Set.mem_univ (K (c, some (3, 5)))) (fun h => h) (R := 1) (duties_later m ρ (xCell c 3 5))) $$ [Hp35] with Hv35
  · isplitr; · iexact HI35
    iexact Hp35
  imod (Rounds.cell_close ER (rd m ρ) (Set.mem_univ (K (c, some (3, 6)))) (fun h => h) (R := 1) (duties_later m ρ (xCell c 3 6))) $$ [Hp36] with Hv36
  · isplitr; · iexact HI36
    iexact Hp36
  imod (Rounds.cell_close ER (rd m ρ) (Set.mem_univ (K (c, some (3, 7)))) (fun h => h) (R := 1) (duties_later m ρ (xCell c 3 7))) $$ [Hp37] with Hv37
  · isplitr; · iexact HI37
    iexact Hp37
  sl_step
  iapply Hk
  unfold bodyPost Φ₁ Dat.owesAt Pipeline.owesWithin
  rw [show (dats m ρ 0 c).owed t₀.succ = 0 from rfl]
  -- the chunks, whole again
  ihave HS0 := (slotAt_any sndM 0 c _) $$ Hp00_pay1
  ihave HS1 := (slotAt_any sndM 1 c _) $$ Hp01_pay1
  ihave HS2 := (slotAt_any sndM 2 c _) $$ Hp02_pay1
  ihave HS3 := (slotAt_any sndM 3 c _) $$ Hp03_pay1
  ihave HS4 := (slotAt_any sndM 4 c _) $$ Hp04_pay1
  ihave HS5 := (slotAt_any sndM 5 c _) $$ Hp05_pay1
  ihave HS6 := (slotAt_any sndM 6 c _) $$ Hp06_pay1
  ihave HS7 := (slotAt_any sndM 7 c _) $$ Hp07_pay1
  ihave HA0 := (chunk_rejoin r1M 0 c _ fr0) $$ [Hp20_pay1 HqR0]
  · isplitl [Hp20_pay1]; · iexact Hp20_pay1
    iexact HqR0
  ihave HA1 := (chunk_rejoin r1M 1 c _ fr1) $$ [Hp21_pay1 HqR1]
  · isplitl [Hp21_pay1]; · iexact Hp21_pay1
    iexact HqR1
  ihave HA2 := (chunk_rejoin r1M 2 c _ fr2) $$ [Hp22_pay1 HqR2]
  · isplitl [Hp22_pay1]; · iexact Hp22_pay1
    iexact HqR2
  ihave HA3 := (chunk_rejoin r1M 3 c _ fr3) $$ [Hp23_pay1 HqR3]
  · isplitl [Hp23_pay1]; · iexact Hp23_pay1
    iexact HqR3
  ihave HA4 := (chunk_rejoin r1M 4 c _ fr4) $$ [Hp24_pay1 HqR4]
  · isplitl [Hp24_pay1]; · iexact Hp24_pay1
    iexact HqR4
  ihave HA5 := (chunk_rejoin r1M 5 c _ fr5) $$ [Hp25_pay1 HqR5]
  · isplitl [Hp25_pay1]; · iexact Hp25_pay1
    iexact HqR5
  ihave HA6 := (chunk_rejoin r1M 6 c _ fr6) $$ [Hp26_pay1 HqR6]
  · isplitl [Hp26_pay1]; · iexact Hp26_pay1
    iexact HqR6
  ihave HA7 := (chunk_rejoin r1M 7 c _ fr7) $$ [Hp27_pay1 HqR7]
  · isplitl [Hp27_pay1]; · iexact Hp27_pay1
    iexact HqR7
  ihave HB0 := (slotAny_intro r2M 0 c fz0) $$ Hz0
  ihave HB1 := (slotAny_intro r2M 1 c fz1) $$ Hz1
  ihave HB2 := (slotAny_intro r2M 2 c fz2) $$ Hz2
  ihave HB3 := (slotAny_intro r2M 3 c fz3) $$ Hz3
  ihave HB4 := (slotAny_intro r2M 4 c fz4) $$ Hz4
  ihave HB5 := (slotAny_intro r2M 5 c fz5) $$ Hz5
  ihave HB6 := (slotAny_intro r2M 6 c fz6) $$ Hz6
  ihave HB7 := (slotAny_intro r2M 7 c fz7) $$ Hz7
  isplitl [Hdyb Hacc HS0 HS1 HS2 HS3 HS4 HS5 HS6 HS7 HA0 HA1 HA2 HA3 HA4 HA5 HA6 HA7 HB0 HB1 HB2 HB3 HB4 HB5 HB6 HB7 Hv00 Hv01 Hv02 Hv03 Hv04 Hv05 Hv06 Hv07 Hv10 Hv11 Hv12 Hv13 Hv14 Hv15 Hv16 Hv17 Hv20 Hv21 Hv22 Hv23 Hv24 Hv25 Hv26 Hv27 Hv30 Hv31 Hv32 Hv33 Hv34 Hv35 Hv36 Hv37]
  · isplitl [Hdyb Hacc HS0 HS1 HS2 HS3 HS4 HS5 HS6 HS7 HA0 HA1 HA2 HA3 HA4 HA5 HA6 HA7 HB0 HB1 HB2 HB3 HB4 HB5 HB6 HB7]
    · iapply (scratch_close (F := F) c)
      isplitl [Hdyb]; · iexists _; iexact Hdyb
      isplitl [Hacc]; · iexists _; iexact Hacc
      isplitl [HS0 HS1 HS2 HS3 HS4 HS5 HS6 HS7]
      ·
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [HA0 HA1 HA2 HA3 HA4 HA5 HA6 HA7]
      ·
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        iexact HA7
      isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      iexact HB7
    · rw [bigSep_jk]
      isplitl [Hv00 Hv01 Hv02 Hv03 Hv04 Hv05 Hv06 Hv07]
      ·
        isplitl [Hv00]; · iexact Hv00
        isplitl [Hv01]; · iexact Hv01
        isplitl [Hv02]; · iexact Hv02
        isplitl [Hv03]; · iexact Hv03
        isplitl [Hv04]; · iexact Hv04
        isplitl [Hv05]; · iexact Hv05
        isplitl [Hv06]; · iexact Hv06
        iexact Hv07
      isplitl [Hv10 Hv11 Hv12 Hv13 Hv14 Hv15 Hv16 Hv17]
      ·
        isplitl [Hv10]; · iexact Hv10
        isplitl [Hv11]; · iexact Hv11
        isplitl [Hv12]; · iexact Hv12
        isplitl [Hv13]; · iexact Hv13
        isplitl [Hv14]; · iexact Hv14
        isplitl [Hv15]; · iexact Hv15
        isplitl [Hv16]; · iexact Hv16
        iexact Hv17
      isplitl [Hv20 Hv21 Hv22 Hv23 Hv24 Hv25 Hv26 Hv27]
      ·
        isplitl [Hv20]; · iexact Hv20
        isplitl [Hv21]; · iexact Hv21
        isplitl [Hv22]; · iexact Hv22
        isplitl [Hv23]; · iexact Hv23
        isplitl [Hv24]; · iexact Hv24
        isplitl [Hv25]; · iexact Hv25
        isplitl [Hv26]; · iexact Hv26
        iexact Hv27
      isplitl [Hv30]; · iexact Hv30
      isplitl [Hv31]; · iexact Hv31
      isplitl [Hv32]; · iexact Hv32
      isplitl [Hv33]; · iexact Hv33
      isplitl [Hv34]; · iexact Hv34
      isplitl [Hv35]; · iexact Hv35
      isplitl [Hv36]; · iexact Hv36
      iexact Hv37
  isplitl [HO]
  · iexists _
    isplitr
    rotate_left
    · iexact HO
    · ipureintro; exact fun _ _ => Or.inl trivial
  isplitl [Hx]
  · ihave Hx := (Entails.of_eq (whole_eq cc0_stg0_0 c _)) $$ Hx
    iexists _; isplitr; · (ipureintro; rfl)
    iexact Hx
  isplitl [Hdy]
  · ihave Hdy := (Entails.of_eq (whole_eq cc0_stg1_0 c _)) $$ Hdy
    iexists _; isplitr; · (ipureintro; rfl)
    iexact Hdy
  -- the result block: the sixteen stores are the sixteen pieces, and they tile the block
  have hL : sound_body.sl.Hout_16 m ρ c = outPieces m ρ c := by
    sl_unfold_run_names
    rfl
  ihave Hout := (Entails.of_eq (whole_eq cc0_stg2_0 c _)) $$ Hout
  iexists _
  isplitr
  rotate_left
  · iexact Hout
  · ipureintro
    rw [hL]
    exact out_base m ρ c g2

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on device `c`: the invariant before the point opened at the names the launch chose. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8) (fun _ => bodyPost m ρ c)
  unfold bodyPre' Φ₀ start
  iintro ⟨⟨⟨⟨%K, Hg⟩, Hcr, Hlev⟩, Hscr⟩, Ho, Hx, Hdy, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hdy]; · iexact Hdy
    iexact Hout
  · iintro H; iexact H

end Cert.KernelIdealProof

end
-- ==== Proof.Bits.Cells.lean ====
/-
  The mesh, the cells and the slots of the chunked reduce-scatter.

  Four devices on a 2×2 mesh, device `c` at row `c / 2` (the axis the operands are cut along) and column `c % 2`.
  Each device multiplies its 512 rows of `x` (transposed) with its 512 rows of `dy`; the 512×2048 product over all
  1024 rows is the sum of the two row-halves' products. Device `c` keeps the 256 result rows of its own mesh row: the
  half of them in its own column block it completes with the partial product its row-neighbour `xn c` sends (stage 1),
  the other half with the partial product its column-neighbour `yn c` forwards from ITS row-neighbour (stage 2).
  Every transfer is cut in eight column chunks of 256, one pair of DMA semaphores a chunk and stage.
-/
import proofs.«900592_g7700000000000593_dist_rsdw_v7x_xy2x2_x_m512_d512_f2048_bf16_1_alg».proof.Defs
import proofs.«900592_g7700000000000593_dist_rsdw_v7x_xy2x2_x_m512_d512_f2048_bf16_1_alg».proof.Proof.Gen.Kernel
import proofs.«900592_g7700000000000593_dist_rsdw_v7x_xy2x2_x_m512_d512_f2048_bf16_1_alg».proof.Proof.Gen.Kernel.Skeleton
import proofs.«900592_g7700000000000593_dist_rsdw_v7x_xy2x2_x_m512_d512_f2048_bf16_1_alg».proof.Proof.Gen.Kernel.Launch
import proofs.«900592_g7700000000000593_dist_rsdw_v7x_xy2x2_x_m512_d512_f2048_bf16_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Bool`) -/

abbrev UB : Type := URounds (GSem nD τ sig) Bool
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## The mesh: the row-neighbour and the column-neighbour -/

/-- The device in the other mesh row, same column. -/
def xn (c : Dev nD) : Dev nD := ![2, 3, 0, 1] c
/-- The device in the other mesh column, same row. -/
def yn (c : Dev nD) : Dev nD := ![1, 0, 3, 2] c

theorem xn_xn (c : Dev nD) : xn (xn c) = c := by revert c; decide
theorem yn_yn (c : Dev nD) : yn (yn c) = c := by revert c; decide
theorem xn_ne (c : Dev nD) : xn c ≠ c := by revert c; decide
theorem yn_ne (c : Dev nD) : yn c ≠ c := by revert c; decide
theorem xn_ne_yn (c : Dev nD) : xn c ≠ yn c := by revert c; decide
theorem xn_yn (c : Dev nD) : xn (yn c) = yn (xn c) := by revert c; decide

def xnE : Dev nD ≃ Dev nD := ⟨xn, xn, xn_xn, xn_xn⟩
def ynE : Dev nD ≃ Dev nD := ⟨yn, yn, yn_yn, yn_yn⟩

/-- The kernel's device chains: the first barrier signal and the eight stage-1 transfers name `xn c`, the second
    signal and the eight stage-2 transfers `yn c`. -/
theorem dev1_eq (c : Dev nD) : (⟨k0_dev1 c, k0_dev1_lt c⟩ : Dev nD) = xn c := by revert c; decide +kernel
theorem dev2_eq (c : Dev nD) : (⟨k0_dev2 c, k0_dev2_lt c⟩ : Dev nD) = yn c := by revert c; decide +kernel
theorem dev3_eq (c : Dev nD) : (⟨k0_dev3 c, k0_dev3_lt c⟩ : Dev nD) = xn c := by revert c; decide +kernel
theorem dev4_eq (c : Dev nD) : (⟨k0_dev4 c, k0_dev4_lt c⟩ : Dev nD) = xn c := by revert c; decide +kernel
theorem dev5_eq (c : Dev nD) : (⟨k0_dev5 c, k0_dev5_lt c⟩ : Dev nD) = xn c := by revert c; decide +kernel
theorem dev6_eq (c : Dev nD) : (⟨k0_dev6 c, k0_dev6_lt c⟩ : Dev nD) = xn c := by revert c; decide +kernel
theorem dev7_eq (c : Dev nD) : (⟨k0_dev7 c, k0_dev7_lt c⟩ : Dev nD) = xn c := by revert c; decide +kernel
theorem dev8_eq (c : Dev nD) : (⟨k0_dev8 c, k0_dev8_lt c⟩ : Dev nD) = xn c := by revert c; decide +kernel
theorem dev9_eq (c : Dev nD) : (⟨k0_dev9 c, k0_dev9_lt c⟩ : Dev nD) = xn c := by revert c; decide +kernel
theorem dev10_eq (c : Dev nD) : (⟨k0_dev10 c, k0_dev10_lt c⟩ : Dev nD) = xn c := by revert c; decide +kernel
theorem dev11_eq (c : Dev nD) : (⟨k0_dev11 c, k0_dev11_lt c⟩ : Dev nD) = yn c := by revert c; decide +kernel
theorem dev12_eq (c : Dev nD) : (⟨k0_dev12 c, k0_dev12_lt c⟩ : Dev nD) = yn c := by revert c; decide +kernel
theorem dev13_eq (c : Dev nD) : (⟨k0_dev13 c, k0_dev13_lt c⟩ : Dev nD) = yn c := by revert c; decide +kernel
theorem dev14_eq (c : Dev nD) : (⟨k0_dev14 c, k0_dev14_lt c⟩ : Dev nD) = yn c := by revert c; decide +kernel
theorem dev15_eq (c : Dev nD) : (⟨k0_dev15 c, k0_dev15_lt c⟩ : Dev nD) = yn c := by revert c; decide +kernel
theorem dev16_eq (c : Dev nD) : (⟨k0_dev16 c, k0_dev16_lt c⟩ : Dev nD) = yn c := by revert c; decide +kernel
theorem dev17_eq (c : Dev nD) : (⟨k0_dev17 c, k0_dev17_lt c⟩ : Dev nD) = yn c := by revert c; decide +kernel
theorem dev18_eq (c : Dev nD) : (⟨k0_dev18 c, k0_dev18_lt c⟩ : Dev nD) = yn c := by revert c; decide +kernel

/-! ## The buffers and the chunk slots -/

abbrev xM : Memref sig .tc .vmem S512x512 .f32 := Memref.whole cc0_stg0_0
abbrev dyM : Memref sig .tc .vmem S512x2048 .f32 := Memref.whole cc0_stg1_0
abbrev oM : Memref sig .tc .vmem S256x2048 .bf16 := Memref.whole cc0_stg2_0
abbrev dybM : Memref sig .tc .vmem S512x2048 .bf16 := Memref.whole cc0_scratch0
abbrev accM : Memref sig .tc .vmem S256x2048 .f32 := Memref.whole cc0_scratch1
abbrev sndM : Memref sig .tc .vmem S8x128x256 .bf16 := Memref.whole cc0_scratch2
abbrev r1M : Memref sig .tc .vmem S8x128x256 .bf16 := Memref.whole cc0_scratch3
abbrev r2M : Memref sig .tc .vmem S8x128x256 .bf16 := Memref.whole cc0_scratch4

theorem slot_inb (k : Fin 8) : ∀ a, (![k.val, 0, 0] : Fin 3 → Nat) a + S1x128x256.size a ≤ S8x128x256.size a := by
  revert k; decide

/-- Chunk `k`'s rectangle in a buffer of eight chunks. -/
abbrev slotRect (k : Fin 8) : Rect S8x128x256 := Rect.unit (s := S8x128x256) ![k.val, 0, 0] S1x128x256.size (slot_inb k)

/-- Chunk `k` of a buffer of eight chunks, as the kernel names it for a transfer: the slice, its unit axis dropped. -/
abbrev slot (M : Memref sig .tc .vmem S8x128x256 .bf16) (k : Fin 8) : Memref sig .tc .vmem S128x256 .bf16 :=
  (M.slice (slotRect k) (fun _ => rfl)).squeeze S128x256 squeezes_S1x128x256_S128x256

/-! ## The semaphores and the cells -/

/-- The runtime's barrier semaphore of collective id 0 (not scoped to the launch). -/
abbrev barS : Sem sig := (SemArray.scalar (sig.barrier 0 rfl) : Sems sig S_).sem

/-- The DMA semaphore of array `j` (0: stage-1 send, 1: stage-1 receive, 2: stage-2 send, 3: stage-2 receive), chunk `k`:
    the kernel's four scratch arrays of eight follow the three staging semaphores. -/
abbrev xsem (j : Fin 4) (k : Fin 8) : DmaSem sig := ⟨3 + 8 * j.val + k.val, by have := j.isLt; have := k.isLt; show _ < 35; omega⟩

abbrev barCell (c : Dev nD) : GSem nD τ sig := ((c : Thread nD τ), .reg barS)
abbrev xCell (c : Dev nD) (j : Fin 4) (k : Fin 8) : GSem nD τ sig := ((c : Thread nD τ), .dma (xsem j k))

/-- The credit of one chunk's transfer. -/
abbrev N : ℕ := (slot r1M 0).view.dmaCredit
theorem N_pos : 0 < N := View.dmaCredit_pos _ (by decide)

example : ((cc0_scratch5.slice (Rect.unit (s := S8) ![3] S1.size inb_S8_S1_3)).squeeze S_ squeezes_S1_S_).sem = xsem 0 3 := by decide
example : ((cc0_scratch8.slice (Rect.unit (s := S8) ![7] S1.size inb_S8_S1_7)).squeeze S_ squeezes_S1_S_).sem = xsem 3 7 := by decide
example : (slot r1M 5).view.dmaCredit = N := by decide

end Cert.KernelProof

end
-- ==== Proof.Bits.Proto.lean ====
/-
  The protocol of the chunked reduce-scatter, as a schedule of rounds, and what each device's body starts from and ends
  with.

  Semaphores of device `c` (every one used once, round 0 only):
  * its barrier semaphore: two units, one from each neighbour. The unit from `xn c` (duty `true`) brings `xn c`'s eight
    stage-1 landing chunks and the word that their eight receive cells stand at round 0 — what `c`'s stage-1 transfers
    into them need; the unit from `yn c` (duty `false`) brings the same of `yn c`'s stage-2 landing chunks.
  * array 0, chunk `k` (stage-1 send): paid when `c`'s transfer of its send chunk `k` has read its source; gives the send
    chunk back.
  * array 1, chunk `k` (stage-1 receive): paid by `xn c`'s transfer; brings `c`'s landing chunk `k` holding `xn c`'s send
    chunk `k`: the partial product of `xn c`'s row-half for the 128 result rows `c` completes first.
  * array 2, chunk `k` (stage-2 send): `c` forwards the chunk it has just received to `yn c`, and goes on READING it while
    the transfer is pending: the transfer borrows one half share of the chunk, which this cell gives back.
  * array 3, chunk `k` (stage-2 receive): paid by `yn c`'s forward; brings `c`'s second landing chunk `k` holding what
    `yn c` received, the send chunk `k` of `xn (yn c)`: the partial product for `c`'s other 128 rows.
-/
import proofs.«900592_g7700000000000593_dist_rsdw_v7x_xy2x2_x_m512_d512_f2048_bf16_1_alg».proof.Proof.Bits.Cells

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What the buffers hold -/

/-- Device `c`'s block of `x` (512 × 512) and of `dy` (512 × 2048), as staged for the body. -/
def xstg (c : Dev nD) : (cc0_stg0_0 : Ref sig .tc).ty.Contents (Elt F) :=
  (win0_0.blk (0 : Fin 1)).view.read (Elt F) ((s₀ m ρ).mem ((c : Thread nD τ).loc main_arg0))
def dystg (c : Dev nD) : (cc0_stg1_0 : Ref sig .tc).ty.Contents (Elt F) :=
  (win0_1.blk (0 : Fin 1)).view.read (Elt F) ((s₀ m ρ).mem ((c : Thread nD τ).loc main_arg1))

/-- The 128 columns of `x` (rows of the result) that device `c` works on for its row-neighbour: those of the
    neighbour's mesh row and `c`'s own column. -/
def xsV (c : Dev nD) : FVec F S512x128 .bf16 :=
  k0_pay1 (xM.view.readAt (Elt F) (Rect.unit (s := S512x512) (k0_off1 c) S512x128.size (k0_off1_inb c)).toLoadRect (xstg m ρ c))

/-- Column chunk `k` of `dy`, rounded to the compute type. -/
def dyChunk (c : Dev nD) : Fin 8 → FVec F S512x256 .bf16
  | 0 => k0_pay2 (dyM.view.readAt (Elt F) (Rect.unit (s := S512x2048) ![0, 0] S512x256.size inb_S512x2048_S512x256_0_0).toLoadRect (dystg m ρ c))
  | 1 => k0_pay4 (dyM.view.readAt (Elt F) (Rect.unit (s := S512x2048) ![0, 256] S512x256.size inb_S512x2048_S512x256_0_256).toLoadRect (dystg m ρ c))
  | 2 => k0_pay6 (dyM.view.readAt (Elt F) (Rect.unit (s := S512x2048) ![0, 512] S512x256.size inb_S512x2048_S512x256_0_512).toLoadRect (dystg m ρ c))
  | 3 => k0_pay8 (dyM.view.readAt (Elt F) (Rect.unit (s := S512x2048) ![0, 768] S512x256.size inb_S512x2048_S512x256_0_768).toLoadRect (dystg m ρ c))
  | 4 => k0_pay10 (dyM.view.readAt (Elt F) (Rect.unit (s := S512x2048) ![0, 1024] S512x256.size inb_S512x2048_S512x256_0_1024).toLoadRect (dystg m ρ c))
  | 5 => k0_pay12 (dyM.view.readAt (Elt F) (Rect.unit (s := S512x2048) ![0, 1280] S512x256.size inb_S512x2048_S512x256_0_1280).toLoadRect (dystg m ρ c))
  | 6 => k0_pay14 (dyM.view.readAt (Elt F) (Rect.unit (s := S512x2048) ![0, 1536] S512x256.size inb_S512x2048_S512x256_0_1536).toLoadRect (dystg m ρ c))
  | 7 => k0_pay16 (dyM.view.readAt (Elt F) (Rect.unit (s := S512x2048) ![0, 1792] S512x256.size inb_S512x2048_S512x256_0_1792).toLoadRect (dystg m ρ c))

/-- Send chunk `k` of device `c`: the product of those 128 columns of its `x` block, transposed, with column chunk `k`
    of its `dy` block — a partial product over `c`'s 512 rows. -/
def sendW (c : Dev nD) : Fin 8 → FVec F S1x128x256 .bf16
  | 0 => k0_pay3 (xsV m ρ c) (dyChunk m ρ c 0)
  | 1 => k0_pay5 (xsV m ρ c) (dyChunk m ρ c 1)
  | 2 => k0_pay7 (xsV m ρ c) (dyChunk m ρ c 2)
  | 3 => k0_pay9 (xsV m ρ c) (dyChunk m ρ c 3)
  | 4 => k0_pay11 (xsV m ρ c) (dyChunk m ρ c 4)
  | 5 => k0_pay13 (xsV m ρ c) (dyChunk m ρ c 5)
  | 6 => k0_pay15 (xsV m ρ c) (dyChunk m ρ c 6)
  | 7 => k0_pay17 (xsV m ρ c) (dyChunk m ρ c 7)

/-! ## A chunk of a buffer at known contents -/

/-- Chunk `k` of the eight-chunk buffer `M` on device `c`, held at share `q`, where a load through `M` at the chunk's box
    reads `w`. -/
def slotAt (M : Memref sig .tc .vmem S8x128x256 .bf16) (k : Fin 8) (c : Dev nD) (q : PosShare TreeShare) (w : Vec F S1x128x256 .bf16) : sProp 𝕄 :=
  iprop(∃ f : Buf (Elt F) ((slot M k).view.loc (c : Thread nD τ)),
    ⌜M.view.readAt (Elt F) (slotRect k).toLoadRect f = w⌝ ∗ ((slot M k).view.loc (c : Thread nD τ) ↦[(slot M k).view.set]{q} f))

/-- The same at contents nobody knows. -/
def slotAny (M : Memref sig .tc .vmem S8x128x256 .bf16) (k : Fin 8) (c : Dev nD) : sProp 𝕄 :=
  iprop(∃ f : Buf (Elt F) ((slot M k).view.loc (c : Thread nD τ)), ((slot M k).view.loc (c : Thread nD τ) ↦[(slot M k).view.set]{fullShare} f))

omit [FloatOps F] in
instance slotAt_storable (M) (k : Fin 8) (c : Dev nD) (q) (w) : BI.Storable (upEmb : UEmb _ 𝕄) (slotAt (F := F) M k c q w) := by unfold slotAt; infer_instance
omit [FloatOps F] in
instance slotAny_storable (M) (k : Fin 8) (c : Dev nD) : BI.Storable (upEmb : UEmb _ 𝕄) (slotAny (F := F) M k c) := by unfold slotAny; infer_instance

/-! ## The schedule -/

/-- Which of the four arrays, and which chunk, a DMA semaphore of the kernel's own is. -/
def arrOf (q : DmaSem sig) : ℕ := (q.val - 3) / 8
def chunkOf (q : DmaSem sig) : Fin 8 := ⟨(q.val - 3) % 8, Nat.mod_lt _ (by decide)⟩

theorem arrOf_xsem (j : Fin 4) (k : Fin 8) : arrOf (xsem j k) = j.val := by revert j k; decide
theorem chunkOf_xsem (j : Fin 4) (k : Fin 8) : chunkOf (xsem j k) = k := by revert j k; decide

/-- What the barrier unit from the row-neighbour brings: its stage-1 landing chunks, their cells at round 0. -/
def barPayX (c : Dev nD) : sProp 𝕄 :=
  iprop((bigSep Finset.univ fun k : Fin 8 => slotAny r1M k (xn c)) ∗ (bigSep Finset.univ fun k : Fin 8 => reached ER (xCell (xn c) 1 k) 0))
/-- What the barrier unit from the column-neighbour brings: its stage-2 landing chunks, their cells at round 0. -/
def barPayY (c : Dev nD) : sProp 𝕄 :=
  iprop((bigSep Finset.univ fun k : Fin 8 => slotAny r2M k (yn c)) ∗ (bigSep Finset.univ fun k : Fin 8 => reached ER (xCell (yn c) 3 k) 0))

/-- What a paid DMA cell of device `c` brings, by array. -/
def xferPay (c : Dev nD) (q : DmaSem sig) : sProp 𝕄 :=
  if arrOf q = 0 then slotAt sndM (chunkOf q) c fullShare (sendW m ρ c (chunkOf q))
  else if arrOf q = 1 then slotAt r1M (chunkOf q) c fullShare (sendW m ρ (xn c) (chunkOf q))
  else if arrOf q = 2 then slotAt r1M (chunkOf q) c fullShare.left (sendW m ρ (xn c) (chunkOf q))
  else slotAt r2M (chunkOf q) c fullShare (sendW m ρ (xn (yn c)) (chunkOf q))

abbrev IsBar (g : GSem nD τ sig) : Prop := g.1.2 = .tc ∧ g.2 = .reg barS
/-- One of the kernel's own thirty-two DMA semaphores (the three before them are the pipeline's). -/
def IsXsem : SemLoc sig → Prop
  | .dma q => 3 ≤ q.val
  | _ => False
instance : DecidablePred (IsXsem : SemLoc sig → Prop) := fun sm => by cases sm <;> unfold IsXsem <;> infer_instance
abbrev IsXfer (g : GSem nD τ sig) : Prop := g.1.2 = .tc ∧ IsXsem g.2

/-- One round: a barrier cell has the two duties of one unit each, a DMA cell of the kernel's own the one duty `false` of a
    chunk's credit. -/
def rd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    match g.2 with
    | .reg _ => if d then barPayX g.1.1 else barPayY g.1.1
    | .dma q => xferPay m ρ g.1.1 q
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) m ρ).payload g r d) := by
  obtain ⟨t, sm⟩ := g
  cases sm with
  | reg s =>
    show BI.Storable upEmb (if d then barPayX t.1 else barPayY t.1)
    unfold barPayX barPayY; split <;> infer_instance
  | dma q =>
    show BI.Storable upEmb (xferPay m ρ t.1 q)
    unfold xferPay; (repeat' split) <;> infer_instance

/-! ## What each device owes at launch; the levels -/

/-- Eight summands, the one of chunk 0 outermost (it is paid first). -/
abbrev sum8 (f : Fin 8 → CellTallies nD τ sig Unit) : CellTallies nD τ sig Unit := f 7 + f 6 + f 5 + f 4 + f 3 + f 2 + f 1 + f 0

/-- Device `c` owes: a unit to each neighbour's barrier cell (the row-neighbour's first), a chunk's credit to each of the
    row-neighbour's stage-1 receive cells, then to each of the column-neighbour's stage-2 receive cells. -/
def O₂ (c : Dev nD) : CellTallies nD τ sig Unit := sum8 fun k => tallyAt (xCell (yn c) 3 k) () N
def O₁ (c : Dev nD) : CellTallies nD τ sig Unit := O₂ c + sum8 fun k => tallyAt (xCell (xn c) 1 k) () N
def O₀ (c : Dev nD) : CellTallies nD τ sig Unit := O₁ c + tallyAt (barCell (yn c)) () 1 + tallyAt (barCell (xn c)) () 1

def L (g : GSem nD τ sig) : Finset Unit := if g.1.2 = .tc then {()} else ∅
/-- Barrier cells at 1, stage-1 receive cells at 2, stage-2 receive cells at 3, every other cell at 0: a device waits on
    its barrier owing receive credits, on a stage-1 receive cell owing stage-2 credits only, elsewhere owing nothing. -/
def lv (g : GSem nD τ sig) (_ : Unit) : ℕ :=
  match g.2 with
  | .reg _ => 1
  | .dma q => if 3 ≤ q.val ∧ arrOf q = 1 then 2 else if 3 ≤ q.val ∧ arrOf q = 3 then 3 else 0

/-! ## The cells by index, and the ghost state a device's body starts from -/

/-- A device's thirty-three cells: the barrier (`none`), and array `j` chunk `k`. -/
abbrev CI : Type := Option (Fin 4 × Fin 8)
abbrev csem : CI → SemLoc sig
  | none => .reg barS
  | some (j, k) => .dma (xsem j k)
abbrev kcell (ck : Dev nD × CI) : GSem nD τ sig := ((ck.1 : Thread nD τ), csem ck.2)

/-- The invariants device `c`'s body opens, at the names the launch allocated them under: its own cells', both
    neighbours' barrier cells', the row-neighbour's stage-1 and the column-neighbour's stage-2 receive cells'. -/
def invs (K : Dev nD × CI → ℕ) (c : Dev nD) : sProp 𝕄 :=
  iprop((bigSep Finset.univ fun i : CI => cellInv ER (rd m ρ) (K (c, i)) (kcell (c, i)))
    ∗ cellInv ER (rd m ρ) (K (xn c, none)) (barCell (xn c)) ∗ cellInv ER (rd m ρ) (K (yn c, none)) (barCell (yn c))
    ∗ (bigSep Finset.univ fun k : Fin 8 => cellInv ER (rd m ρ) (K (xn c, some (1, k))) (xCell (xn c) 1 k))
    ∗ (bigSep Finset.univ fun k : Fin 8 => cellInv ER (rd m ρ) (K (yn c, some (3, k))) (xCell (yn c) 3 k)))

instance invs_persistent (K : Dev nD × CI → ℕ) (c : Dev nD) : BI.Persistent (invs m ρ K c) := by unfold invs; infer_instance

/-- Round 0 reached, of the cells device `c` must say so of: the two barrier cells it signals, its own send cells (it
    pays them itself) and its own receive cells (it passes the word to the neighbour that pays them). -/
def reach (c : Dev nD) : sProp 𝕄 :=
  iprop(reached ER (barCell (xn c)) 0 ∗ reached ER (barCell (yn c)) 0
    ∗ (bigSep Finset.univ fun jk : Fin 4 × Fin 8 => reached ER (xCell c jk.1 jk.2) 0))

instance reach_persistent (c : Dev nD) : BI.Persistent (reach (F := F) c) := by unfold reach; infer_instance

/-- The tokens of the duties device `c` pays: the row-neighbour's barrier duty `true`, the column-neighbour's barrier duty
    `false`, and per chunk the row-neighbour's stage-1 receive duty, its own stage-1 send duty, the column-neighbour's
    stage-2 receive duty, its own stage-2 send duty. -/
def payToks (c : Dev nD) : sProp 𝕄 :=
  iprop(dutyTok ER (barCell (xn c)) 0 true ∗ dutyTok ER (barCell (yn c)) 0 false
    ∗ (bigSep Finset.univ fun k : Fin 8 => dutyTok ER (xCell (xn c) 1 k) 0 false)
    ∗ (bigSep Finset.univ fun k : Fin 8 => dutyTok ER (xCell c 0 k) 0 false)
    ∗ (bigSep Finset.univ fun k : Fin 8 => dutyTok ER (xCell (yn c) 3 k) 0 false)
    ∗ (bigSep Finset.univ fun k : Fin 8 => dutyTok ER (xCell c 2 k) 0 false))

/-- Device `c`'s positions: at round 0 of each of its cells, nothing taken. -/
def poss (c : Dev nD) : sProp 𝕄 := bigSep Finset.univ fun i : CI => atPos ER (kcell (c, i)) 0 ∅ 0

def ghost (K : Dev nD × CI → ℕ) (c : Dev nD) : sProp 𝕄 :=
  iprop(invs m ρ K c ∗ reach c ∗ poss c ∗ payToks c)

/-- The credit tokens of the waits others pay: the barrier's two units, each receive cell's chunk credit. -/
def creds (c : Dev nD) : sProp 𝕄 :=
  iprop(cred (tallyAt (barCell c) () 2) ∗ (bigSep Finset.univ fun k : Fin 8 => cred (tallyAt (xCell c 1 k) () N))
    ∗ (bigSep Finset.univ fun k : Fin 8 => cred (tallyAt (xCell c 3 k) () N)))

def start (c : Dev nD) : sProp 𝕄 :=
  iprop((∃ K, ghost m ρ K c) ∗ creds c ∗ levAts L lv)

/-- The kernel's five scratch buffers, whole, at contents nobody knows. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m ρ c ∗ scratch c)
/-- After the point: the scratch buffers again, and the kernel's thirty-two own semaphores back at zero, closed. -/
def Φ₁ (c : Dev nD) : sProp 𝕄 := iprop(scratch c ∗ bigSep Finset.univ fun jk : Fin 4 × Fin 8 => semVal (xCell c jk.1 jk.2) 0)

end Cert.KernelProof

end
-- ==== Proof.Bits.Data.lean ====
/-
  The pipeline's proof data of the one launch, and what the body is handed and hands back.

  The accumulator: the 256 result rows of device `c`'s own mesh row, as the partial product over `c`'s own 512 rows.
  The result block: per column chunk, the accumulator's half in `c`'s own column block plus the chunk received in stage 1,
  and its other half plus the chunk received in stage 2: sixteen boxes of 128 × 256 that tile the 256 × 2048 block.
-/
import proofs.«900592_g7700000000000593_dist_rsdw_v7x_xy2x2_x_m512_d512_f2048_bf16_1_alg».proof.Proof.Bits.Proto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rounded `dy` buffer's eight stores, the last first: column chunk `k` at columns `[256 k, 256 k + 256)`. -/
def dyPieces (c : Dev nD) : List (View.Piece (Elt F) S512x2048 .bf16) :=
  [⟨Rect.unit (s := S512x2048) ![0, 1792] S512x256.size inb_S512x2048_S512x256_0_1792, dyChunk m ρ c 7⟩,
   ⟨Rect.unit (s := S512x2048) ![0, 1536] S512x256.size inb_S512x2048_S512x256_0_1536, dyChunk m ρ c 6⟩,
   ⟨Rect.unit (s := S512x2048) ![0, 1280] S512x256.size inb_S512x2048_S512x256_0_1280, dyChunk m ρ c 5⟩,
   ⟨Rect.unit (s := S512x2048) ![0, 1024] S512x256.size inb_S512x2048_S512x256_0_1024, dyChunk m ρ c 4⟩,
   ⟨Rect.unit (s := S512x2048) ![0, 768] S512x256.size inb_S512x2048_S512x256_0_768, dyChunk m ρ c 3⟩,
   ⟨Rect.unit (s := S512x2048) ![0, 512] S512x256.size inb_S512x2048_S512x256_0_512, dyChunk m ρ c 2⟩,
   ⟨Rect.unit (s := S512x2048) ![0, 256] S512x256.size inb_S512x2048_S512x256_0_256, dyChunk m ρ c 1⟩,
   ⟨Rect.unit (s := S512x2048) ![0, 0] S512x256.size inb_S512x2048_S512x256_0_0, dyChunk m ρ c 0⟩]

/-- The whole of `dy`'s block rounded to the compute type, as a load of the whole buffer reads it after the eight
    chunk stores: the eight chunks side by side. -/
def dyAll (c : Dev nD) : Vec F S512x2048 .bf16 :=
  dybM.view.readCov (dyPieces m ρ c) (Rect.unit (s := S512x2048) ![0, 0] S512x2048.size inb_S512x2048_S512x2048_0_0).toLoadRect

/-- The accumulator on device `c`: the 256 result rows of its own mesh row, as the partial product over its own 512
    rows of `x` and `dy`. -/
def accV (c : Dev nD) : FVec F S256x2048 .f32 :=
  k0_pay18 (xM.view.readAt (Elt F) (Rect.unit (s := S512x512) (k0_off2 c) S512x256.size (k0_off2_inb c)).toLoadRect (xstg m ρ c)) (dyAll m ρ c)

/-- What a load of the box `R` reads from the accumulator buffer once the accumulator is stored whole. -/
def accRows (c : Dev nD) (R : Rect S256x2048) : R.shape.Idx → Elt F .f32 :=
  accM.view.readCov [⟨Rect.unit (s := S256x2048) ![0, 0] S256x2048.size inb_S256x2048_S256x2048_0_0, accV m ρ c⟩] R.toLoadRect

/-- The sixteen boxes of the result block that the body stores, in program order: per column chunk `k` the 128 rows
    of the device's own column block (boxes 0 to 7), then the other 128 rows (boxes 8 to 15). -/
def outRect (c : Dev nD) : Fin 16 → Rect S256x2048
  | 0 => Rect.unit (s := S256x2048) (k0_off3 c) S128x256.size (k0_off3_inb c)
  | 1 => Rect.unit (s := S256x2048) (k0_off4 c) S128x256.size (k0_off4_inb c)
  | 2 => Rect.unit (s := S256x2048) (k0_off5 c) S128x256.size (k0_off5_inb c)
  | 3 => Rect.unit (s := S256x2048) (k0_off6 c) S128x256.size (k0_off6_inb c)
  | 4 => Rect.unit (s := S256x2048) (k0_off7 c) S128x256.size (k0_off7_inb c)
  | 5 => Rect.unit (s := S256x2048) (k0_off8 c) S128x256.size (k0_off8_inb c)
  | 6 => Rect.unit (s := S256x2048) (k0_off9 c) S128x256.size (k0_off9_inb c)
  | 7 => Rect.unit (s := S256x2048) (k0_off10 c) S128x256.size (k0_off10_inb c)
  | 8 => Rect.unit (s := S256x2048) (k0_off11 c) S128x256.size (k0_off11_inb c)
  | 9 => Rect.unit (s := S256x2048) (k0_off12 c) S128x256.size (k0_off12_inb c)
  | 10 => Rect.unit (s := S256x2048) (k0_off13 c) S128x256.size (k0_off13_inb c)
  | 11 => Rect.unit (s := S256x2048) (k0_off14 c) S128x256.size (k0_off14_inb c)
  | 12 => Rect.unit (s := S256x2048) (k0_off15 c) S128x256.size (k0_off15_inb c)
  | 13 => Rect.unit (s := S256x2048) (k0_off16 c) S128x256.size (k0_off16_inb c)
  | 14 => Rect.unit (s := S256x2048) (k0_off17 c) S128x256.size (k0_off17_inb c)
  | 15 => Rect.unit (s := S256x2048) (k0_off18 c) S128x256.size (k0_off18_inb c)
  | ⟨_ + 16, h⟩ => absurd h (Nat.not_lt.2 (Nat.le_add_left _ _))

/-- Stage 1's piece of column chunk `k`: the accumulator's rows of the device's own column block plus the chunk received
    from the row-neighbour. -/
def out1 (c : Dev nD) : Fin 8 → FVec F S128x256 .bf16
  | 0 => k0_pay19 (accRows m ρ c (Rect.unit (s := S256x2048) (k0_off3 c) S128x256.size (k0_off3_inb c))) (sendW m ρ (xn c) 0)
  | 1 => k0_pay20 (accRows m ρ c (Rect.unit (s := S256x2048) (k0_off4 c) S128x256.size (k0_off4_inb c))) (sendW m ρ (xn c) 1)
  | 2 => k0_pay21 (accRows m ρ c (Rect.unit (s := S256x2048) (k0_off5 c) S128x256.size (k0_off5_inb c))) (sendW m ρ (xn c) 2)
  | 3 => k0_pay22 (accRows m ρ c (Rect.unit (s := S256x2048) (k0_off6 c) S128x256.size (k0_off6_inb c))) (sendW m ρ (xn c) 3)
  | 4 => k0_pay23 (accRows m ρ c (Rect.unit (s := S256x2048) (k0_off7 c) S128x256.size (k0_off7_inb c))) (sendW m ρ (xn c) 4)
  | 5 => k0_pay24 (accRows m ρ c (Rect.unit (s := S256x2048) (k0_off8 c) S128x256.size (k0_off8_inb c))) (sendW m ρ (xn c) 5)
  | 6 => k0_pay25 (accRows m ρ c (Rect.unit (s := S256x2048) (k0_off9 c) S128x256.size (k0_off9_inb c))) (sendW m ρ (xn c) 6)
  | 7 => k0_pay26 (accRows m ρ c (Rect.unit (s := S256x2048) (k0_off10 c) S128x256.size (k0_off10_inb c))) (sendW m ρ (xn c) 7)

/-- Stage 2's piece of column chunk `k`: the accumulator's other rows plus the chunk the column-neighbour forwarded. -/
def out2 (c : Dev nD) : Fin 8 → FVec F S128x256 .bf16
  | 0 => k0_pay27 (accRows m ρ c (Rect.unit (s := S256x2048) (k0_off11 c) S128x256.size (k0_off11_inb c))) (sendW m ρ (xn (yn c)) 0)
  | 1 => k0_pay28 (accRows m ρ c (Rect.unit (s := S256x2048) (k0_off12 c) S128x256.size (k0_off12_inb c))) (sendW m ρ (xn (yn c)) 1)
  | 2 => k0_pay29 (accRows m ρ c (Rect.unit (s := S256x2048) (k0_off13 c) S128x256.size (k0_off13_inb c))) (sendW m ρ (xn (yn c)) 2)
  | 3 => k0_pay30 (accRows m ρ c (Rect.unit (s := S256x2048) (k0_off14 c) S128x256.size (k0_off14_inb c))) (sendW m ρ (xn (yn c)) 3)
  | 4 => k0_pay31 (accRows m ρ c (Rect.unit (s := S256x2048) (k0_off15 c) S128x256.size (k0_off15_inb c))) (sendW m ρ (xn (yn c)) 4)
  | 5 => k0_pay32 (accRows m ρ c (Rect.unit (s := S256x2048) (k0_off16 c) S128x256.size (k0_off16_inb c))) (sendW m ρ (xn (yn c)) 5)
  | 6 => k0_pay33 (accRows m ρ c (Rect.unit (s := S256x2048) (k0_off17 c) S128x256.size (k0_off17_inb c))) (sendW m ρ (xn (yn c)) 6)
  | 7 => k0_pay34 (accRows m ρ c (Rect.unit (s := S256x2048) (k0_off18 c) S128x256.size (k0_off18_inb c))) (sendW m ρ (xn (yn c)) 7)

/-- The sixteen stores of the result block, the last first. -/
def outPieces (c : Dev nD) : List (View.Piece (Elt F) S256x2048 .bf16) :=
  [⟨outRect c 15, out2 m ρ c 7⟩,
   ⟨outRect c 14, out2 m ρ c 6⟩,
   ⟨outRect c 13, out2 m ρ c 5⟩,
   ⟨outRect c 12, out2 m ρ c 4⟩,
   ⟨outRect c 11, out2 m ρ c 3⟩,
   ⟨outRect c 10, out2 m ρ c 2⟩,
   ⟨outRect c 9, out2 m ρ c 1⟩,
   ⟨outRect c 8, out2 m ρ c 0⟩,
   ⟨outRect c 7, out1 m ρ c 7⟩,
   ⟨outRect c 6, out1 m ρ c 6⟩,
   ⟨outRect c 5, out1 m ρ c 5⟩,
   ⟨outRect c 4, out1 m ρ c 4⟩,
   ⟨outRect c 3, out1 m ρ c 3⟩,
   ⟨outRect c 2, out1 m ρ c 2⟩,
   ⟨outRect c 1, out1 m ρ c 1⟩,
   ⟨outRect c 0, out1 m ρ c 0⟩]

/-- The result block's contents on device `c`: the sixteen pieces, which tile it, written over nothing. -/
def outAt (c : Dev nD) : (cc0_stg2_0 : Ref sig .tc).ty.Contents (Elt F) :=
  oM.view.writes (Elt F) oM.view.junk (outPieces m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dystg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device `c` starts from: the invariant before the point, what it owes, and the three staging buffers. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it ends with: the invariant after the point, nothing owed, the operands' staging buffers as they were and the
    result's at the result block. -/
def bodyPost (c : Dev nD) : sProp 𝕄 :=
  iprop(Φ₁ c ∗ (dats m ρ 0 c).owesAt () t₀.succ ∗ stg c cc0_stg0_0 (xstg m ρ c) ∗ stg c cc0_stg1_0 (dystg m ρ c) ∗ stg c cc0_stg2_0 (outAt m ρ c))

end Cert.KernelProof

end
-- ==== Proof.Bits.Tables.lean ====
/-
  The schedule of the chunked reduce-scatter read cell by cell: each cell's duties, amounts, expected total and payloads
  at round 0, and that no cell has a later round; the levels, and that each wait of a device sits below everything the
  device owes at that moment; what every device is owed at launch.
-/
import proofs.«900592_g7700000000000593_dist_rsdw_v7x_xy2x2_x_m512_d512_f2048_bf16_1_alg».proof.Proof.Bits.Proto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables, cell by cell -/

section Tables
variable (c : Dev nD) (j : Fin 4) (k : Fin 8) (d : Bool)

omit [FloatOps F] in
theorem xsem_ne_bar : (SemLoc.dma (xsem j k) : SemLoc sig) ≠ .reg barS := fun h => by cases h
omit [FloatOps F] in
theorem not_bar_x : ¬ IsBar (xCell c j k) := fun h => xsem_ne_bar j k h.2
omit [FloatOps F] in
theorem isXsem_x : IsXsem (SemLoc.dma (xsem j k) : SemLoc sig) := by
  show 3 ≤ 3 + 8 * j.val + k.val; omega

theorem duties_bar : (rd (F := F) m ρ).duties (barCell c) 0 = Finset.univ := by dsimp only [rd]; exact if_pos ⟨rfl, rfl, rfl⟩
theorem duties_x : (rd (F := F) m ρ).duties (xCell c j k) 0 = {false} := by
  dsimp only [rd]; rw [if_neg (fun h => not_bar_x c j k h.2)]; exact if_pos ⟨rfl, rfl, isXsem_x j k⟩
theorem duties_later (g : GSem nD τ sig) : ∀ r, 1 ≤ r → (rd (F := F) m ρ).duties g r = ∅ :=
  fun r hr => by dsimp only [rd]; rw [if_neg fun h => by omega, if_neg fun h => by omega]

theorem amount_bar : (rd (F := F) m ρ).amount (barCell c) 0 d = 1 := by dsimp only [rd]; exact if_pos rfl
theorem amount_x : (rd (F := F) m ρ).amount (xCell c j k) 0 d = N := by dsimp only [rd]; exact if_neg (xsem_ne_bar j k)

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_x : (rd (F := F) m ρ).expect (xCell c j k) 0 = N := by
  unfold Schedule.expect Schedule.amountOf; rw [duties_x, Finset.sum_singleton, amount_x]

theorem payload_bar_true : (rd (F := F) m ρ).payload (barCell c) 0 true = barPayX c := by
  show (if (true : Bool) = true then barPayX c else barPayY c) = barPayX c
  exact if_pos rfl
theorem payload_bar_false : (rd (F := F) m ρ).payload (barCell c) 0 false = barPayY c := by
  show (if (false : Bool) = true then barPayX c else barPayY c) = barPayY c
  exact if_neg Bool.false_ne_true

theorem payload_x0 : (rd (F := F) m ρ).payload (xCell c 0 k) 0 d = slotAt sndM k c fullShare (sendW m ρ c k) := by
  show xferPay m ρ c (xsem 0 k) = _
  unfold xferPay; rw [arrOf_xsem, chunkOf_xsem]; exact if_pos rfl
theorem payload_x1 : (rd (F := F) m ρ).payload (xCell c 1 k) 0 d = slotAt r1M k c fullShare (sendW m ρ (xn c) k) := by
  show xferPay m ρ c (xsem 1 k) = _
  unfold xferPay; rw [arrOf_xsem, chunkOf_xsem, if_neg (by decide)]; exact if_pos rfl
theorem payload_x2 : (rd (F := F) m ρ).payload (xCell c 2 k) 0 d = slotAt r1M k c fullShare.left (sendW m ρ (xn c) k) := by
  show xferPay m ρ c (xsem 2 k) = _
  unfold xferPay; rw [arrOf_xsem, chunkOf_xsem, if_neg (by decide), if_neg (by decide)]; exact if_pos rfl
theorem payload_x3 : (rd (F := F) m ρ).payload (xCell c 3 k) 0 d = slotAt r2M k c fullShare (sendW m ρ (xn (yn c)) k) := by
  show xferPay m ρ c (xsem 3 k) = _
  unfold xferPay; rw [arrOf_xsem, chunkOf_xsem, if_neg (by decide), if_neg (by decide), if_neg (by decide)]

/-- The rest of the barrier cell's round, no duty taken: the column-neighbour's payload and the row-neighbour's. -/
theorem rest_bar : bigSep ((rd (F := F) m ρ).duties (barCell c) 0 \ ∅) (fun d => (rd (F := F) m ρ).payload (barCell c) 0 d)
    = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_x0 : bigSep ((rd (F := F) m ρ).duties (xCell c 0 k) 0 \ ∅) (fun d => (rd (F := F) m ρ).payload (xCell c 0 k) 0 d)
    = slotAt sndM k c fullShare (sendW m ρ c k) := by
  rw [Finset.sdiff_empty, duties_x, bigSep_singleton, payload_x0]
theorem rest_x1 : bigSep ((rd (F := F) m ρ).duties (xCell c 1 k) 0 \ ∅) (fun d => (rd (F := F) m ρ).payload (xCell c 1 k) 0 d)
    = slotAt r1M k c fullShare (sendW m ρ (xn c) k) := by
  rw [Finset.sdiff_empty, duties_x, bigSep_singleton, payload_x1]
theorem rest_x2 : bigSep ((rd (F := F) m ρ).duties (xCell c 2 k) 0 \ ∅) (fun d => (rd (F := F) m ρ).payload (xCell c 2 k) 0 d)
    = slotAt r1M k c fullShare.left (sendW m ρ (xn c) k) := by
  rw [Finset.sdiff_empty, duties_x, bigSep_singleton, payload_x2]
theorem rest_x3 : bigSep ((rd (F := F) m ρ).duties (xCell c 3 k) 0 \ ∅) (fun d => (rd (F := F) m ρ).payload (xCell c 3 k) 0 d)
    = slotAt r2M k c fullShare (sendW m ρ (xn (yn c)) k) := by
  rw [Finset.sdiff_empty, duties_x, bigSep_singleton, payload_x3]

end Tables

/-! ## The levels: what a device owes is above what it waits on -/

theorem L_of_ne (g : GSem nD τ sig) (h : g.1.2 ≠ .tc) : L g = ∅ := if_neg h
theorem L_tc (c : Dev nD) (sm : SemLoc sig) : L ((c : Thread nD τ), sm) = {()} := if_pos rfl

/-- A sum of eight tallies is positive where one of them is. -/
theorem sum8_pos {f : Fin 8 → CellTallies nD τ sig Unit} {g : GSem nD τ sig} {u : Unit} (h : 0 < sum8 f g u) : ∃ k, 0 < f k g u := by
  rcases Pipeline.add_pos_cases h with h | h; swap; · exact ⟨0, h⟩
  rcases Pipeline.add_pos_cases h with h | h; swap; · exact ⟨1, h⟩
  rcases Pipeline.add_pos_cases h with h | h; swap; · exact ⟨2, h⟩
  rcases Pipeline.add_pos_cases h with h | h; swap; · exact ⟨3, h⟩
  rcases Pipeline.add_pos_cases h with h | h; swap; · exact ⟨4, h⟩
  rcases Pipeline.add_pos_cases h with h | h; swap; · exact ⟨5, h⟩
  rcases Pipeline.add_pos_cases h with h | h; swap; · exact ⟨6, h⟩
  exact ⟨7, h⟩

theorem O₂_pos {c : Dev nD} {g : GSem nD τ sig} {u : Unit} (h : 0 < O₂ c g u) : ∃ k, g = xCell (yn c) 3 k := by
  unfold O₂ at h
  obtain ⟨k, hk⟩ := sum8_pos h
  exact ⟨k, (Pipeline.tallyAt_pos hk).1⟩

theorem O₁_pos {c : Dev nD} {g : GSem nD τ sig} {u : Unit} (h : 0 < O₁ c g u) :
    (∃ k, g = xCell (xn c) 1 k) ∨ (∃ k, g = xCell (yn c) 3 k) := by
  unfold O₁ at h
  rcases Pipeline.add_pos_cases h with h | h
  · exact .inr (O₂_pos h)
  · obtain ⟨k, hk⟩ := sum8_pos h
    exact .inl ⟨k, (Pipeline.tallyAt_pos hk).1⟩

theorem O₀_pos {c : Dev nD} {g : GSem nD τ sig} {u : Unit} (h : 0 < O₀ c g u) :
    g = barCell (xn c) ∨ g = barCell (yn c) ∨ (∃ k, g = xCell (xn c) 1 k) ∨ (∃ k, g = xCell (yn c) 3 k) := by
  unfold O₀ at h
  rcases Pipeline.add_pos_cases h with h | h
  · rcases Pipeline.add_pos_cases h with h | h
    · exact .inr (.inr (O₁_pos h))
    · exact .inr (.inl (Pipeline.tallyAt_pos h).1)
  · exact .inl (Pipeline.tallyAt_pos h).1

/-- The levels, cell by cell. -/
theorem lv_bar (c : Dev nD) (u : Unit) : lv (barCell c) u = 1 := rfl
theorem lv_x1 (c : Dev nD) (k : Fin 8) (u : Unit) : lv (xCell c 1 k) u = 2 := by
  show (if 3 ≤ (xsem 1 k).val ∧ arrOf (xsem 1 k) = 1 then 2 else if 3 ≤ (xsem 1 k).val ∧ arrOf (xsem 1 k) = 3 then 3 else 0) = 2
  exact if_pos ⟨isXsem_x 1 k, arrOf_xsem 1 k⟩
theorem lv_x3 (c : Dev nD) (k : Fin 8) (u : Unit) : lv (xCell c 3 k) u = 3 := by
  show (if 3 ≤ (xsem 3 k).val ∧ arrOf (xsem 3 k) = 1 then 2 else if 3 ≤ (xsem 3 k).val ∧ arrOf (xsem 3 k) = 3 then 3 else 0) = 3
  rw [arrOf_xsem, if_neg (fun h => absurd h.2 (by decide))]
  exact if_pos ⟨isXsem_x 3 k, rfl⟩
theorem lv_stage (c : Dev nD) (q : DmaSem sig) (hq : q.val < 3) (u : Unit) : lv ((c : Thread nD τ), .dma q) u = 0 := by
  show (if 3 ≤ q.val ∧ arrOf q = 1 then 2 else if 3 ≤ q.val ∧ arrOf q = 3 then 3 else 0) = 0
  rw [if_neg (fun h => by omega), if_neg (fun h => by omega)]

omit [FloatOps F] in
/-- The pipeline's three staging semaphores sit at level 0, below everything a device owes at launch. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [lv_stage c q hq]
    rcases O₀_pos hg with rfl | rfl | ⟨k, rfl⟩ | ⟨k, rfl⟩
    · exact ⟨by rw [L_tc]; exact Finset.mem_singleton_self _, by rw [lv_bar]; decide⟩
    · exact ⟨by rw [L_tc]; exact Finset.mem_singleton_self _, by rw [lv_bar]; decide⟩
    · exact ⟨by rw [L_tc]; exact Finset.mem_singleton_self _, by rw [lv_x1]; decide⟩
    · exact ⟨by rw [L_tc]; exact Finset.mem_singleton_self _, by rw [lv_x3]; decide⟩
  · rw [MayWait_zero]; iintro -; iempintro

omit [FloatOps F] in
/-- At its barrier wait a device owes the sixteen receive credits: levels 2 and 3, above the barrier's 1. -/
theorem mayWait_bar (c : Dev nD) : (levAts L lv : sProp 𝕄) ⊢ MayWait (c : Thread nD τ) (.reg barS) () (O₁ c) := by
  refine Pipeline.mayWait_of_levAts (by rw [L_tc]; exact Finset.mem_singleton_self _) fun g u hg => ?_
  rw [show lv ((c : Thread nD τ), SemLoc.reg barS) () = 1 from rfl]
  rcases O₁_pos hg with ⟨k, rfl⟩ | ⟨k, rfl⟩
  · exact ⟨by rw [L_tc]; exact Finset.mem_singleton_self _, by rw [lv_x1]; decide⟩
  · exact ⟨by rw [L_tc]; exact Finset.mem_singleton_self _, by rw [lv_x3]; decide⟩

omit [FloatOps F] in
/-- At a stage-1 receive wait a device owes stage-2 receive credits only: level 3, above 2. -/
theorem mayWait_r1 (c : Dev nD) (k : Fin 8) (O : CellTallies nD τ sig Unit) (hO : ∀ g u, 0 < O g u → ∃ k', g = xCell (yn c) 3 k') :
    (levAts L lv : sProp 𝕄) ⊢ MayWait (c : Thread nD τ) (.dma (xsem 1 k)) () O := by
  refine Pipeline.mayWait_of_levAts (by rw [L_tc]; exact Finset.mem_singleton_self _) fun g u hg => ?_
  rw [show lv ((c : Thread nD τ), SemLoc.dma (xsem 1 k)) () = 2 from lv_x1 c k ()]
  obtain ⟨k', rfl⟩ := hO g u hg
  exact ⟨by rw [L_tc]; exact Finset.mem_singleton_self _, by rw [lv_x3]; decide⟩

/-! ### The debts a device passes through -/

/-- The sum of the summands `n, …, 7` of eight, nested as in `sum8`: summand `n` outermost. -/
def sumFrom (f : Fin 8 → CellTallies nD τ sig Unit) : ℕ → CellTallies nD τ sig Unit
  | 0 => f 7 + f 6 + f 5 + f 4 + f 3 + f 2 + f 1 + f 0
  | 1 => f 7 + f 6 + f 5 + f 4 + f 3 + f 2 + f 1
  | 2 => f 7 + f 6 + f 5 + f 4 + f 3 + f 2
  | 3 => f 7 + f 6 + f 5 + f 4 + f 3
  | 4 => f 7 + f 6 + f 5 + f 4
  | 5 => f 7 + f 6 + f 5
  | 6 => f 7 + f 6
  | 7 => f 7
  | _ => 0

theorem sumFrom_zero (f : Fin 8 → CellTallies nD τ sig Unit) : sumFrom f 0 = sum8 f := rfl
theorem sumFrom_eight (f : Fin 8 → CellTallies nD τ sig Unit) : sumFrom f 8 = 0 := rfl
theorem sumFrom_step (f : Fin 8 → CellTallies nD τ sig Unit) (n : ℕ) (hn : n < 8) : sumFrom f n = sumFrom f (n + 1) + f ⟨n, hn⟩ := by
  rcases n with _ | _ | _ | _ | _ | _ | _ | _ | n
  · rfl
  · rfl
  · rfl
  · rfl
  · rfl
  · rfl
  · rfl
  · exact (zero_add _).symm
  · omega

theorem sumFrom_pos {f : Fin 8 → CellTallies nD τ sig Unit} {n : ℕ} {g : GSem nD τ sig} {u : Unit} (h : 0 < sumFrom f n g u) : ∃ k, 0 < f k g u := by
  by_cases hn : n < 8
  · rw [sumFrom_step f n hn] at h
    rcases Pipeline.add_pos_cases h with h | h
    · exact sumFrom_pos h
    · exact ⟨_, h⟩
  · have : sumFrom f n = 0 := by
      rcases n with _ | _ | _ | _ | _ | _ | _ | _ | n
      all_goals first | omega | rfl
    rw [this] at h; exact absurd h (Nat.lt_irrefl 0)
termination_by 8 - n

/-- What device `c` still owes once it has forwarded the chunks before `n`: the credits of the column-neighbour's stage-2
    receive cells `n, …, 7`. -/
def O₂_from (c : Dev nD) (n : ℕ) : CellTallies nD τ sig Unit := sumFrom (fun k => tallyAt (xCell (yn c) 3 k) () N) n
/-- What it still owes once it has started the stage-1 transfers before `n`. -/
def O₁_from (c : Dev nD) (n : ℕ) : CellTallies nD τ sig Unit := O₂ c + sumFrom (fun k => tallyAt (xCell (xn c) 1 k) () N) n

theorem O₂_from_zero (c : Dev nD) : O₂_from c 0 = O₂ c := rfl
theorem O₂_from_eight (c : Dev nD) : O₂_from c 8 = 0 := rfl
theorem O₂_from_step (c : Dev nD) (n : ℕ) (hn : n < 8) : O₂_from c n = O₂_from c (n + 1) + tallyAt (xCell (yn c) 3 ⟨n, hn⟩) () N :=
  sumFrom_step _ n hn
theorem O₂_from_pos {c : Dev nD} {n : ℕ} {g : GSem nD τ sig} {u : Unit} (h : 0 < O₂_from c n g u) : ∃ k', g = xCell (yn c) 3 k' := by
  obtain ⟨k, hk⟩ := sumFrom_pos h
  exact ⟨k, (Pipeline.tallyAt_pos hk).1⟩

theorem O₁_from_zero (c : Dev nD) : O₁_from c 0 = O₁ c := rfl
theorem O₁_from_eight (c : Dev nD) : O₁_from c 8 = O₂ c := add_zero _
theorem O₁_from_step (c : Dev nD) (n : ℕ) (hn : n < 8) : O₁_from c n = O₁_from c (n + 1) + tallyAt (xCell (xn c) 1 ⟨n, hn⟩) () N := by
  unfold O₁_from; rw [sumFrom_step _ n hn, add_assoc]

example (c : Dev nD) : O₂_from c 3 = O₂_from c 4 + tallyAt (xCell (yn c) 3 3) () N := rfl
example (c : Dev nD) : O₂_from c 7 = tallyAt (xCell (yn c) 3 7) () N := rfl

/-! ## What every device is owed at launch -/

theorem xsem_dma_inj {j j' : Fin 4} {k k' : Fin 8} (h : (SemLoc.dma (xsem j k) : SemLoc sig) = .dma (xsem j' k')) : j = j' ∧ k = k' := by
  have h3 : 3 + 8 * j.val + k.val = 3 + 8 * j'.val + k'.val := by
    injection h with h; exact congrArg Fin.val h
  have := j.isLt; have := j'.isLt; have := k.isLt; have := k'.isLt
  exact ⟨Fin.ext (by omega), Fin.ext (by omega)⟩

theorem bar_eq_iff {a b : Dev nD} : barCell a = barCell b ↔ a = b :=
  ⟨fun h => congrArg (fun g : GSem nD τ sig => g.1.1) h, fun h => h ▸ rfl⟩

theorem xCell_eq_iff {a b : Dev nD} {j j' : Fin 4} {k k' : Fin 8} : xCell a j k = xCell b j' k' ↔ a = b ∧ j = j' ∧ k = k' := by
  constructor
  · intro h
    exact ⟨congrArg (fun g : GSem nD τ sig => g.1.1) h, xsem_dma_inj (congrArg Prod.snd h)⟩
  · rintro ⟨rfl, rfl, rfl⟩; rfl

theorem xCell_ne_bar (a b : Dev nD) (j : Fin 4) (k : Fin 8) : xCell a j k ≠ barCell b :=
  fun h => xsem_ne_bar j k (congrArg Prod.snd h)

/-- The eight summands, read at a cell. -/
theorem sum8_apply (f : Fin 8 → CellTallies nD τ sig Unit) (g : GSem nD τ sig) (u : Unit) : sum8 f g u = ∑ k : Fin 8, f k g u := by
  rw [Fin.sum_univ_eight]
  show (f 7 + f 6 + f 5 + f 4 + f 3 + f 2 + f 1 + f 0) g u = _
  simp only [Pi.add_apply, Finsupp.add_apply]
  omega

/-- One credit to each chunk's cell of array `j` on device `a`, read at chunk `k`'s cell of array `j'` on device `b`. -/
theorem sum8_x (a b : Dev nD) (j j' : Fin 4) (k : Fin 8) (n : ℕ) :
    sum8 (fun k' => tallyAt (xCell a j k') () n) (xCell b j' k) () = if a = b ∧ j = j' then n else 0 := by
  rw [sum8_apply]
  by_cases h : a = b ∧ j = j'
  · obtain ⟨rfl, rfl⟩ := h
    have e : ∀ k' : Fin 8, tallyAt (xCell a j k') () n (xCell a j k) () = if k = k' then n else 0 := fun k' => by
      rw [tallyAt_apply]
      by_cases hk : k = k'
      · subst hk; rw [if_pos ⟨rfl, rfl⟩, if_pos rfl]
      · rw [if_neg (fun h => hk (xCell_eq_iff.mp h.1).2.2), if_neg hk]
    rw [if_pos ⟨rfl, rfl⟩, Finset.sum_congr rfl fun k' _ => e k', Finset.sum_ite_eq, if_pos (Finset.mem_univ _)]
  · rw [if_neg h]
    refine Finset.sum_eq_zero fun k' _ => ?_
    rw [tallyAt_apply, if_neg (fun h' => h ⟨(xCell_eq_iff.mp h'.1).1.symm, (xCell_eq_iff.mp h'.1).2.1.symm⟩)]

theorem sum8_x_bar (a b : Dev nD) (j : Fin 4) (n : ℕ) : sum8 (fun k' => tallyAt (xCell a j k') () n) (barCell b) () = 0 := by
  rw [sum8_apply]
  refine Finset.sum_eq_zero fun k' _ => ?_
  rw [tallyAt_apply, if_neg (fun h' => xCell_ne_bar a b j k' h'.1.symm)]

theorem tally_bar_x (a b : Dev nD) (j : Fin 4) (k : Fin 8) (n : ℕ) : tallyAt (barCell a) () n (xCell b j k) () = 0 := by
  rw [tallyAt_apply, if_neg (fun h' => xCell_ne_bar b a j k h'.1)]

/-- What device `d` owes device `c`'s barrier cell: a unit if it is `c`'s row-neighbour, a unit if it is its column-neighbour. -/
theorem owed_bar (d c : Dev nD) : O₀ d (barCell c) () = (if d = xn c then 1 else 0) + (if d = yn c then 1 else 0) := by
  have h1 : (tallyAt (barCell (xn d)) () 1 : CellTallies nD τ sig Unit) (barCell c) () = if d = xn c then 1 else 0 := by
    rw [tallyAt_apply]
    by_cases h : d = xn c
    · subst h; rw [xn_xn, if_pos ⟨rfl, rfl⟩, if_pos rfl]
    · rw [if_neg (fun h' => h (by rw [bar_eq_iff.mp h'.1, xn_xn])), if_neg h]
  have h2 : (tallyAt (barCell (yn d)) () 1 : CellTallies nD τ sig Unit) (barCell c) () = if d = yn c then 1 else 0 := by
    rw [tallyAt_apply]
    by_cases h : d = yn c
    · subst h; rw [yn_yn, if_pos ⟨rfl, rfl⟩, if_pos rfl]
    · rw [if_neg (fun h' => h (by rw [bar_eq_iff.mp h'.1, yn_yn])), if_neg h]
  unfold O₀ O₁ O₂
  rw [Pi.add_apply, Finsupp.add_apply, Pi.add_apply, Finsupp.add_apply, Pi.add_apply, Finsupp.add_apply, sum8_x_bar, sum8_x_bar, h1, h2]
  omega

/-- A stage-1 receive cell of `c` is owed its chunk's credit by `c`'s row-neighbour only; -/
theorem owed_r1 (d c : Dev nD) (k : Fin 8) : O₀ d (xCell c 1 k) () = if d = xn c then N else 0 := by
  unfold O₀ O₁ O₂
  rw [Pi.add_apply, Finsupp.add_apply, Pi.add_apply, Finsupp.add_apply, Pi.add_apply, Finsupp.add_apply, sum8_x, sum8_x, tally_bar_x, tally_bar_x,
    if_neg (fun h => absurd h.2 (by decide))]
  simp only [Nat.add_zero, Nat.zero_add]
  by_cases h : d = xn c
  · subst h; rw [xn_xn, if_pos ⟨rfl, trivial⟩, if_pos rfl]
  · rw [if_neg (fun h' => h (by rw [← h'.1, xn_xn])), if_neg h]

/-- a stage-2 receive cell by its column-neighbour only. -/
theorem owed_r3 (d c : Dev nD) (k : Fin 8) : O₀ d (xCell c 3 k) () = if d = yn c then N else 0 := by
  unfold O₀ O₁ O₂
  rw [Pi.add_apply, Finsupp.add_apply, Pi.add_apply, Finsupp.add_apply, Pi.add_apply, Finsupp.add_apply, sum8_x, sum8_x, tally_bar_x, tally_bar_x,
    if_neg (fun h : xn d = c ∧ (1 : Fin 4) = 3 => absurd h.2 (by decide))]
  simp only [Nat.add_zero]
  by_cases h : d = yn c
  · subst h; rw [yn_yn, if_pos ⟨rfl, trivial⟩, if_pos rfl]
  · rw [if_neg (fun h' => h (by rw [← h'.1, yn_yn])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]

theorem launch_r1 (c : Dev nD) (k : Fin 8) :
    tallyOn (xCell c 1 k) (launchCredit (Pipeline.owing O₀) 0 (xCell c 1 k)) = (tallyAt (xCell c 1 k) () N : CellTallies nD τ sig Unit) := by
  unfold tallyAt; refine congrArg _ (Finsupp.ext fun u => ?_); cases u
  rw [Pipeline.launchCredit_owing, Finsupp.single_eq_same, Finset.sum_congr rfl fun d _ => owed_r1 d c k, Finset.sum_ite_eq' Finset.univ (xn c) fun _ => N,
    if_pos (Finset.mem_univ _)]

theorem launch_r3 (c : Dev nD) (k : Fin 8) :
    tallyOn (xCell c 3 k) (launchCredit (Pipeline.owing O₀) 0 (xCell c 3 k)) = (tallyAt (xCell c 3 k) () N : CellTallies nD τ sig Unit) := by
  unfold tallyAt; refine congrArg _ (Finsupp.ext fun u => ?_); cases u
  rw [Pipeline.launchCredit_owing, Finsupp.single_eq_same, Finset.sum_congr rfl fun d _ => owed_r3 d c k, Finset.sum_ite_eq' Finset.univ (yn c) fun _ => N,
    if_pos (Finset.mem_univ _)]

/-- The eight semaphores of array `j`, by chunk. -/
def xEmb (j : Fin 4) : Fin 8 ↪ SemLoc sig := ⟨fun k => .dma (xsem j k), fun k k' h => (xsem_dma_inj h).2⟩

omit [FloatOps F] in
/-- The launch's credit on device `c`: its barrier's two units and the sixteen receive cells' chunk credits. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map (xEmb 1) ∪ Finset.univ.map (xEmb 3)) (fun sm h => Finset.mem_erase.mpr ⟨?_, Finset.mem_univ _⟩)).trans ?_
  · rcases Finset.mem_union.mp h with h | h
    · obtain ⟨k, _, rfl⟩ := Finset.mem_map.mp h; exact xsem_ne_bar 1 k
    · obtain ⟨k, _, rfl⟩ := Finset.mem_map.mp h; exact xsem_ne_bar 3 k
  · rw [bigSep_union (Finset.disjoint_left.mpr fun sm h1 h3 => by
        obtain ⟨k, _, rfl⟩ := Finset.mem_map.mp h1
        obtain ⟨k', _, e⟩ := Finset.mem_map.mp h3
        exact absurd (xsem_dma_inj e).1 (by decide)), bigSep_map, bigSep_map]
    exact (sep_mono_left (Entails.of_eq (bigSep_congr fun k _ => congrArg cred (launch_r1 c k)))).trans
      (sep_mono_right (Entails.of_eq (bigSep_congr fun k _ => congrArg cred (launch_r3 c k))))

/-- info: 'Cert.KernelProof.rest_bar' depends on axioms: [propext, Classical.choice, Quot.sound] -/
#guard_msgs in #print axioms rest_bar
/-- info: 'Cert.KernelProof.mayWait_r1' depends on axioms: [propext, Classical.choice, Quot.sound] -/
#guard_msgs in #print axioms mayWait_r1
/-- info: 'Cert.KernelProof.creds_intro' depends on axioms: [propext, Classical.choice, Quot.sound] -/
#guard_msgs in #print axioms creds_intro

end Cert.KernelProof

end
-- ==== Proof.Bits.Launch.lean ====
/-
  The launch of the chunked reduce-scatter: from each device's body obligation to the run of the whole program.

  Every device has thirty-three cells under the rounds discipline: its barrier cell (the runtime's semaphore, not scoped to
  the launch, so its counter at zero comes with the unscoped semaphores) and the thirty-two DMA cells of its own four arrays
  of eight. The launch element funds, for every device at once, each cell's round state, round 0 reached, the owner's
  position, and the duty tokens of the device's own cells. The cells' invariants are allocated from the counters at zero, all
  devices' under one update, since a cell's invariant is opened by its owner and by its payers alike. The tokens are then
  dealt to the payers: a barrier cell's duty `true` and the stage-1 receive duties to the row-neighbour, its duty `false`
  and the stage-2 receive duties to the column-neighbour, the send duties to the device itself; the row- and
  column-neighbour maps are involutions of the mesh, so each family is a re-indexing of itself.

  The launch credit of a device is the credit tokens of the waits others pay; the five scratch buffers are the launch's
  scoped rest; the three staging semaphores sit at level 0, below everything a device owes. The run then ends with every
  device's every array at what the proof data name: the two operand arrays as launched (never written back), the result
  array at the result block the body leaves, its one block being the whole array.
-/
import proofs.«900592_g7700000000000593_dist_rsdw_v7x_xy2x2_x_m512_d512_f2048_bf16_1_alg».proof.Proof.Bits.Data
import proofs.«900592_g7700000000000593_dist_rsdw_v7x_xy2x2_x_m512_d512_f2048_bf16_1_alg».proof.Proof.Bits.Tables
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells and the duty tokens -/

/-- The thirty-two DMA semaphores the kernel allocates: array `j`, chunk `k`. -/
abbrev osem : Fin 4 × Fin 8 → SemLoc sig := fun jk => .dma (xsem jk.1 jk.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CI → SemLoc sig) := by decide

theorem kcell_injective : Function.Injective (kcell : Dev nD × CI → GSem nD τ sig) := by
  rintro ⟨c, i⟩ ⟨c', i'⟩ h
  have h1 : c = c' := by have := congrArg (fun g : GSem nD τ sig => g.1.1) h; exact this
  subst h1
  have h2 : i = i' := csem_injective (congrArg Prod.snd h)
  subst h2; rfl

/-- Every device's thirty-three cells. -/
def kCells : Finset (GSem nD τ sig) := Finset.univ.map ⟨kcell, kcell_injective⟩

/-- The duties of a device's own cells: its barrier cell's two, one of each of its DMA cells. -/
abbrev TI : Type := Bool ⊕ (Fin 4 × Fin 8)

abbrev tokOf (ct : Dev nD × TI) : GSem nD τ sig × ℕ × Bool := match ct.2 with
  | .inl d => (barCell ct.1, 0, d)
  | .inr jk => (xCell ct.1 jk.1 jk.2, 0, false)

theorem tokOf_injective : Function.Injective (tokOf : Dev nD × TI → GSem nD τ sig × ℕ × Bool) := by
  rintro ⟨c, i⟩ ⟨c', i'⟩ h
  have h1 : c = c' := by
    have := congrArg (fun x : GSem nD τ sig × ℕ × Bool => x.1.1.1) h
    cases i <;> cases i' <;> exact this
  subst h1
  have h2 : i = i' := by
    cases i with
    | inl d =>
      cases i' with
      | inl d' => exact congrArg Sum.inl (congrArg (fun x : GSem nD τ sig × ℕ × Bool => x.2.2) h)
      | inr jk' => exact absurd (congrArg (fun x : GSem nD τ sig × ℕ × Bool => x.1.2) h) (fun h' => by cases h')
    | inr jk =>
      cases i' with
      | inl d' => exact absurd (congrArg (fun x : GSem nD τ sig × ℕ × Bool => x.1.2) h) (fun h' => by cases h')
      | inr jk' =>
        have h3 : csem (some jk) = csem (some jk') := congrArg (fun x : GSem nD τ sig × ℕ × Bool => x.1.2) h
        exact congrArg Sum.inr (Option.some.inj (csem_injective h3))
  subst h2; rfl

def kToks : Finset (GSem nD τ sig × ℕ × Bool) := Finset.univ.map ⟨tokOf, tokOf_injective⟩

/-- The launch element: the pipeline's copy and the protocol's. -/
def u₀ : UU :=
  (initOf (Pipeline.cells cfgs cellOf_inj) (Pipeline.launchToks cfgs cellOf_inj), initOf kCells kToks)

/-- The duty tokens of device `c`'s own cells. -/
def toks (c : Dev nD) : sProp 𝕄 :=
  iprop((dutyTok ER (barCell c) 0 false ∗ dutyTok ER (barCell c) 0 true)
    ∗ bigSep Finset.univ fun jk : Fin 4 × Fin 8 => dutyTok ER (xCell c jk.1 jk.2) 0 false)

/-- What the launch element deals device `c`. -/
def G (c : Dev nD) : sProp 𝕄 :=
  iprop((bigSep Finset.univ fun i : CI => roundState ER (rd m ρ) (kcell (c, i)) 0)
    ∗ (bigSep Finset.univ fun i : CI => iprop(atPos ER (kcell (c, i)) 0 ∅ 0 ∗ reached ER (kcell (c, i)) 0)) ∗ toks c)

/-- What the global step makes of it. -/
def G' (c : Dev nD) : sProp 𝕄 := iprop(∃ K, ghost m ρ K c)

omit [FloatOps F] in
theorem bigSep_bool' (Φ : Bool → sProp 𝕄) : bigSep Finset.univ Φ = iprop(Φ false ∗ Φ true) :=
  bigSep_univ_eq_bigSepL [false, true] (by decide) (by decide) Φ
omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A family over `Option α`: the summand at `none` and the family over `α`. -/
theorem bigSep_option {α : Type} [Fintype α] [DecidableEq α] (Φ : Option α → sProp 𝕄) :
    bigSep Finset.univ Φ = iprop(Φ none ∗ bigSep Finset.univ fun a => Φ (some a)) := by
  have h : (Finset.univ.erase none : Finset (Option α)) = Finset.univ.map Function.Embedding.some := by
    ext x; cases x <;> simp
  rw [bigSep_univ_at Φ none, h, BI.bigSep_map]; rfl

theorem fund : BI.own (ER (initOf kCells kToks)) ⊢ (|==> bigSep Finset.univ (G m ρ) : sProp 𝕄) := by
  have hX (Φ : GSem nD τ sig → sProp 𝕄) : bigSep kCells Φ = bigSep Finset.univ fun c : Dev nD => bigSep Finset.univ fun i : CI => Φ (kcell (c, i)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by unfold toks; rw [BI.bigSep_univ_sum, bigSep_bool']; rfl
  iintro HX
  imod (Rounds.fund ER (rd m ρ) kCells kToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants allocated -/

omit [FloatOps F] in
/-- The kernel's own semaphores are the thirty-two DMA cells' counters; -/
theorem ownSems0_eq (c : Dev nD) : (Pipeline.ownSems0 (Ix := Unit) (Name := ℕ) (U := UU) (Lvl := ℕ) (Val := Elt F) (τ := τ) osem c : sProp 𝕄)
    = bigSep Finset.univ fun jk : Fin 4 × Fin 8 => semVal (xCell c jk.1 jk.2) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (rd m ρ) κ (kcell (c, i))))
          ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (rd m ρ) (kcell (c, i)) 0)
      ⊢ (|={Set.univ}=> bigSep Finset.univ fun i : CI => iprop(∃ κ : ℕ, cellInv ER (rd m ρ) κ (kcell (c, i))) : sProp 𝕄) from by
        rw [← bigSep_sep']
        exact (bigSep_mono fun i _ => (Rounds.body_intro ER (rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Each device's ghost state out of all devices' -/

/-- Every cell's invariant at the names `K`, and round 0 of every cell reached. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) :
    (bigSep Finset.univ fun ck : Dev nD × CI => (cellInv ER (rd m ρ) (K ck) (kcell ck) : sProp 𝕄)) ⊢ cellInv ER (rd m ρ) (K ck) (kcell ck) :=
  bigSep_elim (Finset.mem_univ ck)
omit [FloatOps F] in
theorem reached_at (ck : Dev nD × CI) :
    (bigSep Finset.univ fun ck : Dev nD × CI => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss c ∗ payToks c)

theorem ghost_intro (K : Dev nD × CI → ℕ) (c : Dev nD) : iprop(records m ρ K ∗ linear c) ⊢ G' m ρ c := by
  unfold records linear G' ghost
  iintro ⟨⟨#HI, #HR⟩, Hpos, Htok⟩
  iexists K
  isplitr
  · unfold invs
    isplitr; · iapply (BI.bigSep_intro_persistent fun i _ => inv_at m ρ K (c, i)); iexact HI
    isplitr; · iapply (inv_at m ρ K (xn c, none)); iexact HI
    isplitr; · iapply (inv_at m ρ K (yn c, none)); iexact HI
    isplitr; · iapply (BI.bigSep_intro_persistent fun k _ => inv_at m ρ K (xn c, some (1, k))); iexact HI
    iapply (BI.bigSep_intro_persistent fun k _ => inv_at m ρ K (yn c, some (3, k))); iexact HI
  isplitr
  · unfold reach
    isplitr; · iapply (reached_at (F := F) (xn c, none)); iexact HR
    isplitr; · iapply (reached_at (F := F) (yn c, none)); iexact HR
    iapply (BI.bigSep_intro_persistent fun jk _ => reached_at (F := F) (c, some jk)); iexact HR
  isplitl [Hpos]; · iexact Hpos
  iexact Htok

omit [FloatOps F] in
/-- A family over the devices, read at each device's row-neighbour, or at its column-neighbour. -/
theorem along_x (Φ : Dev nD → sProp 𝕄) : bigSep Finset.univ Φ ⊢ bigSep Finset.univ fun c => Φ (xn c) :=
  Entails.of_eq (bigSep_univ_equiv xnE Φ)
omit [FloatOps F] in
theorem along_y (Φ : Dev nD → sProp 𝕄) : bigSep Finset.univ Φ ⊢ bigSep Finset.univ fun c => Φ (yn c) :=
  Entails.of_eq (bigSep_univ_equiv ynE Φ)

omit [FloatOps F] in
theorem toks_eq (c : Dev nD) : (toks c : sProp 𝕄) = iprop((dutyTok ER (barCell c) 0 false ∗ dutyTok ER (barCell c) 0 true)
    ∗ (bigSep Finset.univ fun k : Fin 8 => dutyTok ER (xCell c 0 k) 0 false) ∗ (bigSep Finset.univ fun k : Fin 8 => dutyTok ER (xCell c 1 k) 0 false)
    ∗ (bigSep Finset.univ fun k : Fin 8 => dutyTok ER (xCell c 2 k) 0 false) ∗ (bigSep Finset.univ fun k : Fin 8 => dutyTok ER (xCell c 3 k) 0 false)) := by
  unfold toks; rw [bigSep_univ_prod, bigSep_fin4]

omit [FloatOps F] in
/-- The tokens dealt to their payers: a barrier cell's `true` token and the stage-1 receive tokens to the row-neighbour, its
    `false` token and the stage-2 receive tokens to the column-neighbour; the send tokens stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  iintro ⟨⟨HbF, HbT⟩, H0, H1, H2, H3⟩
  ihave HbT' := (along_x (F := F) fun c => dutyTok ER (barCell c) 0 true) $$ HbT
  ihave HbF' := (along_y (F := F) fun c => dutyTok ER (barCell c) 0 false) $$ HbF
  ihave H1' := (along_x (F := F) fun c => bigSep Finset.univ fun k : Fin 8 => dutyTok ER (xCell c 1 k) 0 false) $$ H1
  ihave H3' := (along_y (F := F) fun c => bigSep Finset.univ fun k : Fin 8 => dutyTok ER (xCell c 3 k) 0 false) $$ H3
  isplitl [HbT']; · iexact HbT'
  isplitl [HbF']; · iexact HbF'
  isplitl [H1']; · iexact H1'
  isplitl [H0]; · iexact H0
  isplitl [H3']; · iexact H3'
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (rd m ρ) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (poss c : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Device `c`'s array of window `w` after the launch's one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters, if each device's body
    meets its obligation: every weakly fair execution of the program terminates, and every final state has each device's
    three arrays at the contents the proof data name. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The array of `x` after the run holds what it held; -/
theorem finalA_x (c : Dev nD) : finalA m ρ c (0 : Fin 3) = (s₀ m ρ).mem (win0_0.arr.view.loc (c : Thread nD τ)) :=
  (dats (F := F) m ρ 0 c).arrAt_in (0 : Fin 3) rfl _
/-- so does the array of `dy`; -/
theorem finalA_dy (c : Dev nD) : finalA m ρ c (1 : Fin 3) = (s₀ m ρ).mem (win0_1.arr.view.loc (c : Thread nD τ)) :=
  (dats (F := F) m ρ 0 c).arrAt_in (1 : Fin 3) rfl _

section Out

-- the result block is only ever named here, never looked into
attribute [local irreducible] outAt

/-- What the write-back after the one point writes is the result block the body leaves: the window is not cut, so every
    index of the block is moved. -/
theorem flushed_out (c : Dev nD) : (dats (F := F) m ρ 0 c).flushed (2 : Fin 3) t₀ = outAt m ρ c :=
  funext fun j => congrArg (outAt m ρ c) (funext fun a => Fin.ext rfl)

/-- the result array holds what the body left in its staging buffer: the window's one block is the whole array, written
    back after the one point. -/
theorem finalA_out (c : Dev nD) : finalA m ρ c (2 : Fin 3) = outAt m ρ c := by
  have h := (dats (F := F) m ρ 0 c).arrAt_succ (2 : Fin 3) t₀
  rw [flush0_2 t₀, if_pos rfl] at h
  refine (show finalA m ρ c (2 : Fin 3) = (dats m ρ 0 c).arrAt (2 : Fin 3) (t₀.val + 1) from
    congrArg ((dats m ρ 0 c).arrAt (2 : Fin 3)) cfg0_N).trans (h.trans ?_)
  rw [← flushed_out m ρ c]
  generalize (dats (F := F) m ρ 0 c).flushed (2 : Fin 3) t₀ = Y
  exact Memref.write_access_unit_zero_univ (Elt F) main_v1 (funext fun a => Nat.zero_mul _) _ _ Y

end Out

/-- info: 'Cert.KernelProof.run_main' depends on axioms: [propext, Classical.choice, Quot.sound] -/
#guard_msgs in #print axioms run_main

/-- info: 'Cert.KernelProof.finalA_out' depends on axioms: [propext, Classical.choice, Quot.sound] -/
#guard_msgs in #print axioms finalA_out

end Cert.KernelProof

end
-- ==== Proof.Bits.Runs.lean ====
/-
  The run of the whole program with every device's final arrays named: the result array at the result block, the two operand
  arrays as launched. The frame is that run with the value dropped.
-/
import proofs.«900592_g7700000000000593_dist_rsdw_v7x_xy2x2_x_m512_d512_f2048_bf16_1_alg».proof.Proof.Bits.Launch

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- If each device's body meets its obligation, then from any memory with zero counters every weakly fair execution of the
    program terminates, and in every final state each device's result array holds its result block and its two operand
    arrays hold what they held. -/
theorem run_named (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c (2 : Fin 3)).trans (finalA_out m ρ c), (h c (0 : Fin 3)).trans (finalA_x m ρ c),
    (h c (1 : Fin 3)).trans (finalA_dy m ρ c)⟩) (run_main m ρ hbody)

/-- The same run with the value dropped: both operand arrays end unchanged on every device. -/
theorem frame_of_body (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ hbody)

/-- info: 'Cert.KernelProof.run_named' depends on axioms: [propext, Classical.choice, Quot.sound] -/
#guard_msgs in #print axioms run_named

end Cert.KernelProof

end
-- ==== Proof.Bits.Slots.lean ====
/-
  The eight chunks of a buffer of eight chunks.

  A buffer of shape 8×128×256 is cut along its leading axis into eight chunks of 128×256; an index lies in chunk `k`
  exactly when its leading coordinate is `k`. So the chunks' element sets are pairwise disjoint and cover the buffer,
  a points-to of the whole buffer is the separating conjunction of the eight chunks' points-tos at the same contents
  (cut), and eight chunk points-tos, each at contents of its own, are a points-to of the whole buffer at contents that
  agree with the `k`-th on chunk `k` (glue). A chunk's points-to splits along the two halves of the full share. A load
  at a chunk's box reads what was last stored or landed there.
-/
import proofs.«900592_g7700000000000593_dist_rsdw_v7x_xy2x2_x_m512_d512_f2048_bf16_1_alg».proof.Proof.Bits.Cells
import Idealize.ShloMosaic.Rules.PointsTo
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The chunks' rectangles partition the shape -/

/-- An index lies in chunk `k`'s rectangle exactly when its leading coordinate is `k`. -/
theorem mem_slotRect {k : Fin 8} {i : S8x128x256.Idx} : i ∈ (slotRect k).set ↔ (i 0).val = k.val := by
  rw [Rect.mem_set_unit]
  constructor
  · intro h
    have h0 : k.val ≤ (i 0).val ∧ (i 0).val < k.val + 1 := h 0
    omega
  · intro h a
    match a with
    | ⟨0, _⟩ =>
      show k.val ≤ (i 0).val ∧ (i 0).val < k.val + 1
      omega
    | ⟨1, _⟩ =>
      have h1 : (i 1).val < 128 := (i 1).isLt
      show 0 ≤ (i 1).val ∧ (i 1).val < 0 + 128
      omega
    | ⟨2, _⟩ =>
      have h2 : (i 2).val < 256 := (i 2).isLt
      show 0 ≤ (i 2).val ∧ (i 2).val < 0 + 256
      omega

/-- Two different chunks' rectangles share no index. -/
theorem slotRect_disjoint {k k' : Fin 8} (h : k ≠ k') : Disjoint (slotRect k).set (slotRect k').set := by
  rw [Finset.disjoint_left]
  intro i hi hi'
  exact h (Fin.ext ((mem_slotRect.mp hi).symm.trans (mem_slotRect.mp hi')))

/-- The chunk an index lies in: its leading coordinate. -/
def chunkIx (i : S8x128x256.Idx) : Fin 8 := ⟨(i 0).val, (i 0).isLt⟩

theorem mem_slotRect_chunkIx (i : S8x128x256.Idx) : i ∈ (slotRect (chunkIx i)).set := mem_slotRect.mpr rfl

/-! ## The chunks' element sets partition the buffer's -/

section Sets
variable (M : Memref sig .tc .vmem S8x128x256 .bf16)

/-- A chunk is in its buffer. -/
theorem slot_loc (k : Fin 8) (c : Dev nD) : (slot M k).view.loc (c : Thread nD τ) = M.view.loc (c : Thread nD τ) := rfl

/-- A chunk's elements are the buffer's elements under the chunk's rectangle. -/
theorem slot_set (k : Fin 8) : (slot M k).view.set = (slotRect k).set.map M.view.emb := by
  show ((M.view.slice (slotRect k)).reshape S128x256 _).set = _
  rw [View.set_reshape, View.set_slice]

/-- Different chunks share no element. -/
theorem slot_set_disjoint {k k' : Fin 8} (h : k ≠ k') : Disjoint (slot M k).view.set (slot M k').view.set := by
  rw [slot_set, slot_set]
  exact (Finset.disjoint_map _).mpr (slotRect_disjoint h)

/-- The eight chunks cover the buffer's elements. -/
theorem slot_set_biUnion : Finset.univ.biUnion (fun k : Fin 8 => (slot M k).view.set) = M.view.set := by
  ext i
  constructor
  · intro hi
    obtain ⟨k, -, hk⟩ := Finset.mem_biUnion.mp hi
    rw [slot_set] at hk
    obtain ⟨x, -, rfl⟩ := Finset.mem_map.mp hk
    exact M.view.emb_mem_set x
  · intro hi
    have hi' : i ∈ Finset.univ.map M.view.emb := hi
    obtain ⟨x, -, rfl⟩ := Finset.mem_map.mp hi'
    refine Finset.mem_biUnion.mpr ⟨chunkIx x, Finset.mem_univ _, ?_⟩
    rw [slot_set]
    exact Finset.mem_map_of_mem _ (mem_slotRect_chunkIx x)

end Sets

/-! ## Cut and glue -/

section CutGlue
variable (M : Memref sig .tc .vmem S8x128x256 .bf16) (c : Dev nD) (q : PosShare TreeShare)

/-- Chunk `k`'s elements, among the elements of the buffer at its location on device `c`. -/
abbrev slotSet (k : Fin 8) : Finset (Idx (M.view.loc (c : Thread nD τ))) := (slot M k).view.set

omit [FloatOps F] in
/-- CUT (and its converse): a points-to of the buffer's elements is the eight chunks' points-tos, at the same contents. -/
theorem cut_eq (f : Buf (Elt F) (M.view.loc (c : Thread nD τ))) :
    (M.view.loc (c : Thread nD τ) ↦[M.view.set]{q} f : sProp 𝕄)
      = bigSep Finset.univ fun k : Fin 8 => ((slot M k).view.loc (c : Thread nD τ) ↦[(slot M k).view.set]{q} f) := by
  have h : (M.view.loc (c : Thread nD τ) ↦[Finset.univ.biUnion (slotSet M c)]{q} f : sProp 𝕄)
      = bigSep Finset.univ fun k : Fin 8 => (M.view.loc (c : Thread nD τ) ↦[slotSet M c k]{q} f) :=
    pointsTo_biUnion (ℓ := M.view.loc (c : Thread nD τ)) (q := q) (f := f) Finset.univ (slotSet M c)
      fun k _ k' _ h => slot_set_disjoint M h
  have hu : Finset.univ.biUnion (slotSet M c) = M.view.set := slot_set_biUnion M
  rw [hu] at h
  exact h

omit [FloatOps F] in
/-- GLUE, the contents named: eight chunk points-tos, chunk `k` at `fs k`, are a points-to of the buffer's elements at
    contents that agree with `fs k` on chunk `k`. -/
theorem glue (fs : Fin 8 → Buf (Elt F) (M.view.loc (c : Thread nD τ))) :
    (bigSep Finset.univ fun k : Fin 8 => ((slot M k).view.loc (c : Thread nD τ) ↦[(slot M k).view.set]{q} fs k) : sProp 𝕄)
      ⊢ iprop(∃ g, ⌜∀ k : Fin 8, ∀ i ∈ (slot M k).view.set, g i = fs k i⌝ ∗ M.view.loc (c : Thread nD τ) ↦[M.view.set]{q} g) := by
  have h : (bigSep Finset.univ fun k : Fin 8 => (M.view.loc (c : Thread nD τ) ↦[slotSet M c k]{q} fs k) : sProp 𝕄)
      ⊢ iprop(∃ g, ⌜∀ k ∈ (Finset.univ : Finset (Fin 8)), ∀ i ∈ slotSet M c k, g i = fs k i⌝
          ∗ M.view.loc (c : Thread nD τ) ↦[Finset.univ.biUnion (slotSet M c)]{q} g) :=
    pointsTo_biUnion_join (ℓ := M.view.loc (c : Thread nD τ)) (q := q) Finset.univ (slotSet M c) fs (fs 0)
      fun k _ k' _ h => slot_set_disjoint M h
  have hu : Finset.univ.biUnion (slotSet M c) = M.view.set := slot_set_biUnion M
  rw [hu] at h
  refine h.trans ?_
  iintro ⟨%g, %hg, H⟩
  iexists g
  isplitr
  · ipureintro; exact fun k => hg k (Finset.mem_univ k)
  · iexact H

end CutGlue

/-! ## Choosing witnesses under a finite separating conjunction -/

omit [FloatOps F] in
/-- A finite separating conjunction of existentials has a choice of witnesses. -/
theorem bigSep_exists_choose {I : Type} [DecidableEq I] {α : Type} (s : Finset I) (Φ : I → α → sProp 𝕄) (d : α) :
    (bigSep s fun i => iprop(∃ x, Φ i x) : sProp 𝕄) ⊢ iprop(∃ G : I → α, bigSep s fun i => Φ i (G i)) := by
  induction s using Finset.induction_on with
  | empty =>
    iintro -
    iexists (fun _ => d)
    rw [bigSep_empty]
    iempintro
  | insert i s hi ih =>
    have key : ∀ (x : α) (G : I → α),
        bigSep (insert i s) (fun j => Φ j (Function.update G i x j)) = iprop(Φ i x ∗ bigSep s (fun j => Φ j (G j))) := by
      intro x G
      have hc : bigSep s (fun j => Φ j (Function.update G i x j)) = bigSep s (fun j => Φ j (G j)) :=
        bigSep_congr fun j hj => by rw [Function.update_of_ne (fun e : j = i => hi (e ▸ hj))]
      rw [bigSep_insert hi, Function.update_self, hc]
      rfl
    rw [bigSep_insert hi]
    refine (show iprop((∃ x, Φ i x) ∗ bigSep s (fun i => iprop(∃ x, Φ i x))) ⊢ _ from ?_)
    iintro ⟨⟨%x, Hx⟩, Hs⟩
    ihave H := ih $$ Hs
    icases H with ⟨%G, H⟩
    iexists (Function.update G i x)
    rw [key x G]
    isplitl [Hx]
    · iexact Hx
    · iexact H

/-! ## The same for a buffer held whole, and with the chunks' contents unnamed -/

section Whole
variable (M : Memref sig .tc .vmem S8x128x256 .bf16) (c : Dev nD)

omit [FloatOps F] in
/-- CUT a whole buffer into its eight chunks. -/
theorem cut (hM : M.view.set = Finset.univ) (f : Buf (Elt F) (M.view.loc (c : Thread nD τ))) :
    (M.view.loc (c : Thread nD τ) ↦{fullShare} f : sProp 𝕄)
      ⊢ bigSep Finset.univ fun k : Fin 8 => ((slot M k).view.loc (c : Thread nD τ) ↦[(slot M k).view.set]{fullShare} f) := by
  rw [← cut_eq M c fullShare f, hM]

omit [FloatOps F] in
/-- The converse: eight chunks at one contents are the whole buffer at it. -/
theorem uncut (hM : M.view.set = Finset.univ) (f : Buf (Elt F) (M.view.loc (c : Thread nD τ))) :
    (bigSep Finset.univ fun k : Fin 8 => ((slot M k).view.loc (c : Thread nD τ) ↦[(slot M k).view.set]{fullShare} f) : sProp 𝕄)
      ⊢ M.view.loc (c : Thread nD τ) ↦{fullShare} f := by
  rw [← cut_eq M c fullShare f, hM]

omit [FloatOps F] in
/-- GLUE eight chunks, chunk `k` at `fs k`, into the whole buffer, at contents that agree with `fs k` on chunk `k`. -/
theorem glue_whole (hM : M.view.set = Finset.univ) (fs : Fin 8 → Buf (Elt F) (M.view.loc (c : Thread nD τ))) :
    (bigSep Finset.univ fun k : Fin 8 => ((slot M k).view.loc (c : Thread nD τ) ↦[(slot M k).view.set]{fullShare} fs k) : sProp 𝕄)
      ⊢ iprop(∃ g, ⌜∀ k : Fin 8, ∀ i ∈ (slot M k).view.set, g i = fs k i⌝ ∗ M.view.loc (c : Thread nD τ) ↦{fullShare} g) := by
  have h := glue (F := F) M c fullShare fs
  rw [hM] at h
  exact h

/-- Chunk `k`'s points-to on device `c` at contents `f`, the contents typed at the buffer's location. -/
abbrev slotPts (k : Fin 8) (f : Buf (Elt F) (M.view.loc (c : Thread nD τ))) : sProp 𝕄 :=
  (slot M k).view.loc (c : Thread nD τ) ↦[(slot M k).view.set]{fullShare} f

omit [FloatOps F] in
/-- GLUE with the contents unnamed: eight chunks, each at some contents, are the whole buffer at some contents. -/
theorem glue_ex (hM : M.view.set = Finset.univ) :
    (bigSep Finset.univ fun k : Fin 8 => iprop(∃ f : Buf (Elt F) ((slot M k).view.loc (c : Thread nD τ)),
        (slot M k).view.loc (c : Thread nD τ) ↦[(slot M k).view.set]{fullShare} f) : sProp 𝕄)
      ⊢ iprop(∃ f, M.view.loc (c : Thread nD τ) ↦{fullShare} f) := by
  -- the contents of chunk 0 serve where a default is wanted
  have key : ∀ (f₀ : Buf (Elt F) (M.view.loc (c : Thread nD τ))) (G : Fin 8 → Buf (Elt F) (M.view.loc (c : Thread nD τ))),
      bigSep Finset.univ (fun k : Fin 8 => slotPts (F := F) M c k (Function.update G 0 f₀ k))
        = iprop(slotPts (F := F) M c 0 f₀ ∗ bigSep (Finset.univ.erase (0 : Fin 8)) (fun k : Fin 8 => slotPts (F := F) M c k (G k))) := by
    intro f₀ G
    have hc : bigSep (Finset.univ.erase (0 : Fin 8)) (fun k : Fin 8 => slotPts (F := F) M c k (Function.update G 0 f₀ k))
        = bigSep (Finset.univ.erase (0 : Fin 8)) (fun k : Fin 8 => slotPts (F := F) M c k (G k)) :=
      bigSep_congr fun k hk => by rw [Function.update_of_ne (Finset.ne_of_mem_erase hk)]
    rw [bigSep_univ_split (0 : Fin 8), Function.update_self, hc]
    rfl
  have hsplit : (bigSep Finset.univ fun k : Fin 8 => iprop(∃ f : Buf (Elt F) (M.view.loc (c : Thread nD τ)), slotPts (F := F) M c k f) : sProp 𝕄)
      = iprop((∃ f : Buf (Elt F) (M.view.loc (c : Thread nD τ)), slotPts (F := F) M c 0 f)
          ∗ bigSep (Finset.univ.erase (0 : Fin 8)) (fun k : Fin 8 => iprop(∃ f : Buf (Elt F) (M.view.loc (c : Thread nD τ)), slotPts (F := F) M c k f))) := by
    rw [bigSep_univ_split (0 : Fin 8)]
    rfl
  refine (show (bigSep Finset.univ fun k : Fin 8 => iprop(∃ f : Buf (Elt F) (M.view.loc (c : Thread nD τ)), slotPts (F := F) M c k f) : sProp 𝕄) ⊢ _ from ?_)
  rw [hsplit]
  iintro ⟨⟨%f₀, H₀⟩, Hr⟩
  ihave Hr' := (bigSep_exists_choose (F := F) (Finset.univ.erase (0 : Fin 8))
    (fun (k : Fin 8) (f : Buf (Elt F) (M.view.loc (c : Thread nD τ))) => slotPts (F := F) M c k f) f₀) $$ Hr
  icases Hr' with ⟨%G, Hr'⟩
  ihave Hall : (bigSep Finset.univ (fun k : Fin 8 => slotPts (F := F) M c k (Function.update G 0 f₀ k)) : sProp 𝕄) $$ [H₀ Hr']
  · rw [key f₀ G]
    isplitl [H₀]
    · iexact H₀
    · iexact Hr'
  ihave Hg := (glue_whole (F := F) M c hM (Function.update G 0 f₀)) $$ Hall
  icases Hg with ⟨%g, -, Hg⟩
  iexists g
  iexact Hg

end Whole

/-! ## What a chunk reads -/

section Reads
variable (M : Memref sig .tc .vmem S8x128x256 .bf16) (k : Fin 8)

omit [FloatOps F] in
/-- A load at a chunk's box depends only on the contents of the chunk's elements. -/
theorem readAt_slot_congr {Val : EltTy → Type} {f g : M.view.ty.Contents Val} (h : ∀ i ∈ (slot M k).view.set, f i = g i) :
    M.view.readAt Val (slotRect k).toLoadRect f = M.view.readAt Val (slotRect k).toLoadRect g := by
  have hs : (slot M k).view.set = (M.view.slice (slotRect k)).set := View.set_reshape _ _
  rw [hs] at h
  exact View.read_congr (v := M.view.slice (slotRect k)) h

omit [FloatOps F] in
/-- A load at a chunk's box right after an unmasked store of `w` there reads `w`. -/
theorem readAt_store {Val : EltTy → Type} (f : M.view.ty.Contents Val) (w : S1x128x256.Idx → Val .bf16) :
    M.view.readAt Val (slotRect k).toLoadRect ((M.access (slotRect k)).write Val f w Finset.univ) = w :=
  View.read_write_univ (v := M.view.slice (slotRect k)) f w

omit [FloatOps F] in
/-- A store at one chunk's box is not seen by a load at another's. -/
theorem readAt_store_ne {Val : EltTy → Type} {k' : Fin 8} (h : k ≠ k') (f : M.view.ty.Contents Val) (w : S1x128x256.Idx → Val .bf16) :
    M.view.readAt Val (slotRect k).toLoadRect ((M.access (slotRect k')).write Val f w Finset.univ)
      = M.view.readAt Val (slotRect k).toLoadRect f := by
  refine readAt_slot_congr M k fun i hi => View.write_of_not_mem _ _ _ fun hi' => ?_
  have h' : i ∈ (slot M k').view.set := by
    have hs : (slot M k').view.set = (M.view.slice (slotRect k')).set := View.set_reshape _ _
    rw [hs]; exact hi'
  have hd : Disjoint (slot M k).view.set (slot M k').view.set := slot_set_disjoint M h
  exact Finset.disjoint_left.mp hd hi h'

end Reads

section Landing
variable (src dst : Memref sig .tc .vmem S8x128x256 .bf16) (k : Fin 8)

omit [FloatOps F] in
/-- What chunk `k` of a buffer reads is the load at the chunk's box, re-indexed (the unit axis dropped). -/
theorem slot_read {Val : EltTy → Type} (f : src.view.ty.Contents Val) :
    (slot src k).view.read Val f
      = shapeCast S128x256 (src.view.readAt Val (slotRect k).toLoadRect f) shapeCasts_S1x128x256_S128x256 := rfl

omit [FloatOps F] in
/-- LANDING: after chunk `k` of `src` is transferred into chunk `k` of `dst`, a load at the chunk's box of `dst` reads
    what a load at the chunk's box of `src` read. -/
theorem readAt_landing {Val : EltTy → Type} (fs : src.view.ty.Contents Val) (fd : dst.view.ty.Contents Val) :
    dst.view.readAt Val (slotRect k).toLoadRect ((slot dst k).view.write Val fd ((slot src k).view.read Val fs) Finset.univ)
      = src.view.readAt Val (slotRect k).toLoadRect fs := by
  have h : (slot dst k).view.read Val ((slot dst k).view.write Val fd ((slot src k).view.read Val fs) Finset.univ)
      = (slot src k).view.read Val fs := View.read_write_univ _ _
  rw [slot_read, slot_read] at h
  have h' := congrArg (fun v => shapeCast S1x128x256 v shapeCasts_S128x256_S1x128x256) h
  simp only [shapeCast_shapeCast] at h'
  exact h'

omit [FloatOps F] in
/-- A transfer into chunk `k'` of `dst` is not seen by a load at another chunk's box. -/
theorem readAt_landing_ne {Val : EltTy → Type} {k' : Fin 8} (h : k ≠ k') (fd : dst.view.ty.Contents Val) (w : S128x256.Idx → Val .bf16) :
    dst.view.readAt Val (slotRect k).toLoadRect ((slot dst k').view.write Val fd w Finset.univ)
      = dst.view.readAt Val (slotRect k).toLoadRect fd := by
  refine readAt_slot_congr dst k fun i hi => View.write_of_not_mem _ _ _ fun hi' => ?_
  have hd : Disjoint (slot dst k).view.set (slot dst k').view.set := slot_set_disjoint dst h
  have h' : i ∈ (slot dst k').view.set := hi'
  exact Finset.disjoint_left.mp hd hi h'

end Landing

/-! ## A chunk's points-to in two half shares -/

omit [FloatOps F] in
/-- HALVES: a chunk's points-to at the full share is its two half-share points-tos, at the same contents. -/
theorem slot_halves (M : Memref sig .tc .vmem S8x128x256 .bf16) (k : Fin 8) (c : Dev nD)
    (f : Buf (Elt F) ((slot M k).view.loc (c : Thread nD τ))) :
    ((slot M k).view.loc (c : Thread nD τ) ↦[(slot M k).view.set]{fullShare} f : sProp 𝕄)
      ⊣⊢ iprop(((slot M k).view.loc (c : Thread nD τ) ↦[(slot M k).view.set]{fullShare.left} f)
          ∗ ((slot M k).view.loc (c : Thread nD τ) ↦[(slot M k).view.set]{fullShare.right} f)) :=
  pointsTo_share (PosShare.mem_left_op_right fullShare)

/-! ## The elements a load or a store at a chunk's box touches are the chunk's -/

section Boxes
variable (M : Memref sig .tc .vmem S8x128x256 .bf16) (k : Fin 8)

omit [FloatOps F] in
theorem slot_load_eq : M.view.setOn (slotRect k).toLoadRect.set = (slot M k).view.set := (slot_set M k).symm

omit [FloatOps F] in
theorem slot_access_eq : (M.access (slotRect k)).set = (slot M k).view.set :=
  (View.set_reshape (M.view.slice (slotRect k)) squeezes_S1x128x256_S128x256.numel_eq).symm

omit [FloatOps F] in
theorem slot_load_sub : M.view.setOn (slotRect k).toLoadRect.set ⊆ (slot M k).view.set := (slot_load_eq M k).le

omit [FloatOps F] in
theorem slot_access_sub : (M.access (slotRect k)).set ⊆ (slot M k).view.set := (slot_access_eq M k).le

omit [FloatOps F] in
theorem slot_store_sub : (M.access (slotRect k)).setOn Finset.univ ⊆ (slot M k).view.set := (slot_access_eq M k).le

end Boxes

example : sndM.view.setOn (Rect.unit (s := S8x128x256) ![3, 0, 0] S1x128x256.size inb_S8x128x256_S1x128x256_3_0_0).toLoadRect.set
    ⊆ (slot sndM 3).view.set := slot_load_sub sndM 3
example : (r1M.access (Rect.unit (s := S8x128x256) ![3, 0, 0] S1x128x256.size inb_S8x128x256_S1x128x256_3_0_0)).set
    ⊆ (slot r1M 3).view.set := slot_access_sub r1M 3
example : (r2M.access (Rect.unit (s := S8x128x256) ![7, 0, 0] S1x128x256.size inb_S8x128x256_S1x128x256_7_0_0)).setOn Finset.univ
    ⊆ (slot r2M 7).view.set := slot_store_sub r2M 7

/-! ## The three buffers of eight chunks -/

omit [FloatOps F] in
theorem snd_set : (sndM : Memref sig .tc .vmem S8x128x256 .bf16).view.set = Finset.univ := View.set_whole _
omit [FloatOps F] in
theorem r1_set : (r1M : Memref sig .tc .vmem S8x128x256 .bf16).view.set = Finset.univ := View.set_whole _
omit [FloatOps F] in
theorem r2_set : (r2M : Memref sig .tc .vmem S8x128x256 .bf16).view.set = Finset.univ := View.set_whole _

example (c : Dev nD) (k : Fin 8) : (slot sndM k).view.loc (c : Thread nD τ) = (c : Thread nD τ).loc cc0_scratch2 := rfl
example (c : Dev nD) (k : Fin 8) : (slot r1M k).view.loc (c : Thread nD τ) = (c : Thread nD τ).loc cc0_scratch3 := rfl
example (c : Dev nD) (k : Fin 8) : (slot r2M k).view.loc (c : Thread nD τ) = (c : Thread nD τ).loc cc0_scratch4 := rfl

example (c : Dev nD) (f : Buf (Elt F) ((c : Thread nD τ).loc cc0_scratch2)) :
    ((c : Thread nD τ).loc cc0_scratch2 ↦{fullShare} f : sProp 𝕄)
      ⊢ bigSep Finset.univ fun k : Fin 8 => ((slot sndM k).view.loc (c : Thread nD τ) ↦[(slot sndM k).view.set]{fullShare} f) :=
  cut sndM c snd_set f

example (c : Dev nD) :
    (bigSep Finset.univ fun k : Fin 8 => iprop(∃ f : Buf (Elt F) ((slot r1M k).view.loc (c : Thread nD τ)),
        (slot r1M k).view.loc (c : Thread nD τ) ↦[(slot r1M k).view.set]{fullShare} f) : sProp 𝕄)
      ⊢ iprop(∃ f, (c : Thread nD τ).loc cc0_scratch3 ↦{fullShare} f) :=
  glue_ex r1M c r1_set

/-- info: 'Cert.KernelProof.glue_ex' depends on axioms: [propext, Classical.choice, Quot.sound] -/
#guard_msgs in #print axioms glue_ex
/-- info: 'Cert.KernelProof.cut_eq' depends on axioms: [propext, Classical.choice, Quot.sound] -/
#guard_msgs in #print axioms cut_eq
/-- info: 'Cert.KernelProof.readAt_landing' depends on axioms: [propext, Classical.choice, Quot.sound] -/
#guard_msgs in #print axioms readAt_landing
/-- info: 'Cert.KernelProof.slot_halves' depends on axioms: [propext, Classical.choice, Quot.sound] -/
#guard_msgs in #print axioms slot_halves

end Cert.KernelProof

end
-- ==== Proof.Bits.Steps.lean ====
/-
  The two addressed transfers of a chunk, as rules of their own.

  Stage 1: device `c` sends chunk `k` of its send buffer into chunk `k` of its row-neighbour's first landing buffer; the
  neighbour's landing chunk then reads what the send chunk read, which is what its receive cell's payload says.
  Stage 2: device `c` forwards chunk `k` of its first landing buffer, lending one half share of it, into chunk `k` of its
  column-neighbour's second landing buffer.
-/
import proofs.«900592_g7700000000000593_dist_rsdw_v7x_xy2x2_x_m512_d512_f2048_bf16_1_alg».proof.Proof.Bits.Data
import proofs.«900592_g7700000000000593_dist_rsdw_v7x_xy2x2_x_m512_d512_f2048_bf16_1_alg».proof.Proof.Bits.Tables
import proofs.«900592_g7700000000000593_dist_rsdw_v7x_xy2x2_x_m512_d512_f2048_bf16_1_alg».proof.Proof.Bits.Slots

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem slot_amount (M : Memref sig .tc .vmem S8x128x256 .bf16) (k : Fin 8) (q : DmaSem sig) : (slot M k).view.amount (.dma q) = N := rfl

/-- The stage-1 transfer of chunk `k`, addressed to `n = xn c`. -/
theorem wp_send1 (c n : Dev nD) (hn : n = xn c) (k : Fin 8)
    {hsc : (slot r1M k : Memref sig (Dev.tc n : Thread nD τ).2.kind .vmem S128x256 .bf16).view.ref.isScScratch = false}
    {hsrc : (slot sndM k).view.WordExact} {hdst : (slot r1M k).view.WordExact}
    {hsem : DmaTarget.Typed .vmem (.dma (xsem 1 k)) (.remote (Dev.tc n : Thread nD τ) (slot r1M k) (.dma (xsem 0 k)) hsc)}
    {α : Type} {Q : α → sProp 𝕄} {kk : PUnit → Prog (TpuEff nD τ sig (Elt F) Λ₀ .tc) α}
    (fs : Buf (Elt F) ((slot sndM k).view.loc (c : Thread nD τ))) (hfs : sndM.view.readAt (Elt F) (slotRect k).toLoadRect fs = sendW m ρ c k)
    (fd : Buf (Elt F) ((slot r1M k).view.loc (xn c : Thread nD τ))) (O : CellTallies nD τ sig Unit) (W : Waits sig Unit) :
    iprop(cellInv ER (rd m ρ) (K (c, some (0, k))) (xCell c 0 k) ∗ cellInv ER (rd m ρ) (K (xn c, some (1, k))) (xCell (xn c) 1 k)
        ∗ ((slot sndM k).view.loc (c : Thread nD τ) ↦[(slot sndM k).view.set]{fullShare} fs)
        ∗ ((slot r1M k).view.loc (xn c : Thread nD τ) ↦[(slot r1M k).view.set]{fullShare} fd)
        ∗ owes (c : Thread nD τ) (O + tallyAt (xCell (xn c) 1 k) () N) W
        ∗ dutyTok ER (xCell c 0 k) 0 false ∗ reached ER (xCell c 0 k) 0
        ∗ dutyTok ER (xCell (xn c) 1 k) 0 false ∗ reached ER (xCell (xn c) 1 k) 0)
      ⊢ iprop(((cred (tallyAt (xCell c 0 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slot sndM k) (.remote (Dev.tc n : Thread nD τ) (slot r1M k) (.dma (xsem 0 k)) hsc) (.dma (xsem 1 k)) hsrc hdst hsem) kk) Q) := by
  subst hn
  exact Rounds.wp_send_pointsTo 𝒱₀ ER (rd m ρ) (c : Thread nD τ) none (κ₁ := K (c, some (0, k))) (κ₂ := K (xn c, some (1, k)))
    (r₁ := 0) (r₂ := 0) (d₁ := false) (d₂ := false) (fd := fd)
    (by rw [duties_x]; exact Finset.mem_singleton_self _) (by rw [duties_x]; exact Finset.mem_singleton_self _)
    () () N (slot_amount r1M k _) (amount_x m ρ c 0 k false) (amount_x m ρ (xn c) 1 k false) O rfl (W := W)
    (by
      rw [payload_x0]; unfold slotAt
      iintro H; iexists fs
      isplitr; · ipureintro; exact hfs
      iexact H)
    (by
      rw [payload_x1, xn_xn]; unfold slotAt
      iintro H; iexists _
      isplitr; · ipureintro; exact (readAt_landing sndM r1M k fs fd).trans hfs
      iexact H)

/-- The stage-2 transfer of chunk `k`, addressed to `n = yn c`; it borrows the left half share of the source chunk. -/
theorem wp_send2 (c n : Dev nD) (hn : n = yn c) (k : Fin 8)
    {hsc : (slot r2M k : Memref sig (Dev.tc n : Thread nD τ).2.kind .vmem S128x256 .bf16).view.ref.isScScratch = false}
    {hsrc : (slot r1M k).view.WordExact} {hdst : (slot r2M k).view.WordExact}
    {hsem : DmaTarget.Typed .vmem (.dma (xsem 3 k)) (.remote (Dev.tc n : Thread nD τ) (slot r2M k) (.dma (xsem 2 k)) hsc)}
    {α : Type} {Q : α → sProp 𝕄} {kk : PUnit → Prog (TpuEff nD τ sig (Elt F) Λ₀ .tc) α}
    (fs : Buf (Elt F) ((slot r1M k).view.loc (c : Thread nD τ))) (hfs : r1M.view.readAt (Elt F) (slotRect k).toLoadRect fs = sendW m ρ (xn c) k)
    (fd : Buf (Elt F) ((slot r2M k).view.loc (yn c : Thread nD τ))) (O : CellTallies nD τ sig Unit) (W : Waits sig Unit) :
    iprop(cellInv ER (rd m ρ) (K (c, some (2, k))) (xCell c 2 k) ∗ cellInv ER (rd m ρ) (K (yn c, some (3, k))) (xCell (yn c) 3 k)
        ∗ ((slot r1M k).view.loc (c : Thread nD τ) ↦[(slot r1M k).view.set]{fullShare.left} fs)
        ∗ ((slot r2M k).view.loc (yn c : Thread nD τ) ↦[(slot r2M k).view.set]{fullShare} fd)
        ∗ owes (c : Thread nD τ) (O + tallyAt (xCell (yn c) 3 k) () N) W
        ∗ dutyTok ER (xCell c 2 k) 0 false ∗ reached ER (xCell c 2 k) 0
        ∗ dutyTok ER (xCell (yn c) 3 k) 0 false ∗ reached ER (xCell (yn c) 3 k) 0)
      ⊢ iprop(((cred (tallyAt (xCell c 2 k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slot r1M k) (.remote (Dev.tc n : Thread nD τ) (slot r2M k) (.dma (xsem 2 k)) hsc) (.dma (xsem 3 k)) hsrc hdst hsem) kk) Q) := by
  subst hn
  exact Rounds.wp_send_pointsTo 𝒱₀ ER (rd m ρ) (c : Thread nD τ) none (κ₁ := K (c, some (2, k))) (κ₂ := K (yn c, some (3, k)))
    (r₁ := 0) (r₂ := 0) (d₁ := false) (d₂ := false) (fd := fd)
    (by rw [duties_x]; exact Finset.mem_singleton_self _) (by rw [duties_x]; exact Finset.mem_singleton_self _)
    () () N (slot_amount r2M k _) (amount_x m ρ c 2 k false) (amount_x m ρ (yn c) 3 k false) O rfl (W := W)
    (by
      rw [payload_x2]; unfold slotAt
      iintro H; iexists fs
      isplitr; · ipureintro; exact hfs
      iexact H)
    (by
      rw [payload_x3, yn_yn]; unfold slotAt
      iintro H; iexists _
      isplitr; · ipureintro; exact (readAt_landing r1M r2M k fs fd).trans hfs
      iexact H)

end Cert.KernelProof

end
-- ==== Proof.Bits.Ends.lean ====
/-
  What the body of a device is handed right before its run and hands back right after: finite separating conjunctions
  written out, the barrier payloads given and received, a chunk's two half shares rejoined, and the five scratch buffers
  cut into chunks and put together again.
-/
import proofs.«900592_g7700000000000593_dist_rsdw_v7x_xy2x2_x_m512_d512_f2048_bf16_1_alg».proof.Proof.Bits.Data
import proofs.«900592_g7700000000000593_dist_rsdw_v7x_xy2x2_x_m512_d512_f2048_bf16_1_alg».proof.Proof.Bits.Tables
import proofs.«900592_g7700000000000593_dist_rsdw_v7x_xy2x2_x_m512_d512_f2048_bf16_1_alg».proof.Proof.Bits.Slots

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite separating conjunctions written out -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- Array by array, each array chunk by chunk. -/
theorem bigSep_jk (Φ : Fin 4 × Fin 8 → sProp 𝕄) :
    bigSep Finset.univ Φ = iprop((Φ (0, 0) ∗ Φ (0, 1) ∗ Φ (0, 2) ∗ Φ (0, 3) ∗ Φ (0, 4) ∗ Φ (0, 5) ∗ Φ (0, 6) ∗ Φ (0, 7))
      ∗ (Φ (1, 0) ∗ Φ (1, 1) ∗ Φ (1, 2) ∗ Φ (1, 3) ∗ Φ (1, 4) ∗ Φ (1, 5) ∗ Φ (1, 6) ∗ Φ (1, 7))
      ∗ (Φ (2, 0) ∗ Φ (2, 1) ∗ Φ (2, 2) ∗ Φ (2, 3) ∗ Φ (2, 4) ∗ Φ (2, 5) ∗ Φ (2, 6) ∗ Φ (2, 7))
      ∗ (Φ (3, 0) ∗ Φ (3, 1) ∗ Φ (3, 2) ∗ Φ (3, 3) ∗ Φ (3, 4) ∗ Φ (3, 5) ∗ Φ (3, 6) ∗ Φ (3, 7))) := by
  rw [bigSep_univ_prod, bigSep_fin4, bigSep_fin8, bigSep_fin8, bigSep_fin8, bigSep_fin8]

omit [FloatOps F] in
/-- A device's cells: the barrier's, then the thirty-two of the four arrays. -/
theorem bigSep_CI (Φ : CI → sProp 𝕄) : bigSep Finset.univ Φ = iprop(Φ none ∗ bigSep Finset.univ fun jk : Fin 4 × Fin 8 => Φ (some jk)) := by
  have h : (Finset.univ : Finset CI) = insert none (Finset.univ.map Function.Embedding.some) := by
    ext x; cases x <;> simp
  rw [h, bigSep_insert (by simp), bigSep_map]
  rfl

omit [FloatOps F] in
/-- One array's row of a family over all thirty-two cells. -/
theorem reach_row (c : Dev nD) (j : Fin 4) :
    (bigSep Finset.univ fun jk : Fin 4 × Fin 8 => (reached ER (xCell c jk.1 jk.2) 0 : sProp 𝕄))
      ⊢ bigSep Finset.univ fun k : Fin 8 => reached ER (xCell c j k) 0 := by
  rw [bigSep_univ_prod]
  exact bigSep_elim (Finset.mem_univ j)

/-! ## The barrier payloads, given and received -/

omit [FloatOps F] in
/-- What device `c` hands its row-neighbour with its barrier signal: its eight stage-1 landing chunks and the word that
    their receive cells stand at round 0. -/
theorem barPayX_intro (c : Dev nD) :
    iprop((bigSep Finset.univ fun k : Fin 8 => slotAny (F := F) r1M k c) ∗ (bigSep Finset.univ fun k : Fin 8 => reached ER (xCell c 1 k) 0))
      ⊢ barPayX (xn c) := by
  unfold barPayX; rw [xn_xn]

omit [FloatOps F] in
/-- What it hands its column-neighbour: the same of its stage-2 landing chunks. -/
theorem barPayY_intro (c : Dev nD) :
    iprop((bigSep Finset.univ fun k : Fin 8 => slotAny (F := F) r2M k c) ∗ (bigSep Finset.univ fun k : Fin 8 => reached ER (xCell c 3 k) 0))
      ⊢ barPayY (yn c) := by
  unfold barPayY; rw [yn_yn]

omit [FloatOps F] in
/-- A chunk at known contents is the chunk at contents nobody names. -/
theorem slotAny_intro (M : Memref sig .tc .vmem S8x128x256 .bf16) (k : Fin 8) (c : Dev nD) (f : Buf (Elt F) ((slot M k).view.loc (c : Thread nD τ))) :
    ((slot M k).view.loc (c : Thread nD τ) ↦[(slot M k).view.set]{fullShare} f : sProp 𝕄) ⊢ slotAny M k c := by
  unfold slotAny
  iintro H
  iexists f
  iexact H

omit [FloatOps F] in
/-- A whole buffer of eight chunks, cut: each chunk at contents nobody names. -/
theorem own_slots_any (M : Memref sig .tc .vmem S8x128x256 .bf16) (hM : M.view.set = Finset.univ) (c : Dev nD)
    (f : Buf (Elt F) (M.view.loc (c : Thread nD τ))) :
    (M.view.loc (c : Thread nD τ) ↦{fullShare} f : sProp 𝕄) ⊢ bigSep Finset.univ fun k : Fin 8 => slotAny M k c := by
  exact (cut M c hM f).trans (bigSep_mono fun k _ => slotAny_intro M k c f)

/-- The two payloads a barrier wait hands back. -/
theorem bar_pays (c : Dev nD) :
    bigSep Finset.univ (fun d : Bool => (rd (F := F) m ρ).payload (barCell c) 0 d) = iprop(barPayY c ∗ barPayX c) := by
  rw [bigSep_univ_eq_bigSepL [false, true] (by decide) (by decide), bigSepL_cons_cons, bigSepL_singleton, payload_bar_false, payload_bar_true]
  rfl

omit [FloatOps F] in
theorem barPayX_open (c : Dev nD) :
    barPayX (F := F) c ⊢ iprop((slotAny r1M 0 (xn c) ∗ slotAny r1M 1 (xn c) ∗ slotAny r1M 2 (xn c) ∗ slotAny r1M 3 (xn c)
        ∗ slotAny r1M 4 (xn c) ∗ slotAny r1M 5 (xn c) ∗ slotAny r1M 6 (xn c) ∗ slotAny r1M 7 (xn c))
      ∗ (reached ER (xCell (xn c) 1 0) 0 ∗ reached ER (xCell (xn c) 1 1) 0 ∗ reached ER (xCell (xn c) 1 2) 0 ∗ reached ER (xCell (xn c) 1 3) 0
        ∗ reached ER (xCell (xn c) 1 4) 0 ∗ reached ER (xCell (xn c) 1 5) 0 ∗ reached ER (xCell (xn c) 1 6) 0 ∗ reached ER (xCell (xn c) 1 7) 0)) := by
  unfold barPayX; rw [bigSep_fin8, bigSep_fin8]

omit [FloatOps F] in
theorem barPayY_open (c : Dev nD) :
    barPayY (F := F) c ⊢ iprop((slotAny r2M 0 (yn c) ∗ slotAny r2M 1 (yn c) ∗ slotAny r2M 2 (yn c) ∗ slotAny r2M 3 (yn c)
        ∗ slotAny r2M 4 (yn c) ∗ slotAny r2M 5 (yn c) ∗ slotAny r2M 6 (yn c) ∗ slotAny r2M 7 (yn c))
      ∗ (reached ER (xCell (yn c) 3 0) 0 ∗ reached ER (xCell (yn c) 3 1) 0 ∗ reached ER (xCell (yn c) 3 2) 0 ∗ reached ER (xCell (yn c) 3 3) 0
        ∗ reached ER (xCell (yn c) 3 4) 0 ∗ reached ER (xCell (yn c) 3 5) 0 ∗ reached ER (xCell (yn c) 3 6) 0 ∗ reached ER (xCell (yn c) 3 7) 0)) := by
  unfold barPayY; rw [bigSep_fin8, bigSep_fin8]

/-! ## A chunk's two half shares rejoined -/

omit [FloatOps F] in
/-- Two half-share points-tos of a chunk agree on its elements: together they are the chunk at the full share. -/
theorem halves_join_ex (M : Memref sig .tc .vmem S8x128x256 .bf16) (k : Fin 8) (c : Dev nD) :
    iprop((∃ f : Buf (Elt F) ((slot M k).view.loc (c : Thread nD τ)), (slot M k).view.loc (c : Thread nD τ) ↦[(slot M k).view.set]{fullShare.left} f)
      ∗ (∃ g : Buf (Elt F) ((slot M k).view.loc (c : Thread nD τ)), (slot M k).view.loc (c : Thread nD τ) ↦[(slot M k).view.set]{fullShare.right} g))
      ⊢ slotAny M k c := by
  unfold slotAny
  iintro ⟨⟨%f, H₁⟩, ⟨%g, H₂⟩⟩
  ihave Hag := (persistent_entails_right pointsTo_agree) $$ [H₁ H₂]
  · isplitl [H₁]; · iexact H₁
    iexact H₂
  icases Hag with ⟨%hag, H₁, H₂⟩
  ihave H₂' := (Entails.of_eq (pointsTo_congr (f := g) (g := f) fun i hi => (hag i (Finset.mem_inter.mpr ⟨hi, hi⟩)).1.symm)) $$ H₂
  iexists f
  iapply (slot_halves M k c f).2
  isplitl [H₁]; · iexact H₁
  iexact H₂'

/-! ## The scratch buffers, cut and put together again -/

omit [FloatOps F] in
theorem dyb_set : (dybM : Memref sig .tc .vmem S512x2048 .bf16).view.set = Finset.univ := View.set_whole _
omit [FloatOps F] in
theorem acc_set : (accM : Memref sig .tc .vmem S256x2048 .f32).view.set = Finset.univ := View.set_whole _

omit [FloatOps F] in
/-- At the end of the body: the two whole buffers and the three buffers' chunks are the five scratch buffers. -/
theorem scratch_outro (c : Dev nD) :
    iprop((∃ f : Buf (Elt F) (dybM.view.loc (c : Thread nD τ)), dybM.view.loc (c : Thread nD τ) ↦[dybM.view.set]{fullShare} f)
      ∗ (∃ f : Buf (Elt F) (accM.view.loc (c : Thread nD τ)), accM.view.loc (c : Thread nD τ) ↦[accM.view.set]{fullShare} f)
      ∗ (bigSep Finset.univ fun k : Fin 8 => slotAny sndM k c) ∗ (bigSep Finset.univ fun k : Fin 8 => slotAny r1M k c)
      ∗ (bigSep Finset.univ fun k : Fin 8 => slotAny r2M k c)) ⊢ scratch (F := F) c := by
  rw [dyb_set, acc_set]
  unfold scratch slotAny
  iintro ⟨H0, H1, Hs, Hr1, Hr2⟩
  isplitl [H0]; · iexact H0
  isplitl [H1]; · iexact H1
  isplitl [Hs]; · iapply (glue_ex sndM c snd_set); iexact Hs
  isplitl [Hr1]; · iapply (glue_ex r1M c r1_set); iexact Hr1
  iapply (glue_ex r2M c r2_set); iexact Hr2

omit [FloatOps F] in
/-- At its start: the send buffer cut into chunks at its one contents, the landing buffers into chunks at contents
    nobody names. -/
theorem scratch_intro (c : Dev nD) :
    scratch (F := F) c ⊢ iprop((∃ f : Buf (Elt F) (dybM.view.loc (c : Thread nD τ)), dybM.view.loc (c : Thread nD τ) ↦[dybM.view.set]{fullShare} f)
      ∗ (∃ f : Buf (Elt F) (accM.view.loc (c : Thread nD τ)), accM.view.loc (c : Thread nD τ) ↦[accM.view.set]{fullShare} f)
      ∗ (∃ f : Buf (Elt F) (sndM.view.loc (c : Thread nD τ)),
          bigSep Finset.univ fun k : Fin 8 => ((slot sndM k).view.loc (c : Thread nD τ) ↦[(slot sndM k).view.set]{fullShare} f))
      ∗ (bigSep Finset.univ fun k : Fin 8 => slotAny r1M k c) ∗ (bigSep Finset.univ fun k : Fin 8 => slotAny r2M k c)) := by
  rw [dyb_set, acc_set]
  unfold scratch
  iintro ⟨H0, H1, ⟨%fs, Hs⟩, ⟨%f1, Hr1⟩, ⟨%f2, Hr2⟩⟩
  isplitl [H0]; · iexact H0
  isplitl [H1]; · iexact H1
  isplitl [Hs]
  · iexists fs; iapply (cut sndM c snd_set fs); iexact Hs
  isplitl [Hr1]; · iapply (own_slots_any r1M r1_set c f1); iexact Hr1
  iapply (own_slots_any r2M r2_set c f2); iexact Hr2

/-- info: 'Cert.KernelProof.bigSep_jk' depends on axioms: [propext, Classical.choice, Quot.sound] -/
#guard_msgs in #print axioms bigSep_jk
/-- info: 'Cert.KernelProof.bar_pays' depends on axioms: [propext, Classical.choice, Quot.sound] -/
#guard_msgs in #print axioms bar_pays
/-- info: 'Cert.KernelProof.halves_join_ex' depends on axioms: [propext, Classical.choice, Quot.sound] -/
#guard_msgs in #print axioms halves_join_ex
/-- info: 'Cert.KernelProof.scratch_outro' depends on axioms: [propext, Classical.choice, Quot.sound] -/
#guard_msgs in #print axioms scratch_outro
/-- info: 'Cert.KernelProof.scratch_intro' depends on axioms: [propext, Classical.choice, Quot.sound] -/
#guard_msgs in #print axioms scratch_intro

end Cert.KernelProof

end
-- ==== Proof.Bits.OutCover.lean ====
/-
  The sixteen boxes of the result block tile it.

  Box `n < 8` is rows `[128 (c % 2), 128 (c % 2) + 128)`, columns `[256 n, 256 n + 256)`; box `8 + n` is the other 128
  rows, `[128 - 128 (c % 2), 256 - 128 (c % 2))`, at the same columns. An index of the 256 × 2048 block lies in exactly
  one box: the column chunk is its column divided by 256, the half is the one whose rows hold its row. So the sixteen
  stores cover the block, and what they leave does not depend on what the buffer held before.
-/
import proofs.«900592_g7700000000000593_dist_rsdw_v7x_xy2x2_x_m512_d512_f2048_bf16_1_alg».proof.Proof.Bits.Data

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## Membership in a box -/

/-- The first row of box `n` on device `c`. -/
def outRow (c : Dev nD) (n : Fin 16) : ℕ := if n.val < 8 then 128 * (c.val % 2) else 128 - 128 * (c.val % 2)

/-- The first column of box `n`. -/
def outCol (n : Fin 16) : ℕ := 256 * (n.val % 8)

/-- Membership in a 128 × 256 unit-stride box of the block at offsets `(r, col)`. -/
theorem mem_unit_128x256 {off : Fin 2 → ℕ} {inb : ∀ a, off a + S128x256.size a ≤ S256x2048.size a} {r col : ℕ}
    (h : off = ![r, col]) (i : S256x2048.Idx) :
    i ∈ (Rect.unit (s := S256x2048) off S128x256.size inb).set
      ↔ (r ≤ (i 0).val ∧ (i 0).val < r + 128) ∧ (col ≤ (i 1).val ∧ (i 1).val < col + 256) := by
  subst h
  rw [Rect.mem_set_unit]
  constructor
  · intro h
    exact ⟨h 0, h 1⟩
  · intro h a
    match a with
    | ⟨0, _⟩ => exact h.1
    | ⟨1, _⟩ => exact h.2

/-- (C1) An index lies in box `n` exactly when its row is among the box's 128 rows and its column among its 256 columns. -/
theorem outRect_mem (c : Dev nD) (n : Fin 16) (i : S256x2048.Idx) :
    i ∈ (outRect c n).set
      ↔ (outRow c n ≤ (i 0).val ∧ (i 0).val < outRow c n + 128) ∧ (outCol n ≤ (i 1).val ∧ (i 1).val < outCol n + 256) :=
  match n with
  | 0 => mem_unit_128x256 (inb := k0_off3_inb c) (k0_off3_eq c) i
  | 1 => mem_unit_128x256 (inb := k0_off4_inb c) (k0_off4_eq c) i
  | 2 => mem_unit_128x256 (inb := k0_off5_inb c) (k0_off5_eq c) i
  | 3 => mem_unit_128x256 (inb := k0_off6_inb c) (k0_off6_eq c) i
  | 4 => mem_unit_128x256 (inb := k0_off7_inb c) (k0_off7_eq c) i
  | 5 => mem_unit_128x256 (inb := k0_off8_inb c) (k0_off8_eq c) i
  | 6 => mem_unit_128x256 (inb := k0_off9_inb c) (k0_off9_eq c) i
  | 7 => mem_unit_128x256 (inb := k0_off10_inb c) (k0_off10_eq c) i
  | 8 => mem_unit_128x256 (inb := k0_off11_inb c) (k0_off11_eq c) i
  | 9 => mem_unit_128x256 (inb := k0_off12_inb c) (k0_off12_eq c) i
  | 10 => mem_unit_128x256 (inb := k0_off13_inb c) (k0_off13_eq c) i
  | 11 => mem_unit_128x256 (inb := k0_off14_inb c) (k0_off14_eq c) i
  | 12 => mem_unit_128x256 (inb := k0_off15_inb c) (k0_off15_eq c) i
  | 13 => mem_unit_128x256 (inb := k0_off16_inb c) (k0_off16_eq c) i
  | 14 => mem_unit_128x256 (inb := k0_off17_inb c) (k0_off17_eq c) i
  | 15 => mem_unit_128x256 (inb := k0_off18_inb c) (k0_off18_eq c) i
  | ⟨_ + 16, h⟩ => absurd h (Nat.not_lt.2 (Nat.le_add_left _ _))

/-! ## The boxes are disjoint -/

/-- (C3) Two different boxes share no index. -/
theorem outRect_disjoint (c : Dev nD) {n n' : Fin 16} (h : n ≠ n') : Disjoint (outRect c n).set (outRect c n').set := by
  rw [Finset.disjoint_left]
  intro i h1 h2
  rw [outRect_mem] at h1 h2
  have hne : n.val ≠ n'.val := fun e => h (Fin.ext e)
  have hn := n.isLt
  have hn' := n'.isLt
  have ht : c.val % 2 < 2 := Nat.mod_lt _ (by decide)
  unfold outRow outCol at h1 h2
  split_ifs at h1 h2 <;> omega

/-! ## The boxes cover the block -/

/-- Every box is the rectangle of one of the sixteen stores. -/
theorem outPiece_mem (c : Dev nD) (n : Fin 16) : ∃ p ∈ outPieces (F := F) m ρ c, p.1 = outRect c n :=
  match n with
  | 0 => ⟨_, List.getElem_mem (l := outPieces (F := F) m ρ c) (n := 15) (Nat.lt_succ_self 15), rfl⟩
  | 1 => ⟨_, List.getElem_mem (l := outPieces (F := F) m ρ c) (n := 14) (by show 14 < 16; omega), rfl⟩
  | 2 => ⟨_, List.getElem_mem (l := outPieces (F := F) m ρ c) (n := 13) (by show 13 < 16; omega), rfl⟩
  | 3 => ⟨_, List.getElem_mem (l := outPieces (F := F) m ρ c) (n := 12) (by show 12 < 16; omega), rfl⟩
  | 4 => ⟨_, List.getElem_mem (l := outPieces (F := F) m ρ c) (n := 11) (by show 11 < 16; omega), rfl⟩
  | 5 => ⟨_, List.getElem_mem (l := outPieces (F := F) m ρ c) (n := 10) (by show 10 < 16; omega), rfl⟩
  | 6 => ⟨_, List.getElem_mem (l := outPieces (F := F) m ρ c) (n := 9) (by show 9 < 16; omega), rfl⟩
  | 7 => ⟨_, List.getElem_mem (l := outPieces (F := F) m ρ c) (n := 8) (by show 8 < 16; omega), rfl⟩
  | 8 => ⟨_, List.getElem_mem (l := outPieces (F := F) m ρ c) (n := 7) (by show 7 < 16; omega), rfl⟩
  | 9 => ⟨_, List.getElem_mem (l := outPieces (F := F) m ρ c) (n := 6) (by show 6 < 16; omega), rfl⟩
  | 10 => ⟨_, List.getElem_mem (l := outPieces (F := F) m ρ c) (n := 5) (by show 5 < 16; omega), rfl⟩
  | 11 => ⟨_, List.getElem_mem (l := outPieces (F := F) m ρ c) (n := 4) (by show 4 < 16; omega), rfl⟩
  | 12 => ⟨_, List.getElem_mem (l := outPieces (F := F) m ρ c) (n := 3) (by show 3 < 16; omega), rfl⟩
  | 13 => ⟨_, List.getElem_mem (l := outPieces (F := F) m ρ c) (n := 2) (by show 2 < 16; omega), rfl⟩
  | 14 => ⟨_, List.getElem_mem (l := outPieces (F := F) m ρ c) (n := 1) (by show 1 < 16; omega), rfl⟩
  | 15 => ⟨_, List.getElem_mem (l := outPieces (F := F) m ρ c) (n := 0) (by show 0 < 16; omega), rfl⟩
  | ⟨_ + 16, h⟩ => absurd h (Nat.not_lt.2 (Nat.le_add_left _ _))

/-- The box that holds an index: column chunk `(i 1) / 256`, in the half whose rows hold `i 0`. -/
def outBox (c : Dev nD) (i : S256x2048.Idx) : Fin 16 :=
  if 128 * (c.val % 2) ≤ (i 0).val ∧ (i 0).val < 128 * (c.val % 2) + 128
  then ⟨(i 1).val / 256, by have h : (i 1).val < 2048 := (i 1).isLt; omega⟩
  else ⟨8 + (i 1).val / 256, by have h : (i 1).val < 2048 := (i 1).isLt; omega⟩

theorem mem_outRect_outBox (c : Dev nD) (i : S256x2048.Idx) : i ∈ (outRect c (outBox c i)).set := by
  rw [outRect_mem]
  have h0 : (i 0).val < 256 := (i 0).isLt
  have h1 : (i 1).val < 2048 := (i 1).isLt
  have ht : c.val % 2 < 2 := Nat.mod_lt _ (by decide)
  unfold outBox outRow outCol
  split_ifs with hA hB hB <;> simp only [] at * <;> omega

/-- (C2) Every index of the block lies in the rectangle of one of the sixteen stores. -/
theorem out_cover (c : Dev nD) (i : S256x2048.Idx) : ∃ p ∈ outPieces (F := F) m ρ c, i ∈ p.1.set := by
  obtain ⟨p, hp, he⟩ := outPiece_mem m ρ c (outBox c i)
  exact ⟨p, hp, he ▸ mem_outRect_outBox c i⟩

/-! ## What the sixteen stores leave -/

omit [FloatOps F] in
/-- Stores through a whole buffer that cover it leave the same contents whatever it held before. -/
theorem writes_whole_of_cover {Val : EltTy → Type} (b : Ref sig .tc) (g g' : b.ty.Contents Val)
    (L : List (View.Piece Val b.ty.shape b.ty.elt)) (h : ∀ y, ∃ p ∈ L, y ∈ p.1.set) :
    (View.whole b).writes Val g L = (View.whole b).writes Val g' L :=
  View.read_writes_of_cover (v := View.whole b) (f := g) (View.whole b) g' L h

/-- (C4) The sixteen stores leave the same contents whatever the buffer held before. -/
theorem out_base (c : Dev nD) (g : (cc0_stg2_0 : Ref sig .tc).ty.Contents (Elt F)) :
    oM.view.writes (Elt F) g (outPieces m ρ c) = outAt m ρ c :=
  writes_whole_of_cover cc0_stg2_0 g _ (outPieces m ρ c) (out_cover m ρ c)

/-- info: 'Cert.KernelProof.out_base' depends on axioms: [propext, Classical.choice, Quot.sound] -/
#guard_msgs in #print axioms out_base

end Cert.KernelProof

end
-- ==== Proof.Bits.Body.lean ====
/-
  One device's body of the chunked reduce-scatter, from its invariant before the launch's one point to the one after.

  The order of events on device `c`, and what each hands over:
  * it tells both neighbours it has entered (a unit on each one's barrier cell), handing the row-neighbour its eight
    stage-1 landing chunks and the column-neighbour its eight stage-2 landing chunks; it computes send chunk 0
    meanwhile; then it waits for its own barrier cell's two units, which bring the neighbours' landing chunks;
  * per column chunk `k`: it rounds `dy`'s chunk, multiplies (the 128 columns of `x` it works on for the row-neighbour,
    transposed, with the chunk) into send chunk `k`, and transfers that chunk into the row-neighbour's landing chunk
    `k`: the neighbour's receive cell `k` then holds "landing chunk `k` reads this device's send chunk `k`";
  * the accumulator: the 256 columns of `x` of its own mesh row, transposed, with the whole rounded `dy` block;
  * per chunk `k`: the wait on its own stage-1 receive cell `k` (the row-neighbour's send chunk `k` has landed); the
    landed chunk is forwarded to the column-neighbour on one half share while the other half share serves the load
    that follows: result rows of its own column block, chunk `k` = accumulator rows + landed chunk;
  * per chunk `k`: the wait on its stage-2 receive cell `k` (the column-neighbour has forwarded what IT received: the
    send chunk `k` of the device diagonally opposite); the other result rows, chunk `k` = accumulator rows + that chunk;
  * the sixteen waits on its send cells, which give the send chunks and the lent half shares back.
  At every wait what the device still owes lies above the awaited cell: both barrier units are signalled before the
  barrier wait, at which it owes receive credits only; at a stage-1 receive wait it owes stage-2 credits only; after
  the last stage-2 transfer it owes nothing.
  Then every own DMA cell has had its one round and closes with its counter at zero; the eight chunks of each of the
  three chunked buffers are joined again; and the result buffer holds the sixteen pieces, which tile it.
-/
import proofs.«900592_g7700000000000593_dist_rsdw_v7x_xy2x2_x_m512_d512_f2048_bf16_1_alg».proof.Proof.Bits.Data
import proofs.«900592_g7700000000000593_dist_rsdw_v7x_xy2x2_x_m512_d512_f2048_bf16_1_alg».proof.Proof.Bits.Tables
import proofs.«900592_g7700000000000593_dist_rsdw_v7x_xy2x2_x_m512_d512_f2048_bf16_1_alg».proof.Proof.Bits.Steps
import proofs.«900592_g7700000000000593_dist_rsdw_v7x_xy2x2_x_m512_d512_f2048_bf16_1_alg».proof.Proof.Bits.Ends
import proofs.«900592_g7700000000000593_dist_rsdw_v7x_xy2x2_x_m512_d512_f2048_bf16_1_alg».proof.Proof.Bits.OutCover
import Idealize.ShloMosaic.Lib.Pipeline.FrameBody

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_x amount_bar amount_x expect_bar expect_x payload_bar_true payload_bar_false payload_x0 payload_x1 payload_x2 payload_x3
attribute [local sl_canon] dev1_eq dev2_eq dev3_eq dev4_eq dev5_eq dev6_eq dev7_eq dev8_eq dev9_eq dev10_eq dev11_eq dev12_eq dev13_eq dev14_eq dev15_eq dev16_eq dev17_eq dev18_eq

variable (K : Dev nD × CI → ℕ)

/-- An assertion kept aside: the same assertion under a name the symbolic run does not look into. -/
def aside (P : sProp 𝕄) : sProp 𝕄 := P
theorem aside_eq (P : sProp 𝕄) : aside P = P := rfl

/-- A chunk at known contents is a chunk. -/
theorem slotAt_any (M : Memref sig .tc .vmem S8x128x256 .bf16) (k : Fin 8) (c : Dev nD) (w : Vec F S1x128x256 .bf16) :
    slotAt M k c fullShare w ⊢ slotAny M k c := by
  unfold slotAt slotAny
  iintro ⟨%f, -, H⟩
  iexists f; iexact H

/-- The half share a stage-2 transfer gave back and the half share kept for the loads make the chunk whole again. -/
theorem chunk_rejoin (M : Memref sig .tc .vmem S8x128x256 .bf16) (k : Fin 8) (c : Dev nD) (w : Vec F S1x128x256 .bf16)
    (g : Buf (Elt F) ((slot M k).view.loc (c : Thread nD τ))) :
    iprop(slotAt M k c fullShare.left w ∗ ((slot M k).view.loc (c : Thread nD τ) ↦[(slot M k).view.set]{fullShare.right} g)) ⊢ slotAny M k c := by
  unfold slotAt
  iintro ⟨⟨%f, -, HL⟩, HR⟩
  iapply (halves_join_ex (F := F) M k c)
  isplitl [HL]
  · iexists f; iexact HL
  · iexists g; iexact HR

/-- The five scratch buffers from their parts: the two whole ones and the three cut in chunks. -/
theorem scratch_close (c : Dev nD) :
    iprop((∃ f : Buf (Elt F) (dybM.view.loc (c : Thread nD τ)), dybM.view.loc (c : Thread nD τ) ↦[dybM.view.set]{fullShare} f)
        ∗ (∃ f : Buf (Elt F) (accM.view.loc (c : Thread nD τ)), accM.view.loc (c : Thread nD τ) ↦[accM.view.set]{fullShare} f)
        ∗ (slotAny sndM 0 c ∗ slotAny sndM 1 c ∗ slotAny sndM 2 c ∗ slotAny sndM 3 c ∗ slotAny sndM 4 c ∗ slotAny sndM 5 c ∗ slotAny sndM 6 c ∗ slotAny sndM 7 c)
        ∗ (slotAny r1M 0 c ∗ slotAny r1M 1 c ∗ slotAny r1M 2 c ∗ slotAny r1M 3 c ∗ slotAny r1M 4 c ∗ slotAny r1M 5 c ∗ slotAny r1M 6 c ∗ slotAny r1M 7 c)
        ∗ (slotAny r2M 0 c ∗ slotAny r2M 1 c ∗ slotAny r2M 2 c ∗ slotAny r2M 3 c ∗ slotAny r2M 4 c ∗ slotAny r2M 5 c ∗ slotAny r2M 6 c ∗ slotAny r2M 7 c))
      ⊢ scratch (F := F) c := by
  rw [← bigSep_fin8 (fun k : Fin 8 => slotAny (F := F) sndM k c), ← bigSep_fin8 (fun k : Fin 8 => slotAny (F := F) r1M k c),
    ← bigSep_fin8 (fun k : Fin 8 => slotAny (F := F) r2M k c)]
  exact scratch_outro c

def bodyPre (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

theorem whole_eq (b : Ref sig .tc) (c : Dev nD) (f : Buf (Elt F) ((c : Thread nD τ).loc b)) :
    (((Memref.whole b).view.loc (c : Thread nD τ)) ↦[(Memref.whole b).view.set]{fullShare} f : sProp 𝕄) = (((c : Thread nD τ).loc b) ↦{fullShare} f) := by
  rw [View.set_whole]

set_option maxHeartbeats 16000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8) Kt := by
  unfold bodyPre ghost invs reach poss payToks creds
  simp only [bigSep_CI, bigSep_jk, bigSep_fin8, kcell, csem]
  iintro ⟨⟨⟨⟨⟨⟨#HIb, ⟨#HI00, #HI01, #HI02, #HI03, #HI04, #HI05, #HI06, #HI07⟩, ⟨#HI10, #HI11, #HI12, #HI13, #HI14, #HI15, #HI16, #HI17⟩, ⟨#HI20, #HI21, #HI22, #HI23, #HI24, #HI25, #HI26, #HI27⟩, ⟨#HI30, #HI31, #HI32, #HI33, #HI34, #HI35, #HI36, #HI37⟩⟩, #HIbx, #HIby, ⟨#HIx0, #HIx1, #HIx2, #HIx3, #HIx4, #HIx5, #HIx6, #HIx7⟩, ⟨#HIy0, #HIy1, #HIy2, #HIy3, #HIy4, #HIy5, #HIy6, #HIy7⟩⟩,
      ⟨#HrBX, #HrBY, ⟨#Hr00, #Hr01, #Hr02, #Hr03, #Hr04, #Hr05, #Hr06, #Hr07⟩, ⟨#Hr10, #Hr11, #Hr12, #Hr13, #Hr14, #Hr15, #Hr16, #Hr17⟩, ⟨#Hr20, #Hr21, #Hr22, #Hr23, #Hr24, #Hr25, #Hr26, #Hr27⟩, ⟨#Hr30, #Hr31, #Hr32, #Hr33, #Hr34, #Hr35, #Hr36, #Hr37⟩⟩,
      ⟨HpB, ⟨Hp00, Hp01, Hp02, Hp03, Hp04, Hp05, Hp06, Hp07⟩, ⟨Hp10, Hp11, Hp12, Hp13, Hp14, Hp15, Hp16, Hp17⟩, ⟨Hp20, Hp21, Hp22, Hp23, Hp24, Hp25, Hp26, Hp27⟩, ⟨Hp30, Hp31, Hp32, Hp33, Hp34, Hp35, Hp36, Hp37⟩⟩,
      ⟨HtBX, HtBY, ⟨Htx0, Htx1, Htx2, Htx3, Htx4, Htx5, Htx6, Htx7⟩, ⟨Ht00, Ht01, Ht02, Ht03, Ht04, Ht05, Ht06, Ht07⟩, ⟨Hty0, Hty1, Hty2, Hty3, Hty4, Hty5, Hty6, Hty7⟩, ⟨Ht20, Ht21, Ht22, Ht23, Ht24, Ht25, Ht26, Ht27⟩⟩⟩,
    ⟨HcB, ⟨Hc10, Hc11, Hc12, Hc13, Hc14, Hc15, Hc16, Hc17⟩, ⟨Hc30, Hc31, Hc32, Hc33, Hc34, Hc35, Hc36, Hc37⟩⟩, #Hlev, Hscr⟩,
    Ho, ⟨%d0, %g0, %hg0, Hx⟩, ⟨%d1, %g1, %hg1, Hdy⟩, ⟨%d2, %g2, %hg2, Hout⟩⟩, Hk⟩
  ihave Hc30 := (Entails.of_eq (aside_eq _).symm) $$ Hc30
  ihave Hc31 := (Entails.of_eq (aside_eq _).symm) $$ Hc31
  ihave Hc32 := (Entails.of_eq (aside_eq _).symm) $$ Hc32
  ihave Hc33 := (Entails.of_eq (aside_eq _).symm) $$ Hc33
  ihave Hc34 := (Entails.of_eq (aside_eq _).symm) $$ Hc34
  ihave Hc35 := (Entails.of_eq (aside_eq _).symm) $$ Hc35
  ihave Hc36 := (Entails.of_eq (aside_eq _).symm) $$ Hc36
  ihave Hc37 := (Entails.of_eq (aside_eq _).symm) $$ Hc37
  -- the operands' staging buffers hold the device's blocks
  have hx : g0 = xstg m ρ c := by rw [hg0]; unfold Dat.before; rw [if_pos (fetch0_0 t₀)]; rfl
  have hdy : g1 = dystg m ρ c := by rw [hg1]; unfold Dat.before; rw [if_pos (fetch0_1 t₀)]; rfl
  subst hx hdy
  ihave Hx := (Entails.of_eq (whole_eq cc0_stg0_0 c _).symm) $$ Hx
  ihave Hdy := (Entails.of_eq (whole_eq cc0_stg1_0 c _).symm) $$ Hdy
  ihave Hout := (Entails.of_eq (whole_eq cc0_stg2_0 c _).symm) $$ Hout
  -- the scratch buffers: two whole, the send buffer cut in its chunks, the landing buffers' chunks to hand over
  ihave Hs := (scratch_intro (F := F) c) $$ Hscr
  icases Hs with ⟨⟨%f0, Hdyb⟩, ⟨%f1, Hacc⟩, ⟨%f2, Hsnd⟩, Hr1, Hr2⟩
  ihave Hsnd := (Entails.of_eq (bigSep_fin8 _)) $$ Hsnd
  icases Hsnd with ⟨Hs0, Hs1, Hs2, Hs3, Hs4, Hs5, Hs6, Hs7⟩
  ihave HpX := (barPayX_intro (F := F) c) $$ [Hr1]
  · isplitl [Hr1]; · iexact Hr1
    rw [bigSep_fin8]
    isplitr; · iexact Hr10
    isplitr; · iexact Hr11
    isplitr; · iexact Hr12
    isplitr; · iexact Hr13
    isplitr; · iexact Hr14
    isplitr; · iexact Hr15
    isplitr; · iexact Hr16
    iexact Hr17
  ihave HpY := (barPayY_intro (F := F) c) $$ [Hr2]
  · isplitl [Hr2]; · iexact Hr2
    rw [bigSep_fin8]
    isplitr; · iexact Hr30
    isplitr; · iexact Hr31
    isplitr; · iexact Hr32
    isplitr; · iexact Hr33
    isplitr; · iexact Hr34
    isplitr; · iexact Hr35
    isplitr; · iexact Hr36
    iexact Hr37
  -- what the device owes, as a sum
  unfold Dat.owesAt Pipeline.owesWithin
  icases Ho with ⟨%W, %hW, HO⟩
  rw [show (dats m ρ 0 c).owed t₀.castSucc = O₀ c from rfl]
  unfold O₀
  have hmwB := mayWait_bar (F := F) c
  have hmw1_0 := mayWait_r1 (F := F) c 0 (O₂_from c 0) (fun g u h => O₂_from_pos h)
  have hmw1_1 := mayWait_r1 (F := F) c 1 (O₂_from c 1) (fun g u h => O₂_from_pos h)
  have hmw1_2 := mayWait_r1 (F := F) c 2 (O₂_from c 2) (fun g u h => O₂_from_pos h)
  have hmw1_3 := mayWait_r1 (F := F) c 3 (O₂_from c 3) (fun g u h => O₂_from_pos h)
  have hmw1_4 := mayWait_r1 (F := F) c 4 (O₂_from c 4) (fun g u h => O₂_from_pos h)
  have hmw1_5 := mayWait_r1 (F := F) c 5 (O₂_from c 5) (fun g u h => O₂_from_pos h)
  have hmw1_6 := mayWait_r1 (F := F) c 6 (O₂_from c 6) (fun g u h => O₂_from_pos h)
  have hmw1_7 := mayWait_r1 (F := F) c 7 (O₂_from c 7) (fun g u h => O₂_from_pos h)
  have hLs0 : sndM.view.setOn (Rect.unit (s := S8x128x256) ![0, 0, 0] S1x128x256.size inb_S8x128x256_S1x128x256_0_0_0).toLoadRect.set ⊆ (slot sndM 0).view.set := slot_load_sub sndM 0
  have hAs0 : (sndM.access (Rect.unit (s := S8x128x256) ![0, 0, 0] S1x128x256.size inb_S8x128x256_S1x128x256_0_0_0)).set ⊆ (slot sndM 0).view.set := slot_access_sub sndM 0
  have hSs0 : (sndM.access (Rect.unit (s := S8x128x256) ![0, 0, 0] S1x128x256.size inb_S8x128x256_S1x128x256_0_0_0)).setOn Finset.univ ⊆ (slot sndM 0).view.set := slot_store_sub sndM 0
  have hLs1 : sndM.view.setOn (Rect.unit (s := S8x128x256) ![1, 0, 0] S1x128x256.size inb_S8x128x256_S1x128x256_1_0_0).toLoadRect.set ⊆ (slot sndM 1).view.set := slot_load_sub sndM 1
  have hAs1 : (sndM.access (Rect.unit (s := S8x128x256) ![1, 0, 0] S1x128x256.size inb_S8x128x256_S1x128x256_1_0_0)).set ⊆ (slot sndM 1).view.set := slot_access_sub sndM 1
  have hSs1 : (sndM.access (Rect.unit (s := S8x128x256) ![1, 0, 0] S1x128x256.size inb_S8x128x256_S1x128x256_1_0_0)).setOn Finset.univ ⊆ (slot sndM 1).view.set := slot_store_sub sndM 1
  have hLs2 : sndM.view.setOn (Rect.unit (s := S8x128x256) ![2, 0, 0] S1x128x256.size inb_S8x128x256_S1x128x256_2_0_0).toLoadRect.set ⊆ (slot sndM 2).view.set := slot_load_sub sndM 2
  have hAs2 : (sndM.access (Rect.unit (s := S8x128x256) ![2, 0, 0] S1x128x256.size inb_S8x128x256_S1x128x256_2_0_0)).set ⊆ (slot sndM 2).view.set := slot_access_sub sndM 2
  have hSs2 : (sndM.access (Rect.unit (s := S8x128x256) ![2, 0, 0] S1x128x256.size inb_S8x128x256_S1x128x256_2_0_0)).setOn Finset.univ ⊆ (slot sndM 2).view.set := slot_store_sub sndM 2
  have hLs3 : sndM.view.setOn (Rect.unit (s := S8x128x256) ![3, 0, 0] S1x128x256.size inb_S8x128x256_S1x128x256_3_0_0).toLoadRect.set ⊆ (slot sndM 3).view.set := slot_load_sub sndM 3
  have hAs3 : (sndM.access (Rect.unit (s := S8x128x256) ![3, 0, 0] S1x128x256.size inb_S8x128x256_S1x128x256_3_0_0)).set ⊆ (slot sndM 3).view.set := slot_access_sub sndM 3
  have hSs3 : (sndM.access (Rect.unit (s := S8x128x256) ![3, 0, 0] S1x128x256.size inb_S8x128x256_S1x128x256_3_0_0)).setOn Finset.univ ⊆ (slot sndM 3).view.set := slot_store_sub sndM 3
  have hLs4 : sndM.view.setOn (Rect.unit (s := S8x128x256) ![4, 0, 0] S1x128x256.size inb_S8x128x256_S1x128x256_4_0_0).toLoadRect.set ⊆ (slot sndM 4).view.set := slot_load_sub sndM 4
  have hAs4 : (sndM.access (Rect.unit (s := S8x128x256) ![4, 0, 0] S1x128x256.size inb_S8x128x256_S1x128x256_4_0_0)).set ⊆ (slot sndM 4).view.set := slot_access_sub sndM 4
  have hSs4 : (sndM.access (Rect.unit (s := S8x128x256) ![4, 0, 0] S1x128x256.size inb_S8x128x256_S1x128x256_4_0_0)).setOn Finset.univ ⊆ (slot sndM 4).view.set := slot_store_sub sndM 4
  have hLs5 : sndM.view.setOn (Rect.unit (s := S8x128x256) ![5, 0, 0] S1x128x256.size inb_S8x128x256_S1x128x256_5_0_0).toLoadRect.set ⊆ (slot sndM 5).view.set := slot_load_sub sndM 5
  have hAs5 : (sndM.access (Rect.unit (s := S8x128x256) ![5, 0, 0] S1x128x256.size inb_S8x128x256_S1x128x256_5_0_0)).set ⊆ (slot sndM 5).view.set := slot_access_sub sndM 5
  have hSs5 : (sndM.access (Rect.unit (s := S8x128x256) ![5, 0, 0] S1x128x256.size inb_S8x128x256_S1x128x256_5_0_0)).setOn Finset.univ ⊆ (slot sndM 5).view.set := slot_store_sub sndM 5
  have hLs6 : sndM.view.setOn (Rect.unit (s := S8x128x256) ![6, 0, 0] S1x128x256.size inb_S8x128x256_S1x128x256_6_0_0).toLoadRect.set ⊆ (slot sndM 6).view.set := slot_load_sub sndM 6
  have hAs6 : (sndM.access (Rect.unit (s := S8x128x256) ![6, 0, 0] S1x128x256.size inb_S8x128x256_S1x128x256_6_0_0)).set ⊆ (slot sndM 6).view.set := slot_access_sub sndM 6
  have hSs6 : (sndM.access (Rect.unit (s := S8x128x256) ![6, 0, 0] S1x128x256.size inb_S8x128x256_S1x128x256_6_0_0)).setOn Finset.univ ⊆ (slot sndM 6).view.set := slot_store_sub sndM 6
  have hLs7 : sndM.view.setOn (Rect.unit (s := S8x128x256) ![7, 0, 0] S1x128x256.size inb_S8x128x256_S1x128x256_7_0_0).toLoadRect.set ⊆ (slot sndM 7).view.set := slot_load_sub sndM 7
  have hAs7 : (sndM.access (Rect.unit (s := S8x128x256) ![7, 0, 0] S1x128x256.size inb_S8x128x256_S1x128x256_7_0_0)).set ⊆ (slot sndM 7).view.set := slot_access_sub sndM 7
  have hSs7 : (sndM.access (Rect.unit (s := S8x128x256) ![7, 0, 0] S1x128x256.size inb_S8x128x256_S1x128x256_7_0_0)).setOn Finset.univ ⊆ (slot sndM 7).view.set := slot_store_sub sndM 7
  have hLa0 : r1M.view.setOn (Rect.unit (s := S8x128x256) ![0, 0, 0] S1x128x256.size inb_S8x128x256_S1x128x256_0_0_0).toLoadRect.set ⊆ (slot r1M 0).view.set := slot_load_sub r1M 0
  have hAa0 : (r1M.access (Rect.unit (s := S8x128x256) ![0, 0, 0] S1x128x256.size inb_S8x128x256_S1x128x256_0_0_0)).set ⊆ (slot r1M 0).view.set := slot_access_sub r1M 0
  have hSa0 : (r1M.access (Rect.unit (s := S8x128x256) ![0, 0, 0] S1x128x256.size inb_S8x128x256_S1x128x256_0_0_0)).setOn Finset.univ ⊆ (slot r1M 0).view.set := slot_store_sub r1M 0
  have hLa1 : r1M.view.setOn (Rect.unit (s := S8x128x256) ![1, 0, 0] S1x128x256.size inb_S8x128x256_S1x128x256_1_0_0).toLoadRect.set ⊆ (slot r1M 1).view.set := slot_load_sub r1M 1
  have hAa1 : (r1M.access (Rect.unit (s := S8x128x256) ![1, 0, 0] S1x128x256.size inb_S8x128x256_S1x128x256_1_0_0)).set ⊆ (slot r1M 1).view.set := slot_access_sub r1M 1
  have hSa1 : (r1M.access (Rect.unit (s := S8x128x256) ![1, 0, 0] S1x128x256.size inb_S8x128x256_S1x128x256_1_0_0)).setOn Finset.univ ⊆ (slot r1M 1).view.set := slot_store_sub r1M 1
  have hLa2 : r1M.view.setOn (Rect.unit (s := S8x128x256) ![2, 0, 0] S1x128x256.size inb_S8x128x256_S1x128x256_2_0_0).toLoadRect.set ⊆ (slot r1M 2).view.set := slot_load_sub r1M 2
  have hAa2 : (r1M.access (Rect.unit (s := S8x128x256) ![2, 0, 0] S1x128x256.size inb_S8x128x256_S1x128x256_2_0_0)).set ⊆ (slot r1M 2).view.set := slot_access_sub r1M 2
  have hSa2 : (r1M.access (Rect.unit (s := S8x128x256) ![2, 0, 0] S1x128x256.size inb_S8x128x256_S1x128x256_2_0_0)).setOn Finset.univ ⊆ (slot r1M 2).view.set := slot_store_sub r1M 2
  have hLa3 : r1M.view.setOn (Rect.unit (s := S8x128x256) ![3, 0, 0] S1x128x256.size inb_S8x128x256_S1x128x256_3_0_0).toLoadRect.set ⊆ (slot r1M 3).view.set := slot_load_sub r1M 3
  have hAa3 : (r1M.access (Rect.unit (s := S8x128x256) ![3, 0, 0] S1x128x256.size inb_S8x128x256_S1x128x256_3_0_0)).set ⊆ (slot r1M 3).view.set := slot_access_sub r1M 3
  have hSa3 : (r1M.access (Rect.unit (s := S8x128x256) ![3, 0, 0] S1x128x256.size inb_S8x128x256_S1x128x256_3_0_0)).setOn Finset.univ ⊆ (slot r1M 3).view.set := slot_store_sub r1M 3
  have hLa4 : r1M.view.setOn (Rect.unit (s := S8x128x256) ![4, 0, 0] S1x128x256.size inb_S8x128x256_S1x128x256_4_0_0).toLoadRect.set ⊆ (slot r1M 4).view.set := slot_load_sub r1M 4
  have hAa4 : (r1M.access (Rect.unit (s := S8x128x256) ![4, 0, 0] S1x128x256.size inb_S8x128x256_S1x128x256_4_0_0)).set ⊆ (slot r1M 4).view.set := slot_access_sub r1M 4
  have hSa4 : (r1M.access (Rect.unit (s := S8x128x256) ![4, 0, 0] S1x128x256.size inb_S8x128x256_S1x128x256_4_0_0)).setOn Finset.univ ⊆ (slot r1M 4).view.set := slot_store_sub r1M 4
  have hLa5 : r1M.view.setOn (Rect.unit (s := S8x128x256) ![5, 0, 0] S1x128x256.size inb_S8x128x256_S1x128x256_5_0_0).toLoadRect.set ⊆ (slot r1M 5).view.set := slot_load_sub r1M 5
  have hAa5 : (r1M.access (Rect.unit (s := S8x128x256) ![5, 0, 0] S1x128x256.size inb_S8x128x256_S1x128x256_5_0_0)).set ⊆ (slot r1M 5).view.set := slot_access_sub r1M 5
  have hSa5 : (r1M.access (Rect.unit (s := S8x128x256) ![5, 0, 0] S1x128x256.size inb_S8x128x256_S1x128x256_5_0_0)).setOn Finset.univ ⊆ (slot r1M 5).view.set := slot_store_sub r1M 5
  have hLa6 : r1M.view.setOn (Rect.unit (s := S8x128x256) ![6, 0, 0] S1x128x256.size inb_S8x128x256_S1x128x256_6_0_0).toLoadRect.set ⊆ (slot r1M 6).view.set := slot_load_sub r1M 6
  have hAa6 : (r1M.access (Rect.unit (s := S8x128x256) ![6, 0, 0] S1x128x256.size inb_S8x128x256_S1x128x256_6_0_0)).set ⊆ (slot r1M 6).view.set := slot_access_sub r1M 6
  have hSa6 : (r1M.access (Rect.unit (s := S8x128x256) ![6, 0, 0] S1x128x256.size inb_S8x128x256_S1x128x256_6_0_0)).setOn Finset.univ ⊆ (slot r1M 6).view.set := slot_store_sub r1M 6
  have hLa7 : r1M.view.setOn (Rect.unit (s := S8x128x256) ![7, 0, 0] S1x128x256.size inb_S8x128x256_S1x128x256_7_0_0).toLoadRect.set ⊆ (slot r1M 7).view.set := slot_load_sub r1M 7
  have hAa7 : (r1M.access (Rect.unit (s := S8x128x256) ![7, 0, 0] S1x128x256.size inb_S8x128x256_S1x128x256_7_0_0)).set ⊆ (slot r1M 7).view.set := slot_access_sub r1M 7
  have hSa7 : (r1M.access (Rect.unit (s := S8x128x256) ![7, 0, 0] S1x128x256.size inb_S8x128x256_S1x128x256_7_0_0)).setOn Finset.univ ⊆ (slot r1M 7).view.set := slot_store_sub r1M 7
  have hLb0 : r2M.view.setOn (Rect.unit (s := S8x128x256) ![0, 0, 0] S1x128x256.size inb_S8x128x256_S1x128x256_0_0_0).toLoadRect.set ⊆ (slot r2M 0).view.set := slot_load_sub r2M 0
  have hAb0 : (r2M.access (Rect.unit (s := S8x128x256) ![0, 0, 0] S1x128x256.size inb_S8x128x256_S1x128x256_0_0_0)).set ⊆ (slot r2M 0).view.set := slot_access_sub r2M 0
  have hSb0 : (r2M.access (Rect.unit (s := S8x128x256) ![0, 0, 0] S1x128x256.size inb_S8x128x256_S1x128x256_0_0_0)).setOn Finset.univ ⊆ (slot r2M 0).view.set := slot_store_sub r2M 0
  have hLb1 : r2M.view.setOn (Rect.unit (s := S8x128x256) ![1, 0, 0] S1x128x256.size inb_S8x128x256_S1x128x256_1_0_0).toLoadRect.set ⊆ (slot r2M 1).view.set := slot_load_sub r2M 1
  have hAb1 : (r2M.access (Rect.unit (s := S8x128x256) ![1, 0, 0] S1x128x256.size inb_S8x128x256_S1x128x256_1_0_0)).set ⊆ (slot r2M 1).view.set := slot_access_sub r2M 1
  have hSb1 : (r2M.access (Rect.unit (s := S8x128x256) ![1, 0, 0] S1x128x256.size inb_S8x128x256_S1x128x256_1_0_0)).setOn Finset.univ ⊆ (slot r2M 1).view.set := slot_store_sub r2M 1
  have hLb2 : r2M.view.setOn (Rect.unit (s := S8x128x256) ![2, 0, 0] S1x128x256.size inb_S8x128x256_S1x128x256_2_0_0).toLoadRect.set ⊆ (slot r2M 2).view.set := slot_load_sub r2M 2
  have hAb2 : (r2M.access (Rect.unit (s := S8x128x256) ![2, 0, 0] S1x128x256.size inb_S8x128x256_S1x128x256_2_0_0)).set ⊆ (slot r2M 2).view.set := slot_access_sub r2M 2
  have hSb2 : (r2M.access (Rect.unit (s := S8x128x256) ![2, 0, 0] S1x128x256.size inb_S8x128x256_S1x128x256_2_0_0)).setOn Finset.univ ⊆ (slot r2M 2).view.set := slot_store_sub r2M 2
  have hLb3 : r2M.view.setOn (Rect.unit (s := S8x128x256) ![3, 0, 0] S1x128x256.size inb_S8x128x256_S1x128x256_3_0_0).toLoadRect.set ⊆ (slot r2M 3).view.set := slot_load_sub r2M 3
  have hAb3 : (r2M.access (Rect.unit (s := S8x128x256) ![3, 0, 0] S1x128x256.size inb_S8x128x256_S1x128x256_3_0_0)).set ⊆ (slot r2M 3).view.set := slot_access_sub r2M 3
  have hSb3 : (r2M.access (Rect.unit (s := S8x128x256) ![3, 0, 0] S1x128x256.size inb_S8x128x256_S1x128x256_3_0_0)).setOn Finset.univ ⊆ (slot r2M 3).view.set := slot_store_sub r2M 3
  have hLb4 : r2M.view.setOn (Rect.unit (s := S8x128x256) ![4, 0, 0] S1x128x256.size inb_S8x128x256_S1x128x256_4_0_0).toLoadRect.set ⊆ (slot r2M 4).view.set := slot_load_sub r2M 4
  have hAb4 : (r2M.access (Rect.unit (s := S8x128x256) ![4, 0, 0] S1x128x256.size inb_S8x128x256_S1x128x256_4_0_0)).set ⊆ (slot r2M 4).view.set := slot_access_sub r2M 4
  have hSb4 : (r2M.access (Rect.unit (s := S8x128x256) ![4, 0, 0] S1x128x256.size inb_S8x128x256_S1x128x256_4_0_0)).setOn Finset.univ ⊆ (slot r2M 4).view.set := slot_store_sub r2M 4
  have hLb5 : r2M.view.setOn (Rect.unit (s := S8x128x256) ![5, 0, 0] S1x128x256.size inb_S8x128x256_S1x128x256_5_0_0).toLoadRect.set ⊆ (slot r2M 5).view.set := slot_load_sub r2M 5
  have hAb5 : (r2M.access (Rect.unit (s := S8x128x256) ![5, 0, 0] S1x128x256.size inb_S8x128x256_S1x128x256_5_0_0)).set ⊆ (slot r2M 5).view.set := slot_access_sub r2M 5
  have hSb5 : (r2M.access (Rect.unit (s := S8x128x256) ![5, 0, 0] S1x128x256.size inb_S8x128x256_S1x128x256_5_0_0)).setOn Finset.univ ⊆ (slot r2M 5).view.set := slot_store_sub r2M 5
  have hLb6 : r2M.view.setOn (Rect.unit (s := S8x128x256) ![6, 0, 0] S1x128x256.size inb_S8x128x256_S1x128x256_6_0_0).toLoadRect.set ⊆ (slot r2M 6).view.set := slot_load_sub r2M 6
  have hAb6 : (r2M.access (Rect.unit (s := S8x128x256) ![6, 0, 0] S1x128x256.size inb_S8x128x256_S1x128x256_6_0_0)).set ⊆ (slot r2M 6).view.set := slot_access_sub r2M 6
  have hSb6 : (r2M.access (Rect.unit (s := S8x128x256) ![6, 0, 0] S1x128x256.size inb_S8x128x256_S1x128x256_6_0_0)).setOn Finset.univ ⊆ (slot r2M 6).view.set := slot_store_sub r2M 6
  have hLb7 : r2M.view.setOn (Rect.unit (s := S8x128x256) ![7, 0, 0] S1x128x256.size inb_S8x128x256_S1x128x256_7_0_0).toLoadRect.set ⊆ (slot r2M 7).view.set := slot_load_sub r2M 7
  have hAb7 : (r2M.access (Rect.unit (s := S8x128x256) ![7, 0, 0] S1x128x256.size inb_S8x128x256_S1x128x256_7_0_0)).set ⊆ (slot r2M 7).view.set := slot_access_sub r2M 7
  have hSb7 : (r2M.access (Rect.unit (s := S8x128x256) ![7, 0, 0] S1x128x256.size inb_S8x128x256_S1x128x256_7_0_0)).setOn Finset.univ ⊆ (slot r2M 7).view.set := slot_store_sub r2M 7
  sl_unfold [cc0_body]
  sl_exec_parts
  -- the barrier's two payloads: the neighbours' landing chunks and their cells' round-0 marks
  ihave Hp := (Entails.of_eq (bar_pays m ρ c)) $$ HpB_pay1
  icases Hp with ⟨HpYc, HpXc⟩
  ihave HXo := (barPayX_open (F := F) c) $$ HpXc
  ihave HYo := (barPayY_open (F := F) c) $$ HpYc
  unfold slotAny
  icases HXo with ⟨⟨⟨%fx0, Hd0⟩, ⟨%fx1, Hd1⟩, ⟨%fx2, Hd2⟩, ⟨%fx3, Hd3⟩, ⟨%fx4, Hd4⟩, ⟨%fx5, Hd5⟩, ⟨%fx6, Hd6⟩, ⟨%fx7, Hd7⟩⟩, ⟨#Hrx0, #Hrx1, #Hrx2, #Hrx3, #Hrx4, #Hrx5, #Hrx6, #Hrx7⟩⟩
  icases HYo with ⟨⟨⟨%fy0, He0⟩, ⟨%fy1, He1⟩, ⟨%fy2, He2⟩, ⟨%fy3, He3⟩, ⟨%fy4, He4⟩, ⟨%fy5, He5⟩, ⟨%fy6, He6⟩, ⟨%fy7, He7⟩⟩, ⟨#Hry0, #Hry1, #Hry2, #Hry3, #Hry4, #Hry5, #Hry6, #Hry7⟩⟩
  rw [← O₁_from_zero c]
  -- chunk 0 of the send buffer reads the partial product of this device's rows: stage-1 transfer
  have hfs0 : sndM.view.readAt (Elt F) (slotRect 0).toLoadRect (sound_body.sl.Hs0_w1 m ρ c f2) = sendW m ρ c 0 := by
    sl_unfold_run_names
    refine (readAt_store sndM 0 f2 _).trans ?_
    rw [View.readCov_cons_toLoadRect]
    rfl
  rw [O₁_from_step c 0 (by decide)]
  iapply (wp_send1 m ρ K c _ (dev3_eq c) 0 (sound_body.sl.Hs0_w1 m ρ c f2) hfs0 fx0 (O₁_from c 1) _) $$ [Hs0 Hd0 HO Ht00 Htx0]
  · isplitr; · iexact HI00
    isplitr; · iexact HIx0
    isplitl [Hs0]; · iexact Hs0
    isplitl [Hd0]; · iexact Hd0
    isplitl [HO]; · iexact HO
    isplitl [Ht00]; · iexact Ht00
    isplitr; · iexact Hr00
    isplitl [Htx0]; · iexact Htx0
    iexact Hrx0
  iintro ⟨Hcs0, HO⟩
  sl_exec_parts
  -- chunk 1 of the send buffer reads the partial product of this device's rows: stage-1 transfer
  have hfs1 : sndM.view.readAt (Elt F) (slotRect 1).toLoadRect (sound_body.sl.Hs1_w1 m ρ c f2) = sendW m ρ c 1 := by
    sl_unfold_run_names
    refine (readAt_store sndM 1 f2 _).trans ?_
    rw [View.readCov_cons_toLoadRect]
    rfl
  rw [O₁_from_step c 1 (by decide)]
  iapply (wp_send1 m ρ K c _ (dev4_eq c) 1 (sound_body.sl.Hs1_w1 m ρ c f2) hfs1 fx1 (O₁_from c 2) _) $$ [Hs1 Hd1 HO Ht01 Htx1]
  · isplitr; · iexact HI01
    isplitr; · iexact HIx1
    isplitl [Hs1]; · iexact Hs1
    isplitl [Hd1]; · iexact Hd1
    isplitl [HO]; · iexact HO
    isplitl [Ht01]; · iexact Ht01
    isplitr; · iexact Hr01
    isplitl [Htx1]; · iexact Htx1
    iexact Hrx1
  iintro ⟨Hcs1, HO⟩
  sl_exec_parts
  -- chunk 2 of the send buffer reads the partial product of this device's rows: stage-1 transfer
  have hfs2 : sndM.view.readAt (Elt F) (slotRect 2).toLoadRect (sound_body.sl.Hs2_w1 m ρ c f2) = sendW m ρ c 2 := by
    sl_unfold_run_names
    refine (readAt_store sndM 2 f2 _).trans ?_
    rw [View.readCov_cons_toLoadRect]
    rfl
  rw [O₁_from_step c 2 (by decide)]
  iapply (wp_send1 m ρ K c _ (dev5_eq c) 2 (sound_body.sl.Hs2_w1 m ρ c f2) hfs2 fx2 (O₁_from c 3) _) $$ [Hs2 Hd2 HO Ht02 Htx2]
  · isplitr; · iexact HI02
    isplitr; · iexact HIx2
    isplitl [Hs2]; · iexact Hs2
    isplitl [Hd2]; · iexact Hd2
    isplitl [HO]; · iexact HO
    isplitl [Ht02]; · iexact Ht02
    isplitr; · iexact Hr02
    isplitl [Htx2]; · iexact Htx2
    iexact Hrx2
  iintro ⟨Hcs2, HO⟩
  sl_exec_parts
  -- chunk 3 of the send buffer reads the partial product of this device's rows: stage-1 transfer
  have hfs3 : sndM.view.readAt (Elt F) (slotRect 3).toLoadRect (sound_body.sl.Hs3_w1 m ρ c f2) = sendW m ρ c 3 := by
    sl_unfold_run_names
    refine (readAt_store sndM 3 f2 _).trans ?_
    rw [View.readCov_cons_toLoadRect]
    rfl
  rw [O₁_from_step c 3 (by decide)]
  iapply (wp_send1 m ρ K c _ (dev6_eq c) 3 (sound_body.sl.Hs3_w1 m ρ c f2) hfs3 fx3 (O₁_from c 4) _) $$ [Hs3 Hd3 HO Ht03 Htx3]
  · isplitr; · iexact HI03
    isplitr; · iexact HIx3
    isplitl [Hs3]; · iexact Hs3
    isplitl [Hd3]; · iexact Hd3
    isplitl [HO]; · iexact HO
    isplitl [Ht03]; · iexact Ht03
    isplitr; · iexact Hr03
    isplitl [Htx3]; · iexact Htx3
    iexact Hrx3
  iintro ⟨Hcs3, HO⟩
  sl_exec_parts
  -- chunk 4 of the send buffer reads the partial product of this device's rows: stage-1 transfer
  have hfs4 : sndM.view.readAt (Elt F) (slotRect 4).toLoadRect (sound_body.sl.Hs4_w1 m ρ c f2) = sendW m ρ c 4 := by
    sl_unfold_run_names
    refine (readAt_store sndM 4 f2 _).trans ?_
    rw [View.readCov_cons_toLoadRect]
    rfl
  rw [O₁_from_step c 4 (by decide)]
  iapply (wp_send1 m ρ K c _ (dev7_eq c) 4 (sound_body.sl.Hs4_w1 m ρ c f2) hfs4 fx4 (O₁_from c 5) _) $$ [Hs4 Hd4 HO Ht04 Htx4]
  · isplitr; · iexact HI04
    isplitr; · iexact HIx4
    isplitl [Hs4]; · iexact Hs4
    isplitl [Hd4]; · iexact Hd4
    isplitl [HO]; · iexact HO
    isplitl [Ht04]; · iexact Ht04
    isplitr; · iexact Hr04
    isplitl [Htx4]; · iexact Htx4
    iexact Hrx4
  iintro ⟨Hcs4, HO⟩
  sl_exec_parts
  -- chunk 5 of the send buffer reads the partial product of this device's rows: stage-1 transfer
  have hfs5 : sndM.view.readAt (Elt F) (slotRect 5).toLoadRect (sound_body.sl.Hs5_w1 m ρ c f2) = sendW m ρ c 5 := by
    sl_unfold_run_names
    refine (readAt_store sndM 5 f2 _).trans ?_
    rw [View.readCov_cons_toLoadRect]
    rfl
  rw [O₁_from_step c 5 (by decide)]
  iapply (wp_send1 m ρ K c _ (dev8_eq c) 5 (sound_body.sl.Hs5_w1 m ρ c f2) hfs5 fx5 (O₁_from c 6) _) $$ [Hs5 Hd5 HO Ht05 Htx5]
  · isplitr; · iexact HI05
    isplitr; · iexact HIx5
    isplitl [Hs5]; · iexact Hs5
    isplitl [Hd5]; · iexact Hd5
    isplitl [HO]; · iexact HO
    isplitl [Ht05]; · iexact Ht05
    isplitr; · iexact Hr05
    isplitl [Htx5]; · iexact Htx5
    iexact Hrx5
  iintro ⟨Hcs5, HO⟩
  sl_exec_parts
  -- chunk 6 of the send buffer reads the partial product of this device's rows: stage-1 transfer
  have hfs6 : sndM.view.readAt (Elt F) (slotRect 6).toLoadRect (sound_body.sl.Hs6_w1 m ρ c f2) = sendW m ρ c 6 := by
    sl_unfold_run_names
    refine (readAt_store sndM 6 f2 _).trans ?_
    rw [View.readCov_cons_toLoadRect]
    rfl
  rw [O₁_from_step c 6 (by decide)]
  iapply (wp_send1 m ρ K c _ (dev9_eq c) 6 (sound_body.sl.Hs6_w1 m ρ c f2) hfs6 fx6 (O₁_from c 7) _) $$ [Hs6 Hd6 HO Ht06 Htx6]
  · isplitr; · iexact HI06
    isplitr; · iexact HIx6
    isplitl [Hs6]; · iexact Hs6
    isplitl [Hd6]; · iexact Hd6
    isplitl [HO]; · iexact HO
    isplitl [Ht06]; · iexact Ht06
    isplitr; · iexact Hr06
    isplitl [Htx6]; · iexact Htx6
    iexact Hrx6
  iintro ⟨Hcs6, HO⟩
  sl_exec_parts
  -- chunk 7 of the send buffer reads the partial product of this device's rows: stage-1 transfer
  have hfs7 : sndM.view.readAt (Elt F) (slotRect 7).toLoadRect (sound_body.sl.Hs7_w1 m ρ c f2) = sendW m ρ c 7 := by
    sl_unfold_run_names
    refine (readAt_store sndM 7 f2 _).trans ?_
    rw [View.readCov_cons_toLoadRect]
    rfl
  rw [O₁_from_step c 7 (by decide)]
  iapply (wp_send1 m ρ K c _ (dev10_eq c) 7 (sound_body.sl.Hs7_w1 m ρ c f2) hfs7 fx7 (O₁_from c 8) _) $$ [Hs7 Hd7 HO Ht07 Htx7]
  · isplitr; · iexact HI07
    isplitr; · iexact HIx7
    isplitl [Hs7]; · iexact Hs7
    isplitl [Hd7]; · iexact Hd7
    isplitl [HO]; · iexact HO
    isplitl [Ht07]; · iexact Ht07
    isplitr; · iexact Hr07
    isplitl [Htx7]; · iexact Htx7
    iexact Hrx7
  iintro ⟨Hcs7, HO⟩
  rw [O₁_from_eight c, ← O₂_from_zero c]
  sl_exec_parts
  unfold slotAt
  -- chunk 0 has landed: keep one half share for the loads, lend the other to the stage-2 transfer
  icases Hp10_pay1 with ⟨%fr0, %hfr0, Hq0⟩
  ihave Hh := (slot_halves r1M 0 c fr0).1 $$ Hq0
  icases Hh with ⟨HqL0, HqR0⟩
  rw [O₂_from_step c 0 (by decide)]
  iapply (wp_send2 m ρ K c _ (dev11_eq c) 0 fr0 hfr0 fy0 (O₂_from c 1) _) $$ [HqL0 He0 HO Ht20 Hty0]
  · isplitr; · iexact HI20
    isplitr; · iexact HIy0
    isplitl [HqL0]; · iexact HqL0
    isplitl [He0]; · iexact He0
    isplitl [HO]; · iexact HO
    isplitl [Ht20]; · iexact Ht20
    isplitr; · iexact Hr20
    isplitl [Hty0]; · iexact Hty0
    iexact Hry0
  iintro ⟨Hcf0, HO⟩
  sl_exec_parts
  unfold slotAt
  -- chunk 1 has landed: keep one half share for the loads, lend the other to the stage-2 transfer
  icases Hp11_pay1 with ⟨%fr1, %hfr1, Hq1⟩
  ihave Hh := (slot_halves r1M 1 c fr1).1 $$ Hq1
  icases Hh with ⟨HqL1, HqR1⟩
  rw [O₂_from_step c 1 (by decide)]
  iapply (wp_send2 m ρ K c _ (dev12_eq c) 1 fr1 hfr1 fy1 (O₂_from c 2) _) $$ [HqL1 He1 HO Ht21 Hty1]
  · isplitr; · iexact HI21
    isplitr; · iexact HIy1
    isplitl [HqL1]; · iexact HqL1
    isplitl [He1]; · iexact He1
    isplitl [HO]; · iexact HO
    isplitl [Ht21]; · iexact Ht21
    isplitr; · iexact Hr21
    isplitl [Hty1]; · iexact Hty1
    iexact Hry1
  iintro ⟨Hcf1, HO⟩
  sl_exec_parts
  unfold slotAt
  -- chunk 2 has landed: keep one half share for the loads, lend the other to the stage-2 transfer
  icases Hp12_pay1 with ⟨%fr2, %hfr2, Hq2⟩
  ihave Hh := (slot_halves r1M 2 c fr2).1 $$ Hq2
  icases Hh with ⟨HqL2, HqR2⟩
  rw [O₂_from_step c 2 (by decide)]
  iapply (wp_send2 m ρ K c _ (dev13_eq c) 2 fr2 hfr2 fy2 (O₂_from c 3) _) $$ [HqL2 He2 HO Ht22 Hty2]
  · isplitr; · iexact HI22
    isplitr; · iexact HIy2
    isplitl [HqL2]; · iexact HqL2
    isplitl [He2]; · iexact He2
    isplitl [HO]; · iexact HO
    isplitl [Ht22]; · iexact Ht22
    isplitr; · iexact Hr22
    isplitl [Hty2]; · iexact Hty2
    iexact Hry2
  iintro ⟨Hcf2, HO⟩
  sl_exec_parts
  unfold slotAt
  -- chunk 3 has landed: keep one half share for the loads, lend the other to the stage-2 transfer
  icases Hp13_pay1 with ⟨%fr3, %hfr3, Hq3⟩
  ihave Hh := (slot_halves r1M 3 c fr3).1 $$ Hq3
  icases Hh with ⟨HqL3, HqR3⟩
  rw [O₂_from_step c 3 (by decide)]
  iapply (wp_send2 m ρ K c _ (dev14_eq c) 3 fr3 hfr3 fy3 (O₂_from c 4) _) $$ [HqL3 He3 HO Ht23 Hty3]
  · isplitr; · iexact HI23
    isplitr; · iexact HIy3
    isplitl [HqL3]; · iexact HqL3
    isplitl [He3]; · iexact He3
    isplitl [HO]; · iexact HO
    isplitl [Ht23]; · iexact Ht23
    isplitr; · iexact Hr23
    isplitl [Hty3]; · iexact Hty3
    iexact Hry3
  iintro ⟨Hcf3, HO⟩
  sl_exec_parts
  unfold slotAt
  -- chunk 4 has landed: keep one half share for the loads, lend the other to the stage-2 transfer
  icases Hp14_pay1 with ⟨%fr4, %hfr4, Hq4⟩
  ihave Hh := (slot_halves r1M 4 c fr4).1 $$ Hq4
  icases Hh with ⟨HqL4, HqR4⟩
  rw [O₂_from_step c 4 (by decide)]
  iapply (wp_send2 m ρ K c _ (dev15_eq c) 4 fr4 hfr4 fy4 (O₂_from c 5) _) $$ [HqL4 He4 HO Ht24 Hty4]
  · isplitr; · iexact HI24
    isplitr; · iexact HIy4
    isplitl [HqL4]; · iexact HqL4
    isplitl [He4]; · iexact He4
    isplitl [HO]; · iexact HO
    isplitl [Ht24]; · iexact Ht24
    isplitr; · iexact Hr24
    isplitl [Hty4]; · iexact Hty4
    iexact Hry4
  iintro ⟨Hcf4, HO⟩
  sl_exec_parts
  unfold slotAt
  -- chunk 5 has landed: keep one half share for the loads, lend the other to the stage-2 transfer
  icases Hp15_pay1 with ⟨%fr5, %hfr5, Hq5⟩
  ihave Hh := (slot_halves r1M 5 c fr5).1 $$ Hq5
  icases Hh with ⟨HqL5, HqR5⟩
  rw [O₂_from_step c 5 (by decide)]
  iapply (wp_send2 m ρ K c _ (dev16_eq c) 5 fr5 hfr5 fy5 (O₂_from c 6) _) $$ [HqL5 He5 HO Ht25 Hty5]
  · isplitr; · iexact HI25
    isplitr; · iexact HIy5
    isplitl [HqL5]; · iexact HqL5
    isplitl [He5]; · iexact He5
    isplitl [HO]; · iexact HO
    isplitl [Ht25]; · iexact Ht25
    isplitr; · iexact Hr25
    isplitl [Hty5]; · iexact Hty5
    iexact Hry5
  iintro ⟨Hcf5, HO⟩
  sl_exec_parts
  unfold slotAt
  -- chunk 6 has landed: keep one half share for the loads, lend the other to the stage-2 transfer
  icases Hp16_pay1 with ⟨%fr6, %hfr6, Hq6⟩
  ihave Hh := (slot_halves r1M 6 c fr6).1 $$ Hq6
  icases Hh with ⟨HqL6, HqR6⟩
  rw [O₂_from_step c 6 (by decide)]
  iapply (wp_send2 m ρ K c _ (dev17_eq c) 6 fr6 hfr6 fy6 (O₂_from c 7) _) $$ [HqL6 He6 HO Ht26 Hty6]
  · isplitr; · iexact HI26
    isplitr; · iexact HIy6
    isplitl [HqL6]; · iexact HqL6
    isplitl [He6]; · iexact He6
    isplitl [HO]; · iexact HO
    isplitl [Ht26]; · iexact Ht26
    isplitr; · iexact Hr26
    isplitl [Hty6]; · iexact Hty6
    iexact Hry6
  iintro ⟨Hcf6, HO⟩
  sl_exec_parts
  unfold slotAt
  -- chunk 7 has landed: keep one half share for the loads, lend the other to the stage-2 transfer
  icases Hp17_pay1 with ⟨%fr7, %hfr7, Hq7⟩
  ihave Hh := (slot_halves r1M 7 c fr7).1 $$ Hq7
  icases Hh with ⟨HqL7, HqR7⟩
  rw [O₂_from_step c 7 (by decide)]
  iapply (wp_send2 m ρ K c _ (dev18_eq c) 7 fr7 hfr7 fy7 (O₂_from c 8) _) $$ [HqL7 He7 HO Ht27 Hty7]
  · isplitr; · iexact HI27
    isplitr; · iexact HIy7
    isplitl [HqL7]; · iexact HqL7
    isplitl [He7]; · iexact He7
    isplitl [HO]; · iexact HO
    isplitl [Ht27]; · iexact Ht27
    isplitr; · iexact Hr27
    isplitl [Hty7]; · iexact Hty7
    iexact Hry7
  iintro ⟨Hcf7, HO⟩
  rw [O₂_from_eight c]
  sl_exec_parts
  -- the wait for the stage-2 landing of chunk 0, nothing owed; its chunk comes with it
  rw [show ((SemArray.slice cc0_scratch8 (Rect.unit (s := S8) ![0] S1.size inb_S8_S1_0)).squeeze S_ squeezes_S1_S_).sem = xsem 3 0 from by decide]
  ihave Hc30 := (Entails.of_eq (aside_eq _)) $$ Hc30
  iapply (Rounds.wp_wait_rest_token 𝒱₀ ER (rd m ρ) (c : Thread nD τ) none (κ := K (c, some (3, 0)))
      (wpE_waitDma2_eq 𝒱₀ (c : Thread nD τ) none Set.univ) (Set.mem_univ _) () (O := 0) (R := 0) (m := 0) (T := ∅)
      (by rw [Nat.zero_add]; exact (expect_x m ρ c 3 0).symm)) $$ [Hc30 HO Hp30]
  · isplitr; · iexact HI30
    isplitl [Hc30]; · iexact Hc30
    isplitl [HO]; · iexact HO
    isplitr; · rw [MayWait_zero]; iempintro
    iexact Hp30
  iintro ⟨HO, Hp30, -, Hpay⟩
  ihave Hz := (Entails.of_eq (rest_x3 m ρ c 0)) $$ Hpay
  unfold slotAt
  icases Hz with ⟨%fz0, %hfz0, Hz0⟩
  sl_exec_parts
  -- the wait for the stage-2 landing of chunk 1, nothing owed; its chunk comes with it
  rw [show ((SemArray.slice cc0_scratch8 (Rect.unit (s := S8) ![1] S1.size inb_S8_S1_1)).squeeze S_ squeezes_S1_S_).sem = xsem 3 1 from by decide]
  ihave Hc31 := (Entails.of_eq (aside_eq _)) $$ Hc31
  iapply (Rounds.wp_wait_rest_token 𝒱₀ ER (rd m ρ) (c : Thread nD τ) none (κ := K (c, some (3, 1)))
      (wpE_waitDma2_eq 𝒱₀ (c : Thread nD τ) none Set.univ) (Set.mem_univ _) () (O := 0) (R := 0) (m := 0) (T := ∅)
      (by rw [Nat.zero_add]; exact (expect_x m ρ c 3 1).symm)) $$ [Hc31 HO Hp31]
  · isplitr; · iexact HI31
    isplitl [Hc31]; · iexact Hc31
    isplitl [HO]; · iexact HO
    isplitr; · rw [MayWait_zero]; iempintro
    iexact Hp31
  iintro ⟨HO, Hp31, -, Hpay⟩
  ihave Hz := (Entails.of_eq (rest_x3 m ρ c 1)) $$ Hpay
  unfold slotAt
  icases Hz with ⟨%fz1, %hfz1, Hz1⟩
  sl_exec_parts
  -- the wait for the stage-2 landing of chunk 2, nothing owed; its chunk comes with it
  rw [show ((SemArray.slice cc0_scratch8 (Rect.unit (s := S8) ![2] S1.size inb_S8_S1_2)).squeeze S_ squeezes_S1_S_).sem = xsem 3 2 from by decide]
  ihave Hc32 := (Entails.of_eq (aside_eq _)) $$ Hc32
  iapply (Rounds.wp_wait_rest_token 𝒱₀ ER (rd m ρ) (c : Thread nD τ) none (κ := K (c, some (3, 2)))
      (wpE_waitDma2_eq 𝒱₀ (c : Thread nD τ) none Set.univ) (Set.mem_univ _) () (O := 0) (R := 0) (m := 0) (T := ∅)
      (by rw [Nat.zero_add]; exact (expect_x m ρ c 3 2).symm)) $$ [Hc32 HO Hp32]
  · isplitr; · iexact HI32
    isplitl [Hc32]; · iexact Hc32
    isplitl [HO]; · iexact HO
    isplitr; · rw [MayWait_zero]; iempintro
    iexact Hp32
  iintro ⟨HO, Hp32, -, Hpay⟩
  ihave Hz := (Entails.of_eq (rest_x3 m ρ c 2)) $$ Hpay
  unfold slotAt
  icases Hz with ⟨%fz2, %hfz2, Hz2⟩
  sl_exec_parts
  -- the wait for the stage-2 landing of chunk 3, nothing owed; its chunk comes with it
  rw [show ((SemArray.slice cc0_scratch8 (Rect.unit (s := S8) ![3] S1.size inb_S8_S1_3)).squeeze S_ squeezes_S1_S_).sem = xsem 3 3 from by decide]
  ihave Hc33 := (Entails.of_eq (aside_eq _)) $$ Hc33
  iapply (Rounds.wp_wait_rest_token 𝒱₀ ER (rd m ρ) (c : Thread nD τ) none (κ := K (c, some (3, 3)))
      (wpE_waitDma2_eq 𝒱₀ (c : Thread nD τ) none Set.univ) (Set.mem_univ _) () (O := 0) (R := 0) (m := 0) (T := ∅)
      (by rw [Nat.zero_add]; exact (expect_x m ρ c 3 3).symm)) $$ [Hc33 HO Hp33]
  · isplitr; · iexact HI33
    isplitl [Hc33]; · iexact Hc33
    isplitl [HO]; · iexact HO
    isplitr; · rw [MayWait_zero]; iempintro
    iexact Hp33
  iintro ⟨HO, Hp33, -, Hpay⟩
  ihave Hz := (Entails.of_eq (rest_x3 m ρ c 3)) $$ Hpay
  unfold slotAt
  icases Hz with ⟨%fz3, %hfz3, Hz3⟩
  sl_exec_parts
  -- the wait for the stage-2 landing of chunk 4, nothing owed; its chunk comes with it
  rw [show ((SemArray.slice cc0_scratch8 (Rect.unit (s := S8) ![4] S1.size inb_S8_S1_4)).squeeze S_ squeezes_S1_S_).sem = xsem 3 4 from by decide]
  ihave Hc34 := (Entails.of_eq (aside_eq _)) $$ Hc34
  iapply (Rounds.wp_wait_rest_token 𝒱₀ ER (rd m ρ) (c : Thread nD τ) none (κ := K (c, some (3, 4)))
      (wpE_waitDma2_eq 𝒱₀ (c : Thread nD τ) none Set.univ) (Set.mem_univ _) () (O := 0) (R := 0) (m := 0) (T := ∅)
      (by rw [Nat.zero_add]; exact (expect_x m ρ c 3 4).symm)) $$ [Hc34 HO Hp34]
  · isplitr; · iexact HI34
    isplitl [Hc34]; · iexact Hc34
    isplitl [HO]; · iexact HO
    isplitr; · rw [MayWait_zero]; iempintro
    iexact Hp34
  iintro ⟨HO, Hp34, -, Hpay⟩
  ihave Hz := (Entails.of_eq (rest_x3 m ρ c 4)) $$ Hpay
  unfold slotAt
  icases Hz with ⟨%fz4, %hfz4, Hz4⟩
  sl_exec_parts
  -- the wait for the stage-2 landing of chunk 5, nothing owed; its chunk comes with it
  rw [show ((SemArray.slice cc0_scratch8 (Rect.unit (s := S8) ![5] S1.size inb_S8_S1_5)).squeeze S_ squeezes_S1_S_).sem = xsem 3 5 from by decide]
  ihave Hc35 := (Entails.of_eq (aside_eq _)) $$ Hc35
  iapply (Rounds.wp_wait_rest_token 𝒱₀ ER (rd m ρ) (c : Thread nD τ) none (κ := K (c, some (3, 5)))
      (wpE_waitDma2_eq 𝒱₀ (c : Thread nD τ) none Set.univ) (Set.mem_univ _) () (O := 0) (R := 0) (m := 0) (T := ∅)
      (by rw [Nat.zero_add]; exact (expect_x m ρ c 3 5).symm)) $$ [Hc35 HO Hp35]
  · isplitr; · iexact HI35
    isplitl [Hc35]; · iexact Hc35
    isplitl [HO]; · iexact HO
    isplitr; · rw [MayWait_zero]; iempintro
    iexact Hp35
  iintro ⟨HO, Hp35, -, Hpay⟩
  ihave Hz := (Entails.of_eq (rest_x3 m ρ c 5)) $$ Hpay
  unfold slotAt
  icases Hz with ⟨%fz5, %hfz5, Hz5⟩
  sl_exec_parts
  -- the wait for the stage-2 landing of chunk 6, nothing owed; its chunk comes with it
  rw [show ((SemArray.slice cc0_scratch8 (Rect.unit (s := S8) ![6] S1.size inb_S8_S1_6)).squeeze S_ squeezes_S1_S_).sem = xsem 3 6 from by decide]
  ihave Hc36 := (Entails.of_eq (aside_eq _)) $$ Hc36
  iapply (Rounds.wp_wait_rest_token 𝒱₀ ER (rd m ρ) (c : Thread nD τ) none (κ := K (c, some (3, 6)))
      (wpE_waitDma2_eq 𝒱₀ (c : Thread nD τ) none Set.univ) (Set.mem_univ _) () (O := 0) (R := 0) (m := 0) (T := ∅)
      (by rw [Nat.zero_add]; exact (expect_x m ρ c 3 6).symm)) $$ [Hc36 HO Hp36]
  · isplitr; · iexact HI36
    isplitl [Hc36]; · iexact Hc36
    isplitl [HO]; · iexact HO
    isplitr; · rw [MayWait_zero]; iempintro
    iexact Hp36
  iintro ⟨HO, Hp36, -, Hpay⟩
  ihave Hz := (Entails.of_eq (rest_x3 m ρ c 6)) $$ Hpay
  unfold slotAt
  icases Hz with ⟨%fz6, %hfz6, Hz6⟩
  sl_exec_parts
  -- the wait for the stage-2 landing of chunk 7, nothing owed; its chunk comes with it
  rw [show ((SemArray.slice cc0_scratch8 (Rect.unit (s := S8) ![7] S1.size inb_S8_S1_7)).squeeze S_ squeezes_S1_S_).sem = xsem 3 7 from by decide]
  ihave Hc37 := (Entails.of_eq (aside_eq _)) $$ Hc37
  iapply (Rounds.wp_wait_rest_token 𝒱₀ ER (rd m ρ) (c : Thread nD τ) none (κ := K (c, some (3, 7)))
      (wpE_waitDma2_eq 𝒱₀ (c : Thread nD τ) none Set.univ) (Set.mem_univ _) () (O := 0) (R := 0) (m := 0) (T := ∅)
      (by rw [Nat.zero_add]; exact (expect_x m ρ c 3 7).symm)) $$ [Hc37 HO Hp37]
  · isplitr; · iexact HI37
    isplitl [Hc37]; · iexact Hc37
    isplitl [HO]; · iexact HO
    isplitr; · rw [MayWait_zero]; iempintro
    iexact Hp37
  iintro ⟨HO, Hp37, -, Hpay⟩
  ihave Hz := (Entails.of_eq (rest_x3 m ρ c 7)) $$ Hpay
  unfold slotAt
  icases Hz with ⟨%fz7, %hfz7, Hz7⟩
  sl_exec_parts
  -- every own DMA cell is through its one round: closed, its counter at zero again
  imod (Rounds.cell_close ER (rd m ρ) (Set.mem_univ (K (c, some (0, 0)))) (fun h => h) (R := 1) (duties_later m ρ (xCell c 0 0))) $$ [Hp00] with Hv00
  · isplitr; · iexact HI00
    iexact Hp00
  imod (Rounds.cell_close ER (rd m ρ) (Set.mem_univ (K (c, some (0, 1)))) (fun h => h) (R := 1) (duties_later m ρ (xCell c 0 1))) $$ [Hp01] with Hv01
  · isplitr; · iexact HI01
    iexact Hp01
  imod (Rounds.cell_close ER (rd m ρ) (Set.mem_univ (K (c, some (0, 2)))) (fun h => h) (R := 1) (duties_later m ρ (xCell c 0 2))) $$ [Hp02] with Hv02
  · isplitr; · iexact HI02
    iexact Hp02
  imod (Rounds.cell_close ER (rd m ρ) (Set.mem_univ (K (c, some (0, 3)))) (fun h => h) (R := 1) (duties_later m ρ (xCell c 0 3))) $$ [Hp03] with Hv03
  · isplitr; · iexact HI03
    iexact Hp03
  imod (Rounds.cell_close ER (rd m ρ) (Set.mem_univ (K (c, some (0, 4)))) (fun h => h) (R := 1) (duties_later m ρ (xCell c 0 4))) $$ [Hp04] with Hv04
  · isplitr; · iexact HI04
    iexact Hp04
  imod (Rounds.cell_close ER (rd m ρ) (Set.mem_univ (K (c, some (0, 5)))) (fun h => h) (R := 1) (duties_later m ρ (xCell c 0 5))) $$ [Hp05] with Hv05
  · isplitr; · iexact HI05
    iexact Hp05
  imod (Rounds.cell_close ER (rd m ρ) (Set.mem_univ (K (c, some (0, 6)))) (fun h => h) (R := 1) (duties_later m ρ (xCell c 0 6))) $$ [Hp06] with Hv06
  · isplitr; · iexact HI06
    iexact Hp06
  imod (Rounds.cell_close ER (rd m ρ) (Set.mem_univ (K (c, some (0, 7)))) (fun h => h) (R := 1) (duties_later m ρ (xCell c 0 7))) $$ [Hp07] with Hv07
  · isplitr; · iexact HI07
    iexact Hp07
  imod (Rounds.cell_close ER (rd m ρ) (Set.mem_univ (K (c, some (1, 0)))) (fun h => h) (R := 1) (duties_later m ρ (xCell c 1 0))) $$ [Hp10] with Hv10
  · isplitr; · iexact HI10
    iexact Hp10
  imod (Rounds.cell_close ER (rd m ρ) (Set.mem_univ (K (c, some (1, 1)))) (fun h => h) (R := 1) (duties_later m ρ (xCell c 1 1))) $$ [Hp11] with Hv11
  · isplitr; · iexact HI11
    iexact Hp11
  imod (Rounds.cell_close ER (rd m ρ) (Set.mem_univ (K (c, some (1, 2)))) (fun h => h) (R := 1) (duties_later m ρ (xCell c 1 2))) $$ [Hp12] with Hv12
  · isplitr; · iexact HI12
    iexact Hp12
  imod (Rounds.cell_close ER (rd m ρ) (Set.mem_univ (K (c, some (1, 3)))) (fun h => h) (R := 1) (duties_later m ρ (xCell c 1 3))) $$ [Hp13] with Hv13
  · isplitr; · iexact HI13
    iexact Hp13
  imod (Rounds.cell_close ER (rd m ρ) (Set.mem_univ (K (c, some (1, 4)))) (fun h => h) (R := 1) (duties_later m ρ (xCell c 1 4))) $$ [Hp14] with Hv14
  · isplitr; · iexact HI14
    iexact Hp14
  imod (Rounds.cell_close ER (rd m ρ) (Set.mem_univ (K (c, some (1, 5)))) (fun h => h) (R := 1) (duties_later m ρ (xCell c 1 5))) $$ [Hp15] with Hv15
  · isplitr; · iexact HI15
    iexact Hp15
  imod (Rounds.cell_close ER (rd m ρ) (Set.mem_univ (K (c, some (1, 6)))) (fun h => h) (R := 1) (duties_later m ρ (xCell c 1 6))) $$ [Hp16] with Hv16
  · isplitr; · iexact HI16
    iexact Hp16
  imod (Rounds.cell_close ER (rd m ρ) (Set.mem_univ (K (c, some (1, 7)))) (fun h => h) (R := 1) (duties_later m ρ (xCell c 1 7))) $$ [Hp17] with Hv17
  · isplitr; · iexact HI17
    iexact Hp17
  imod (Rounds.cell_close ER (rd m ρ) (Set.mem_univ (K (c, some (2, 0)))) (fun h => h) (R := 1) (duties_later m ρ (xCell c 2 0))) $$ [Hp20] with Hv20
  · isplitr; · iexact HI20
    iexact Hp20
  imod (Rounds.cell_close ER (rd m ρ) (Set.mem_univ (K (c, some (2, 1)))) (fun h => h) (R := 1) (duties_later m ρ (xCell c 2 1))) $$ [Hp21] with Hv21
  · isplitr; · iexact HI21
    iexact Hp21
  imod (Rounds.cell_close ER (rd m ρ) (Set.mem_univ (K (c, some (2, 2)))) (fun h => h) (R := 1) (duties_later m ρ (xCell c 2 2))) $$ [Hp22] with Hv22
  · isplitr; · iexact HI22
    iexact Hp22
  imod (Rounds.cell_close ER (rd m ρ) (Set.mem_univ (K (c, some (2, 3)))) (fun h => h) (R := 1) (duties_later m ρ (xCell c 2 3))) $$ [Hp23] with Hv23
  · isplitr; · iexact HI23
    iexact Hp23
  imod (Rounds.cell_close ER (rd m ρ) (Set.mem_univ (K (c, some (2, 4)))) (fun h => h) (R := 1) (duties_later m ρ (xCell c 2 4))) $$ [Hp24] with Hv24
  · isplitr; · iexact HI24
    iexact Hp24
  imod (Rounds.cell_close ER (rd m ρ) (Set.mem_univ (K (c, some (2, 5)))) (fun h => h) (R := 1) (duties_later m ρ (xCell c 2 5))) $$ [Hp25] with Hv25
  · isplitr; · iexact HI25
    iexact Hp25
  imod (Rounds.cell_close ER (rd m ρ) (Set.mem_univ (K (c, some (2, 6)))) (fun h => h) (R := 1) (duties_later m ρ (xCell c 2 6))) $$ [Hp26] with Hv26
  · isplitr; · iexact HI26
    iexact Hp26
  imod (Rounds.cell_close ER (rd m ρ) (Set.mem_univ (K (c, some (2, 7)))) (fun h => h) (R := 1) (duties_later m ρ (xCell c 2 7))) $$ [Hp27] with Hv27
  · isplitr; · iexact HI27
    iexact Hp27
  imod (Rounds.cell_close ER (rd m ρ) (Set.mem_univ (K (c, some (3, 0)))) (fun h => h) (R := 1) (duties_later m ρ (xCell c 3 0))) $$ [Hp30] with Hv30
  · isplitr; · iexact HI30
    iexact Hp30
  imod (Rounds.cell_close ER (rd m ρ) (Set.mem_univ (K (c, some (3, 1)))) (fun h => h) (R := 1) (duties_later m ρ (xCell c 3 1))) $$ [Hp31] with Hv31
  · isplitr; · iexact HI31
    iexact Hp31
  imod (Rounds.cell_close ER (rd m ρ) (Set.mem_univ (K (c, some (3, 2)))) (fun h => h) (R := 1) (duties_later m ρ (xCell c 3 2))) $$ [Hp32] with Hv32
  · isplitr; · iexact HI32
    iexact Hp32
  imod (Rounds.cell_close ER (rd m ρ) (Set.mem_univ (K (c, some (3, 3)))) (fun h => h) (R := 1) (duties_later m ρ (xCell c 3 3))) $$ [Hp33] with Hv33
  · isplitr; · iexact HI33
    iexact Hp33
  imod (Rounds.cell_close ER (rd m ρ) (Set.mem_univ (K (c, some (3, 4)))) (fun h => h) (R := 1) (duties_later m ρ (xCell c 3 4))) $$ [Hp34] with Hv34
  · isplitr; · iexact HI34
    iexact Hp34
  imod (Rounds.cell_close ER (rd m ρ) (Set.mem_univ (K (c, some (3, 5)))) (fun h => h) (R := 1) (duties_later m ρ (xCell c 3 5))) $$ [Hp35] with Hv35
  · isplitr; · iexact HI35
    iexact Hp35
  imod (Rounds.cell_close ER (rd m ρ) (Set.mem_univ (K (c, some (3, 6)))) (fun h => h) (R := 1) (duties_later m ρ (xCell c 3 6))) $$ [Hp36] with Hv36
  · isplitr; · iexact HI36
    iexact Hp36
  imod (Rounds.cell_close ER (rd m ρ) (Set.mem_univ (K (c, some (3, 7)))) (fun h => h) (R := 1) (duties_later m ρ (xCell c 3 7))) $$ [Hp37] with Hv37
  · isplitr; · iexact HI37
    iexact Hp37
  sl_step
  iapply Hk
  unfold bodyPost Φ₁ Dat.owesAt Pipeline.owesWithin
  rw [show (dats m ρ 0 c).owed t₀.succ = 0 from rfl]
  -- the chunks, whole again
  ihave HS0 := (slotAt_any sndM 0 c _) $$ Hp00_pay1
  ihave HS1 := (slotAt_any sndM 1 c _) $$ Hp01_pay1
  ihave HS2 := (slotAt_any sndM 2 c _) $$ Hp02_pay1
  ihave HS3 := (slotAt_any sndM 3 c _) $$ Hp03_pay1
  ihave HS4 := (slotAt_any sndM 4 c _) $$ Hp04_pay1
  ihave HS5 := (slotAt_any sndM 5 c _) $$ Hp05_pay1
  ihave HS6 := (slotAt_any sndM 6 c _) $$ Hp06_pay1
  ihave HS7 := (slotAt_any sndM 7 c _) $$ Hp07_pay1
  ihave HA0 := (chunk_rejoin r1M 0 c _ fr0) $$ [Hp20_pay1 HqR0]
  · isplitl [Hp20_pay1]; · iexact Hp20_pay1
    iexact HqR0
  ihave HA1 := (chunk_rejoin r1M 1 c _ fr1) $$ [Hp21_pay1 HqR1]
  · isplitl [Hp21_pay1]; · iexact Hp21_pay1
    iexact HqR1
  ihave HA2 := (chunk_rejoin r1M 2 c _ fr2) $$ [Hp22_pay1 HqR2]
  · isplitl [Hp22_pay1]; · iexact Hp22_pay1
    iexact HqR2
  ihave HA3 := (chunk_rejoin r1M 3 c _ fr3) $$ [Hp23_pay1 HqR3]
  · isplitl [Hp23_pay1]; · iexact Hp23_pay1
    iexact HqR3
  ihave HA4 := (chunk_rejoin r1M 4 c _ fr4) $$ [Hp24_pay1 HqR4]
  · isplitl [Hp24_pay1]; · iexact Hp24_pay1
    iexact HqR4
  ihave HA5 := (chunk_rejoin r1M 5 c _ fr5) $$ [Hp25_pay1 HqR5]
  · isplitl [Hp25_pay1]; · iexact Hp25_pay1
    iexact HqR5
  ihave HA6 := (chunk_rejoin r1M 6 c _ fr6) $$ [Hp26_pay1 HqR6]
  · isplitl [Hp26_pay1]; · iexact Hp26_pay1
    iexact HqR6
  ihave HA7 := (chunk_rejoin r1M 7 c _ fr7) $$ [Hp27_pay1 HqR7]
  · isplitl [Hp27_pay1]; · iexact Hp27_pay1
    iexact HqR7
  ihave HB0 := (slotAny_intro r2M 0 c fz0) $$ Hz0
  ihave HB1 := (slotAny_intro r2M 1 c fz1) $$ Hz1
  ihave HB2 := (slotAny_intro r2M 2 c fz2) $$ Hz2
  ihave HB3 := (slotAny_intro r2M 3 c fz3) $$ Hz3
  ihave HB4 := (slotAny_intro r2M 4 c fz4) $$ Hz4
  ihave HB5 := (slotAny_intro r2M 5 c fz5) $$ Hz5
  ihave HB6 := (slotAny_intro r2M 6 c fz6) $$ Hz6
  ihave HB7 := (slotAny_intro r2M 7 c fz7) $$ Hz7
  isplitl [Hdyb Hacc HS0 HS1 HS2 HS3 HS4 HS5 HS6 HS7 HA0 HA1 HA2 HA3 HA4 HA5 HA6 HA7 HB0 HB1 HB2 HB3 HB4 HB5 HB6 HB7 Hv00 Hv01 Hv02 Hv03 Hv04 Hv05 Hv06 Hv07 Hv10 Hv11 Hv12 Hv13 Hv14 Hv15 Hv16 Hv17 Hv20 Hv21 Hv22 Hv23 Hv24 Hv25 Hv26 Hv27 Hv30 Hv31 Hv32 Hv33 Hv34 Hv35 Hv36 Hv37]
  · isplitl [Hdyb Hacc HS0 HS1 HS2 HS3 HS4 HS5 HS6 HS7 HA0 HA1 HA2 HA3 HA4 HA5 HA6 HA7 HB0 HB1 HB2 HB3 HB4 HB5 HB6 HB7]
    · iapply (scratch_close (F := F) c)
      isplitl [Hdyb]; · iexists _; iexact Hdyb
      isplitl [Hacc]; · iexists _; iexact Hacc
      isplitl [HS0 HS1 HS2 HS3 HS4 HS5 HS6 HS7]
      ·
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [HA0 HA1 HA2 HA3 HA4 HA5 HA6 HA7]
      ·
        isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        iexact HA7
      isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      iexact HB7
    · rw [bigSep_jk]
      isplitl [Hv00 Hv01 Hv02 Hv03 Hv04 Hv05 Hv06 Hv07]
      ·
        isplitl [Hv00]; · iexact Hv00
        isplitl [Hv01]; · iexact Hv01
        isplitl [Hv02]; · iexact Hv02
        isplitl [Hv03]; · iexact Hv03
        isplitl [Hv04]; · iexact Hv04
        isplitl [Hv05]; · iexact Hv05
        isplitl [Hv06]; · iexact Hv06
        iexact Hv07
      isplitl [Hv10 Hv11 Hv12 Hv13 Hv14 Hv15 Hv16 Hv17]
      ·
        isplitl [Hv10]; · iexact Hv10
        isplitl [Hv11]; · iexact Hv11
        isplitl [Hv12]; · iexact Hv12
        isplitl [Hv13]; · iexact Hv13
        isplitl [Hv14]; · iexact Hv14
        isplitl [Hv15]; · iexact Hv15
        isplitl [Hv16]; · iexact Hv16
        iexact Hv17
      isplitl [Hv20 Hv21 Hv22 Hv23 Hv24 Hv25 Hv26 Hv27]
      ·
        isplitl [Hv20]; · iexact Hv20
        isplitl [Hv21]; · iexact Hv21
        isplitl [Hv22]; · iexact Hv22
        isplitl [Hv23]; · iexact Hv23
        isplitl [Hv24]; · iexact Hv24
        isplitl [Hv25]; · iexact Hv25
        isplitl [Hv26]; · iexact Hv26
        iexact Hv27
      isplitl [Hv30]; · iexact Hv30
      isplitl [Hv31]; · iexact Hv31
      isplitl [Hv32]; · iexact Hv32
      isplitl [Hv33]; · iexact Hv33
      isplitl [Hv34]; · iexact Hv34
      isplitl [Hv35]; · iexact Hv35
      isplitl [Hv36]; · iexact Hv36
      iexact Hv37
  isplitl [HO]
  · iexists _
    isplitr
    rotate_left
    · iexact HO
    · ipureintro; exact fun _ _ => Or.inl trivial
  isplitl [Hx]
  · ihave Hx := (Entails.of_eq (whole_eq cc0_stg0_0 c _)) $$ Hx
    iexists _; isplitr; · (ipureintro; rfl)
    iexact Hx
  isplitl [Hdy]
  · ihave Hdy := (Entails.of_eq (whole_eq cc0_stg1_0 c _)) $$ Hdy
    iexists _; isplitr; · (ipureintro; rfl)
    iexact Hdy
  -- the result block: the sixteen stores are the sixteen pieces, and they tile the block
  have hL : sound_body.sl.Hout_16 m ρ c = outPieces m ρ c := by
    sl_unfold_run_names
    rfl
  ihave Hout := (Entails.of_eq (whole_eq cc0_stg2_0 c _)) $$ Hout
  iexists _
  isplitr
  rotate_left
  · iexact Hout
  · ipureintro
    rw [hL]
    exact out_base m ρ c g2

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on device `c`: the invariant before the point opened at the names the launch chose. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8) (fun _ => bodyPost m ρ c)
  unfold bodyPre' Φ₀ start
  iintro ⟨⟨⟨⟨%K, Hg⟩, Hcr, Hlev⟩, Hscr⟩, Ho, Hx, Hdy, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hdy]; · iexact Hdy
    iexact Hout
  · iintro H; iexact H

end Cert.KernelProof

end
-- ==== Proof.RefFrame.lean ====
/-
  The reference on its one device: its program is a straight line of host operations, so it runs to the end from any
  memory and leaves its two argument arrays as they were.
-/
import proofs.«900592_g7700000000000593_dist_rsdw_v7x_xy2x2_x_m512_d512_f2048_bf16_1_alg».proof.Defs
import proofs.«900592_g7700000000000593_dist_rsdw_v7x_xy2x2_x_m512_d512_f2048_bf16_1_alg».proof.Proof.Gen.ReferenceIdeal
import proofs.«900592_g7700000000000593_dist_rsdw_v7x_xy2x2_x_m512_d512_f2048_bf16_1_alg».proof.Proof.Gen.ReferenceIdeal.Run
import proofs.«900592_g7700000000000593_dist_rsdw_v7x_xy2x2_x_m512_d512_f2048_bf16_1_alg».proof.Proof.Gen.ReferenceIdeal.Read

noncomputable section

namespace Cert.ReferenceProof

open Idealize.ShloMosaic Idealize.SL.Sem

/-- The reference terminates without a fault and its arguments end unchanged: its run with the result's value dropped. -/
theorem frame_ri [hReferenceIdeal : Cert.ReferenceIdeal.Facts] [hPre : Cert.Pre_finite_inputs_ReferenceIdeal.Facts] : Cert.frame_ReferenceIdeal := fun m ρ _ =>
  (θ_run Cert.ReferenceIdeal.defs _ _).mono (fun _ h c => (h c).2) (Cert.ReferenceIdeal.Value.run (F := Ideal) m ρ)

end Cert.ReferenceProof

end
-- ==== Proof.Value.Reference.lean ====
/-
  The reference's result, index by index. The reference transposes its first argument, contracts the transposed
  `[512, 1024]` array with the `[1024, 2048]` second argument along the 1024 rows, and narrows the product; at the
  ideal instance the narrowing is the identity, so the result at `(i, j)` is the sum over the 1024 rows `t` of
  `X (t, i) · DY (t, j)`.
-/
import Idealize.ShloMosaic.Lib.ValueIdx
import proofs.«900592_g7700000000000593_dist_rsdw_v7x_xy2x2_x_m512_d512_f2048_bf16_1_alg».proof.Proof.Gen.ReferenceIdeal.Run
import proofs.«900592_g7700000000000593_dist_rsdw_v7x_xy2x2_x_m512_d512_f2048_bf16_1_alg».proof.Proof.Gen.ReferenceIdeal.Read

noncomputable section

open scoped BigOperators

namespace Cert.KernelIdealValue

open Idealize.ShloMosaic Idealize.ShloMosaic.ValueIdx Cert.ReferenceIdeal Cert.ReferenceIdeal.Gen Idealize.ShloMosaic.TcCoe Idealize.SL.Sem Idealize.ShloMosaic.StableHlo

/-- The reference's result as one function of its two argument arrays: the entry at `(i, j)` is the product of
    column `i` of the first with column `j` of the second, summed over the 1024 rows. -/
def refG (X : (⟨S1024x512, .f32⟩ : BufTy).Contents (Elt Ideal)) (DY : (⟨S1024x2048, .f32⟩ : BufTy).Contents (Elt Ideal)) :
    (⟨S512x2048, .bf16⟩ : BufTy).Contents (Elt Ideal) :=
  fun idx => ∑ t : Fin 1024, X (ix2 t (idx 0)) * DY (ix2 t (idx 1))

/-- `refG` by coordinates. -/
theorem refG_apply (X : (⟨S1024x512, .f32⟩ : BufTy).Contents (Elt Ideal)) (DY : (⟨S1024x2048, .f32⟩ : BufTy).Contents (Elt Ideal))
    (i : Fin 512) (j : Fin 2048) :
    refG X DY (ix2 i j) = ∑ t : Fin 1024, X (ix2 t i) * DY (ix2 t j) := rfl

/-- The last stage of the reference, read through its three operations, is `refG`. -/
theorem val_main_v2_eq_refG (X : (⟨S1024x512, .f32⟩ : BufTy).Contents (Elt Ideal)) (DY : (⟨S1024x2048, .f32⟩ : BufTy).Contents (Elt Ideal)) :
    Read.val_main_v2 (F := Ideal) X DY = refG X DY := by
  funext i
  obtain ⟨p, q, rfl⟩ : ∃ (p : Fin 512) (q : Fin 2048), i = ix2 p q := ⟨i 0, i 1, eq_ix2 i⟩
  rw [Read.val_main_v2_apply]
  show Read.val_main_v1 (F := Ideal) X DY (ix2 p q) = _
  rw [Read.val_main_v1_apply, refG_apply]
  refine Finset.sum_congr rfl fun k _ => ?_
  rw [Read.val_main_v0_apply]
  have e0 : Read.idx_main_v0 (Read.lidx_main_v1 (ix2 p q) k) = ix2 k p :=
    funext fun a => Fin.ext (by match a with | ⟨0, _⟩ => rfl | ⟨1, _⟩ => rfl)
  have e1 : Read.ridx_main_v1 (ix2 p q) k = ix2 k q :=
    funext fun a => Fin.ext (by match a with | ⟨0, _⟩ => rfl | ⟨1, _⟩ => rfl)
  rw [e0, e1]

/-- The term the reference's run leaves in its result buffer is `refG` of the two argument arrays. -/
theorem refResult_eq_refG (X : (⟨S1024x512, .f32⟩ : BufTy).Contents (Elt Ideal)) (DY : (⟨S1024x2048, .f32⟩ : BufTy).Contents (Elt Ideal)) :
    truncf (F := Ideal) .bf16 (Host.dotGeneral (F := Ideal) (φ₁ := .f32) (φ₂ := .f32) dot_S512x1024_S1024x2048_S512x2048_1_0_0_1_n_n none
        (transpose S512x1024 [1, 0] X transposes_S1024x512_S512x1024_1_0) DY) bitsLt_bf16_f32
      = refG X DY :=
  (Read.val_main_v2_eq (F := Ideal) X DY).trans (val_main_v2_eq_refG X DY)

/-- The reference's run with its result named: every weakly fair execution ends with the result buffer holding
    `refG` of the two argument arrays, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
          = refG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refResult_eq_refG _ _), (h c).2⟩)
    (Cert.ReferenceIdeal.Value.run (F := Ideal) m ρ)

/-- info: 'Cert.KernelIdealValue.refResult_eq_refG' depends on axioms: [propext, Classical.choice, Quot.sound] -/
#guard_msgs in #print axioms refResult_eq_refG
/-- info: 'Cert.KernelIdealValue.ref_run' depends on axioms: [propext, Classical.choice, Quot.sound] -/
#guard_msgs in #print axioms ref_run

end Cert.KernelIdealValue

end
-- ==== Proof.Value.Payloads.lean ====
/-
  The body's pure payloads read at an index, at the ideal instance, where every float is an extended real, a change of
  float format is the identity and a matrix product into a zero accumulator is the plain sum of products.

  Five kinds of payload occur. A conversion of a loaded block to the narrow format (with shape casts to the same
  shape) reads the block itself. A product of two blocks that both contract their axis 0, `[512, R]` and `[512, C]`,
  reads at `(r, j)` the sum over the 512 rows `t` of `a (t, r) · b (t, j)`; the product is stored either under a leading
  unit axis (the eight column chunks of the half that is sent away) or as it is (the half that stays). The last kind
  adds a received chunk, stored under a leading unit axis, to the matching rectangle of the local product.

  The members of a kind are the same term under different names, so each kind is proved once, on its first member, and
  the other members are that lemma again.
-/
import Idealize.ShloMosaic.Lib.ValueIdx
import Idealize.ShloMosaic.Lib.ValueLayout
import Idealize.ShloMosaic.Lib.Pipeline.Value
import Idealize.ShloMosaic.PureOps.Ideal.Laws
import proofs.«900592_g7700000000000593_dist_rsdw_v7x_xy2x2_x_m512_d512_f2048_bf16_1_alg».proof.Proof.Gen.KernelIdeal.Skeleton

noncomputable section

open scoped BigOperators

namespace Cert.KernelIdealValue

open Idealize.ShloMosaic Idealize.ShloMosaic.ValueIdx Cert.KernelIdeal Cert.KernelIdeal.Gen

/-! ## Format changes of a loaded block -/

/-- The `[512, 128]` column block of the first argument, narrowed: the block itself. -/
theorem pay1_apply (v : Vec Ideal S512x128 .f32) (t : Fin 512) (r : Fin 128) :
    k0_pay1 (F := Ideal) v (ix2 t r) = v (ix2 t r) := by
  unfold k0_pay1
  show (shapeCast S512x128 v shapeCasts_S512x128_S512x128) (ix2 t r) = _
  rw [shapeCast_self]

/-- A `[512, 256]` column chunk of the second argument, narrowed: the chunk itself. -/
theorem pay2_apply (v : Vec Ideal S512x256 .f32) (t : Fin 512) (j : Fin 256) :
    k0_pay2 (F := Ideal) v (ix2 t j) = v (ix2 t j) := by
  unfold k0_pay2
  show (shapeCast S512x256 (fun i => (shapeCast S512x256 v shapeCasts_S512x256_S512x256) i)
    shapeCasts_S512x256_S512x256) (ix2 t j) = _
  rw [shapeCast_self, shapeCast_self]

theorem pay4_apply (v : Vec Ideal S512x256 .f32) (t : Fin 512) (j : Fin 256) :
    k0_pay4 (F := Ideal) v (ix2 t j) = v (ix2 t j) := pay2_apply v t j
theorem pay6_apply (v : Vec Ideal S512x256 .f32) (t : Fin 512) (j : Fin 256) :
    k0_pay6 (F := Ideal) v (ix2 t j) = v (ix2 t j) := pay2_apply v t j
theorem pay8_apply (v : Vec Ideal S512x256 .f32) (t : Fin 512) (j : Fin 256) :
    k0_pay8 (F := Ideal) v (ix2 t j) = v (ix2 t j) := pay2_apply v t j
theorem pay10_apply (v : Vec Ideal S512x256 .f32) (t : Fin 512) (j : Fin 256) :
    k0_pay10 (F := Ideal) v (ix2 t j) = v (ix2 t j) := pay2_apply v t j
theorem pay12_apply (v : Vec Ideal S512x256 .f32) (t : Fin 512) (j : Fin 256) :
    k0_pay12 (F := Ideal) v (ix2 t j) = v (ix2 t j) := pay2_apply v t j
theorem pay14_apply (v : Vec Ideal S512x256 .f32) (t : Fin 512) (j : Fin 256) :
    k0_pay14 (F := Ideal) v (ix2 t j) = v (ix2 t j) := pay2_apply v t j
theorem pay16_apply (v : Vec Ideal S512x256 .f32) (t : Fin 512) (j : Fin 256) :
    k0_pay16 (F := Ideal) v (ix2 t j) = v (ix2 t j) := pay2_apply v t j

/-! ## The product of a `[512, 128]` block and a `[512, 256]` chunk, both contracted along axis 0

  The operand indices of the contraction at output index `(r, j)` and contraction position `t` are `(t, r)` on the
  left and `(t, j)` on the right: axis 0 of each operand is the contracted one, axis 1 the kept one. -/

theorem lhsA_0 (i : S128x256.Idx) (q : dot_S512x128_S512x256_S128x256_0_0_1_1_n_n.contr.Idx) :
    (dot_S512x128_S512x256_S128x256_0_0_1_1_n_n.lhsIdx i q 0).val = (q ⟨0, by decide⟩).val :=
  dot_S512x128_S512x256_S128x256_0_0_1_1_n_n.lhsIdx_val_of_single rfl i q
theorem lhsA_1 (i : S128x256.Idx) (q : dot_S512x128_S512x256_S128x256_0_0_1_1_n_n.contr.Idx) :
    (dot_S512x128_S512x256_S128x256_0_0_1_1_n_n.lhsIdx i q 1).val = (i 0).val := by
  unfold DotDims.lhsIdx
  rw [dif_neg (show ¬(1 : Fin S512x128.rank) ∈ dot_S512x128_S512x256_S128x256_0_0_1_1_n_n.lhsBatch by decide), dif_pos (show (1 : Fin S512x128.rank) ∈ dot_S512x128_S512x256_S128x256_0_0_1_1_n_n.lhsNonContracting by decide)]
  rfl
theorem rhsA_0 (i : S128x256.Idx) (q : dot_S512x128_S512x256_S128x256_0_0_1_1_n_n.contr.Idx) :
    (dot_S512x128_S512x256_S128x256_0_0_1_1_n_n.rhsIdx i q 0).val = (q ⟨0, by decide⟩).val :=
  dot_S512x128_S512x256_S128x256_0_0_1_1_n_n.rhsIdx_val_of_single rfl i q
theorem rhsA_1 (i : S128x256.Idx) (q : dot_S512x128_S512x256_S128x256_0_0_1_1_n_n.contr.Idx) :
    (dot_S512x128_S512x256_S128x256_0_0_1_1_n_n.rhsIdx i q 1).val = (i 1).val := by
  unfold DotDims.rhsIdx
  rw [dif_neg (show ¬(1 : Fin S512x256.rank) ∈ dot_S512x128_S512x256_S128x256_0_0_1_1_n_n.rhsBatch by decide), dif_pos (show (1 : Fin S512x256.rank) ∈ dot_S512x128_S512x256_S128x256_0_0_1_1_n_n.rhsNonContracting by decide)]
  rfl

/-- The product into the zero accumulator, at `(r, j)`: the sum over the 512 contracted rows. -/
theorem matmulA_apply (a : FVec Ideal S512x128 .bf16) (b : FVec Ideal S512x256 .bf16) (r : Fin 128) (j : Fin 256) :
    matmul dot_S512x128_S512x256_S128x256_0_0_1_1_n_n none a b (constant (F := Ideal) S128x256 .f32 0x00000000#32) (ix2 r j)
      = ∑ t : Fin 512, a (ix2 t r) * b (ix2 t j) := by
  simp only [matmul]
  rw [Ideal.matmul_constant_zero_apply, ← Equiv.sum_comp (contrEquiv1 dot_S512x128_S512x256_S128x256_0_0_1_1_n_n 512 rfl rfl).symm]
  refine Finset.sum_congr rfl fun k _ => ?_
  have hk := contrEquiv1_symm_val dot_S512x128_S512x256_S128x256_0_0_1_1_n_n 512 rfl rfl k
  have el : dot_S512x128_S512x256_S128x256_0_0_1_1_n_n.lhsIdx (ix2 r j) ((contrEquiv1 dot_S512x128_S512x256_S128x256_0_0_1_1_n_n 512 rfl rfl).symm k) = ix2 k r := funext fun x => Fin.ext (by
    match x with
    | ⟨0, _⟩ => exact (lhsA_0 _ _).trans hk
    | ⟨1, _⟩ => exact lhsA_1 _ _)
  have er : dot_S512x128_S512x256_S128x256_0_0_1_1_n_n.rhsIdx (ix2 r j) ((contrEquiv1 dot_S512x128_S512x256_S128x256_0_0_1_1_n_n 512 rfl rfl).symm k) = ix2 k j := funext fun x => Fin.ext (by
    match x with
    | ⟨0, _⟩ => exact (rhsA_0 _ _).trans hk
    | ⟨1, _⟩ => exact rhsA_1 _ _)
  rw [el, er]

/-- A chunk of the half that is sent away: the product, narrowed and stored under a leading unit axis. -/
theorem pay3_apply (a : FVec Ideal S512x128 .bf16) (b : Vec Ideal S512x256 .bf16) (r : Fin 128) (j : Fin 256) :
    k0_pay3 (F := Ideal) a b (ix3 0 r j) = ∑ t : Fin 512, a (ix2 t r) * b (ix2 t j) := by
  unfold k0_pay3
  refine (shapeCast_ab_1ab_apply _ _ 0 r j).trans ?_
  exact matmulA_apply a b r j

theorem pay5_apply (a : FVec Ideal S512x128 .bf16) (b : Vec Ideal S512x256 .bf16) (r : Fin 128) (j : Fin 256) :
    k0_pay5 (F := Ideal) a b (ix3 0 r j) = ∑ t : Fin 512, a (ix2 t r) * b (ix2 t j) := pay3_apply a b r j
theorem pay7_apply (a : FVec Ideal S512x128 .bf16) (b : Vec Ideal S512x256 .bf16) (r : Fin 128) (j : Fin 256) :
    k0_pay7 (F := Ideal) a b (ix3 0 r j) = ∑ t : Fin 512, a (ix2 t r) * b (ix2 t j) := pay3_apply a b r j
theorem pay9_apply (a : FVec Ideal S512x128 .bf16) (b : Vec Ideal S512x256 .bf16) (r : Fin 128) (j : Fin 256) :
    k0_pay9 (F := Ideal) a b (ix3 0 r j) = ∑ t : Fin 512, a (ix2 t r) * b (ix2 t j) := pay3_apply a b r j
theorem pay11_apply (a : FVec Ideal S512x128 .bf16) (b : Vec Ideal S512x256 .bf16) (r : Fin 128) (j : Fin 256) :
    k0_pay11 (F := Ideal) a b (ix3 0 r j) = ∑ t : Fin 512, a (ix2 t r) * b (ix2 t j) := pay3_apply a b r j
theorem pay13_apply (a : FVec Ideal S512x128 .bf16) (b : Vec Ideal S512x256 .bf16) (r : Fin 128) (j : Fin 256) :
    k0_pay13 (F := Ideal) a b (ix3 0 r j) = ∑ t : Fin 512, a (ix2 t r) * b (ix2 t j) := pay3_apply a b r j
theorem pay15_apply (a : FVec Ideal S512x128 .bf16) (b : Vec Ideal S512x256 .bf16) (r : Fin 128) (j : Fin 256) :
    k0_pay15 (F := Ideal) a b (ix3 0 r j) = ∑ t : Fin 512, a (ix2 t r) * b (ix2 t j) := pay3_apply a b r j
theorem pay17_apply (a : FVec Ideal S512x128 .bf16) (b : Vec Ideal S512x256 .bf16) (r : Fin 128) (j : Fin 256) :
    k0_pay17 (F := Ideal) a b (ix3 0 r j) = ∑ t : Fin 512, a (ix2 t r) * b (ix2 t j) := pay3_apply a b r j

/-! ## The product of a `[512, 256]` block and the whole `[512, 2048]` block, both contracted along axis 0 -/

theorem lhsB_0 (i : S256x2048.Idx) (q : dot_S512x256_S512x2048_S256x2048_0_0_1_1_n_n.contr.Idx) :
    (dot_S512x256_S512x2048_S256x2048_0_0_1_1_n_n.lhsIdx i q 0).val = (q ⟨0, by decide⟩).val :=
  dot_S512x256_S512x2048_S256x2048_0_0_1_1_n_n.lhsIdx_val_of_single rfl i q
theorem lhsB_1 (i : S256x2048.Idx) (q : dot_S512x256_S512x2048_S256x2048_0_0_1_1_n_n.contr.Idx) :
    (dot_S512x256_S512x2048_S256x2048_0_0_1_1_n_n.lhsIdx i q 1).val = (i 0).val := by
  unfold DotDims.lhsIdx
  rw [dif_neg (show ¬(1 : Fin S512x256.rank) ∈ dot_S512x256_S512x2048_S256x2048_0_0_1_1_n_n.lhsBatch by decide), dif_pos (show (1 : Fin S512x256.rank) ∈ dot_S512x256_S512x2048_S256x2048_0_0_1_1_n_n.lhsNonContracting by decide)]
  rfl
theorem rhsB_0 (i : S256x2048.Idx) (q : dot_S512x256_S512x2048_S256x2048_0_0_1_1_n_n.contr.Idx) :
    (dot_S512x256_S512x2048_S256x2048_0_0_1_1_n_n.rhsIdx i q 0).val = (q ⟨0, by decide⟩).val :=
  dot_S512x256_S512x2048_S256x2048_0_0_1_1_n_n.rhsIdx_val_of_single rfl i q
theorem rhsB_1 (i : S256x2048.Idx) (q : dot_S512x256_S512x2048_S256x2048_0_0_1_1_n_n.contr.Idx) :
    (dot_S512x256_S512x2048_S256x2048_0_0_1_1_n_n.rhsIdx i q 1).val = (i 1).val := by
  unfold DotDims.rhsIdx
  rw [dif_neg (show ¬(1 : Fin S512x2048.rank) ∈ dot_S512x256_S512x2048_S256x2048_0_0_1_1_n_n.rhsBatch by decide), dif_pos (show (1 : Fin S512x2048.rank) ∈ dot_S512x256_S512x2048_S256x2048_0_0_1_1_n_n.rhsNonContracting by decide)]
  rfl

/-- The product into the zero accumulator, at `(r, j)`: the sum over the 512 contracted rows. -/
theorem matmulB_apply (a : FVec Ideal S512x256 .bf16) (b : FVec Ideal S512x2048 .bf16) (r : Fin 256) (j : Fin 2048) :
    matmul dot_S512x256_S512x2048_S256x2048_0_0_1_1_n_n none a b (constant (F := Ideal) S256x2048 .f32 0x00000000#32) (ix2 r j)
      = ∑ t : Fin 512, a (ix2 t r) * b (ix2 t j) := by
  simp only [matmul]
  rw [Ideal.matmul_constant_zero_apply, ← Equiv.sum_comp (contrEquiv1 dot_S512x256_S512x2048_S256x2048_0_0_1_1_n_n 512 rfl rfl).symm]
  refine Finset.sum_congr rfl fun k _ => ?_
  have hk := contrEquiv1_symm_val dot_S512x256_S512x2048_S256x2048_0_0_1_1_n_n 512 rfl rfl k
  have el : dot_S512x256_S512x2048_S256x2048_0_0_1_1_n_n.lhsIdx (ix2 r j) ((contrEquiv1 dot_S512x256_S512x2048_S256x2048_0_0_1_1_n_n 512 rfl rfl).symm k) = ix2 k r := funext fun x => Fin.ext (by
    match x with
    | ⟨0, _⟩ => exact (lhsB_0 _ _).trans hk
    | ⟨1, _⟩ => exact lhsB_1 _ _)
  have er : dot_S512x256_S512x2048_S256x2048_0_0_1_1_n_n.rhsIdx (ix2 r j) ((contrEquiv1 dot_S512x256_S512x2048_S256x2048_0_0_1_1_n_n 512 rfl rfl).symm k) = ix2 k j := funext fun x => Fin.ext (by
    match x with
    | ⟨0, _⟩ => exact (rhsB_0 _ _).trans hk
    | ⟨1, _⟩ => exact rhsB_1 _ _)
  rw [el, er]

/-- The half that stays: the `[512, 256]` column block of the first argument, narrowed, times the whole narrowed
    second block. -/
theorem pay18_apply (a : Vec Ideal S512x256 .f32) (b : Vec Ideal S512x2048 .bf16) (r : Fin 256) (j : Fin 2048) :
    k0_pay18 (F := Ideal) a b (ix2 r j) = ∑ t : Fin 512, a (ix2 t r) * b (ix2 t j) := by
  unfold k0_pay18
  refine (congrFun (shapeCast_self _ shapeCasts_S256x2048_S256x2048) (ix2 r j)).trans ?_
  refine (matmulB_apply _ b r j).trans ?_
  refine Finset.sum_congr rfl fun t _ => ?_
  exact congrArg (· * b (ix2 t j)) (congrFun (shapeCast_self a shapeCasts_S512x256_S512x256) (ix2 t r))

/-! ## A received chunk added to a rectangle of the local product -/

/-- The rectangle of the local product plus the received chunk, which is stored under a leading unit axis. -/
theorem pay19_apply (a : Vec Ideal S128x256 .f32) (b : Vec Ideal S1x128x256 .bf16) (r : Fin 128) (j : Fin 256) :
    k0_pay19 (F := Ideal) a b (ix2 r j) = a (ix2 r j) + b (ix3 0 r j) := by
  unfold k0_pay19
  show (show EReal from a (ix2 r j)) + (shapeCast S128x256 b shapeCasts_S1x128x256_S128x256) (ix2 r j) = _
  rw [shapeCast_1ab_ab_apply]

theorem pay20_apply (a : Vec Ideal S128x256 .f32) (b : Vec Ideal S1x128x256 .bf16) (r : Fin 128) (j : Fin 256) :
    k0_pay20 (F := Ideal) a b (ix2 r j) = a (ix2 r j) + b (ix3 0 r j) := pay19_apply a b r j
theorem pay21_apply (a : Vec Ideal S128x256 .f32) (b : Vec Ideal S1x128x256 .bf16) (r : Fin 128) (j : Fin 256) :
    k0_pay21 (F := Ideal) a b (ix2 r j) = a (ix2 r j) + b (ix3 0 r j) := pay19_apply a b r j
theorem pay22_apply (a : Vec Ideal S128x256 .f32) (b : Vec Ideal S1x128x256 .bf16) (r : Fin 128) (j : Fin 256) :
    k0_pay22 (F := Ideal) a b (ix2 r j) = a (ix2 r j) + b (ix3 0 r j) := pay19_apply a b r j
theorem pay23_apply (a : Vec Ideal S128x256 .f32) (b : Vec Ideal S1x128x256 .bf16) (r : Fin 128) (j : Fin 256) :
    k0_pay23 (F := Ideal) a b (ix2 r j) = a (ix2 r j) + b (ix3 0 r j) := pay19_apply a b r j
theorem pay24_apply (a : Vec Ideal S128x256 .f32) (b : Vec Ideal S1x128x256 .bf16) (r : Fin 128) (j : Fin 256) :
    k0_pay24 (F := Ideal) a b (ix2 r j) = a (ix2 r j) + b (ix3 0 r j) := pay19_apply a b r j
theorem pay25_apply (a : Vec Ideal S128x256 .f32) (b : Vec Ideal S1x128x256 .bf16) (r : Fin 128) (j : Fin 256) :
    k0_pay25 (F := Ideal) a b (ix2 r j) = a (ix2 r j) + b (ix3 0 r j) := pay19_apply a b r j
theorem pay26_apply (a : Vec Ideal S128x256 .f32) (b : Vec Ideal S1x128x256 .bf16) (r : Fin 128) (j : Fin 256) :
    k0_pay26 (F := Ideal) a b (ix2 r j) = a (ix2 r j) + b (ix3 0 r j) := pay19_apply a b r j
theorem pay27_apply (a : Vec Ideal S128x256 .f32) (b : Vec Ideal S1x128x256 .bf16) (r : Fin 128) (j : Fin 256) :
    k0_pay27 (F := Ideal) a b (ix2 r j) = a (ix2 r j) + b (ix3 0 r j) := pay19_apply a b r j
theorem pay28_apply (a : Vec Ideal S128x256 .f32) (b : Vec Ideal S1x128x256 .bf16) (r : Fin 128) (j : Fin 256) :
    k0_pay28 (F := Ideal) a b (ix2 r j) = a (ix2 r j) + b (ix3 0 r j) := pay19_apply a b r j
theorem pay29_apply (a : Vec Ideal S128x256 .f32) (b : Vec Ideal S1x128x256 .bf16) (r : Fin 128) (j : Fin 256) :
    k0_pay29 (F := Ideal) a b (ix2 r j) = a (ix2 r j) + b (ix3 0 r j) := pay19_apply a b r j
theorem pay30_apply (a : Vec Ideal S128x256 .f32) (b : Vec Ideal S1x128x256 .bf16) (r : Fin 128) (j : Fin 256) :
    k0_pay30 (F := Ideal) a b (ix2 r j) = a (ix2 r j) + b (ix3 0 r j) := pay19_apply a b r j
theorem pay31_apply (a : Vec Ideal S128x256 .f32) (b : Vec Ideal S1x128x256 .bf16) (r : Fin 128) (j : Fin 256) :
    k0_pay31 (F := Ideal) a b (ix2 r j) = a (ix2 r j) + b (ix3 0 r j) := pay19_apply a b r j
theorem pay32_apply (a : Vec Ideal S128x256 .f32) (b : Vec Ideal S1x128x256 .bf16) (r : Fin 128) (j : Fin 256) :
    k0_pay32 (F := Ideal) a b (ix2 r j) = a (ix2 r j) + b (ix3 0 r j) := pay19_apply a b r j
theorem pay33_apply (a : Vec Ideal S128x256 .f32) (b : Vec Ideal S1x128x256 .bf16) (r : Fin 128) (j : Fin 256) :
    k0_pay33 (F := Ideal) a b (ix2 r j) = a (ix2 r j) + b (ix3 0 r j) := pay19_apply a b r j
theorem pay34_apply (a : Vec Ideal S128x256 .f32) (b : Vec Ideal S1x128x256 .bf16) (r : Fin 128) (j : Fin 256) :
    k0_pay34 (F := Ideal) a b (ix2 r j) = a (ix2 r j) + b (ix3 0 r j) := pay19_apply a b r j

/-- info: 'Cert.KernelIdealValue.pay1_apply' depends on axioms: [propext, Classical.choice, Quot.sound] -/
#guard_msgs in #print axioms pay1_apply
/-- info: 'Cert.KernelIdealValue.pay16_apply' depends on axioms: [propext, Classical.choice, Quot.sound] -/
#guard_msgs in #print axioms pay16_apply
/-- info: 'Cert.KernelIdealValue.pay17_apply' depends on axioms: [propext, Classical.choice, Quot.sound] -/
#guard_msgs in #print axioms pay17_apply
/-- info: 'Cert.KernelIdealValue.pay18_apply' depends on axioms: [propext, Classical.choice, Quot.sound] -/
#guard_msgs in #print axioms pay18_apply
/-- info: 'Cert.KernelIdealValue.pay34_apply' depends on axioms: [propext, Classical.choice, Quot.sound] -/
#guard_msgs in #print axioms pay34_apply

end Cert.KernelIdealValue

end
-- ==== Proof.Value.Split.lean ====
/-
  A sum over the 1024 rows of the contraction, cut at row 512 into the sum over the first 512 rows and the sum over
  the last 512. The extended reals are a commutative additive monoid, so the cut needs no finiteness, and the two
  halves may be added in either order.
-/
import Mathlib.Algebra.BigOperators.Fin
import Mathlib.Data.EReal.Basic

open scoped BigOperators

namespace Cert.KernelIdealValue

/-- The sum over `Fin 1024` is the sum over the rows below 512 plus the sum over the rows from 512 on. -/
theorem sum_split (f : Fin 1024 → EReal) :
    ∑ t : Fin 1024, f t
      = (∑ t : Fin 512, f ⟨t.val, by omega⟩) + (∑ t : Fin 512, f ⟨512 + t.val, by omega⟩) :=
  Fin.sum_univ_add (a := 512) (b := 512) f

/-- The same cut with the upper half first. -/
theorem sum_split_comm (f : Fin 1024 → EReal) :
    ∑ t : Fin 1024, f t
      = (∑ t : Fin 512, f ⟨512 + t.val, by omega⟩) + (∑ t : Fin 512, f ⟨t.val, by omega⟩) := by
  rw [sum_split f, add_comm]

/-- info: 'Cert.KernelIdealValue.sum_split' depends on axioms: [propext, Classical.choice, Quot.sound] -/
#guard_msgs in #print axioms sum_split
/-- info: 'Cert.KernelIdealValue.sum_split_comm' depends on axioms: [propext, Classical.choice, Quot.sound] -/
#guard_msgs in #print axioms sum_split_comm

end Cert.KernelIdealValue
-- ==== Proof.Value.Blocks.lean ====
/-
  The three block relations of the claim, read at an index. The 2 × 2 mesh numbers device `c` at mesh row `c / 2`;
  every array of the claim is cut along its rows (dimension 0) by the mesh's row axis and not cut along its columns, so
  device `c`'s block of an array of `2 · R` rows holds rows `R · (c / 2) + t`, `t < R`, at every column.
-/
import Idealize.ShloMosaic.Lib.Layout
import Idealize.ShloMosaic.Lib.ValueIdx
import proofs.«900592_g7700000000000593_dist_rsdw_v7x_xy2x2_x_m512_d512_f2048_bf16_1_alg».proof.Defs

namespace Cert.KernelIdealValue

open Idealize.ShloMosaic Idealize.ShloMosaic.ValueIdx

variable {α : Type}

/-- Device `c`'s block of the first argument (1024 × 512 cut into two blocks of 512 rows): row `t` of the block is
    row `512 · (c / 2) + t` of the whole array, at the same column. -/
theorem block_arg0_apply (c : Dev 4) (X : (⟨2, ![1024, 512]⟩ : Shape).Idx → α) (t : Fin 512) (i : Fin 512) :
    (Layout.blockN ⟨2, ![512, 512]⟩ ⟨2, ![1024, 512]⟩ (Layout.meshBlock [2, 2] ![[0], []] c) X) (ix2 t i)
      = X (ix2 (⟨512 * (c.val / 2) + t.val, by have := c.isLt; omega⟩ : Fin 1024) i) := by
  rw [Layout.blockN_apply]
  congr 1
  funext a
  match a with
  | ⟨0, _⟩ =>
    exact Fin.ext (by
      fin_cases c <;>
        (show _ * 512 + t.val = _; simp [Layout.meshLin, Layout.meshCoord, Layout.cutSize]))
  | ⟨1, _⟩ =>
    exact Fin.ext (by
      fin_cases c <;>
        (show _ * 512 + i.val = _; simp [Layout.meshLin, Layout.meshCoord, Layout.cutSize]))

/-- Device `c`'s block of the second argument (1024 × 2048 cut into two blocks of 512 rows): row `t` of the block is
    row `512 · (c / 2) + t` of the whole array, at the same column. -/
theorem block_arg1_apply (c : Dev 4) (DY : (⟨2, ![1024, 2048]⟩ : Shape).Idx → α) (t : Fin 512) (j : Fin 2048) :
    (Layout.blockN ⟨2, ![512, 2048]⟩ ⟨2, ![1024, 2048]⟩ (Layout.meshBlock [2, 2] ![[0], []] c) DY) (ix2 t j)
      = DY (ix2 (⟨512 * (c.val / 2) + t.val, by have := c.isLt; omega⟩ : Fin 1024) j) := by
  rw [Layout.blockN_apply]
  congr 1
  funext a
  match a with
  | ⟨0, _⟩ =>
    exact Fin.ext (by
      fin_cases c <;>
        (show _ * 512 + t.val = _; simp [Layout.meshLin, Layout.meshCoord, Layout.cutSize]))
  | ⟨1, _⟩ =>
    exact Fin.ext (by
      fin_cases c <;>
        (show _ * 2048 + j.val = _; simp [Layout.meshLin, Layout.meshCoord, Layout.cutSize]))

/-- Device `c`'s block of the result (512 × 2048 cut into two blocks of 256 rows): row `r` of the block is row
    `256 · (c / 2) + r` of the whole array, at the same column. -/
theorem block_result_apply (c : Dev 4) (V : (⟨2, ![512, 2048]⟩ : Shape).Idx → α) (r : Fin 256) (j : Fin 2048) :
    (Layout.blockN ⟨2, ![256, 2048]⟩ ⟨2, ![512, 2048]⟩ (Layout.meshBlock [2, 2] ![[0], []] c) V) (ix2 r j)
      = V (ix2 (⟨256 * (c.val / 2) + r.val, by have := c.isLt; omega⟩ : Fin 512) j) := by
  rw [Layout.blockN_apply]
  congr 1
  funext a
  match a with
  | ⟨0, _⟩ =>
    exact Fin.ext (by
      fin_cases c <;>
        (show _ * 256 + r.val = _; simp [Layout.meshLin, Layout.meshCoord, Layout.cutSize]))
  | ⟨1, _⟩ =>
    exact Fin.ext (by
      fin_cases c <;>
        (show _ * 2048 + j.val = _; simp [Layout.meshLin, Layout.meshCoord, Layout.cutSize]))

/-- info: 'Cert.KernelIdealValue.block_arg0_apply' depends on axioms: [propext, Classical.choice, Quot.sound] -/
#guard_msgs in #print axioms block_arg0_apply
/-- info: 'Cert.KernelIdealValue.block_arg1_apply' depends on axioms: [propext, Classical.choice, Quot.sound] -/
#guard_msgs in #print axioms block_arg1_apply
/-- info: 'Cert.KernelIdealValue.block_result_apply' depends on axioms: [propext, Classical.choice, Quot.sound] -/
#guard_msgs in #print axioms block_result_apply

end Cert.KernelIdealValue
-- ==== Proof.Value.Halves.lean ====
/-
  The arithmetic core of the comparison. Device `c` sits in mesh row `c / 2` and must end with rows
  `256 · (c / 2) + ρ`, `ρ < 256`, of the reference's result. The entry of the reference at such a row and a column `j`
  is a sum over all 1024 rows `t` of the two arguments; cut at row 512, it is the sum over the rows device `c`
  itself holds plus the sum over the rows held by the devices of the other mesh row, and both halves are sums over a
  device's own blocks of the arguments.
-/
import proofs.«900592_g7700000000000593_dist_rsdw_v7x_xy2x2_x_m512_d512_f2048_bf16_1_alg».proof.Proof.Value.Split
import proofs.«900592_g7700000000000593_dist_rsdw_v7x_xy2x2_x_m512_d512_f2048_bf16_1_alg».proof.Proof.Value.Blocks
import proofs.«900592_g7700000000000593_dist_rsdw_v7x_xy2x2_x_m512_d512_f2048_bf16_1_alg».proof.Proof.Value.Reference

noncomputable section

open scoped BigOperators

namespace Cert.KernelIdealValue

open Idealize.ShloMosaic Idealize.ShloMosaic.ValueIdx

/-- Device `c`'s block of the first argument. -/
abbrev xBlk (X : (⟨2, ![1024, 512]⟩ : Shape).Idx → EReal) (c : Dev 4) : (⟨2, ![512, 512]⟩ : Shape).Idx → EReal :=
  Layout.blockN ⟨2, ![512, 512]⟩ ⟨2, ![1024, 512]⟩ (Layout.meshBlock [2, 2] ![[0], []] c) X

/-- Device `c`'s block of the second argument. -/
abbrev dyBlk (DY : (⟨2, ![1024, 2048]⟩ : Shape).Idx → EReal) (c : Dev 4) : (⟨2, ![512, 2048]⟩ : Shape).Idx → EReal :=
  Layout.blockN ⟨2, ![512, 2048]⟩ ⟨2, ![1024, 2048]⟩ (Layout.meshBlock [2, 2] ![[0], []] c) DY

/-- Row `ρ` of device `c`'s block of the reference's result, at column `j`: the sum over device `c`'s own blocks plus
    the sum over the blocks of any device `c'` of the other mesh row, both at column `256 · (c / 2) + ρ` of the first
    argument's block. -/
theorem result_block_halves (X : (⟨2, ![1024, 512]⟩ : Shape).Idx → EReal) (DY : (⟨2, ![1024, 2048]⟩ : Shape).Idx → EReal)
    (c c' : Dev 4) (hc : c'.val / 2 = 1 - c.val / 2) (ρ : Fin 256) (j : Fin 2048) :
    (Layout.blockN ⟨2, ![256, 2048]⟩ ⟨2, ![512, 2048]⟩ (Layout.meshBlock [2, 2] ![[0], []] c) (refG X DY)) (ix2 ρ j)
      = (∑ t : Fin 512, xBlk X c (ix2 t (⟨256 * (c.val / 2) + ρ.val, by have := c.isLt; omega⟩ : Fin 512)) * dyBlk DY c (ix2 t j))
        + (∑ t : Fin 512, xBlk X c' (ix2 t (⟨256 * (c.val / 2) + ρ.val, by have := c.isLt; omega⟩ : Fin 512)) * dyBlk DY c' (ix2 t j)) := by
  have hlt := c.isLt
  have hlt' := c'.isLt
  rw [block_result_apply, refG_apply]
  simp only [xBlk, dyBlk, block_arg0_apply, block_arg1_apply]
  rcases (show c.val / 2 = 0 ∨ c.val / 2 = 1 by omega) with h | h
  · have h' : c'.val / 2 = 1 := by omega
    rw [sum_split]
    congr 1
    · refine Finset.sum_congr rfl fun t _ => ?_
      have e : (⟨t.val, by omega⟩ : Fin 1024) = ⟨512 * (c.val / 2) + t.val, by omega⟩ := Fin.ext (by show t.val = 512 * (c.val / 2) + t.val; omega)
      rw [e]
    · refine Finset.sum_congr rfl fun t _ => ?_
      have e : (⟨512 + t.val, by omega⟩ : Fin 1024) = ⟨512 * (c'.val / 2) + t.val, by omega⟩ := Fin.ext (by show 512 + t.val = 512 * (c'.val / 2) + t.val; omega)
      rw [e]
  · have h' : c'.val / 2 = 0 := by omega
    rw [sum_split_comm]
    congr 1
    · refine Finset.sum_congr rfl fun t _ => ?_
      have e : (⟨512 + t.val, by omega⟩ : Fin 1024) = ⟨512 * (c.val / 2) + t.val, by omega⟩ := Fin.ext (by show 512 + t.val = 512 * (c.val / 2) + t.val; omega)
      rw [e]
    · refine Finset.sum_congr rfl fun t _ => ?_
      have e : (⟨t.val, by omega⟩ : Fin 1024) = ⟨512 * (c'.val / 2) + t.val, by omega⟩ := Fin.ext (by show t.val = 512 * (c'.val / 2) + t.val; omega)
      rw [e]

/-- info: 'Cert.KernelIdealValue.result_block_halves' depends on axioms: [propext, Classical.choice, Quot.sound] -/
#guard_msgs in #print axioms result_block_halves

end Cert.KernelIdealValue

end
-- ==== Proof.Value.Join.lean ====
/-
  Device `c`'s result block is its block of the reference's result.

  The body leaves the result block as sixteen boxes of 128 × 256: per column chunk `k`, the 128 rows of the device's own
  column block, then the other 128 rows. A box holds the matching rectangle of the local product — the contraction over the
  device's own 512 rows of its blocks, at result rows `256 (c / 2) + ρ` — plus a received chunk: send chunk `k` of the
  row-neighbour for the first kind of box, of the row-neighbour of the column-neighbour for the second. Both senders sit
  in the other mesh row, so their blocks are the other 512 rows of the two arguments, and each works on exactly the
  result rows the box holds: the box is the own half of the 1024-term sum plus the other half, which is the reference's
  entry. Every index of the block lies in a box, so the sixteen stores leave the reference's block whatever the buffer
  held before.
-/
import proofs.«900592_g7700000000000593_dist_rsdw_v7x_xy2x2_x_m512_d512_f2048_bf16_1_alg».proof.Proof.Data
import proofs.«900592_g7700000000000593_dist_rsdw_v7x_xy2x2_x_m512_d512_f2048_bf16_1_alg».proof.Proof.OutCover
import proofs.«900592_g7700000000000593_dist_rsdw_v7x_xy2x2_x_m512_d512_f2048_bf16_1_alg».proof.Proof.Value.Payloads
import proofs.«900592_g7700000000000593_dist_rsdw_v7x_xy2x2_x_m512_d512_f2048_bf16_1_alg».proof.Proof.Value.Halves
import Idealize.ShloMosaic.Lib.Writes

noncomputable section

open scoped BigOperators

namespace Cert.KernelIdealValue

open Idealize.ShloMosaic Idealize.ShloMosaic.ValueIdx Idealize.ShloMosaic.TcCoe
open Cert.KernelIdeal Cert.KernelIdeal.Gen Cert.KernelIdealProof

variable (m : (ℓ : Loc nD τ sig) → Buf (Elt Ideal) ℓ) (ρ : Dev nD → PrngReg)

/-- The staged blocks are the argument buffers' contents. -/
theorem xstg_eq (c : Dev nD) : xstg (F := Ideal) m ρ c = m ((c : Thread nD τ).loc main_arg0) :=
  Memref.read_access_unit_zero (Elt Ideal) main_arg0 (funext fun a => Nat.zero_mul _) _ _

theorem dystg_eq (c : Dev nD) : dystg (F := Ideal) m ρ c = m ((c : Thread nD τ).loc main_arg1) :=
  Memref.read_access_unit_zero (Elt Ideal) main_arg1 (funext fun a => Nat.zero_mul _) _ _

/-- The half-contraction: the sum over a device's 512 rows of a column of its first block times a column of its second. -/
def halfSum (f : S512x512.Idx → EReal) (g : S512x2048.Idx → EReal) (i : Fin 512) (col : Fin 2048) : EReal :=
  ∑ t : Fin 512, f (ix2 t i) * g (ix2 t col)

theorem halfSum_congr (f : S512x512.Idx → EReal) (g : S512x2048.Idx → EReal) {i i' : Fin 512} {col col' : Fin 2048}
    (hi : i.val = i'.val) (hc : col.val = col'.val) : halfSum f g i col = halfSum f g i' col' := by
  obtain rfl := Fin.ext hi; obtain rfl := Fin.ext hc; rfl

/-- Device `c`'s two argument buffers as extended-real arrays. -/
abbrev mX (c : Dev nD) : S512x512.Idx → EReal := m ((c : Thread nD τ).loc main_arg0)
abbrev mDY (c : Dev nD) : S512x2048.Idx → EReal := m ((c : Thread nD τ).loc main_arg1)

theorem xsV_apply (c : Dev nD) (t : Fin 512) (r : Fin 128) (i : Fin 512)
    (hi : i.val = 128 * (c.val % 2) + 256 - 256 * (c.val / 2) + r.val) :
    xsV (F := Ideal) m ρ c (ix2 t r) = mX m c (ix2 t i) := by
  unfold xsV
  refine (pay1_apply _ t r).trans ?_
  show xstg (F := Ideal) m ρ c ((Rect.unit (s := S512x512) (k0_off1 c) S512x128.size (k0_off1_inb c)).toLoadRect.idx (ix2 t r)) = _
  rw [xstg_eq]
  refine congrArg (m ((c : Thread nD τ).loc main_arg0)) (Shape.idx_ext₂ ?_ ?_)
  · show k0_off1 c 0 + 1 * t.val = t.val
    rw [k0_off1_eq]; simp
  · show k0_off1 c 1 + 1 * r.val = i.val
    rw [k0_off1_eq, hi]; simp

/-- Column chunk `k` of the second block, narrowed, at `(t, j)`: the block at column `256 k + j`. -/
theorem dyChunk_apply (c : Dev nD) (k : Fin 8) (t : Fin 512) (j : Fin 256) (col : Fin 2048)
    (hcol : col.val = 256 * k.val + j.val) :
    dyChunk (F := Ideal) m ρ c k (ix2 t j) = mDY m c (ix2 t col) := by
  have key : ∀ (off1 : Nat) (inb : ∀ a, (![0, off1] : Fin 2 → Nat) a + S512x256.size a ≤ S512x2048.size a), off1 = 256 * k.val →
      dystg (F := Ideal) m ρ c ((Rect.unit (s := S512x2048) ![0, off1] S512x256.size inb).toLoadRect.idx (ix2 t j)) = mDY m c (ix2 t col) := by
    intro off1 inb ho
    rw [dystg_eq]
    refine congrArg (m ((c : Thread nD τ).loc main_arg1)) (Shape.idx_ext₂ ?_ ?_)
    · show 0 + 1 * t.val = t.val
      omega
    · show off1 + 1 * j.val = col.val
      omega
  fin_cases k
  · exact (pay2_apply _ t j).trans (key 0 _ rfl)
  · exact (pay4_apply _ t j).trans (key 256 _ rfl)
  · exact (pay6_apply _ t j).trans (key 512 _ rfl)
  · exact (pay8_apply _ t j).trans (key 768 _ rfl)
  · exact (pay10_apply _ t j).trans (key 1024 _ rfl)
  · exact (pay12_apply _ t j).trans (key 1280 _ rfl)
  · exact (pay14_apply _ t j).trans (key 1536 _ rfl)
  · exact (pay16_apply _ t j).trans (key 1792 _ rfl)

/-- Send chunk `k` of device `c` at `(r, j)`: the half-contraction of its blocks at the column `c` works on for its
    row-neighbour and at column `256 k + j`. -/
theorem sendW_apply (c : Dev nD) (k : Fin 8) (r : Fin 128) (j : Fin 256) (i : Fin 512) (col : Fin 2048)
    (hi : i.val = 128 * (c.val % 2) + 256 - 256 * (c.val / 2) + r.val) (hcol : col.val = 256 * k.val + j.val) :
    sendW (F := Ideal) m ρ c k (ix3 0 r j) = halfSum (mX m c) (mDY m c) i col := by
  have key : (∑ t : Fin 512, xsV (F := Ideal) m ρ c (ix2 t r) * dyChunk (F := Ideal) m ρ c k (ix2 t j)) = halfSum (mX m c) (mDY m c) i col :=
    Finset.sum_congr rfl fun t _ => by rw [xsV_apply m ρ c t r i hi, dyChunk_apply m ρ c k t j col hcol]
  fin_cases k
  · exact (pay3_apply _ _ r j).trans key
  · exact (pay5_apply _ _ r j).trans key
  · exact (pay7_apply _ _ r j).trans key
  · exact (pay9_apply _ _ r j).trans key
  · exact (pay11_apply _ _ r j).trans key
  · exact (pay13_apply _ _ r j).trans key
  · exact (pay15_apply _ _ r j).trans key
  · exact (pay17_apply _ _ r j).trans key

/-! ## Lists of stores that all agree with one function -/

/-- The piece's payload is the function `G` of the buffer's index, restricted to the piece's rectangle. -/
abbrev Agrees {s : Shape} {e : EltTy} (G : s.Idx → Elt Ideal e) (p : View.Piece (Elt Ideal) s e) : Prop :=
  ∀ x : p.1.shape.Idx, p.2 x = G (p.1.emb x)

theorem agrees_mk {s : Shape} {e : EltTy} (G : s.Idx → Elt Ideal e) (R : Rect s) (w : R.shape.Idx → Elt Ideal e)
    (h : ∀ x : R.shape.Idx, w x = G (R.emb x)) : Agrees G ⟨R, w⟩ := h

theorem agree_nil {s : Shape} {e : EltTy} (G : s.Idx → Elt Ideal e) :
    ∀ q ∈ ([] : List (View.Piece (Elt Ideal) s e)), Agrees G q :=
  fun _ hq => absurd hq List.not_mem_nil

theorem agree_cons {s : Shape} {e : EltTy} {G : s.Idx → Elt Ideal e} {p : View.Piece (Elt Ideal) s e}
    {L : List (View.Piece (Elt Ideal) s e)} (hp : Agrees G p) (hL : ∀ q ∈ L, Agrees G q) : ∀ q ∈ p :: L, Agrees G q := by
  intro q hq
  rcases List.mem_cons.mp hq with rfl | h
  · exact hp
  · exact hL q h

/-! ## The narrowed second block, read back whole after its eight chunk stores -/

/-- Device `c`'s second block at the narrow format. -/
def dyG (c : Dev nD) : S512x2048.Idx → Elt Ideal .bf16 := fun y => m ((c : Thread nD τ).loc main_arg1) y

theorem chunk_agree (c : Dev nD) (o : Nat) (inb : ∀ a, (![0, o] : Fin 2 → Nat) a + S512x256.size a ≤ S512x2048.size a)
    (w : (Rect.unit (s := S512x2048) ![0, o] S512x256.size inb).shape.Idx → Elt Ideal .bf16)
    (hw : ∀ (t : Fin 512) (j : Fin 256), w (ix2 t j)
      = dystg (F := Ideal) m ρ c ((Rect.unit (s := S512x2048) ![0, o] S512x256.size inb).toLoadRect.idx (ix2 t j))) :
    ∀ x : (Rect.unit (s := S512x2048) ![0, o] S512x256.size inb).shape.Idx,
      w x = dyG m c ((Rect.unit (s := S512x2048) ![0, o] S512x256.size inb).emb x) := by
  intro x
  obtain ⟨t, j, rfl⟩ : ∃ (t : Fin 512) (j : Fin 256), x = ix2 t j := ⟨x 0, x 1, eq_ix2 x⟩
  rw [hw]
  exact congrFun (dystg_eq m ρ c) _

theorem dyPieces_agree (c : Dev nD) : ∀ p ∈ dyPieces (F := Ideal) m ρ c, Agrees (dyG m c) p :=
  agree_cons (agrees_mk _ _ _ (chunk_agree m ρ c 1792 inb_S512x2048_S512x256_0_1792 (dyChunk (F := Ideal) m ρ c 7) fun t j => pay16_apply _ t j))
  (agree_cons (agrees_mk _ _ _ (chunk_agree m ρ c 1536 inb_S512x2048_S512x256_0_1536 (dyChunk (F := Ideal) m ρ c 6) fun t j => pay14_apply _ t j))
  (agree_cons (agrees_mk _ _ _ (chunk_agree m ρ c 1280 inb_S512x2048_S512x256_0_1280 (dyChunk (F := Ideal) m ρ c 5) fun t j => pay12_apply _ t j))
  (agree_cons (agrees_mk _ _ _ (chunk_agree m ρ c 1024 inb_S512x2048_S512x256_0_1024 (dyChunk (F := Ideal) m ρ c 4) fun t j => pay10_apply _ t j))
  (agree_cons (agrees_mk _ _ _ (chunk_agree m ρ c 768 inb_S512x2048_S512x256_0_768 (dyChunk (F := Ideal) m ρ c 3) fun t j => pay8_apply _ t j))
  (agree_cons (agrees_mk _ _ _ (chunk_agree m ρ c 512 inb_S512x2048_S512x256_0_512 (dyChunk (F := Ideal) m ρ c 2) fun t j => pay6_apply _ t j))
  (agree_cons (agrees_mk _ _ _ (chunk_agree m ρ c 256 inb_S512x2048_S512x256_0_256 (dyChunk (F := Ideal) m ρ c 1) fun t j => pay4_apply _ t j))
  (agree_cons (agrees_mk _ _ _ (chunk_agree m ρ c 0 inb_S512x2048_S512x256_0_0 (dyChunk (F := Ideal) m ρ c 0) fun t j => pay2_apply _ t j))
  (agree_nil _))))))))

theorem dyPieces_cover (c : Dev nD) (t : Fin 512) (col : Fin 2048) :
    ∃ p ∈ dyPieces (F := Ideal) m ρ c, (ix2 t col : S512x2048.Idx) ∈ p.1.set := by
  have ht := t.isLt
  have hcol := col.isLt
  have mem : ∀ (o : Nat) (inb : ∀ a, (![0, o] : Fin 2 → Nat) a + S512x256.size a ≤ S512x2048.size a), o ≤ col.val → col.val < o + 256 →
      (ix2 t col : S512x2048.Idx) ∈ (Rect.unit (s := S512x2048) ![0, o] S512x256.size inb).set := by
    intro o inb h1 h2
    refine Rect.mem_set_unit.mpr fun a => ?_
    match a with
    | ⟨0, _⟩ => exact ⟨Nat.zero_le _, by show t.val < 0 + 512; omega⟩
    | ⟨1, _⟩ => exact ⟨h1, by show col.val < o + 256; omega⟩
  rcases (show col.val / 256 = 0 ∨ col.val / 256 = 1 ∨ col.val / 256 = 2 ∨ col.val / 256 = 3 ∨ col.val / 256 = 4 ∨ col.val / 256 = 5 ∨ col.val / 256 = 6 ∨ col.val / 256 = 7 by omega) with h | h | h | h | h | h | h | h
  · exact ⟨_, List.getElem_mem (l := dyPieces (F := Ideal) m ρ c) (n := 7) (by show 7 < 8; omega), mem 0 inb_S512x2048_S512x256_0_0 (by omega) (by omega)⟩
  · exact ⟨_, List.getElem_mem (l := dyPieces (F := Ideal) m ρ c) (n := 6) (by show 6 < 8; omega), mem 256 inb_S512x2048_S512x256_0_256 (by omega) (by omega)⟩
  · exact ⟨_, List.getElem_mem (l := dyPieces (F := Ideal) m ρ c) (n := 5) (by show 5 < 8; omega), mem 512 inb_S512x2048_S512x256_0_512 (by omega) (by omega)⟩
  · exact ⟨_, List.getElem_mem (l := dyPieces (F := Ideal) m ρ c) (n := 4) (by show 4 < 8; omega), mem 768 inb_S512x2048_S512x256_0_768 (by omega) (by omega)⟩
  · exact ⟨_, List.getElem_mem (l := dyPieces (F := Ideal) m ρ c) (n := 3) (by show 3 < 8; omega), mem 1024 inb_S512x2048_S512x256_0_1024 (by omega) (by omega)⟩
  · exact ⟨_, List.getElem_mem (l := dyPieces (F := Ideal) m ρ c) (n := 2) (by show 2 < 8; omega), mem 1280 inb_S512x2048_S512x256_0_1280 (by omega) (by omega)⟩
  · exact ⟨_, List.getElem_mem (l := dyPieces (F := Ideal) m ρ c) (n := 1) (by show 1 < 8; omega), mem 1536 inb_S512x2048_S512x256_0_1536 (by omega) (by omega)⟩
  · exact ⟨_, List.getElem_mem (l := dyPieces (F := Ideal) m ρ c) (n := 0) (by show 0 < 8; omega), mem 1792 inb_S512x2048_S512x256_0_1792 (by omega) (by omega)⟩

/-- The narrowed second block read back whole: the second block. -/
theorem dyAll_apply (c : Dev nD) (t : Fin 512) (col : Fin 2048) :
    dyAll (F := Ideal) m ρ c (ix2 t col) = mDY m c (ix2 t col) := by
  unfold dyAll View.readCov
  rw [View.readAt_apply]
  have e : (Rect.unit (s := S512x2048) ![0, 0] S512x2048.size inb_S512x2048_S512x2048_0_0).toLoadRect.idx (ix2 t col) = ix2 t col :=
    Shape.idx_ext₂ (by show 0 + 1 * t.val = t.val; omega) (by show 0 + 1 * col.val = col.val; omega)
  rw [e]
  exact View.read_writes_apply_of_pieces (Val := Elt Ideal) dybM.view dybM.view.junk (dyG m c) (dyPieces (F := Ideal) m ρ c) (dyPieces_agree m ρ c) (ix2 t col) (dyPieces_cover m ρ c t col)

/-! ## The local product -/

/-- The local product at `(ρ', col)`: the half-contraction of the device's own blocks at column `256 (c / 2) + ρ'` of the
    first and column `col` of the second. -/
theorem accV_apply (c : Dev nD) (ρ' : Fin 256) (col : Fin 2048) (i : Fin 512) (hi : i.val = 256 * (c.val / 2) + ρ'.val) :
    accV (F := Ideal) m ρ c (ix2 ρ' col) = halfSum (mX m c) (mDY m c) i col := by
  unfold accV
  refine (pay18_apply _ _ ρ' col).trans ?_
  refine Finset.sum_congr rfl fun t _ => ?_
  rw [dyAll_apply]
  refine congrArg (· * mDY m c (ix2 t col)) ?_
  show xstg (F := Ideal) m ρ c ((Rect.unit (s := S512x512) (k0_off2 c) S512x256.size (k0_off2_inb c)).toLoadRect.idx (ix2 t ρ')) = _
  rw [xstg_eq]
  refine congrArg (m ((c : Thread nD τ).loc main_arg0)) (Shape.idx_ext₂ ?_ ?_)
  · show k0_off2 c 0 + 1 * t.val = t.val
    rw [k0_off2_eq]; simp
  · show k0_off2 c 1 + 1 * ρ'.val = i.val
    rw [k0_off2_eq, hi]; simp

/-- A load of a box of the local product's buffer, once the product is stored whole, reads the product there. -/
theorem accRows_apply (c : Dev nD) (R : Rect S256x2048) (x : R.shape.Idx) :
    accRows (F := Ideal) m ρ c R x = accV (F := Ideal) m ρ c (R.toLoadRect.idx x) := by
  unfold accRows View.readCov
  rw [View.readAt_apply]
  have h := View.read_writes_cons_emb (Val := Elt Ideal) accM.view accM.view.junk (Rect.unit (s := S256x2048) ![0, 0] S256x2048.size inb_S256x2048_S256x2048_0_0)
    (accV (F := Ideal) m ρ c) [] (R.toLoadRect.idx x)
  have e : (Rect.unit (s := S256x2048) ![0, 0] S256x2048.size inb_S256x2048_S256x2048_0_0).emb (R.toLoadRect.idx x) = R.toLoadRect.idx x :=
    funext fun a => Fin.ext (by
      rw [Rect.emb_apply]
      match a with
      | ⟨0, _⟩ => show 0 + 1 * _ = _; omega
      | ⟨1, _⟩ => show 0 + 1 * _ = _; omega)
  rw [e] at h
  exact h

/-! ## The mesh: where the two senders of a device sit -/

theorem xn_div (c : Dev nD) : (xn c).val / 2 = 1 - c.val / 2 := by revert c; decide
theorem xn_mod (c : Dev nD) : (xn c).val % 2 = c.val % 2 := by revert c; decide
theorem xnyn_div (c : Dev nD) : (xn (yn c)).val / 2 = 1 - c.val / 2 := by revert c; decide
theorem xnyn_mod (c : Dev nD) : (xn (yn c)).val % 2 = 1 - c.val % 2 := by revert c; decide

/-! ## A box of the result block

  A box at rows `[o, o + 128)` and column chunk `k` holds the local product's rows there plus send chunk `k` of a device
  `s` of the other mesh row whose send columns are exactly the result rows `256 (c / 2) + o + r`: the own half of the
  contraction plus the other half. -/

section Box

variable (X : Buf (Elt Ideal) (((0 : Dev Cert.ReferenceIdeal.nD).tc : Thread Cert.ReferenceIdeal.nD Cert.ReferenceIdeal.τ).loc Cert.ReferenceIdeal.main_arg0))
  (DY : Buf (Elt Ideal) (((0 : Dev Cert.ReferenceIdeal.nD).tc : Thread Cert.ReferenceIdeal.nD Cert.ReferenceIdeal.τ).loc Cert.ReferenceIdeal.main_arg1))
  (hX : ∀ c : Dev nD, m ((c.tc : Thread nD τ).loc main_arg0) = Layout.blockN ⟨2, ![512, 512]⟩ ⟨2, ![1024, 512]⟩ (Layout.meshBlock [2, 2] ![[0], []] c) X)
  (hDY : ∀ c : Dev nD, m ((c.tc : Thread nD τ).loc main_arg1) = Layout.blockN ⟨2, ![512, 2048]⟩ ⟨2, ![1024, 2048]⟩ (Layout.meshBlock [2, 2] ![[0], []] c) DY)

/-- Device `c`'s block of the reference's result. -/
def outG (c : Dev nD) : S256x2048.Idx → Elt Ideal .bf16 :=
  Layout.blockN ⟨2, ![256, 2048]⟩ ⟨2, ![512, 2048]⟩ (Layout.meshBlock [2, 2] ![[0], []] c) (refG X DY)

include hX hDY in
theorem box_value (c s : Dev nD) (k : Fin 8) (o : Nat) (ho : o + 128 ≤ 256) (hs : s.val / 2 = 1 - c.val / 2)
    (hso : 128 * (s.val % 2) + 256 - 256 * (s.val / 2) = 256 * (c.val / 2) + o)
    (off : Fin 2 → Nat) (inb : ∀ a, off a + S128x256.size a ≤ S256x2048.size a) (h0 : off 0 = o) (h1 : off 1 = 256 * k.val)
    (r : Fin 128) (j : Fin 256) :
    accRows (F := Ideal) m ρ c (Rect.unit (s := S256x2048) off S128x256.size inb) (ix2 r j) + sendW (F := Ideal) m ρ s k (ix3 0 r j)
      = outG X DY c ((Rect.unit (s := S256x2048) off S128x256.size inb).emb (ix2 r j)) := by
  have hc : c.val < 4 := c.isLt
  have hk := k.isLt
  have hr := r.isLt
  have hj := j.isLt
  let ρ' : Fin 256 := ⟨o + r.val, by omega⟩
  let col : Fin 2048 := ⟨256 * k.val + j.val, by omega⟩
  let i : Fin 512 := ⟨256 * (c.val / 2) + ρ'.val, by have := ρ'.isLt; omega⟩
  have hy : (Rect.unit (s := S256x2048) off S128x256.size inb).emb (ix2 r j) = ix2 ρ' col :=
    Shape.idx_ext₂ (by show off 0 + 1 * r.val = o + r.val; omega) (by show off 1 + 1 * j.val = 256 * k.val + j.val; omega)
  have hyi : (Rect.unit (s := S256x2048) off S128x256.size inb).toLoadRect.idx (ix2 r j) = ix2 ρ' col := hy
  have hA := accV_apply m ρ c ρ' col i rfl
  have hS := sendW_apply m ρ s k r j i col (by show 256 * (c.val / 2) + (o + r.val) = _; omega) rfl
  have hH := result_block_halves X DY c s hs ρ' col
  rw [accRows_apply, hyi, hy, hA, hS]
  refine Eq.trans ?_ hH.symm
  simp only [halfSum, mX, mDY, hX, hDY]
  rfl

include hX hDY in
theorem box_agree (c s : Dev nD) (k : Fin 8) (o : Nat) (ho : o + 128 ≤ 256) (hs : s.val / 2 = 1 - c.val / 2)
    (hso : 128 * (s.val % 2) + 256 - 256 * (s.val / 2) = 256 * (c.val / 2) + o)
    (off : Fin 2 → Nat) (inb : ∀ a, off a + S128x256.size a ≤ S256x2048.size a) (h0 : off 0 = o) (h1 : off 1 = 256 * k.val)
    (w : (Rect.unit (s := S256x2048) off S128x256.size inb).shape.Idx → Elt Ideal .bf16)
    (hw : ∀ (r : Fin 128) (j : Fin 256), w (ix2 r j)
      = accRows (F := Ideal) m ρ c (Rect.unit (s := S256x2048) off S128x256.size inb) (ix2 r j) + sendW (F := Ideal) m ρ s k (ix3 0 r j)) :
    ∀ x : (Rect.unit (s := S256x2048) off S128x256.size inb).shape.Idx,
      w x = outG X DY c ((Rect.unit (s := S256x2048) off S128x256.size inb).emb x) := by
  intro x
  obtain ⟨r, j, rfl⟩ : ∃ (r : Fin 128) (j : Fin 256), x = ix2 r j := ⟨x 0, x 1, eq_ix2 x⟩
  rw [hw]
  exact box_value m ρ X DY hX hDY c s k o ho hs hso off inb h0 h1 r j

include hX hDY in
theorem outPieces_agree (c : Dev nD) : ∀ p ∈ outPieces (F := Ideal) m ρ c, Agrees (outG X DY c) p := by
  have hc : c.val < 4 := c.isLt
  have hm : c.val % 2 < 2 := Nat.mod_lt _ (by decide)
  have s1 : 128 * ((xn c).val % 2) + 256 - 256 * ((xn c).val / 2) = 256 * (c.val / 2) + 128 * (c.val % 2) := by
    rw [xn_mod, xn_div]; omega
  have s2 : 128 * ((xn (yn c)).val % 2) + 256 - 256 * ((xn (yn c)).val / 2) = 256 * (c.val / 2) + (128 - 128 * (c.val % 2)) := by
    rw [xnyn_mod, xnyn_div]; omega
  exact
  (agree_cons (agrees_mk _ _ _ (box_agree m ρ X DY hX hDY c (xn (yn c)) 7 (128 - 128 * (c.val % 2)) (by omega) (xnyn_div c) s2 (k0_off18 c) (k0_off18_inb c) (by rw [k0_off18_eq]; rfl) (by rw [k0_off18_eq]; rfl) _ fun r j => pay34_apply _ _ r j))
  (agree_cons (agrees_mk _ _ _ (box_agree m ρ X DY hX hDY c (xn (yn c)) 6 (128 - 128 * (c.val % 2)) (by omega) (xnyn_div c) s2 (k0_off17 c) (k0_off17_inb c) (by rw [k0_off17_eq]; rfl) (by rw [k0_off17_eq]; rfl) _ fun r j => pay33_apply _ _ r j))
  (agree_cons (agrees_mk _ _ _ (box_agree m ρ X DY hX hDY c (xn (yn c)) 5 (128 - 128 * (c.val % 2)) (by omega) (xnyn_div c) s2 (k0_off16 c) (k0_off16_inb c) (by rw [k0_off16_eq]; rfl) (by rw [k0_off16_eq]; rfl) _ fun r j => pay32_apply _ _ r j))
  (agree_cons (agrees_mk _ _ _ (box_agree m ρ X DY hX hDY c (xn (yn c)) 4 (128 - 128 * (c.val % 2)) (by omega) (xnyn_div c) s2 (k0_off15 c) (k0_off15_inb c) (by rw [k0_off15_eq]; rfl) (by rw [k0_off15_eq]; rfl) _ fun r j => pay31_apply _ _ r j))
  (agree_cons (agrees_mk _ _ _ (box_agree m ρ X DY hX hDY c (xn (yn c)) 3 (128 - 128 * (c.val % 2)) (by omega) (xnyn_div c) s2 (k0_off14 c) (k0_off14_inb c) (by rw [k0_off14_eq]; rfl) (by rw [k0_off14_eq]; rfl) _ fun r j => pay30_apply _ _ r j))
  (agree_cons (agrees_mk _ _ _ (box_agree m ρ X DY hX hDY c (xn (yn c)) 2 (128 - 128 * (c.val % 2)) (by omega) (xnyn_div c) s2 (k0_off13 c) (k0_off13_inb c) (by rw [k0_off13_eq]; rfl) (by rw [k0_off13_eq]; rfl) _ fun r j => pay29_apply _ _ r j))
  (agree_cons (agrees_mk _ _ _ (box_agree m ρ X DY hX hDY c (xn (yn c)) 1 (128 - 128 * (c.val % 2)) (by omega) (xnyn_div c) s2 (k0_off12 c) (k0_off12_inb c) (by rw [k0_off12_eq]; rfl) (by rw [k0_off12_eq]; rfl) _ fun r j => pay28_apply _ _ r j))
  (agree_cons (agrees_mk _ _ _ (box_agree m ρ X DY hX hDY c (xn (yn c)) 0 (128 - 128 * (c.val % 2)) (by omega) (xnyn_div c) s2 (k0_off11 c) (k0_off11_inb c) (by rw [k0_off11_eq]; rfl) (by rw [k0_off11_eq]; rfl) _ fun r j => pay27_apply _ _ r j))
  (agree_cons (agrees_mk _ _ _ (box_agree m ρ X DY hX hDY c (xn c) 7 (128 * (c.val % 2)) (by omega) (xn_div c) s1 (k0_off10 c) (k0_off10_inb c) (by rw [k0_off10_eq]; rfl) (by rw [k0_off10_eq]; rfl) _ fun r j => pay26_apply _ _ r j))
  (agree_cons (agrees_mk _ _ _ (box_agree m ρ X DY hX hDY c (xn c) 6 (128 * (c.val % 2)) (by omega) (xn_div c) s1 (k0_off9 c) (k0_off9_inb c) (by rw [k0_off9_eq]; rfl) (by rw [k0_off9_eq]; rfl) _ fun r j => pay25_apply _ _ r j))
  (agree_cons (agrees_mk _ _ _ (box_agree m ρ X DY hX hDY c (xn c) 5 (128 * (c.val % 2)) (by omega) (xn_div c) s1 (k0_off8 c) (k0_off8_inb c) (by rw [k0_off8_eq]; rfl) (by rw [k0_off8_eq]; rfl) _ fun r j => pay24_apply _ _ r j))
  (agree_cons (agrees_mk _ _ _ (box_agree m ρ X DY hX hDY c (xn c) 4 (128 * (c.val % 2)) (by omega) (xn_div c) s1 (k0_off7 c) (k0_off7_inb c) (by rw [k0_off7_eq]; rfl) (by rw [k0_off7_eq]; rfl) _ fun r j => pay23_apply _ _ r j))
  (agree_cons (agrees_mk _ _ _ (box_agree m ρ X DY hX hDY c (xn c) 3 (128 * (c.val % 2)) (by omega) (xn_div c) s1 (k0_off6 c) (k0_off6_inb c) (by rw [k0_off6_eq]; rfl) (by rw [k0_off6_eq]; rfl) _ fun r j => pay22_apply _ _ r j))
  (agree_cons (agrees_mk _ _ _ (box_agree m ρ X DY hX hDY c (xn c) 2 (128 * (c.val % 2)) (by omega) (xn_div c) s1 (k0_off5 c) (k0_off5_inb c) (by rw [k0_off5_eq]; rfl) (by rw [k0_off5_eq]; rfl) _ fun r j => pay21_apply _ _ r j))
  (agree_cons (agrees_mk _ _ _ (box_agree m ρ X DY hX hDY c (xn c) 1 (128 * (c.val % 2)) (by omega) (xn_div c) s1 (k0_off4 c) (k0_off4_inb c) (by rw [k0_off4_eq]; rfl) (by rw [k0_off4_eq]; rfl) _ fun r j => pay20_apply _ _ r j))
  (agree_cons (agrees_mk _ _ _ (box_agree m ρ X DY hX hDY c (xn c) 0 (128 * (c.val % 2)) (by omega) (xn_div c) s1 (k0_off3 c) (k0_off3_inb c) (by rw [k0_off3_eq]; rfl) (by rw [k0_off3_eq]; rfl) _ fun r j => pay19_apply _ _ r j))
  (agree_nil _)))))))))))))))))

include hX hDY in
/-- The result block at an index: every index lies in one of the sixteen boxes, and every box agrees with `outG`. -/
theorem outAt_apply (c : Dev nD) (y : S256x2048.Idx) : outAt (F := Ideal) m ρ c y = outG X DY c y := by
  have h := View.read_writes_apply_of_pieces (Val := Elt Ideal) (View.whole cc0_stg2_0) (View.whole cc0_stg2_0).junk (outG X DY c)
    (outPieces (F := Ideal) m ρ c) (outPieces_agree m ρ X DY hX hDY c) y (out_cover m ρ c y)
  rw [View.read_whole] at h
  exact h

end Box

/-- What the sixteen stores leave in device `c`'s result block is its block of the reference's result. -/
theorem out_block (m : (ℓ : Loc Cert.KernelIdeal.nD Cert.KernelIdeal.τ Cert.KernelIdeal.sig) → Buf (Elt Ideal) ℓ) (ρ : Dev Cert.KernelIdeal.nD → PrngReg)
    (X : Buf (Elt Ideal) (((0 : Dev Cert.ReferenceIdeal.nD).tc : Thread Cert.ReferenceIdeal.nD Cert.ReferenceIdeal.τ).loc Cert.ReferenceIdeal.main_arg0))
    (DY : Buf (Elt Ideal) (((0 : Dev Cert.ReferenceIdeal.nD).tc : Thread Cert.ReferenceIdeal.nD Cert.ReferenceIdeal.τ).loc Cert.ReferenceIdeal.main_arg1))
    (hX : ∀ c : Dev Cert.KernelIdeal.nD, m ((c.tc : Thread Cert.KernelIdeal.nD Cert.KernelIdeal.τ).loc Cert.KernelIdeal.main_arg0) = Layout.blockN ⟨2, ![512, 512]⟩ ⟨2, ![1024, 512]⟩ (Layout.meshBlock [2, 2] ![[0], []] c) X)
    (hDY : ∀ c : Dev Cert.KernelIdeal.nD, m ((c.tc : Thread Cert.KernelIdeal.nD Cert.KernelIdeal.τ).loc Cert.KernelIdeal.main_arg1) = Layout.blockN ⟨2, ![512, 2048]⟩ ⟨2, ![1024, 2048]⟩ (Layout.meshBlock [2, 2] ![[0], []] c) DY)
    (c : Dev Cert.KernelIdeal.nD) :
    Cert.KernelIdealProof.outAt (F := Ideal) m ρ c = Layout.blockN ⟨2, ![256, 2048]⟩ ⟨2, ![512, 2048]⟩ (Layout.meshBlock [2, 2] ![[0], []] c) (Cert.KernelIdealValue.refG X DY) :=
  funext fun y => outAt_apply m ρ X DY hX hDY c y

/-- info: 'Cert.KernelIdealValue.out_block' depends on axioms: [propext, Classical.choice, Quot.sound] -/
#guard_msgs in #print axioms out_block

end Cert.KernelIdealValue
end
-- ==== Proof.lean ====
/-
  The five conjuncts of the claim.

  * The kernel's frame at the word level and at the ideal level: on each, every device's body meets its obligation, so the
    launch gives the run of the whole program on the four devices with the two operand arrays of every device unchanged.
  * The reference's frame: its program is a straight line of host operations on one device; its run leaves both arguments
    unchanged.
  * The idealization rewrote no operation: nothing to preserve.
  * The algebraic conjunct, at the ideal level: the reference's run ends with its result array at `refG` of its two argument
    arrays, the sum over the 1024 rows of the products of their columns; the kernel's run ends with each device's result
    array at its result block, and when every device's operand arrays are its blocks of the reference's arguments that
    result block is the device's block of `refG` of them: 256 rows of the 512, those of the device's mesh row.
-/
import proofs.«900592_g7700000000000593_dist_rsdw_v7x_xy2x2_x_m512_d512_f2048_bf16_1_alg».proof.Defs
import proofs.«900592_g7700000000000593_dist_rsdw_v7x_xy2x2_x_m512_d512_f2048_bf16_1_alg».proof.Proof.Gen.Kernel
import proofs.«900592_g7700000000000593_dist_rsdw_v7x_xy2x2_x_m512_d512_f2048_bf16_1_alg».proof.Proof.Gen.Kernel.Skeleton
import proofs.«900592_g7700000000000593_dist_rsdw_v7x_xy2x2_x_m512_d512_f2048_bf16_1_alg».proof.Proof.Gen.Kernel.Launch
import proofs.«900592_g7700000000000593_dist_rsdw_v7x_xy2x2_x_m512_d512_f2048_bf16_1_alg».proof.Proof.Gen.Kernel.Points
import proofs.«900592_g7700000000000593_dist_rsdw_v7x_xy2x2_x_m512_d512_f2048_bf16_1_alg».proof.Proof.Gen.Kernel.Frame
import proofs.«900592_g7700000000000593_dist_rsdw_v7x_xy2x2_x_m512_d512_f2048_bf16_1_alg».proof.Proof.Gen.KernelIdeal
import proofs.«900592_g7700000000000593_dist_rsdw_v7x_xy2x2_x_m512_d512_f2048_bf16_1_alg».proof.Proof.Gen.KernelIdeal.Skeleton
import proofs.«900592_g7700000000000593_dist_rsdw_v7x_xy2x2_x_m512_d512_f2048_bf16_1_alg».proof.Proof.Gen.KernelIdeal.Launch
import proofs.«900592_g7700000000000593_dist_rsdw_v7x_xy2x2_x_m512_d512_f2048_bf16_1_alg».proof.Proof.Gen.KernelIdeal.Points
import proofs.«900592_g7700000000000593_dist_rsdw_v7x_xy2x2_x_m512_d512_f2048_bf16_1_alg».proof.Proof.Gen.KernelIdeal.Frame
import proofs.«900592_g7700000000000593_dist_rsdw_v7x_xy2x2_x_m512_d512_f2048_bf16_1_alg».proof.Proof.Gen.ReferenceIdeal
import proofs.«900592_g7700000000000593_dist_rsdw_v7x_xy2x2_x_m512_d512_f2048_bf16_1_alg».proof.Proof.Gen.Pre_finite_inputs_Kernel
import proofs.«900592_g7700000000000593_dist_rsdw_v7x_xy2x2_x_m512_d512_f2048_bf16_1_alg».proof.Proof.Gen.Pre_finite_inputs_ReferenceIdeal
import proofs.«900592_g7700000000000593_dist_rsdw_v7x_xy2x2_x_m512_d512_f2048_bf16_1_alg».proof.Proof.Runs
import proofs.«900592_g7700000000000593_dist_rsdw_v7x_xy2x2_x_m512_d512_f2048_bf16_1_alg».proof.Proof.Body
import proofs.«900592_g7700000000000593_dist_rsdw_v7x_xy2x2_x_m512_d512_f2048_bf16_1_alg».proof.Proof.Bits.Runs
import proofs.«900592_g7700000000000593_dist_rsdw_v7x_xy2x2_x_m512_d512_f2048_bf16_1_alg».proof.Proof.Bits.Body
import proofs.«900592_g7700000000000593_dist_rsdw_v7x_xy2x2_x_m512_d512_f2048_bf16_1_alg».proof.Proof.RefFrame
import proofs.«900592_g7700000000000593_dist_rsdw_v7x_xy2x2_x_m512_d512_f2048_bf16_1_alg».proof.Proof.Value.Reference
import proofs.«900592_g7700000000000593_dist_rsdw_v7x_xy2x2_x_m512_d512_f2048_bf16_1_alg».proof.Proof.Value.Join
import Idealize.ShloMosaic.Adequacy
import Idealize.ShloMosaic.Init

noncomputable section

namespace Cert.Proof

open Idealize.ShloMosaic Idealize.SL.Sem

/-- The word-level kernel runs and leaves its operand arrays unchanged. -/
theorem frame_k : Cert.frame_Kernel := fun m ρ _ =>
  Cert.KernelProof.frame_of_body m ρ (Cert.KernelProof.body_obligation m ρ)

/-- So does the kernel at the ideal level. -/
theorem frame_ki : Cert.frame_KernelIdeal := fun m ρ _ =>
  Cert.KernelIdealProof.frame_of_body m ρ (Cert.KernelIdealProof.body_obligation m ρ)

/-- At the ideal level, from memories where every device's operand arrays are its blocks of the reference's arguments, each
    device's result array ends as its block of the reference's result. -/
theorem algebraic : Cert.algebraic_KernelIdeal_ReferenceIdeal := fun m ρ m' ρ' _ hagree =>
  ⟨Cert.KernelIdealValue.refG (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
        ⟨(h c).1.trans (Cert.KernelIdealValue.out_block m ρ _ _ (fun c => (hagree c).1) (fun c => (hagree c).2) c), (h c).2⟩)
      (Cert.KernelIdealProof.run_named m ρ (Cert.KernelIdealProof.body_obligation m ρ)),
    (θ_run Cert.ReferenceIdeal.defs _ _).mono (fun _ h => h 0) (Cert.KernelIdealValue.ref_run m' ρ')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.ReferenceProof.frame_ri, trivial, algebraic⟩

end Cert.Proof

end
